-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v136)) (v1 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_v81) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x128 : Shape := ⟨2, ![400000, 128]⟩
abbrev S2x800000 : Shape := ⟨2, ![2, 800000]⟩
abbrev S256x128 : Shape := ⟨2, ![256, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  reducesTo_S_S_d : S_.ReducesTo [] S_

variable [Facts]

def fn_part5 {F : FTy → Type} [FloatOps F] (main_arg19 : FVec F S_ .f32) (main_v83 : IVec S_ 1) (main_v84 : FVec F S_ .f32) (main_cst_32 : FVec F S_ .f32) : IVec S_ 1 :=
  let main_v85 : IVec S_ 1 := cmpf .olt main_v84 main_cst_32
  let main_c_33 : IVec S_ 1 := constantI S_ 1 1#1
  let main_v86 : IVec S_ 1 := (fun x v => Host.reduce IntOp.andi x v reducesTo_S_S_d h_S_) main_v85 main_c_33
  let main_v87 : IVec S_ 1 := andi main_v83 main_v86
  let main_v88 : FVec F S_ .f32 := Host.absf main_arg19
  let main_cst_34 : FVec F S_ .f32 := constant S_ .f32 0x7F800000#32
  let main_v89 : IVec S_ 1 := cmpf .olt main_v88 main_cst_34
  let main_c_35 : IVec S_ 1 := constantI S_ 1 1#1
  let main_v90 : IVec S_ 1 := (fun x v => Host.reduce IntOp.andi x v reducesTo_S_S_d h_S_) main_v89 main_c_35
  let main_v91 : IVec S_ 1 := andi main_v87 main_v90
  main_v91

def fn_part4 {F : FTy → Type} [FloatOps F] (main_arg15 : FVec F S256x128 .f32) (main_arg16 : FVec F S128 .f32) (main_arg17 : FVec F S128 .f32) (main_arg18 : FVec F S_ .f32) (main_arg19 : FVec F S_ .f32) (main_v63 : IVec S_ 1) (main_v67 : IVec S_ 1) : IVec S_ 1 :=
  let main_v68 : IVec S_ 1 := andi main_v63 main_v67
  let main_v69 : FVec F S256x128 .f32 := Host.absf main_arg15
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S_ .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128x256 .f32) (main_arg13 : FVec F S256 .f32) (main_arg14 : FVec F S256 .f32) (main_arg15 : FVec F S256x128 .f32) (main_arg16 : FVec F S128 .f32) (main_arg17 : FVec F S128 .f32) (main_arg18 : FVec F S_ .f32) (main_arg19 : FVec F S_ .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_v63 main_v67

def fn_part2 {F : FTy → Type} [FloatOps F] (main_arg8 : FVec F S256 .f32) (main_arg9 : FVec F S256x128 .f32) (main_arg10 : FVec F S128 .f32) (main_arg11 : FVec F S128 .f32) (main_arg12 : FVec F S128x256 .f32) (main_arg13 : FVec F S256 .f32) (main_arg14 : FVec F S256 .f32) (main_arg15 : FVec F S256x128 .f32) (main_arg16 : FVec F S128 .f32) (main_arg17 : FVec F S128 .f32) (main_arg18 : FVec F S_ .f32) (main_arg19 : FVec F S_ .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128x256 .f32) (main_arg7 : FVec F S256 .f32) (main_arg8 : FVec F S256 .f32) (main_arg9 : FVec F S256x128 .f32) (main_arg10 : FVec F S128 .f32) (main_arg11 : FVec F S128 .f32) (main_arg12 : FVec F S128x256 .f32) (main_arg13 : FVec F S256 .f32) (main_arg14 : FVec F S256 .f32) (main_arg15 : FVec F S256x128 .f32) (main_arg16 : FVec F S128 .f32) (main_arg17 : FVec F S128 .f32) (main_arg18 : FVec F S_ .f32) (main_arg19 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S50000x128 .f32) (main_arg1 : FVec F S400000x128 .f32) (main_arg2 : IVec S2x800000 32) (main_arg3 : FVec F S256x128 .f32) (main_arg4 : FVec F S128 .f32) (main_arg5 : FVec F S128 .f32) (main_arg6 : FVec F S128x256 .f32) (main_arg7 : FVec F S256 .f32) (main_arg8 : FVec F S256 .f32) (main_arg9 : FVec F S256x128 .f32) (main_arg10 : FVec F S128 .f32) (main_arg11 : FVec F S128 .f32) (main_arg12 : FVec F S128x256 .f32) (main_arg13 : FVec F S256 .f32) (main_arg14 : FVec F S256 .f32) (main_arg15 : FVec F S256x128 .f32) (main_arg16 : FVec F S128 .f32) (main_arg17 : FVec F S128 .f32) (main_arg18 : FVec F S_ .f32) (main_arg19 : FVec F S_ .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S400000x128 : Shape := ⟨2, ![400000, 128]⟩
abbrev S2x800000 : Shape := ⟨2, ![2, 800000]⟩
abbrev S256x128 : Shape := ⟨2, ![256, 128]⟩
abbrev S128 : Shape := ⟨1, ![128]⟩
abbrev S128x256 : Shape := ⟨2, ![128, 256]⟩
abbrev S256 : Shape := ⟨1, ![256]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S128x128 : Shape := ⟨2, ![128, 128]⟩
abbrev S1x1 : Shape := ⟨2, ![1, 1]⟩
abbrev S80x2x128 : Shape := ⟨3, ![80, 2, 128]⟩
abbrev S400000x256 : Shape := ⟨2, ![400000, 256]⟩
abbrev S80x2x256 : Shape := ⟨3, ![80, 2, 256]⟩
abbrev S5000x128 : Shape := ⟨2, ![5000, 128]⟩
abbrev S1x2x128 : Shape := ⟨3, ![1, 2, 128]⟩
abbrev S5000x256 : Shape := ⟨2, ![5000, 256]⟩
abbrev S1x2x256 : Shape := ⟨3, ![1, 2, 256]⟩
abbrev S1x128 : Shape := ⟨2, ![1, 128]⟩
abbrev S2x128 : Shape := ⟨2, ![2, 128]⟩
abbrev S1x256 : Shape := ⟨2, ![1, 256]⟩
abbrev S2x256 : Shape := ⟨2, ![2, 256]⟩
abbrev S10000x128 : Shape := ⟨2, ![10000, 128]⟩
abbrev S50000x256 : Shape := ⟨2, ![50000, 256]⟩
abbrev S10x2x256 : Shape := ⟨3, ![10, 2, 256]⟩
abbrev S10x2x128 : Shape := ⟨3, ![10, 2, 128]⟩

abbrev nBuf : Space → Nat
  | .hbm => 196
  | .vmem => 72
  | .smem => 0
  | _ => 0

abbrev hbmTy0_0 (i : Nat) : BufTy := match i % 128 with
  | 0 => ⟨S50000x128, .f32⟩
  | 1 => ⟨S400000x128, .f32⟩
  | 2 => ⟨S2x800000, .i32⟩
  | 3 => ⟨S256x128, .f32⟩
  | 4 => ⟨S128, .f32⟩
  | 5 => ⟨S128, .f32⟩
  | 6 => ⟨S128x256, .f32⟩
  | 7 => ⟨S256, .f32⟩
  | 8 => ⟨S256, .f32⟩
  | 9 => ⟨S256x128, .f32⟩
  | 10 => ⟨S128, .f32⟩
  | 11 => ⟨S128, .f32⟩
  | 12 => ⟨S128x256, .f32⟩
  | 13 => ⟨S256, .f32⟩
  | 14 => ⟨S256, .f32⟩
  | 15 => ⟨S256x128, .f32⟩
  | 16 => ⟨S128, .f32⟩
  | 17 => ⟨S128, .f32⟩
  | 18 => ⟨S_, .f32⟩
  | 19 => ⟨S_, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S400000x128, .f32⟩
  | 35 => ⟨S800000x1, .i32⟩
  | 36 => ⟨S400000x128, .f32⟩
  | 37 => ⟨S128x128, .f32⟩
  | 38 => ⟨S128x128, .f32⟩
  | 39 => ⟨S_, .f32⟩
  | 40 => ⟨S_, .f32⟩
  | 41 => ⟨S1x1, .f32⟩
  | 42 => ⟨S400000x128, .bf16⟩
  | 43 => ⟨S80x2x128, .f32⟩
  | 44 => ⟨S400000x256, .bf16⟩
  | 45 => ⟨S80x2x256, .f32⟩
  | 46 => ⟨S_, .f32⟩
  | 47 => ⟨S2x128, .f32⟩
  | 48 => ⟨S1x128, .f32⟩
  | 49 => ⟨S128, .f32⟩
  | 50 => ⟨S_, .f32⟩
  | 51 => ⟨S128, .f32⟩
  | 52 => ⟨S128, .f32⟩
  | 53 => ⟨S1x128, .f32⟩
  | 54 => ⟨S128, .f32⟩
  | 55 => ⟨S_, .f32⟩
  | 56 => ⟨S128, .f32⟩
  | 57 => ⟨S128, .f32⟩
  | 58 => ⟨S128, .f32⟩
  | 59 => ⟨S128, .f32⟩
  | 60 => ⟨S_, .f32⟩
  | 61 => ⟨S128, .f32⟩
  | 62 => ⟨S128, .f32⟩
  | 63 => ⟨S_, .f32⟩
  | 64 => ⟨S128, .f32⟩
  | 65 => ⟨S128, .f32⟩
  | 66 => ⟨S128, .f32⟩
  | 67 => ⟨S1x128, .f32⟩
  | 68 => ⟨S1x128, .f32⟩
  | 69 => ⟨S1x128, .f32⟩
  | 70 => ⟨S1x128, .f32⟩
  | 71 => ⟨S400000x128, .f32⟩
  | 72 => ⟨S_, .f32⟩
  | 73 => ⟨S2x256, .f32⟩
  | 74 => ⟨S1x256, .f32⟩
  | 75 => ⟨S256, .f32⟩
  | 76 => ⟨S_, .f32⟩
  | 77 => ⟨S256, .f32⟩
  | 78 => ⟨S256, .f32⟩
  | 79 => ⟨S1x256, .f32⟩
  | 80 => ⟨S256, .f32⟩
  | 81 => ⟨S_, .f32⟩
  | 82 => ⟨S256, .f32⟩
  | 83 => ⟨S256, .f32⟩
  | 84 => ⟨S256, .f32⟩
  | 85 => ⟨S256, .f32⟩
  | 86 => ⟨S_, .f32⟩
  | 87 => ⟨S256, .f32⟩
  | 88 => ⟨S256, .f32⟩
  | 89 => ⟨S_, .f32⟩
  | 90 => ⟨S256, .f32⟩
  | 91 => ⟨S256, .f32⟩
  | 92 => ⟨S256, .f32⟩
  | 93 => ⟨S1x256, .f32⟩
  | 94 => ⟨S1x256, .f32⟩
  | 95 => ⟨S1x256, .f32⟩
  | 96 => ⟨S1x256, .f32⟩
  | 97 => ⟨S400000x128, .bf16⟩
  | 98 => ⟨S80x2x128, .f32⟩
  | 99 => ⟨S_, .f32⟩
  | 100 => ⟨S2x128, .f32⟩
  | 101 => ⟨S1x128, .f32⟩
  | 102 => ⟨S128, .f32⟩
  | 103 => ⟨S_, .f32⟩
  | 104 => ⟨S128, .f32⟩
  | 105 => ⟨S128, .f32⟩
  | 106 => ⟨S1x128, .f32⟩
  | 107 => ⟨S128, .f32⟩
  | 108 => ⟨S_, .f32⟩
  | 109 => ⟨S128, .f32⟩
  | 110 => ⟨S128, .f32⟩
  | 111 => ⟨S128, .f32⟩
  | 112 => ⟨S128, .f32⟩
  | 113 => ⟨S_, .f32⟩
  | 114 => ⟨S128, .f32⟩
  | 115 => ⟨S128, .f32⟩
  | 116 => ⟨S_, .f32⟩
  | 117 => ⟨S128, .f32⟩
  | 118 => ⟨S128, .f32⟩
  | 119 => ⟨S128, .f32⟩
  | 120 => ⟨S1x128, .f32⟩
  | 121 => ⟨S1x128, .f32⟩
  | 122 => ⟨S1x128, .f32⟩
  | 123 => ⟨S1x128, .f32⟩
  | 124 => ⟨S400000x128, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S_, .f32⟩
  | 11 => ⟨S_, .f32⟩
  | 12 => ⟨S1x1, .f32⟩
  | 13 => ⟨S50000x256, .bf16⟩
  | 14 => ⟨S10x2x256, .f32⟩
  | 15 => ⟨S_, .f32⟩
  | 16 => ⟨S2x256, .f32⟩
  | 17 => ⟨S1x256, .f32⟩
  | 18 => ⟨S256, .f32⟩
  | 19 => ⟨S_, .f32⟩
  | 20 => ⟨S256, .f32⟩
  | 21 => ⟨S256, .f32⟩
  | 22 => ⟨S1x256, .f32⟩
  | 23 => ⟨S256, .f32⟩
  | 24 => ⟨S_, .f32⟩
  | 25 => ⟨S256, .f32⟩
  | 26 => ⟨S256, .f32⟩
  | 27 => ⟨S256, .f32⟩
  | 28 => ⟨S256, .f32⟩
  | 29 => ⟨S_, .f32⟩
  | 30 => ⟨S256, .f32⟩
  | 31 => ⟨S256, .f32⟩
  | 32 => ⟨S_, .f32⟩
  | 33 => ⟨S256, .f32⟩
  | 34 => ⟨S256, .f32⟩
  | 35 => ⟨S256, .f32⟩
  | 36 => ⟨S1x256, .f32⟩
  | 37 => ⟨S1x256, .f32⟩
  | 38 => ⟨S1x256, .f32⟩
  | 39 => ⟨S1x256, .f32⟩
  | 40 => ⟨S50000x128, .bf16⟩
  | 41 => ⟨S10x2x128, .f32⟩
  | 42 => ⟨S_, .f32⟩
  | 43 => ⟨S2x128, .f32⟩
  | 44 => ⟨S1x128, .f32⟩
  | 45 => ⟨S128, .f32⟩
  | 46 => ⟨S_, .f32⟩
  | 47 => ⟨S128, .f32⟩
  | 48 => ⟨S128, .f32⟩
  | 49 => ⟨S1x128, .f32⟩
  | 50 => ⟨S128, .f32⟩
  | 51 => ⟨S_, .f32⟩
  | 52 => ⟨S128, .f32⟩
  | 53 => ⟨S128, .f32⟩
  | 54 => ⟨S128, .f32⟩
  | 55 => ⟨S128, .f32⟩
  | 56 => ⟨S_, .f32⟩
  | 57 => ⟨S128, .f32⟩
  | 58 => ⟨S128, .f32⟩
  | 59 => ⟨S_, .f32⟩
  | 60 => ⟨S128, .f32⟩
  | 61 => ⟨S128, .f32⟩
  | 62 => ⟨S128, .f32⟩
  | 63 => ⟨S1x128, .f32⟩
  | 64 => ⟨S1x128, .f32⟩
  | 65 => ⟨S1x128, .f32⟩
  | 66 => ⟨S1x128, .f32⟩
  | 67 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x1, .f32⟩
  | .local _ .vmem, ⟨7, _⟩ => ⟨S128x256, .f32⟩
  | .local _ .vmem, ⟨8, _⟩ => ⟨S5000x128, .bf16⟩
  | .local _ .vmem, ⟨9, _⟩ => ⟨S5000x128, .bf16⟩
  | .local _ .vmem, ⟨10, _⟩ => ⟨S1x2x128, .f32⟩
  | .local _ .vmem, ⟨11, _⟩ => ⟨S1x2x128, .f32⟩
  | .local _ .vmem, ⟨12, _⟩ => ⟨S5000x256, .bf16⟩
  | .local _ .vmem, ⟨13, _⟩ => ⟨S5000x256, .bf16⟩
  | .local _ .vmem, ⟨14, _⟩ => ⟨S1x2x256, .f32⟩
  | .local _ .vmem, ⟨15, _⟩ => ⟨S1x2x256, .f32⟩
  | .local _ .vmem, ⟨16, _⟩ => ⟨S10000x128, .bf16⟩
  | .local _ .vmem, ⟨17, _⟩ => ⟨S10000x128, .bf16⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S5000x256, .bf16⟩
  | .local _ .vmem, ⟨25, _⟩ => ⟨S5000x256, .bf16⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S256x128, .f32⟩
  | .local _ .vmem, ⟨31, _⟩ => ⟨S5000x128, .bf16⟩
  | .local _ .vmem, ⟨32, _⟩ => ⟨S5000x128, .bf16⟩
  | .local _ .vmem, ⟨33, _⟩ => ⟨S1x2x128, .f32⟩
  | .local _ .vmem, ⟨34, _⟩ => ⟨S1x2x128, .f32⟩
  | .local _ .vmem, ⟨35, _⟩ => ⟨S10000x128, .bf16⟩
  | .local _ .vmem, ⟨36, _⟩ => ⟨S10000x128, .bf16⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S10000x128, .f32⟩
  | .local _ .vmem, ⟨42, _⟩ => ⟨S10000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S1x1, .f32⟩
  | .local _ .vmem, ⟨48, _⟩ => ⟨S128x256, .f32⟩
  | .local _ .vmem, ⟨49, _⟩ => ⟨S5000x256, .bf16⟩
  | .local _ .vmem, ⟨50, _⟩ => ⟨S5000x256, .bf16⟩
  | .local _ .vmem, ⟨51, _⟩ => ⟨S1x2x256, .f32⟩
  | .local _ .vmem, ⟨52, _⟩ => ⟨S1x2x256, .f32⟩
  | .local _ .vmem, ⟨53, _⟩ => ⟨S5000x256, .bf16⟩
  | .local _ .vmem, ⟨54, _⟩ => ⟨S5000x256, .bf16⟩
  | .local _ .vmem, ⟨55, _⟩ => ⟨S1x256, .f32⟩
  | .local _ .vmem, ⟨56, _⟩ => ⟨S1x256, .f32⟩
  | .local _ .vmem, ⟨57, _⟩ => ⟨S1x256, .f32⟩
  | .local _ .vmem, ⟨58, _⟩ => ⟨S1x256, .f32⟩
  | .local _ .vmem, ⟨59, _⟩ => ⟨S256x128, .f32⟩
  | .local _ .vmem, ⟨60, _⟩ => ⟨S5000x128, .bf16⟩
  | .local _ .vmem, ⟨61, _⟩ => ⟨S5000x128, .bf16⟩
  | .local _ .vmem, ⟨62, _⟩ => ⟨S1x2x128, .f32⟩
  | .local _ .vmem, ⟨63, _⟩ => ⟨S1x2x128, .f32⟩
  | .local _ .vmem, ⟨64, _⟩ => ⟨S10000x128, .bf16⟩
  | .local _ .vmem, ⟨65, _⟩ => ⟨S10000x128, .bf16⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S10000x128, .f32⟩
  | .local _ .vmem, ⟨71, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_v18_0 : Ref sig .tc := ⟨.hbm, 42, rfl⟩
abbrev main_v18_1 : Ref sig .tc := ⟨.hbm, 43, rfl⟩
abbrev main_v18_2 : Ref sig .tc := ⟨.hbm, 44, rfl⟩
abbrev main_v18_3 : Ref sig .tc := ⟨.hbm, 45, rfl⟩
abbrev main_cst_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_4 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_5 : Ref sig .tc := ⟨.hbm, 60, rfl⟩
abbrev main_v30 : Ref sig .tc := ⟨.hbm, 61, rfl⟩
abbrev main_v31 : Ref sig .tc := ⟨.hbm, 62, rfl⟩
abbrev main_cst_6 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_7 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_8 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_9 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_10 : Ref sig .tc := ⟨.hbm, 86, rfl⟩
abbrev main_v51 : Ref sig .tc := ⟨.hbm, 87, rfl⟩
abbrev main_v52 : Ref sig .tc := ⟨.hbm, 88, rfl⟩
abbrev main_cst_11 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60_0 : Ref sig .tc := ⟨.hbm, 97, rfl⟩
abbrev main_v60_1 : Ref sig .tc := ⟨.hbm, 98, rfl⟩
abbrev main_cst_12 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_13 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_14 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_15 : Ref sig .tc := ⟨.hbm, 113, rfl⟩
abbrev main_v72 : Ref sig .tc := ⟨.hbm, 114, rfl⟩
abbrev main_v73 : Ref sig .tc := ⟨.hbm, 115, rfl⟩
abbrev main_cst_16 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_c_17 : Ref sig .tc := ⟨.hbm, 125, rfl⟩
abbrev main_v82 : Ref sig .tc := ⟨.hbm, 126, rfl⟩
abbrev main_v83 : Ref sig .tc := ⟨.hbm, 127, rfl⟩
abbrev main_c_18 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_19 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_20 : Ref sig .tc := ⟨.hbm, 138, rfl⟩
abbrev main_v92 : Ref sig .tc := ⟨.hbm, 139, rfl⟩
abbrev main_v93 : Ref sig .tc := ⟨.hbm, 140, rfl⟩
abbrev main_v94_0 : Ref sig .tc := ⟨.hbm, 141, rfl⟩
abbrev main_v94_1 : Ref sig .tc := ⟨.hbm, 142, rfl⟩
abbrev main_cst_21 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_22 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_23 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_24 : Ref sig .tc := ⟨.hbm, 157, rfl⟩
abbrev main_v106 : Ref sig .tc := ⟨.hbm, 158, rfl⟩
abbrev main_v107 : Ref sig .tc := ⟨.hbm, 159, rfl⟩
abbrev main_cst_25 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115_0 : Ref sig .tc := ⟨.hbm, 168, rfl⟩
abbrev main_v115_1 : Ref sig .tc := ⟨.hbm, 169, rfl⟩
abbrev main_cst_26 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_27 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_cst_28 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_cst_29 : Ref sig .tc := ⟨.hbm, 184, rfl⟩
abbrev main_v127 : Ref sig .tc := ⟨.hbm, 185, rfl⟩
abbrev main_v128 : Ref sig .tc := ⟨.hbm, 186, rfl⟩
abbrev main_cst_30 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg7_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg5_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg4_1 : Ref sig .tc := ⟨.vmem, 50, rfl⟩
abbrev cc4_stg5_0 : Ref sig .tc := ⟨.vmem, 51, rfl⟩
abbrev cc4_stg5_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg6_1 : Ref sig .tc := ⟨.vmem, 61, rfl⟩
abbrev cc5_stg7_0 : Ref sig .tc := ⟨.vmem, 62, rfl⟩
abbrev cc5_stg7_1 : Ref sig .tc := ⟨.vmem, 63, rfl⟩
abbrev cc6_stg0_0 : Ref sig .tc := ⟨.vmem, 64, rfl⟩
abbrev cc6_stg0_1 : Ref sig .tc := ⟨.vmem, 65, rfl⟩
abbrev cc6_stg1_0 : Ref sig .tc := ⟨.vmem, 66, rfl⟩
abbrev cc6_stg2_0 : Ref sig .tc := ⟨.vmem, 67, rfl⟩
abbrev cc6_stg3_0 : Ref sig .tc := ⟨.vmem, 68, rfl⟩
abbrev cc6_stg4_0 : Ref sig .tc := ⟨.vmem, 69, rfl⟩
abbrev cc6_stg5_0 : Ref sig .tc := ⟨.vmem, 70, rfl⟩
abbrev cc6_stg5_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc2_sem7_0 : DmaSem sig := 33
abbrev cc2_sem7_1 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem5_1 : DmaSem sig := 42
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem3_0 : DmaSem sig := 48
abbrev cc4_sem4_0 : DmaSem sig := 49
abbrev cc4_sem4_1 : DmaSem sig := 50
abbrev cc4_sem5_0 : DmaSem sig := 51
abbrev cc4_sem5_1 : DmaSem sig := 52
abbrev cc5_sem0_0 : DmaSem sig := 53
abbrev cc5_sem0_1 : DmaSem sig := 54
abbrev cc5_sem1_0 : DmaSem sig := 55
abbrev cc5_sem2_0 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem6_1 : DmaSem sig := 61
abbrev cc5_sem7_0 : DmaSem sig := 62
abbrev cc5_sem7_1 : DmaSem sig := 63
abbrev cc6_sem0_0 : DmaSem sig := 64
abbrev cc6_sem0_1 : DmaSem sig := 65
abbrev cc6_sem1_0 : DmaSem sig := 66
abbrev cc6_sem2_0 : DmaSem sig := 67
abbrev cc6_sem3_0 : DmaSem sig := 68
abbrev cc6_sem4_0 : DmaSem sig := 69
abbrev cc6_sem5_0 : DmaSem sig := 70
abbrev cc6_sem5_1 : DmaSem sig := 71

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x2x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x2x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S5000x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S1x2x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S400000x128 : S_.BroadcastsInDim S400000x128 (![] : Fin 0 → Fin S400000x128.rank)
  slices_S256x128_S128x128_0_0 : S256x128.Slices ![0, 0] S128x128
  slices_S256x128_S128x128_128_0 : S256x128.Slices ![128, 0] S128x128
  shapeCasts_S_S1x1 : S_.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  packedbf16_S5000x128_S5000x128_0_0 : (Rect.unit (s := S5000x128) ![0, 0] S5000x128.size inb_S5000x128_S5000x128_0_0).PackedRows (EltTy.packing .bf16)
  reduces_S5000x128_S128 : S5000x128.Reduces [0] S128
  shapeCasts_S128_S1x128 : S128.ShapeCasts S1x128
  concatenates_S1x128_S1x128_S2x128_d0 : Shape.Concatenates [S1x128, S1x128] S2x128 0
  shapeCasts_S2x128_S1x2x128 : S2x128.ShapeCasts S1x2x128
  inb_S1x2x128_S1x2x128_0_0_0 : ∀ a, (![0, 0, 0] : Fin 3 → Nat) a + S1x2x128.size a ≤ S1x2x128.size a
  h_S1x2x128 : 0 < S1x2x128.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  reduces_S5000x256_S256 : S5000x256.Reduces [0] S256
  shapeCasts_S256_S1x256 : S256.ShapeCasts S1x256
  concatenates_S1x256_S1x256_S2x256_d0 : Shape.Concatenates [S1x256, S1x256] S2x256 0
  shapeCasts_S2x256_S1x2x256 : S2x256.ShapeCasts S1x2x256
  inb_S1x2x256_S1x2x256_0_0_0 : ∀ a, (![0, 0, 0] : Fin 3 → Nat) a + S1x2x256.size a ≤ S1x2x256.size a
  h_S1x2x256 : 0 < S1x2x256.numel
  reducesTo_S80x2x128_S2x128_d0 : S80x2x128.ReducesTo [0] S2x128
  h_S_ : 0 < S_.numel
  slices_S2x128_S1x128_0_0 : S2x128.Slices ![0, 0] S1x128
  shapeCasts_S1x128_S128 : S1x128.ShapeCasts S128
  bcast_S_S128 : S_.BroadcastsInDim S128 (![] : Fin 0 → Fin S128.rank)
  slices_S2x128_S1x128_1_0 : S2x128.Slices ![1, 0] S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reducesTo_S80x2x256_S2x256_d0 : S80x2x256.ReducesTo [0] S2x256
  slices_S2x256_S1x256_0_0 : S2x256.Slices ![0, 0] S1x256
  shapeCasts_S1x256_S256 : S1x256.ShapeCasts S256
  bcast_S_S256 : S_.BroadcastsInDim S256 (![] : Fin 0 → Fin S256.rank)
  slices_S2x256_S1x256_1_0 : S2x256.Slices ![1, 0] S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  bcast_S_S50000x128 : S_.BroadcastsInDim S50000x128 (![] : Fin 0 → Fin S50000x128.rank)
  reducesTo_S10x2x256_S2x256_d0 : S10x2x256.ReducesTo [0] S2x256
  reducesTo_S10x2x128_S2x128_d0 : S10x2x128.ReducesTo [0] S2x128
  gather_S50000x128_S800000x1_S800000x128_1_0_n_n_0_1_1128_wf : GatherDims.WF S50000x128 S800000x1 S800000x128 [1] [0] [] [0] [] 1 ![1, 128]
  scatter_S400000x128_S800000x1_S800000x128_1_0_0_1_wf : ScatterDims.WF S400000x128 S800000x1 S800000x128 [1] [0] [0] 1
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  gather_S400000x128_S800000x1_S800000x128_1_0_n_n_0_1_1128_wf : GatherDims.WF S400000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S400000x128.size a
  hwx0_0 : ∀ i : grid0.Coords, EltTy.bits .f32 = 32 ∨ (Rect.block (s := S400000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S400000x128.size a
  hwx0_1 : ∀ i : grid0.Coords, EltTy.bits .f32 = 32 ∨ (Rect.block (s := S400000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S400000x128.size a
  hwx0_6 : ∀ i : grid0.Coords, EltTy.bits .bf16 = 32 ∨ (Rect.block (s := S400000x128) S5000x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2x128.size a ≤ S80x2x128.size a
  hwx0_7 : ∀ i : grid0.Coords, EltTy.bits .f32 = 32 ∨ (Rect.block (s := S80x2x128) S1x2x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x256.size a ≤ S400000x256.size a
  hwx0_8 : ∀ i : grid0.Coords, EltTy.bits .bf16 = 32 ∨ (Rect.block (s := S400000x256) S5000x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2x256.size a ≤ S80x2x256.size a
  hwx0_9 : ∀ i : grid0.Coords, EltTy.bits .f32 = 32 ∨ (Rect.block (s := S80x2x256) S1x2x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S400000x128.size a
  hwx1_0 : ∀ i : grid1.Coords, EltTy.bits .bf16 = 32 ∨ (Rect.block (s := S400000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S400000x128.size a
  hwx1_5 : ∀ i : grid1.Coords, EltTy.bits .f32 = 32 ∨ (Rect.block (s := S400000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S400000x256.size a
  hwx2_0 : ∀ i : grid2.Coords, EltTy.bits .bf16 = 32 ∨ (Rect.block (s := S400000x256) S5000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .f32 = 32 ∨ (Rect.block (s := S256x128) S256x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S400000x128.size a
  hwx2_6 : ∀ i : grid2.Coords, EltTy.bits .bf16 = 32 ∨ (Rect.block (s := S400000x128) S5000x128.size (cc2_transform_6 i) (hinb2_6 i)).WholeWords (EltTy.packing .bf16)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x2x128.size a ≤ S80x2x128.size a
  hwx2_7 : ∀ i : grid2.Coords, EltTy.bits .f32 = 32 ∨ (Rect.block (s := S80x2x128) S1x2x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S400000x128.size a
  hwx3_0 : ∀ i : grid3.Coords, EltTy.bits .bf16 = 32 ∨ (Rect.block (s := S400000x128) S10000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S400000x128.size a
  hwx3_5 : ∀ i : grid3.Coords, EltTy.bits .f32 = 32 ∨ (Rect.block (s := S400000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x256.size a ≤ S128x256.size a
  hwx4_3 : ∀ i : grid4.Coords, EltTy.bits .f32 = 32 ∨ (Rect.block (s := S128x256) S128x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x256.size a ≤ S50000x256.size a
  hwx4_4 : ∀ i : grid4.Coords, EltTy.bits .bf16 = 32 ∨ (Rect.block (s := S50000x256) S5000x256.size (cc4_transform_4 i) (hinb4_4 i)).WholeWords (EltTy.packing .bf16)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x2x256.size a ≤ S10x2x256.size a
  hwx4_5 : ∀ i : grid4.Coords, EltTy.bits .f32 = 32 ∨ (Rect.block (s := S10x2x256) S1x2x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .bf16 = 32 ∨ (Rect.block (s := S50000x256) S5000x256.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x128.size a ≤ S256x128.size a
  hwx5_5 : ∀ i : grid5.Coords, EltTy.bits .f32 = 32 ∨ (Rect.block (s := S256x128) S256x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .bf16 = 32 ∨ (Rect.block (s := S50000x128) S5000x128.size (cc5_transform_6 i) (hinb5_6 i)).WholeWords (EltTy.packing .bf16)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1x2x128.size a ≤ S10x2x128.size a
  hwx5_7 : ∀ i : grid5.Coords, EltTy.bits .f32 = 32 ∨ (Rect.block (s := S10x2x128) S1x2x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .bf16 = 32 ∨ (Rect.block (s := S50000x128) S10000x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x128.size a ≤ S50000x128.size a
  hwx6_5 : ∀ i : grid6.Coords, EltTy.bits .f32 = 32 ∨ (Rect.block (s := S50000x128) S10000x128.size (cc6_transform_5 i) (hinb6_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S400000x128_S800000x1_S800000x128_1_0_0_1 : ScatterDims S400000x128 S800000x1 S800000x128 where
  updateWindowDims := [1]
  insertedWindowDims := [0]
  scatterDimsToOperandDims := [0]
  indexVectorDim := 1
  wf := scatter_S400000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S400000x128_S800000x1_S800000x128_1_0_n_n_0_1_1128 : GatherDims S400000x128 S800000x1 S800000x128 where
  offsetDims := [1]
  collapsedSliceDims := [0]
  operandBatchingDims := []
  startIndicesBatchingDims := []
  startIndexMap := [0]
  indexVectorDim := 1
  sliceSizes := ![1, 128]
  wf := gather_S400000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x2x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v18_2) S5000x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v18_3) S1x2x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v18_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v18_2) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v60_1) S1x2x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v60_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v93) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg6) S128x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94_0) S5000x256.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v94_1) S1x2x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v94_0) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v111) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v112) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v114) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg9) S256x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v115_0) S5000x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v115_1) S1x2x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v115_0) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v132) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v133) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v134) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v135) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v136) S10000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S400000x128 : Shape := ⟨2, ![400000, 128]⟩
abbrev S2x800000 : Shape := ⟨2, ![2, 800000]⟩
abbrev S256x128 : Shape := ⟨2, ![256, 128]⟩
abbrev S128 : Shape := ⟨1, ![128]⟩
abbrev S128x256 : Shape := ⟨2, ![128, 256]⟩
abbrev S256 : Shape := ⟨1, ![256]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S400000x256 : Shape := ⟨2, ![400000, 256]⟩
abbrev S1x128 : Shape := ⟨2, ![1, 128]⟩
abbrev S50000x256 : Shape := ⟨2, ![50000, 256]⟩
abbrev S1x256 : Shape := ⟨2, ![1, 256]⟩

abbrev nBuf : Space → Nat
  | .hbm => 231
  | .vmem => 0
  | .smem => 0
  | _ => 0

abbrev hbmTy0_0 (i : Nat) : BufTy := match i % 128 with
  | 0 => ⟨S50000x128, .f32⟩
  | 1 => ⟨S400000x128, .f32⟩
  | 2 => ⟨S2x800000, .i32⟩
  | 3 => ⟨S256x128, .f32⟩
  | 4 => ⟨S128, .f32⟩
  | 5 => ⟨S128, .f32⟩
  | 6 => ⟨S128x256, .f32⟩
  | 7 => ⟨S256, .f32⟩
  | 8 => ⟨S256, .f32⟩
  | 9 => ⟨S256x128, .f32⟩
  | 10 => ⟨S128, .f32⟩
  | 11 => ⟨S128, .f32⟩
  | 12 => ⟨S128x256, .f32⟩
  | 13 => ⟨S256, .f32⟩
  | 14 => ⟨S256, .f32⟩
  | 15 => ⟨S256x128, .f32⟩
  | 16 => ⟨S128, .f32⟩
  | 17 => ⟨S128, .f32⟩
  | 18 => ⟨S_, .f32⟩
  | 19 => ⟨S_, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S400000x128, .f32⟩
  | 35 => ⟨S800000x1, .i32⟩
  | 36 => ⟨S400000x128, .f32⟩
  | 37 => ⟨S400000x256, .f32⟩
  | 38 => ⟨S400000x128, .f32⟩
  | 39 => ⟨S_, .f32⟩
  | 40 => ⟨S128, .f32⟩
  | 41 => ⟨S_, .f32⟩
  | 42 => ⟨S128, .f32⟩
  | 43 => ⟨S128, .f32⟩
  | 44 => ⟨S1x128, .f32⟩
  | 45 => ⟨S400000x128, .f32⟩
  | 46 => ⟨S400000x128, .f32⟩
  | 47 => ⟨S400000x128, .f32⟩
  | 48 => ⟨S_, .f32⟩
  | 49 => ⟨S128, .f32⟩
  | 50 => ⟨S_, .f32⟩
  | 51 => ⟨S128, .f32⟩
  | 52 => ⟨S128, .f32⟩
  | 53 => ⟨S1x128, .f32⟩
  | 54 => ⟨S400000x128, .f32⟩
  | 55 => ⟨S400000x128, .f32⟩
  | 56 => ⟨S_, .f32⟩
  | 57 => ⟨S128, .f32⟩
  | 58 => ⟨S128, .f32⟩
  | 59 => ⟨S128, .f32⟩
  | 60 => ⟨S1x128, .f32⟩
  | 61 => ⟨S400000x128, .f32⟩
  | 62 => ⟨S400000x128, .f32⟩
  | 63 => ⟨S1x128, .f32⟩
  | 64 => ⟨S400000x128, .f32⟩
  | 65 => ⟨S400000x128, .f32⟩
  | 66 => ⟨S1x128, .f32⟩
  | 67 => ⟨S400000x128, .f32⟩
  | 68 => ⟨S400000x128, .f32⟩
  | 69 => ⟨S_, .f32⟩
  | 70 => ⟨S400000x128, .f32⟩
  | 71 => ⟨S400000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S_, .f32⟩
  | 86 => ⟨S_, .f32⟩
  | 87 => ⟨S50000x128, .f32⟩
  | 88 => ⟨S50000x128, .f32⟩
  | 89 => ⟨S50000x128, .f32⟩
  | 90 => ⟨S50000x256, .f32⟩
  | 91 => ⟨S_, .f32⟩
  | 92 => ⟨S256, .f32⟩
  | 93 => ⟨S_, .f32⟩
  | 94 => ⟨S256, .f32⟩
  | 95 => ⟨S256, .f32⟩
  | 96 => ⟨S1x256, .f32⟩
  | 97 => ⟨S50000x256, .f32⟩
  | 98 => ⟨S50000x256, .f32⟩
  | 99 => ⟨S50000x256, .f32⟩
  | 100 => ⟨S_, .f32⟩
  | 101 => ⟨S256, .f32⟩
  | 102 => ⟨S_, .f32⟩
  | 103 => ⟨S256, .f32⟩
  | 104 => ⟨S256, .f32⟩
  | 105 => ⟨S1x256, .f32⟩
  | 106 => ⟨S50000x256, .f32⟩
  | 107 => ⟨S50000x256, .f32⟩
  | 108 => ⟨S_, .f32⟩
  | 109 => ⟨S256, .f32⟩
  | 110 => ⟨S256, .f32⟩
  | 111 => ⟨S256, .f32⟩
  | 112 => ⟨S1x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S1x256, .f32⟩
  | 119 => ⟨S50000x256, .f32⟩
  | 120 => ⟨S50000x256, .f32⟩
  | 121 => ⟨S_, .f32⟩
  | 122 => ⟨S50000x256, .f32⟩
  | 123 => ⟨S50000x256, .f32⟩
  | 124 => ⟨S50000x128, .f32⟩
  | 125 => ⟨S_, .f32⟩
  | 126 => ⟨S128, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S50000x128, .f32⟩
  | 6 => ⟨S_, .f32⟩
  | 7 => ⟨S128, .f32⟩
  | 8 => ⟨S_, .f32⟩
  | 9 => ⟨S128, .f32⟩
  | 10 => ⟨S128, .f32⟩
  | 11 => ⟨S1x128, .f32⟩
  | 12 => ⟨S50000x128, .f32⟩
  | 13 => ⟨S50000x128, .f32⟩
  | 14 => ⟨S_, .f32⟩
  | 15 => ⟨S128, .f32⟩
  | 16 => ⟨S128, .f32⟩
  | 17 => ⟨S128, .f32⟩
  | 18 => ⟨S1x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S_, .f32⟩
  | 31 => ⟨S_, .f32⟩
  | 32 => ⟨S400000x128, .f32⟩
  | 33 => ⟨S400000x128, .f32⟩
  | 34 => ⟨S400000x128, .f32⟩
  | 35 => ⟨S400000x256, .f32⟩
  | 36 => ⟨S_, .f32⟩
  | 37 => ⟨S256, .f32⟩
  | 38 => ⟨S_, .f32⟩
  | 39 => ⟨S256, .f32⟩
  | 40 => ⟨S256, .f32⟩
  | 41 => ⟨S1x256, .f32⟩
  | 42 => ⟨S400000x256, .f32⟩
  | 43 => ⟨S400000x256, .f32⟩
  | 44 => ⟨S400000x256, .f32⟩
  | 45 => ⟨S_, .f32⟩
  | 46 => ⟨S256, .f32⟩
  | 47 => ⟨S_, .f32⟩
  | 48 => ⟨S256, .f32⟩
  | 49 => ⟨S256, .f32⟩
  | 50 => ⟨S1x256, .f32⟩
  | 51 => ⟨S400000x256, .f32⟩
  | 52 => ⟨S400000x256, .f32⟩
  | 53 => ⟨S_, .f32⟩
  | 54 => ⟨S256, .f32⟩
  | 55 => ⟨S256, .f32⟩
  | 56 => ⟨S256, .f32⟩
  | 57 => ⟨S1x256, .f32⟩
  | 58 => ⟨S400000x256, .f32⟩
  | 59 => ⟨S400000x256, .f32⟩
  | 60 => ⟨S1x256, .f32⟩
  | 61 => ⟨S400000x256, .f32⟩
  | 62 => ⟨S400000x256, .f32⟩
  | 63 => ⟨S1x256, .f32⟩
  | 64 => ⟨S400000x256, .f32⟩
  | 65 => ⟨S400000x256, .f32⟩
  | 66 => ⟨S_, .f32⟩
  | 67 => ⟨S400000x256, .f32⟩
  | 68 => ⟨S400000x256, .f32⟩
  | 69 => ⟨S400000x128, .f32⟩
  | 70 => ⟨S_, .f32⟩
  | 71 => ⟨S128, .f32⟩
  | 72 => ⟨S_, .f32⟩
  | 73 => ⟨S128, .f32⟩
  | 74 => ⟨S128, .f32⟩
  | 75 => ⟨S1x128, .f32⟩
  | 76 => ⟨S400000x128, .f32⟩
  | 77 => ⟨S400000x128, .f32⟩
  | 78 => ⟨S400000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S400000x128, .f32⟩
  | 86 => ⟨S400000x128, .f32⟩
  | 87 => ⟨S_, .f32⟩
  | 88 => ⟨S128, .f32⟩
  | 89 => ⟨S128, .f32⟩
  | 90 => ⟨S128, .f32⟩
  | 91 => ⟨S1x128, .f32⟩
  | 92 => ⟨S400000x128, .f32⟩
  | 93 => ⟨S400000x128, .f32⟩
  | 94 => ⟨S1x128, .f32⟩
  | 95 => ⟨S400000x128, .f32⟩
  | 96 => ⟨S400000x128, .f32⟩
  | 97 => ⟨S1x128, .f32⟩
  | 98 => ⟨S400000x128, .f32⟩
  | 99 => ⟨S400000x128, .f32⟩
  | 100 => ⟨S_, .f32⟩
  | 101 => ⟨S400000x128, .f32⟩
  | 102 => ⟨S400000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_cst_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_cst_4 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call0_cst : Ref sig .tc := ⟨.hbm, 69, rfl⟩
abbrev main_call0_v0 : Ref sig .tc := ⟨.hbm, 70, rfl⟩
abbrev main_v41 : Ref sig .tc := ⟨.hbm, 71, rfl⟩
abbrev main_c_6 : Ref sig .tc := ⟨.hbm, 72, rfl⟩
abbrev main_v42 : Ref sig .tc := ⟨.hbm, 73, rfl⟩
abbrev main_v43 : Ref sig .tc := ⟨.hbm, 74, rfl⟩
abbrev main_c_7 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_8 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_9 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_10 : Ref sig .tc := ⟨.hbm, 91, rfl⟩
abbrev main_v57 : Ref sig .tc := ⟨.hbm, 92, rfl⟩
abbrev main_cst_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_12 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_14 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_call1_cst : Ref sig .tc := ⟨.hbm, 121, rfl⟩
abbrev main_call1_v0 : Ref sig .tc := ⟨.hbm, 122, rfl⟩
abbrev main_v82 : Ref sig .tc := ⟨.hbm, 123, rfl⟩
abbrev main_v83 : Ref sig .tc := ⟨.hbm, 124, rfl⟩
abbrev main_cst_15 : Ref sig .tc := ⟨.hbm, 125, rfl⟩
abbrev main_v84 : Ref sig .tc := ⟨.hbm, 126, rfl⟩
abbrev main_cst_16 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_17 : Ref sig .tc := ⟨.hbm, 134, rfl⟩
abbrev main_v91 : Ref sig .tc := ⟨.hbm, 135, rfl⟩
abbrev main_cst_18 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_19 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_call2_cst : Ref sig .tc := ⟨.hbm, 155, rfl⟩
abbrev main_call2_v0 : Ref sig .tc := ⟨.hbm, 156, rfl⟩
abbrev main_v109 : Ref sig .tc := ⟨.hbm, 157, rfl⟩
abbrev main_cst_20 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_21 : Ref sig .tc := ⟨.hbm, 164, rfl⟩
abbrev main_v115 : Ref sig .tc := ⟨.hbm, 165, rfl⟩
abbrev main_cst_22 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_cst_23 : Ref sig .tc := ⟨.hbm, 173, rfl⟩
abbrev main_v122 : Ref sig .tc := ⟨.hbm, 174, rfl⟩
abbrev main_cst_24 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_25 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_call3_cst : Ref sig .tc := ⟨.hbm, 194, rfl⟩
abbrev main_call3_v0 : Ref sig .tc := ⟨.hbm, 195, rfl⟩
abbrev main_v140 : Ref sig .tc := ⟨.hbm, 196, rfl⟩
abbrev main_v141 : Ref sig .tc := ⟨.hbm, 197, rfl⟩
abbrev main_cst_26 : Ref sig .tc := ⟨.hbm, 198, rfl⟩
abbrev main_v142 : Ref sig .tc := ⟨.hbm, 199, rfl⟩
abbrev main_cst_27 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_cst_28 : Ref sig .tc := ⟨.hbm, 207, rfl⟩
abbrev main_v149 : Ref sig .tc := ⟨.hbm, 208, rfl⟩
abbrev main_cst_29 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_cst_30 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_call4_cst : Ref sig .tc := ⟨.hbm, 228, rfl⟩
abbrev main_call4_v0 : Ref sig .tc := ⟨.hbm, 229, rfl⟩
abbrev main_v167 : Ref sig .tc := ⟨.hbm, 230, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S400000x128 : S_.BroadcastsInDim S400000x128 (![] : Fin 0 → Fin S400000x128.rank)
  concatenates_S400000x128_S400000x128_S400000x256_d1 : Shape.Concatenates [S400000x128, S400000x128] S400000x256 1
  reducesTo_S400000x128_S128_d0 : S400000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S50000x128 : S_.BroadcastsInDim S50000x128 (![] : Fin 0 → Fin S50000x128.rank)
  reducesTo_S50000x256_S256_d0 : S50000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  reducesTo_S50000x128_S128_d0 : S50000x128.ReducesTo [0] S128
  bcast_S1x128_S50000x128_0_1 : S1x128.BroadcastsInDim S50000x128 (![0, 1] : Fin 2 → Fin S50000x128.rank)
  reducesTo_S400000x256_S256_d0 : S400000x256.ReducesTo [0] S256
  bcast_S1x256_S400000x256_0_1 : S1x256.BroadcastsInDim S400000x256 (![0, 1] : Fin 2 → Fin S400000x256.rank)
  bcast_S_S400000x256 : S_.BroadcastsInDim S400000x256 (![] : Fin 0 → Fin S400000x256.rank)
  gather_S50000x128_S800000x1_S800000x128_1_0_n_n_0_1_1128_wf : GatherDims.WF S50000x128 S800000x1 S800000x128 [1] [0] [] [0] [] 1 ![1, 128]
  scatter_S400000x128_S800000x1_S800000x128_1_0_0_1_wf : ScatterDims.WF S400000x128 S800000x1 S800000x128 [1] [0] [0] 1
  dot_S400000x256_S256x128_S400000x128_1_0_0_1_n_n_wf : DotDims.WF S400000x256 S256x128 S400000x128 [1] [0] [0] [1] [] []
  gather_S400000x128_S800000x1_S800000x128_1_0_n_n_0_1_1128_wf : GatherDims.WF S400000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  dot_S400000x128_S128x256_S400000x256_1_0_0_1_n_n_wf : DotDims.WF S400000x128 S128x256 S400000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S400000x128_S800000x1_S800000x128_1_0_0_1 : ScatterDims S400000x128 S800000x1 S800000x128 where
  updateWindowDims := [1]
  insertedWindowDims := [0]
  scatterDimsToOperandDims := [0]
  indexVectorDim := 1
  wf := scatter_S400000x128_S800000x1_S800000x128_1_0_0_1_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def gather_S400000x128_S800000x1_S800000x128_1_0_n_n_0_1_1128 : GatherDims S400000x128 S800000x1 S800000x128 where
  offsetDims := [1]
  collapsedSliceDims := [0]
  operandBatchingDims := []
  startIndicesBatchingDims := []
  startIndexMap := [0]
  indexVectorDim := 1
  sliceSizes := ![1, 128]
  wf := gather_S400000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S400000x128_S128x256_S400000x256_1_0_0_1_n_n : DotDims S400000x128 S128x256 S400000x256 where
  lhsContracting := [1]
  rhsContracting := [0]
  lhsNonContracting := [0]
  rhsNonContracting := [1]
  lhsBatch := []
  rhsBatch := []
  wf := dot_S400000x128_S128x256_S400000x256_1_0_0_1_n_n_wf

class Facts : Prop extends Facts₀ where

variable [Facts]
-- ==== Proof.RefGen.lean ====
/- The reference program's run and its stages read at an index, as the generated modules state them; the hand
   lemmas about the reference build on these. -/
import proofs.«412927_j30382598652491_3_alg».proof.Proof.Gen.ReferenceIdeal.Run
import proofs.«412927_j30382598652491_3_alg».proof.Proof.Gen.ReferenceIdeal.Read
-- ==== Proof.BNSpec.lean ====
/- The mathematics both programs compute, written once over plain coordinates.

   A matrix is a function of a row and a column into the extended reals. A linear layer is a matrix product;
   batch normalisation subtracts each column's mean, scales by the reciprocal square root of the column's
   variance plus a small constant, applies a per-column gain and offset, and clips at zero. The two programs
   differ in how a column's statistics are obtained: one sums the column tile by tile and takes the variance
   as the mean of the squares minus the square of the mean, clipped at zero; the other sums the whole column
   and takes the mean of the squared deviations. The two aggregations between nodes and edges are carried as
   functions `agg1`, `agg2`: both programs apply the same ones. -/
import Idealize.ShloMosaic.PureOps.Ideal
import Idealize.ShloMosaic.Lib.ValueIdx
import Mathlib.Algebra.BigOperators.Group.Finset.Basic

noncomputable section

namespace Cert.BNSpec

open Idealize.ShloMosaic
open scoped BigOperators

/-! ## The float constants the programs spell -/

abbrev zeroE : EReal := Ideal.ofBits .f32 0x00000000#32
abbrev oneE : EReal := Ideal.ofBits .f32 0x3F800000#32
abbrev epsE : EReal := Ideal.ofBits .f32 0x3727C5AC#32
/-- the number of edges, 400000 -/
abbrev nEdgesE : EReal := Ideal.ofBits .f32 0x48C35000#32
/-- the number of nodes, 50000 -/
abbrev nNodesE : EReal := Ideal.ofBits .f32 0x47435000#32

/-! ## Arrays read by coordinates -/

abbrev cur0 (a : (⟨0, ![]⟩ : Shape).Idx → EReal) : EReal := a ValueIdx.ix0
abbrev cur1 {n : ℕ} (a : (⟨1, ![n]⟩ : Shape).Idx → EReal) : Fin n → EReal := fun i => a (ValueIdx.ix1 i)
abbrev cur2 {n0 n1 : ℕ} (a : (⟨2, ![n0, n1]⟩ : Shape).Idx → EReal) : Fin n0 → Fin n1 → EReal :=
  fun i j => a (ValueIdx.ix2 i j)
abbrev cur3 {n0 n1 n2 : ℕ} (a : (⟨3, ![n0, n1, n2]⟩ : Shape).Idx → EReal) : Fin n0 → Fin n1 → Fin n2 → EReal :=
  fun i j k => a (ValueIdx.ix3 i j k)

/-- A function of two coordinates as an array. -/
def unc2 {n0 n1 : ℕ} (z : Fin n0 → Fin n1 → EReal) : (⟨2, ![n0, n1]⟩ : Shape).Idx → EReal := fun i => z (i 0) (i 1)

theorem cur2_unc2 {n0 n1 : ℕ} (z : Fin n0 → Fin n1 → EReal) : cur2 (unc2 z) = z := rfl

theorem unc2_cur2 {n0 n1 : ℕ} (a : (⟨2, ![n0, n1]⟩ : Shape).Idx → EReal) : unc2 (cur2 a) = a :=
  funext fun i => congrArg a (ValueIdx.eq_ix2 i).symm

/-- Two arrays that agree at every pair of coordinates are equal. -/
theorem cur2_inj {n0 n1 : ℕ} {a b : (⟨2, ![n0, n1]⟩ : Shape).Idx → EReal} (h : cur2 a = cur2 b) : a = b := by
  rw [← unc2_cur2 a, ← unc2_cur2 b, h]

variable {R K D T B : ℕ}

/-! ## The stages -/

/-- The matrix product. -/
def mm (x : Fin R → Fin K → EReal) (w : Fin K → Fin D → EReal) : Fin R → Fin D → EReal :=
  fun i j => ∑ k, x i k * w k j

/-- Row `r` of tile `t`, when the `R` rows are cut into `T` tiles of `B` rows. -/
def rowOf (h : T * B = R) (t : Fin T) (r : Fin B) : Fin R :=
  ⟨t.val * B + r.val, by
    have h1 : t.val * B + r.val < (t.val + 1) * B := by rw [Nat.add_mul, Nat.one_mul]; omega
    have h2 : (t.val + 1) * B ≤ T * B := Nat.mul_le_mul_right B t.isLt
    omega⟩

/-- One tile's sum of a column. -/
def tileSum (h : T * B = R) (y : Fin R → Fin D → EReal) (t : Fin T) (j : Fin D) : EReal :=
  ∑ r : Fin B, y (rowOf h t r) j

/-- One tile's sum of a column's squares. -/
def tileSumSq (h : T * B = R) (y : Fin R → Fin D → EReal) (t : Fin T) (j : Fin D) : EReal :=
  ∑ r : Fin B, y (rowOf h t r) j * y (rowOf h t r) j

/-- A column's mean from the tiles' sums. -/
def meanK (h : T * B = R) (N : EReal) (y : Fin R → Fin D → EReal) (j : Fin D) : EReal :=
  Ideal.div (zeroE + ∑ t : Fin T, tileSum h y t j) N

/-- The reciprocal standard deviation from the tiles' sums: the mean of the squares minus the square of the
    mean, clipped at zero, plus the small constant. -/
def rstdK (h : T * B = R) (N : EReal) (y : Fin R → Fin D → EReal) (j : Fin D) : EReal :=
  Ideal.rsqrt (max (Ideal.div (zeroE + ∑ t : Fin T, tileSumSq h y t j) N - meanK h N y j * meanK h N y j) zeroE + epsE)

/-- A column's mean from the whole column. -/
def meanR (N : EReal) (y : Fin R → Fin D → EReal) (j : Fin D) : EReal :=
  Ideal.div (zeroE + ∑ i : Fin R, y i j) N

/-- The reciprocal standard deviation from the whole column: the mean of the squared deviations plus the
    small constant. -/
def rstdR (N : EReal) (y : Fin R → Fin D → EReal) (j : Fin D) : EReal :=
  Ideal.rsqrt (Ideal.div (zeroE + ∑ i : Fin R, (y i j - meanR N y j) * (y i j - meanR N y j)) N + epsE)

/-- Normalise, scale, shift, clip at zero. -/
def affRelu (mean rstd g b : Fin D → EReal) (y : Fin R → Fin D → EReal) : Fin R → Fin D → EReal :=
  fun i j => max ((y i j - mean j) * rstd j * g j + b j) zeroE

/-- Batch normalisation and clipping with the statistics taken tile by tile. -/
def bnK (h : T * B = R) (N : EReal) (g b : Fin D → EReal) (y : Fin R → Fin D → EReal) : Fin R → Fin D → EReal :=
  affRelu (meanK h N y) (rstdK h N y) g b y

/-- Batch normalisation and clipping with the statistics taken over the whole column. -/
def bnR (N : EReal) (g b : Fin D → EReal) (y : Fin R → Fin D → EReal) : Fin R → Fin D → EReal :=
  affRelu (meanR N y) (rstdR N y) g b y

/-- A scaled matrix plus another. -/
def scaleAdd (s : EReal) (x z : Fin R → Fin K → EReal) : Fin R → Fin K → EReal :=
  fun i k => s * x i k + z i k

/-- Two matrices side by side. -/
def hcat {K1 K2 : ℕ} (x : Fin R → Fin K1 → EReal) (z : Fin R → Fin K2 → EReal) : Fin R → Fin (K1 + K2) → EReal :=
  fun i k => if h : k.val < K1 then x i ⟨k.val, h⟩ else z i ⟨k.val - K1, by omega⟩

/-- The upper and the lower half of a weight matrix of `K1 + K2` rows. -/
def topRows {K1 K2 : ℕ} (w : Fin (K1 + K2) → Fin D → EReal) : Fin K1 → Fin D → EReal :=
  fun k j => w ⟨k.val, by omega⟩ j
def botRows {K1 K2 : ℕ} (w : Fin (K1 + K2) → Fin D → EReal) : Fin K2 → Fin D → EReal :=
  fun k j => w ⟨K1 + k.val, by omega⟩ j

/-! ## The two pipelines -/

/-- The arguments, read by coordinates. -/
structure Inputs where
  node : Fin 50000 → Fin 128 → EReal
  edge : Fin 400000 → Fin 128 → EReal
  Wa : Fin (128 + 128) → Fin 128 → EReal
  ga : Fin 128 → EReal
  ba : Fin 128 → EReal
  Wb1 : Fin 128 → Fin 256 → EReal
  gb1 : Fin 256 → EReal
  bb1 : Fin 256 → EReal
  Wb2 : Fin 256 → Fin 128 → EReal
  gb2 : Fin 128 → EReal
  bb2 : Fin 128 → EReal
  Wl1 : Fin 128 → Fin 256 → EReal
  gl1 : Fin 256 → EReal
  bl1 : Fin 256 → EReal
  Wl2 : Fin 256 → Fin 128 → EReal
  gl2 : Fin 128 → EReal
  bl2 : Fin 128 → EReal
  eps1 : EReal
  eps2 : EReal

theorem hE : 80 * 5000 = 400000 := by norm_num
theorem hN : 10 * 5000 = 50000 := by norm_num

variable (agg1 : (Fin 50000 → Fin 128 → EReal) → (Fin 400000 → Fin 128 → EReal))
variable (agg2 : (Fin 400000 → Fin 128 → EReal) → (Fin 50000 → Fin 128 → EReal))

namespace K
/-! The pipeline with the statistics taken tile by tile and the first product taken half by half. -/
def yA (x : Inputs) : Fin 400000 → Fin 128 → EReal :=
  fun i j => mm (agg1 x.node) (topRows x.Wa) i j + mm x.edge (botRows x.Wa) i j
def lvlEdge (x : Inputs) := bnK hE nEdgesE x.ga x.ba (yA agg1 x)
def yL1 (x : Inputs) := mm (scaleAdd (oneE + x.eps2) x.edge (agg1 x.node)) x.Wl1
def yL2 (x : Inputs) := mm (bnK hE nEdgesE x.gl1 x.bl1 (yL1 agg1 x)) x.Wl2
def edgeOut (x : Inputs) := bnK hE nEdgesE x.gl2 x.bl2 (yL2 agg1 x)
def yB1 (x : Inputs) := mm (scaleAdd (oneE + x.eps1) x.node (agg2 (lvlEdge agg1 x))) x.Wb1
def yB2 (x : Inputs) := mm (bnK hN nNodesE x.gb1 x.bb1 (yB1 agg1 agg2 x)) x.Wb2
def nodeOut (x : Inputs) := bnK hN nNodesE x.gb2 x.bb2 (yB2 agg1 agg2 x)
end K

namespace R
/-! The pipeline with the statistics taken over whole columns and the first product over the two matrices
    side by side. -/
def yA (x : Inputs) : Fin 400000 → Fin 128 → EReal := mm (hcat (agg1 x.node) x.edge) x.Wa
def lvlEdge (x : Inputs) := bnR nEdgesE x.ga x.ba (yA agg1 x)
def yL1 (x : Inputs) := mm (scaleAdd (oneE + x.eps2) x.edge (agg1 x.node)) x.Wl1
def yL2 (x : Inputs) := mm (bnR nEdgesE x.gl1 x.bl1 (yL1 agg1 x)) x.Wl2
def edgeOut (x : Inputs) := bnR nEdgesE x.gl2 x.bl2 (yL2 agg1 x)
def yB1 (x : Inputs) := mm (scaleAdd (oneE + x.eps1) x.node (agg2 (lvlEdge agg1 x))) x.Wb1
def yB2 (x : Inputs) := mm (bnR nNodesE x.gb1 x.bb1 (yB1 agg1 agg2 x)) x.Wb2
def nodeOut (x : Inputs) := bnR nNodesE x.gb2 x.bb2 (yB2 agg1 agg2 x)
end R

end Cert.BNSpec

end
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.BNMath.lean ====
/- The two pipelines agree on real-valued arguments.

   For a matrix every entry of which is a real number, the column statistics taken tile by tile are the
   statistics of the whole column (a sum over tiles of sums over a tile's rows is the sum over all rows), the
   mean of the squares minus the square of the mean is the mean of the squared deviations, and that quantity
   is nonnegative, so clipping it at zero changes nothing. A product over two matrices side by side is the sum
   of the two products over the halves of the weight matrix. Every stage keeps real matrices real, so the
   argument repeats down both pipelines. -/
import proofs.«412927_j30382598652491_3_alg».proof.Proof.BNSpec
import proofs.«412927_j30382598652491_3_alg».proof.Proof.LibERealBatchNorm
import Mathlib.Algebra.BigOperators.Fin
import Mathlib.Logic.Equiv.Fin.Basic
import Mathlib.Tactic.NormNum

noncomputable section

namespace Cert.BNMath

open Idealize.ShloMosaic Cert.BNSpec Cert.ERealBN
open scoped BigOperators

/-- Every entry is a real number. -/
def RealMat {R D : ℕ} (y : Fin R → Fin D → EReal) : Prop := ∀ i j, IsReal (y i j)
def RealVec {D : ℕ} (g : Fin D → EReal) : Prop := ∀ j, IsReal (g j)

/-- Every argument is real-valued. -/
structure RealInputs (x : Inputs) : Prop where
  node : RealMat x.node
  edge : RealMat x.edge
  Wa : RealMat x.Wa
  ga : RealVec x.ga
  ba : RealVec x.ba
  Wb1 : RealMat x.Wb1
  gb1 : RealVec x.gb1
  bb1 : RealVec x.bb1
  Wb2 : RealMat x.Wb2
  gb2 : RealVec x.gb2
  bb2 : RealVec x.bb2
  Wl1 : RealMat x.Wl1
  gl1 : RealVec x.gl1
  bl1 : RealVec x.bl1
  Wl2 : RealMat x.Wl2
  gl2 : RealVec x.gl2
  bl2 : RealVec x.bl2
  eps1 : IsReal x.eps1
  eps2 : IsReal x.eps2

section generic

variable {R K D T B : ℕ}

/-! ## A sum over tiles of sums over a tile's rows is the sum over all rows -/

/-- Cutting the rows into tiles only reorders a finite sum. -/
theorem sum_tiles {M : Type*} [AddCommMonoid M] (h : T * B = R) (f : Fin R → M) :
    ∑ t : Fin T, ∑ r : Fin B, f (rowOf h t r) = ∑ i : Fin R, f i := by
  subst h
  rw [← Fintype.sum_prod_type' (fun (t : Fin T) (r : Fin B) => f (rowOf rfl t r))]
  refine Fintype.sum_equiv finProdFinEquiv _ _ ?_
  rintro ⟨t, r⟩
  congr 1
  ext
  simp only [rowOf, finProdFinEquiv_apply_val]
  rw [Nat.mul_comm, Nat.add_comm]

theorem meanK_eq (h : T * B = R) (N : EReal) (y : Fin R → Fin D → EReal) :
    meanK h N y = meanR N y := by
  funext j
  have e : ∑ t : Fin T, ∑ r : Fin B, y (rowOf h t r) j = ∑ i, y i j := sum_tiles h (fun i => y i j)
  unfold meanK meanR tileSum
  rw [e]

/-! ## The constants -/

theorem zeroE_eq : zeroE = 0 := ofBits_zero

theorem isReal_zeroE : IsReal zeroE := by rw [zeroE_eq]; exact IsReal.zero

theorem isReal_oneE : IsReal oneE := ⟨1, ofBits_one⟩

/-- `NE` is the number of rows `R`, a positive count, read as an extended real. -/
structure IsCount (NE : EReal) (R : ℕ) : Prop where
  eq : NE = ((R : ℝ) : EReal)
  pos : 0 < R

theorem IsCount.rpos {NE : EReal} (hN : IsCount NE R) : (0 : ℝ) < (R : ℝ) := by
  exact_mod_cast hN.pos

theorem IsCount.card {NE : EReal} (_ : IsCount NE R) : (Fintype.card (Fin R) : ℝ) = (R : ℝ) := by
  rw [Fintype.card_fin]

/-! ## One column's statistics -/

/-- A real column's mean is real. -/
theorem isReal_colMean (c : Fin R → EReal) (hc : ∀ i, IsReal (c i)) (hR : (0 : ℝ) < (R : ℝ)) :
    IsReal (Ideal.div (zeroE + ∑ i, c i) ((R : ℝ) : EReal)) := by
  rw [zeroE_eq, zero_add]
  exact IsReal.div_coe (IsReal.sum _ _ (fun i _ => hc i)) hR.ne'

/-- The mean of the squares minus the square of the mean, clipped at zero, is the mean of the squared
    deviations, for a real column. -/
theorem colVar_eq (c : Fin R → EReal) (hc : ∀ i, IsReal (c i)) (hR : (0 : ℝ) < (R : ℝ)) :
    max (Ideal.div (zeroE + ∑ i, c i * c i) ((R : ℝ) : EReal)
          - Ideal.div (zeroE + ∑ i, c i) ((R : ℝ) : EReal) * Ideal.div (zeroE + ∑ i, c i) ((R : ℝ) : EReal)) zeroE
      = Ideal.div (zeroE + ∑ i, (c i - Ideal.div (zeroE + ∑ i, c i) ((R : ℝ) : EReal))
            * (c i - Ideal.div (zeroE + ∑ i, c i) ((R : ℝ) : EReal))) ((R : ℝ) : EReal) := by
  rw [zeroE_eq]
  simp only [zero_add]
  rw [var_eq c hc (R : ℝ) (by rw [Fintype.card_fin]) hR]
  exact max_eq_left (var_isReal_nonneg c hc (R : ℝ) hR).2

/-- The reciprocal standard deviation of a real column is real. -/
theorem isReal_colRstd (c : Fin R → EReal) (hc : ∀ i, IsReal (c i)) (hR : (0 : ℝ) < (R : ℝ)) :
    IsReal (Ideal.rsqrt (Ideal.div (zeroE + ∑ i, (c i - Ideal.div (zeroE + ∑ i, c i) ((R : ℝ) : EReal))
            * (c i - Ideal.div (zeroE + ∑ i, c i) ((R : ℝ) : EReal))) ((R : ℝ) : EReal) + epsE)) := by
  rw [zeroE_eq]
  simp only [zero_add]
  obtain ⟨e, he0, he⟩ := ofBits_eps_pos
  have hv := var_isReal_nonneg c hc (R : ℝ) hR
  have he' : epsE = (e : EReal) := he
  refine rsqrt_var_isReal hv.1 hv.2 ⟨e, he'⟩ ?_
  rw [he']
  exact_mod_cast he0

/-! ## The two normalisations agree on a real matrix -/

theorem rstdK_eq (h : T * B = R) {NE : EReal} (hN : IsCount NE R) (y : Fin R → Fin D → EReal)
    (hy : RealMat y) : rstdK h NE y = rstdR NE y := by
  funext j
  have e : ∑ t : Fin T, ∑ r : Fin B, y (rowOf h t r) j * y (rowOf h t r) j = ∑ i, y i j * y i j :=
    sum_tiles h (fun i => y i j * y i j)
  unfold rstdK rstdR
  rw [meanK_eq]
  unfold meanR tileSumSq
  rw [e, hN.eq, colVar_eq (fun i => y i j) (fun i => hy i j) hN.rpos]

theorem bnK_eq (h : T * B = R) {NE : EReal} (hN : IsCount NE R) (g b : Fin D → EReal)
    (y : Fin R → Fin D → EReal) (hy : RealMat y) : bnK h NE g b y = bnR NE g b y := by
  unfold bnK bnR
  rw [meanK_eq, rstdK_eq h hN y hy]

/-! ## A product over two matrices side by side -/

theorem mm_hcat {K1 K2 : ℕ} (a : Fin R → Fin K1 → EReal) (b : Fin R → Fin K2 → EReal)
    (W : Fin (K1 + K2) → Fin D → EReal) :
    mm (hcat a b) W = fun i j => mm a (topRows W) i j + mm b (botRows W) i j := by
  funext i j
  unfold mm
  rw [Fin.sum_univ_add]
  congr 1
  · refine Finset.sum_congr rfl (fun k _ => ?_)
    have e : hcat a b i (Fin.castAdd K2 k) = a i k := by
      unfold hcat
      rw [dif_pos (show (Fin.castAdd K2 k).val < K1 from k.isLt)]
      rfl
    rw [e]
    rfl
  · refine Finset.sum_congr rfl (fun k _ => ?_)
    have e : hcat a b i (Fin.natAdd K1 k) = b i k := by
      unfold hcat
      rw [dif_neg (show ¬ (Fin.natAdd K1 k).val < K1 by simp)]
      congr 1
      ext
      simp
    rw [e]
    rfl

/-! ## Every stage keeps real matrices real -/

theorem realMat_mm {x : Fin R → Fin K → EReal} {w : Fin K → Fin D → EReal} (hx : RealMat x)
    (hw : RealMat w) : RealMat (mm x w) :=
  fun i j => IsReal.sum _ _ (fun k _ => IsReal.mul (hx i k) (hw k j))

theorem realMat_scaleAdd {s : EReal} {x z : Fin R → Fin K → EReal} (hs : IsReal s) (hx : RealMat x)
    (hz : RealMat z) : RealMat (scaleAdd s x z) :=
  fun i k => IsReal.add (IsReal.mul hs (hx i k)) (hz i k)

theorem realMat_hcat {K1 K2 : ℕ} {x : Fin R → Fin K1 → EReal} {z : Fin R → Fin K2 → EReal}
    (hx : RealMat x) (hz : RealMat z) : RealMat (hcat x z) := by
  intro i k
  unfold hcat
  split
  · exact hx i _
  · exact hz i _

theorem realMat_bnR {NE : EReal} (hN : IsCount NE R) {g b : Fin D → EReal} (hg : RealVec g)
    (hb : RealVec b) {y : Fin R → Fin D → EReal} (hy : RealMat y) : RealMat (bnR NE g b y) := by
  intro i j
  have hm : IsReal (meanR NE y j) := by
    unfold meanR
    rw [hN.eq]
    exact isReal_colMean (fun i => y i j) (fun i => hy i j) hN.rpos
  have hr : IsReal (rstdR NE y j) := by
    unfold rstdR meanR
    rw [hN.eq]
    exact isReal_colRstd (fun i => y i j) (fun i => hy i j) hN.rpos
  unfold bnR affRelu
  exact IsReal.max (IsReal.add (IsReal.mul (IsReal.mul (IsReal.sub (hy i j) hm) hr) (hg j)) (hb j))
    isReal_zeroE

end generic

/-! ## The two row counts -/

theorem ofBits_4e5 : Ideal.ofBits .f32 0x48C35000#32 = ((400000 : ℝ) : EReal) := by
  simp [Ideal.ofBits, Ideal.ieee, -EReal.coe_mul]; norm_num

theorem ofBits_5e4 : Ideal.ofBits .f32 0x47435000#32 = ((50000 : ℝ) : EReal) := by
  simp [Ideal.ofBits, Ideal.ieee, -EReal.coe_mul]; norm_num

theorem count_edges : IsCount nEdgesE 400000 := by
  have e : nEdgesE = ((400000 : ℝ) : EReal) := ofBits_4e5
  exact ⟨by rw [e, Nat.cast_ofNat], by norm_num⟩

theorem count_nodes : IsCount nNodesE 50000 := by
  have e : nNodesE = ((50000 : ℝ) : EReal) := ofBits_5e4
  exact ⟨by rw [e, Nat.cast_ofNat], by norm_num⟩

/-! ## Down the two pipelines -/

variable (agg1 : (Fin 50000 → Fin 128 → EReal) → (Fin 400000 → Fin 128 → EReal))
variable (agg2 : (Fin 400000 → Fin 128 → EReal) → (Fin 50000 → Fin 128 → EReal))

theorem yL1_eq (x : Inputs) : K.yL1 agg1 x = R.yL1 agg1 x := rfl

theorem realMat_yL1 (h1 : ∀ z, RealMat z → RealMat (agg1 z)) (x : Inputs) (hx : RealInputs x) :
    RealMat (R.yL1 agg1 x) :=
  realMat_mm (realMat_scaleAdd (IsReal.add isReal_oneE hx.eps2) hx.edge (h1 _ hx.node)) hx.Wl1

theorem yL2_eq (h1 : ∀ z, RealMat z → RealMat (agg1 z)) (x : Inputs) (hx : RealInputs x) :
    K.yL2 agg1 x = R.yL2 agg1 x := by
  unfold K.yL2 R.yL2
  rw [yL1_eq, bnK_eq hE count_edges _ _ _ (realMat_yL1 agg1 h1 x hx)]

theorem realMat_yL2 (h1 : ∀ z, RealMat z → RealMat (agg1 z)) (x : Inputs) (hx : RealInputs x) :
    RealMat (R.yL2 agg1 x) :=
  realMat_mm (realMat_bnR count_edges hx.gl1 hx.bl1 (realMat_yL1 agg1 h1 x hx)) hx.Wl2

theorem edgeOut_eq (h1 : ∀ z, RealMat z → RealMat (agg1 z)) (x : Inputs) (hx : RealInputs x) :
    K.edgeOut agg1 x = R.edgeOut agg1 x := by
  unfold K.edgeOut R.edgeOut
  rw [yL2_eq agg1 h1 x hx, bnK_eq hE count_edges _ _ _ (realMat_yL2 agg1 h1 x hx)]

theorem yA_eq (x : Inputs) : K.yA agg1 x = R.yA agg1 x := by
  unfold K.yA R.yA
  rw [mm_hcat]

theorem realMat_yA (h1 : ∀ z, RealMat z → RealMat (agg1 z)) (x : Inputs) (hx : RealInputs x) :
    RealMat (R.yA agg1 x) :=
  realMat_mm (realMat_hcat (h1 _ hx.node) hx.edge) hx.Wa

theorem lvlEdge_eq (h1 : ∀ z, RealMat z → RealMat (agg1 z)) (x : Inputs) (hx : RealInputs x) :
    K.lvlEdge agg1 x = R.lvlEdge agg1 x := by
  unfold K.lvlEdge R.lvlEdge
  rw [yA_eq, bnK_eq hE count_edges _ _ _ (realMat_yA agg1 h1 x hx)]

theorem realMat_lvlEdge (h1 : ∀ z, RealMat z → RealMat (agg1 z)) (x : Inputs) (hx : RealInputs x) :
    RealMat (R.lvlEdge agg1 x) :=
  realMat_bnR count_edges hx.ga hx.ba (realMat_yA agg1 h1 x hx)

theorem yB1_eq (h1 : ∀ z, RealMat z → RealMat (agg1 z)) (x : Inputs) (hx : RealInputs x) :
    K.yB1 agg1 agg2 x = R.yB1 agg1 agg2 x := by
  unfold K.yB1 R.yB1
  rw [lvlEdge_eq agg1 h1 x hx]

theorem realMat_yB1 (h1 : ∀ z, RealMat z → RealMat (agg1 z)) (h2 : ∀ z, RealMat z → RealMat (agg2 z))
    (x : Inputs) (hx : RealInputs x) : RealMat (R.yB1 agg1 agg2 x) :=
  realMat_mm (realMat_scaleAdd (IsReal.add isReal_oneE hx.eps1) hx.node
    (h2 _ (realMat_lvlEdge agg1 h1 x hx))) hx.Wb1

theorem yB2_eq (h1 : ∀ z, RealMat z → RealMat (agg1 z)) (h2 : ∀ z, RealMat z → RealMat (agg2 z))
    (x : Inputs) (hx : RealInputs x) : K.yB2 agg1 agg2 x = R.yB2 agg1 agg2 x := by
  unfold K.yB2 R.yB2
  rw [yB1_eq agg1 agg2 h1 x hx, bnK_eq hN count_nodes _ _ _ (realMat_yB1 agg1 agg2 h1 h2 x hx)]

theorem realMat_yB2 (h1 : ∀ z, RealMat z → RealMat (agg1 z)) (h2 : ∀ z, RealMat z → RealMat (agg2 z))
    (x : Inputs) (hx : RealInputs x) : RealMat (R.yB2 agg1 agg2 x) :=
  realMat_mm (realMat_bnR count_nodes hx.gb1 hx.bb1 (realMat_yB1 agg1 agg2 h1 h2 x hx)) hx.Wb2

theorem nodeOut_eq (h1 : ∀ z, RealMat z → RealMat (agg1 z)) (h2 : ∀ z, RealMat z → RealMat (agg2 z))
    (x : Inputs) (hx : RealInputs x) :
    K.nodeOut agg1 agg2 x = R.nodeOut agg1 agg2 x := by
  unfold K.nodeOut R.nodeOut
  rw [yB2_eq agg1 agg2 h1 h2 x hx, bnK_eq hN count_nodes _ _ _ (realMat_yB2 agg1 agg2 h1 h2 x hx)]

end Cert.BNMath

end
-- ==== Proof.KInputs.lean ====
/- The idealized kernel's twenty arguments, read by coordinates. -/
import proofs.«412927_j30382598652491_3_alg».proof.KernelIdeal
import proofs.«412927_j30382598652491_3_alg».proof.Proof.BNSpec

noncomputable section

namespace Cert.KernelIdeal.KVal

open Idealize.ShloMosaic Idealize.ShloMosaic.TcCoe Cert.KernelIdeal Cert.BNSpec

/-- The arguments in a memory `m`, on core `c`, by coordinates. -/
def inputsOf (m : (ℓ : Loc nD τ sig) → Buf (Elt Ideal) ℓ) (c : Dev nD) : Inputs where
  node := cur2 (n0 := 50000) (n1 := 128) (m ((c.tc : Thread nD τ).loc main_arg0))
  edge := cur2 (n0 := 400000) (n1 := 128) (m ((c.tc : Thread nD τ).loc main_arg1))
  Wa := cur2 (n0 := 256) (n1 := 128) (m ((c.tc : Thread nD τ).loc main_arg3))
  ga := cur1 (n := 128) (m ((c.tc : Thread nD τ).loc main_arg4))
  ba := cur1 (n := 128) (m ((c.tc : Thread nD τ).loc main_arg5))
  Wb1 := cur2 (n0 := 128) (n1 := 256) (m ((c.tc : Thread nD τ).loc main_arg6))
  gb1 := cur1 (n := 256) (m ((c.tc : Thread nD τ).loc main_arg7))
  bb1 := cur1 (n := 256) (m ((c.tc : Thread nD τ).loc main_arg8))
  Wb2 := cur2 (n0 := 256) (n1 := 128) (m ((c.tc : Thread nD τ).loc main_arg9))
  gb2 := cur1 (n := 128) (m ((c.tc : Thread nD τ).loc main_arg10))
  bb2 := cur1 (n := 128) (m ((c.tc : Thread nD τ).loc main_arg11))
  Wl1 := cur2 (n0 := 128) (n1 := 256) (m ((c.tc : Thread nD τ).loc main_arg12))
  gl1 := cur1 (n := 256) (m ((c.tc : Thread nD τ).loc main_arg13))
  bl1 := cur1 (n := 256) (m ((c.tc : Thread nD τ).loc main_arg14))
  Wl2 := cur2 (n0 := 256) (n1 := 128) (m ((c.tc : Thread nD τ).loc main_arg15))
  gl2 := cur1 (n := 128) (m ((c.tc : Thread nD τ).loc main_arg16))
  bl2 := cur1 (n := 128) (m ((c.tc : Thread nD τ).loc main_arg17))
  eps1 := cur0 (m ((c.tc : Thread nD τ).loc main_arg18))
  eps2 := cur0 (m ((c.tc : Thread nD τ).loc main_arg19))

/-- The two rows of incidence indices. -/
abbrev idxOf (m : (ℓ : Loc nD τ sig) → Buf (Elt Ideal) ℓ) (c : Dev nD) : IVec S2x800000 32 :=
  m ((c.tc : Thread nD τ).loc main_arg2)

end Cert.KernelIdeal.KVal

end
-- ==== Proof.KHostAgg.lean ====
/- The two aggregations between nodes and edges, as the host operations compute them: rows gathered at one row of the incidence indices (a negative index wrapped once by the row count) are added into an array of zeros at the other row of indices. Also what the first host stretch makes of the weight matrix (its upper and lower half) and of the two scalars (one plus the scalar, as a one-by-one matrix). Gathering and adding real numbers gives real numbers. -/
import proofs.«412927_j30382598652491_3_alg».proof.Proof.Gen.KernelIdeal.Launch
import proofs.«412927_j30382598652491_3_alg».proof.Proof.BNSpec
import proofs.«412927_j30382598652491_3_alg».proof.Proof.LibERealBatchNorm
import proofs.«412927_j30382598652491_3_alg».proof.Proof.BNMath
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.KHostAgg

open Idealize.ShloMosaic Idealize.ShloMosaic.TcCoe Cert.KernelIdeal Cert.KernelIdeal.Gen Cert.BNSpec
open Idealize.ShloMosaic.Pipeline (Dat Cfg Window)
open scoped BigOperators

/-- Row 0 of the incidence indices. -/
def idxRow0 (idx : IVec S2x800000 32) : IVec S800000 32 :=
  shapeCast S800000 (extractStridedSlice S1x800000 ![0, 0] idx slices_S2x800000_S1x800000_0_0) shapeCasts_S1x800000_S800000
/-- Row 1 of the incidence indices. -/
def idxRow1 (idx : IVec S2x800000 32) : IVec S800000 32 :=
  shapeCast S800000 (extractStridedSlice S1x800000 ![1, 0] idx slices_S2x800000_S1x800000_1_0) shapeCasts_S1x800000_S800000
/-- Node rows gathered at `v1` (a negative index wrapped by 50000), added into zeros at `v3`. -/
def agg1Arr (x : FVec Ideal S50000x128 .f32) (v1 v3 : IVec S800000 32) : FVec Ideal S400000x128 .f32 :=
  Host.scatterAdd scatter_S400000x128_S800000x1_S800000x128_1_0_0_1
    (broadcastInDim S400000x128 ![] bcast_S_S400000x128 (constant S_ .f32 0x00000000#32))
    (broadcastInDim S800000x1 ![0] bcast_S800000_S800000x1_0 v3)
    (Host.gather gather_S50000x128_S800000x1_S800000x128_1_0_n_n_0_1_1128 x
      (broadcastInDim S800000x1 ![0] bcast_S800000_S800000x1_0
        (select (cmpi CmpIPredicate.slt v1 (broadcastInDim S800000 ![] bcast_S_S800000 (constantI S_ 32 0#32)))
          (addi v1 (broadcastInDim S800000 ![] bcast_S_S800000 (constantI S_ 32 50000#32))) v1)))
/-- Edge rows gathered at `v3` (a negative index wrapped by 400000), added into zeros at `v1`. -/
def agg2Arr (x : FVec Ideal S400000x128 .f32) (v1 v3 : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 v1)
    (Host.gather gather_S400000x128_S800000x1_S800000x128_1_0_n_n_0_1_1128 x
      (broadcastInDim S800000x1 ![0] bcast_S800000_S800000x1_0
        (select (cmpi CmpIPredicate.slt v3 (broadcastInDim S800000 ![] bcast_S_S800000 (constantI S_ 32 0#32)))
          (addi v3 (broadcastInDim S800000 ![] bcast_S_S800000 (constantI S_ 32 400000#32))) v3)))

theorem host0_v1 (W : Valuation τ sig (Elt Ideal)) :
    StableHlo.after (hostOps0 (F := Ideal)) W (Proc.devRef .tc main_v1) = idxRow0 (W (Proc.devRef .tc main_arg2)) := by
  -- the stretch writes this buffer once, as the reshaped slice; the reshape's cast is along a true-by-definition equation
  after_results
  rfl
theorem host0_v3 (W : Valuation τ sig (Elt Ideal)) :
    StableHlo.after (hostOps0 (F := Ideal)) W (Proc.devRef .tc main_v3) = idxRow1 (W (Proc.devRef .tc main_arg2)) := by
  after_results
  rfl
set_option maxHeartbeats 1000000 in
theorem host0_lift (W : Valuation τ sig (Elt Ideal)) :
    StableHlo.after (hostOps0 (F := Ideal)) W (Proc.devRef .tc main_v13)
      = agg1Arr (W (Proc.devRef .tc main_arg0)) (idxRow0 (W (Proc.devRef .tc main_arg2))) (idxRow1 (W (Proc.devRef .tc main_arg2))) := by
  -- the composed term holds the two index rows inline, each the reshaped slice that `idxRow0` / `idxRow1` name
  after_results_simp
  rfl
theorem host0_wa1 (W : Valuation τ sig (Elt Ideal)) :
    cur2 (n0 := 128) (n1 := 128) (StableHlo.after (hostOps0 (F := Ideal)) W (Proc.devRef .tc main_v14))
      = topRows (K1 := 128) (K2 := 128) (cur2 (n0 := 256) (n1 := 128) (W (Proc.devRef .tc main_arg3))) := by
  have e : StableHlo.after (hostOps0 (F := Ideal)) W (Proc.devRef .tc main_v14)
      = extractStridedSlice S128x128 ![0, 0] (W (Proc.devRef .tc main_arg3)) slices_S256x128_S128x128_0_0 := by
    after_results
  rw [e]
  funext i j
  -- row `i` of the slice from row 0 is row `0 + i` of the matrix
  exact ValueIdx.slice2_axis0_apply 0 _ _ i j ⟨i.val, by omega⟩ (Nat.zero_add _).symm
theorem host0_wa2 (W : Valuation τ sig (Elt Ideal)) :
    cur2 (n0 := 128) (n1 := 128) (StableHlo.after (hostOps0 (F := Ideal)) W (Proc.devRef .tc main_v15))
      = botRows (K1 := 128) (K2 := 128) (cur2 (n0 := 256) (n1 := 128) (W (Proc.devRef .tc main_arg3))) := by
  have e : StableHlo.after (hostOps0 (F := Ideal)) W (Proc.devRef .tc main_v15)
      = extractStridedSlice S128x128 ![128, 0] (W (Proc.devRef .tc main_arg3)) slices_S256x128_S128x128_128_0 := by
    after_results
  rw [e]
  funext i j
  -- row `i` of the slice from row 128 is row `128 + i` of the matrix
  exact ValueIdx.slice2_axis0_apply 128 _ _ i j ⟨128 + i.val, by omega⟩ rfl

/-- A scalar reshaped to a one-by-one matrix, read at its only entry. -/
theorem scalar_as_1x1 (a : FVec Ideal S_ .f32) :
    shapeCast S1x1 a shapeCasts_S_S1x1 (ValueIdx.ix2 0 0) = a ValueIdx.ix0 :=
  shapeCast_apply a shapeCasts_S_S1x1 (ValueIdx.ix2 0 0) ValueIdx.ix0 (by
    -- both shapes have one entry, so both row-major positions are zero
    have h1 : ∀ (n : ℕ), n = 1 → ∀ p : Fin n, p.val = 0 := by
      intro n hn p; subst hn; exact Fin.val_eq_zero p
    rw [h1 _ (by decide) (S_.rowMajor _), h1 _ (by decide) (S1x1.rowMajor _)])

theorem host0_scale (W : Valuation τ sig (Elt Ideal)) :
    cur2 (n0 := 1) (n1 := 1) (StableHlo.after (hostOps0 (F := Ideal)) W (Proc.devRef .tc main_v17)) 0 0
      = oneE + cur0 (W (Proc.devRef .tc main_arg19)) := by
  have e : StableHlo.after (hostOps0 (F := Ideal)) W (Proc.devRef .tc main_v17)
      = (shapeCast S1x1 (addf (constant (F := Ideal) S_ .f32 0x3F800000#32) (W (Proc.devRef .tc main_arg19))) shapeCasts_S_S1x1 : FVec Ideal S1x1 .f32) := by
    after_results
    rfl
  rw [e]
  exact scalar_as_1x1 _
theorem host4_agg (W : Valuation τ sig (Elt Ideal)) :
    StableHlo.after (hostOps4 (F := Ideal)) W (Proc.devRef .tc main_v91)
      = agg2Arr (W (Proc.devRef .tc main_v39)) (W (Proc.devRef .tc main_v1)) (W (Proc.devRef .tc main_v3)) := by
  after_results_simp
  rfl
theorem host4_scale (W : Valuation τ sig (Elt Ideal)) :
    cur2 (n0 := 1) (n1 := 1) (StableHlo.after (hostOps4 (F := Ideal)) W (Proc.devRef .tc main_v93)) 0 0
      = oneE + cur0 (W (Proc.devRef .tc main_arg18)) := by
  have e : StableHlo.after (hostOps4 (F := Ideal)) W (Proc.devRef .tc main_v93)
      = (shapeCast S1x1 (addf (constant (F := Ideal) S_ .f32 0x3F800000#32) (W (Proc.devRef .tc main_arg18))) shapeCasts_S_S1x1 : FVec Ideal S1x1 .f32) := by
    after_results
    rfl
  rw [e]
  exact scalar_as_1x1 _

/-- An accumulating scatter into zeros of rows gathered from real numbers: each entry is zero plus a finite sum of
    entries of the source. -/
theorem scatter_gather_real {s si u sg : Shape} {w w' : Nat} (d : ScatterDims s si u) (g : GatherDims sg si u)
    (x : FVec Ideal sg .f32) (z : FVec Ideal s .f32) (idx : IVec si w) (idx' : IVec si w')
    (hz : ∀ i, Cert.ERealBN.IsReal (z i)) (hx : ∀ i, Cert.ERealBN.IsReal (x i)) :
    ∀ i, Cert.ERealBN.IsReal (Host.scatterAdd d z idx (Host.gather g x idx') i) := by
  intro i
  show Cert.ERealBN.IsReal (z i + ∑ j ∈ Finset.univ.filter (fun j => d.resultIdx? j idx = some i), x (g.operandIdx j idx'))
  exact Cert.ERealBN.IsReal.add (hz i) (Cert.ERealBN.IsReal.sum _ _ fun j _ => hx _)

/-- The array of zeros is real. -/
theorem zeros_real {t : Shape} (h : S_.BroadcastsInDim t ![]) :
    ∀ i, Cert.ERealBN.IsReal (broadcastInDim t ![] h (constant (F := Ideal) S_ .f32 0x00000000#32) i) := by
  intro i
  show Cert.ERealBN.IsReal (Ideal.ofBits .f32 0x00000000#32)
  rw [Cert.ERealBN.ofBits_zero]
  exact Cert.ERealBN.IsReal.zero

theorem agg1Arr_real (x : FVec Ideal S50000x128 .f32) (v1 v3 : IVec S800000 32) (hx : ∀ i, Cert.ERealBN.IsReal (x i)) :
    ∀ i, Cert.ERealBN.IsReal (agg1Arr x v1 v3 i) :=
  scatter_gather_real _ _ x _ _ _ (zeros_real _) hx
theorem agg2Arr_real (x : FVec Ideal S400000x128 .f32) (v1 v3 : IVec S800000 32) (hx : ∀ i, Cert.ERealBN.IsReal (x i)) :
    ∀ i, Cert.ERealBN.IsReal (agg2Arr x v1 v3 i) :=
  scatter_gather_real _ _ x _ _ _ (zeros_real _) hx

/-- The aggregations as functions of matrices read by coordinates. -/
def agg1 (idx : IVec S2x800000 32) : (Fin 50000 → Fin 128 → EReal) → (Fin 400000 → Fin 128 → EReal) :=
  fun z => cur2 (n0 := 400000) (n1 := 128) (agg1Arr (unc2 z) (idxRow0 idx) (idxRow1 idx))
def agg2 (idx : IVec S2x800000 32) : (Fin 400000 → Fin 128 → EReal) → (Fin 50000 → Fin 128 → EReal) :=
  fun z => cur2 (n0 := 50000) (n1 := 128) (agg2Arr (unc2 z) (idxRow0 idx) (idxRow1 idx))

theorem agg1_real (idx : IVec S2x800000 32) : ∀ z, Cert.BNMath.RealMat z → Cert.BNMath.RealMat (agg1 idx z) :=
  fun z hz i j => agg1Arr_real (unc2 z) (idxRow0 idx) (idxRow1 idx) (fun k => hz (k 0) (k 1)) (ValueIdx.ix2 i j)
theorem agg2_real (idx : IVec S2x800000 32) : ∀ z, Cert.BNMath.RealMat z → Cert.BNMath.RealMat (agg2 idx z) :=
  fun z hz i j => agg2Arr_real (unc2 z) (idxRow0 idx) (idxRow1 idx) (fun k => hz (k 0) (k 1)) (ValueIdx.ix2 i j)

end Cert.KernelIdeal.KHostAgg

end
-- ==== Proof.KHostStats.lean ====
/- What the host operations between the calls compute from a call's per-tile statistics: a column's mean as the sum of the tiles' sums over the row count; the reciprocal deviation as the reciprocal square root of (the tiles' sums of squares over the row count, minus the mean squared, clipped at zero, plus the small constant); and the gain and offset vectors re-laid as one-row matrices. -/
import proofs.«412927_j30382598652491_3_alg».proof.Proof.Gen.KernelIdeal.Launch
import proofs.«412927_j30382598652491_3_alg».proof.Proof.BNSpec
import Idealize.ShloMosaic.Lib.ValueIdx
import Idealize.ShloMosaic.Lib.StableHlo.Run
import Idealize.ShloMosaic.PureOps.Ideal.Laws
import Idealize.ShloMosaic.Lib.IdealHost
import Idealize.ShloMosaic.Lib.ValueLayout

set_option maxRecDepth 16384

noncomputable section

namespace Cert.KernelIdeal.KHostStats

open Idealize.ShloMosaic Idealize.ShloMosaic.TcCoe Cert.KernelIdeal Cert.KernelIdeal.Gen Cert.BNSpec
open Idealize.ShloMosaic.Pipeline (Dat Cfg Window)
open scoped BigOperators

/-! ## The pieces of a host stretch, for any tile count and width -/

section Pieces

variable {T D : ℕ}

/-- Over the result index `(k, j)` of a sum over the first axis of a `[T, 2, D]` array, the source index with
    first coordinate `t` is `(t, k, j)`. -/
theorem lift_first (hr : (⟨3, ![T, 2, D]⟩ : Shape).Reduces [0] ⟨2, ![2, D]⟩) (k : Fin 2) (j : Fin D) (t : Fin T) :
    hr.lift (ValueIdx.ix2 k j) t = ValueIdx.ix3 t k j := by
  funext c
  apply Fin.ext
  match c with
  | ⟨0, _⟩ => rfl
  | ⟨1, _⟩ => rfl
  | ⟨2, _⟩ => rfl

/-- The host's sum of a `[T, 2, D]` array over its first axis, read at `(k, j)`: the initial value plus the sum over `t`
    of the entries `(t, k, j)`. -/
theorem reduce_first_apply (x : (⟨3, ![T, 2, D]⟩ : Shape).Idx → EReal) (w : BitVec 32)
    (h' : (⟨3, ![T, 2, D]⟩ : Shape).ReducesTo [0] ⟨2, ![2, D]⟩) (hr : (⟨3, ![T, 2, D]⟩ : Shape).Reduces [0] ⟨2, ![2, D]⟩)
    (hu : 0 < (⟨0, ![]⟩ : Shape).numel) (k : Fin 2) (j : Fin D) :
    Host.reduceAdd (F := Ideal) (φ := .f32) x (constant (F := Ideal) ⟨0, ![]⟩ .f32 w) h' hu (ValueIdx.ix2 k j)
      = Ideal.ofBits .f32 w + ∑ t : Fin T, x (ValueIdx.ix3 t k j) := by
  refine (ValueIdx.hostReduceAdd_apply x _ h' hu _).trans ?_
  refine (Ideal.hostReduceAdd_single h' hr x _ _).trans ?_
  exact congrArg (Ideal.ofBits .f32 w + ·) (Finset.sum_congr rfl fun t _ => congrArg x (lift_first hr k j t))

/-- Row `k` of that sum, re-laid as a vector and divided entrywise by a broadcast constant, read at `j`. -/
theorem row_div_apply (x : (⟨3, ![T, 2, D]⟩ : Shape).Idx → EReal) (w nw : BitVec 32)
    (h' : (⟨3, ![T, 2, D]⟩ : Shape).ReducesTo [0] ⟨2, ![2, D]⟩) (hr : (⟨3, ![T, 2, D]⟩ : Shape).Reduces [0] ⟨2, ![2, D]⟩)
    (hu : 0 < (⟨0, ![]⟩ : Shape).numel) (o : ℕ)
    (sl : (⟨2, ![2, D]⟩ : Shape).Slices ![o, 0] ⟨2, ![1, D]⟩)
    (sc : (⟨2, ![1, D]⟩ : Shape).ShapeCasts ⟨1, ![D]⟩)
    (bc : (⟨0, ![]⟩ : Shape).BroadcastsInDim ⟨1, ![D]⟩ ![])
    (k : Fin 2) (hk : k.val = o) (j : Fin D) :
    Host.divf (F := Ideal) (φ := .f32)
        (fun i => shapeCast ⟨1, ![D]⟩
          (extractStridedSlice ⟨2, ![1, D]⟩ ![o, 0]
            (Host.reduceAdd (F := Ideal) (φ := .f32) x (constant (F := Ideal) ⟨0, ![]⟩ .f32 w) h' hu) sl) sc i)
        (broadcastInDim ⟨1, ![D]⟩ ![] bc (constant (F := Ideal) ⟨0, ![]⟩ .f32 nw)) (ValueIdx.ix1 j)
      = Ideal.div (Ideal.ofBits .f32 w + ∑ t : Fin T, x (ValueIdx.ix3 t k j)) (Ideal.ofBits .f32 nw) := by
  refine (ValueIdx.hostDivf_apply _ _ _).trans ?_
  refine congrArg₂ Ideal.div ?_ ?_
  · refine (ValueIdx.shapeCast_1a_a_apply _ sc j).trans ?_
    refine (ValueIdx.slice2_axis0_apply o _ sl (0 : Fin 1) j k (by rw [hk]; rfl)).trans ?_
    exact reduce_first_apply x w h' hr hu k j
  · exact ValueIdx.broadcastInDim_scalar_apply bc _ _

/-- The reciprocal deviation's vector read at `j`: from the vector `q` of mean squares and the vector `m` of means,
    the reciprocal square root of `max (q − m·m, c₀) + c₁` with `c₀`, `c₁` broadcast constants. -/
theorem rstd_vec_apply (q m : (⟨1, ![D]⟩ : Shape).Idx → EReal) (w0 we : BitVec 32)
    (bc : (⟨0, ![]⟩ : Shape).BroadcastsInDim ⟨1, ![D]⟩ ![]) (j : Fin D) :
    Host.rsqrt (F := Ideal) (φ := .f32)
        (addf (F := Ideal) (φ := .f32)
          (maximumf (F := Ideal) (φ := .f32) (subf (F := Ideal) (φ := .f32) q (mulf (F := Ideal) (φ := .f32) m m))
            (broadcastInDim ⟨1, ![D]⟩ ![] bc (constant (F := Ideal) ⟨0, ![]⟩ .f32 w0)))
          (broadcastInDim ⟨1, ![D]⟩ ![] bc (constant (F := Ideal) ⟨0, ![]⟩ .f32 we))) (ValueIdx.ix1 j)
      = Ideal.rsqrt (max (q (ValueIdx.ix1 j) - m (ValueIdx.ix1 j) * m (ValueIdx.ix1 j)) (Ideal.ofBits .f32 w0) + Ideal.ofBits .f32 we) := by
  show Ideal.rsqrt (max (q (ValueIdx.ix1 j) - m (ValueIdx.ix1 j) * m (ValueIdx.ix1 j))
        (broadcastInDim ⟨1, ![D]⟩ ![] bc (constant (F := Ideal) ⟨0, ![]⟩ .f32 w0) (ValueIdx.ix1 j))
      + broadcastInDim ⟨1, ![D]⟩ ![] bc (constant (F := Ideal) ⟨0, ![]⟩ .f32 we) (ValueIdx.ix1 j)) = _
  rw [ValueIdx.broadcastInDim_scalar_apply bc, ValueIdx.broadcastInDim_scalar_apply bc]
  rfl

end Pieces

/-! ## The five stretches -/

/-- Stretch 1: the mean's one-row matrix at `(0, j)` is the sum over the tiles of row 0 of the statistics, from zero,
    over the row count. -/
theorem host1_mean_apply (W : Valuation τ sig (Elt Ideal)) (j : Fin 128) :
    cur2 (n0 := 1) (n1 := 128) (StableHlo.after (hostOps1 (F := Ideal)) W (Proc.devRef .tc main_v35)) 0 j
      = Ideal.div (zeroE + ∑ t : Fin 80, cur3 (n0 := 80) (n1 := 2) (n2 := 128) (W (Proc.devRef .tc main_v18_1)) t 0 j) nEdgesE := by
  show StableHlo.after (hostOps1 (F := Ideal)) W (Proc.devRef .tc main_v35) (ValueIdx.ix2 0 j) = _
  after_results_simp
  refine (ValueIdx.shapeCast_a_1a_apply _ _ 0 j).trans ?_
  exact row_div_apply (W (Proc.devRef .tc main_v18_1)) _ _ _ (by decide) _ 0 _ _ _ 0 rfl j

/-- Stretch 1: the reciprocal deviation's one-row matrix at `(0, j)`, from rows 1 and 0 of the statistics. -/
theorem host1_rstd_apply (W : Valuation τ sig (Elt Ideal)) (j : Fin 128) :
    cur2 (n0 := 1) (n1 := 128) (StableHlo.after (hostOps1 (F := Ideal)) W (Proc.devRef .tc main_v36)) 0 j
      = Ideal.rsqrt (max
          (Ideal.div (zeroE + ∑ t : Fin 80, cur3 (n0 := 80) (n1 := 2) (n2 := 128) (W (Proc.devRef .tc main_v18_1)) t 1 j) nEdgesE
            - Ideal.div (zeroE + ∑ t : Fin 80, cur3 (n0 := 80) (n1 := 2) (n2 := 128) (W (Proc.devRef .tc main_v18_1)) t 0 j) nEdgesE
              * Ideal.div (zeroE + ∑ t : Fin 80, cur3 (n0 := 80) (n1 := 2) (n2 := 128) (W (Proc.devRef .tc main_v18_1)) t 0 j) nEdgesE)
          zeroE + epsE) := by
  show StableHlo.after (hostOps1 (F := Ideal)) W (Proc.devRef .tc main_v36) (ValueIdx.ix2 0 j) = _
  after_results_simp
  refine (ValueIdx.shapeCast_a_1a_apply _ _ 0 j).trans ?_
  refine (rstd_vec_apply _ _ _ _ _ j).trans ?_
  refine congrArg₂ (fun q m => Ideal.rsqrt (max (q - m * m) zeroE + epsE)) ?_ ?_
  · exact row_div_apply (W (Proc.devRef .tc main_v18_1)) _ _ _ (by decide) _ 1 _ _ _ 1 rfl j
  · exact row_div_apply (W (Proc.devRef .tc main_v18_1)) _ _ _ (by decide) _ 0 _ _ _ 0 rfl j

theorem host1_stats (W : Valuation τ sig (Elt Ideal)) (y : Fin 400000 → Fin 128 → EReal)
    (h0 : ∀ t j, cur3 (n0 := 80) (n1 := 2) (n2 := 128) (W (Proc.devRef .tc main_v18_1)) t 0 j = tileSum hE y t j)
    (h1 : ∀ t j, cur3 (n0 := 80) (n1 := 2) (n2 := 128) (W (Proc.devRef .tc main_v18_1)) t 1 j = tileSumSq hE y t j) :
    cur2 (n0 := 1) (n1 := 128) (StableHlo.after (hostOps1 (F := Ideal)) W (Proc.devRef .tc main_v35)) 0 = meanK hE nEdgesE y
    ∧ cur2 (n0 := 1) (n1 := 128) (StableHlo.after (hostOps1 (F := Ideal)) W (Proc.devRef .tc main_v36)) 0 = rstdK hE nEdgesE y := by
  have e0 : ∀ j, (∑ t : Fin 80, cur3 (n0 := 80) (n1 := 2) (n2 := 128) (W (Proc.devRef .tc main_v18_1)) t 0 j) = ∑ t : Fin 80, tileSum hE y t j :=
    fun j => Finset.sum_congr rfl fun t _ => h0 t j
  have e1 : ∀ j, (∑ t : Fin 80, cur3 (n0 := 80) (n1 := 2) (n2 := 128) (W (Proc.devRef .tc main_v18_1)) t 1 j) = ∑ t : Fin 80, tileSumSq hE y t j :=
    fun j => Finset.sum_congr rfl fun t _ => h1 t j
  refine ⟨funext fun j => ?_, funext fun j => ?_⟩
  · rw [host1_mean_apply, e0]; rfl
  · rw [host1_rstd_apply, e0, e1]; rfl

theorem host1_g (W : Valuation τ sig (Elt Ideal)) :
    cur2 (n0 := 1) (n1 := 128) (StableHlo.after (hostOps1 (F := Ideal)) W (Proc.devRef .tc main_v37)) 0 = cur1 (n := 128) (W (Proc.devRef .tc main_arg4)) := by
  funext j
  show StableHlo.after (hostOps1 (F := Ideal)) W (Proc.devRef .tc main_v37) (ValueIdx.ix2 0 j) = _
  after_results_simp
  exact ValueIdx.shapeCast_a_1a_apply _ _ 0 j

theorem host1_b (W : Valuation τ sig (Elt Ideal)) :
    cur2 (n0 := 1) (n1 := 128) (StableHlo.after (hostOps1 (F := Ideal)) W (Proc.devRef .tc main_v38)) 0 = cur1 (n := 128) (W (Proc.devRef .tc main_arg5)) := by
  funext j
  show StableHlo.after (hostOps1 (F := Ideal)) W (Proc.devRef .tc main_v38) (ValueIdx.ix2 0 j) = _
  after_results_simp
  exact ValueIdx.shapeCast_a_1a_apply _ _ 0 j

/-- Stretch 2: the mean's one-row matrix at `(0, j)` is the sum over the tiles of row 0 of the statistics, from zero,
    over the row count. -/
theorem host2_mean_apply (W : Valuation τ sig (Elt Ideal)) (j : Fin 256) :
    cur2 (n0 := 1) (n1 := 256) (StableHlo.after (hostOps2 (F := Ideal)) W (Proc.devRef .tc main_v56)) 0 j
      = Ideal.div (zeroE + ∑ t : Fin 80, cur3 (n0 := 80) (n1 := 2) (n2 := 256) (W (Proc.devRef .tc main_v18_3)) t 0 j) nEdgesE := by
  show StableHlo.after (hostOps2 (F := Ideal)) W (Proc.devRef .tc main_v56) (ValueIdx.ix2 0 j) = _
  after_results_simp
  refine (ValueIdx.shapeCast_a_1a_apply _ _ 0 j).trans ?_
  exact row_div_apply (W (Proc.devRef .tc main_v18_3)) _ _ _ (by decide) _ 0 _ _ _ 0 rfl j

/-- Stretch 2: the reciprocal deviation's one-row matrix at `(0, j)`, from rows 1 and 0 of the statistics. -/
theorem host2_rstd_apply (W : Valuation τ sig (Elt Ideal)) (j : Fin 256) :
    cur2 (n0 := 1) (n1 := 256) (StableHlo.after (hostOps2 (F := Ideal)) W (Proc.devRef .tc main_v57)) 0 j
      = Ideal.rsqrt (max
          (Ideal.div (zeroE + ∑ t : Fin 80, cur3 (n0 := 80) (n1 := 2) (n2 := 256) (W (Proc.devRef .tc main_v18_3)) t 1 j) nEdgesE
            - Ideal.div (zeroE + ∑ t : Fin 80, cur3 (n0 := 80) (n1 := 2) (n2 := 256) (W (Proc.devRef .tc main_v18_3)) t 0 j) nEdgesE
              * Ideal.div (zeroE + ∑ t : Fin 80, cur3 (n0 := 80) (n1 := 2) (n2 := 256) (W (Proc.devRef .tc main_v18_3)) t 0 j) nEdgesE)
          zeroE + epsE) := by
  show StableHlo.after (hostOps2 (F := Ideal)) W (Proc.devRef .tc main_v57) (ValueIdx.ix2 0 j) = _
  after_results_simp
  refine (ValueIdx.shapeCast_a_1a_apply _ _ 0 j).trans ?_
  refine (rstd_vec_apply _ _ _ _ _ j).trans ?_
  refine congrArg₂ (fun q m => Ideal.rsqrt (max (q - m * m) zeroE + epsE)) ?_ ?_
  · exact row_div_apply (W (Proc.devRef .tc main_v18_3)) _ _ _ (by decide) _ 1 _ _ _ 1 rfl j
  · exact row_div_apply (W (Proc.devRef .tc main_v18_3)) _ _ _ (by decide) _ 0 _ _ _ 0 rfl j

theorem host2_stats (W : Valuation τ sig (Elt Ideal)) (y : Fin 400000 → Fin 256 → EReal)
    (h0 : ∀ t j, cur3 (n0 := 80) (n1 := 2) (n2 := 256) (W (Proc.devRef .tc main_v18_3)) t 0 j = tileSum hE y t j)
    (h1 : ∀ t j, cur3 (n0 := 80) (n1 := 2) (n2 := 256) (W (Proc.devRef .tc main_v18_3)) t 1 j = tileSumSq hE y t j) :
    cur2 (n0 := 1) (n1 := 256) (StableHlo.after (hostOps2 (F := Ideal)) W (Proc.devRef .tc main_v56)) 0 = meanK hE nEdgesE y
    ∧ cur2 (n0 := 1) (n1 := 256) (StableHlo.after (hostOps2 (F := Ideal)) W (Proc.devRef .tc main_v57)) 0 = rstdK hE nEdgesE y := by
  have e0 : ∀ j, (∑ t : Fin 80, cur3 (n0 := 80) (n1 := 2) (n2 := 256) (W (Proc.devRef .tc main_v18_3)) t 0 j) = ∑ t : Fin 80, tileSum hE y t j :=
    fun j => Finset.sum_congr rfl fun t _ => h0 t j
  have e1 : ∀ j, (∑ t : Fin 80, cur3 (n0 := 80) (n1 := 2) (n2 := 256) (W (Proc.devRef .tc main_v18_3)) t 1 j) = ∑ t : Fin 80, tileSumSq hE y t j :=
    fun j => Finset.sum_congr rfl fun t _ => h1 t j
  refine ⟨funext fun j => ?_, funext fun j => ?_⟩
  · rw [host2_mean_apply, e0]; rfl
  · rw [host2_rstd_apply, e0, e1]; rfl

theorem host2_g (W : Valuation τ sig (Elt Ideal)) :
    cur2 (n0 := 1) (n1 := 256) (StableHlo.after (hostOps2 (F := Ideal)) W (Proc.devRef .tc main_v58)) 0 = cur1 (n := 256) (W (Proc.devRef .tc main_arg13)) := by
  funext j
  show StableHlo.after (hostOps2 (F := Ideal)) W (Proc.devRef .tc main_v58) (ValueIdx.ix2 0 j) = _
  after_results_simp
  exact ValueIdx.shapeCast_a_1a_apply _ _ 0 j

theorem host2_b (W : Valuation τ sig (Elt Ideal)) :
    cur2 (n0 := 1) (n1 := 256) (StableHlo.after (hostOps2 (F := Ideal)) W (Proc.devRef .tc main_v59)) 0 = cur1 (n := 256) (W (Proc.devRef .tc main_arg14)) := by
  funext j
  show StableHlo.after (hostOps2 (F := Ideal)) W (Proc.devRef .tc main_v59) (ValueIdx.ix2 0 j) = _
  after_results_simp
  exact ValueIdx.shapeCast_a_1a_apply _ _ 0 j

/-- Stretch 3: the mean's one-row matrix at `(0, j)` is the sum over the tiles of row 0 of the statistics, from zero,
    over the row count. -/
theorem host3_mean_apply (W : Valuation τ sig (Elt Ideal)) (j : Fin 128) :
    cur2 (n0 := 1) (n1 := 128) (StableHlo.after (hostOps3 (F := Ideal)) W (Proc.devRef .tc main_v77)) 0 j
      = Ideal.div (zeroE + ∑ t : Fin 80, cur3 (n0 := 80) (n1 := 2) (n2 := 128) (W (Proc.devRef .tc main_v60_1)) t 0 j) nEdgesE := by
  show StableHlo.after (hostOps3 (F := Ideal)) W (Proc.devRef .tc main_v77) (ValueIdx.ix2 0 j) = _
  after_results_simp
  refine (ValueIdx.shapeCast_a_1a_apply _ _ 0 j).trans ?_
  exact row_div_apply (W (Proc.devRef .tc main_v60_1)) _ _ _ (by decide) _ 0 _ _ _ 0 rfl j

/-- Stretch 3: the reciprocal deviation's one-row matrix at `(0, j)`, from rows 1 and 0 of the statistics. -/
theorem host3_rstd_apply (W : Valuation τ sig (Elt Ideal)) (j : Fin 128) :
    cur2 (n0 := 1) (n1 := 128) (StableHlo.after (hostOps3 (F := Ideal)) W (Proc.devRef .tc main_v78)) 0 j
      = Ideal.rsqrt (max
          (Ideal.div (zeroE + ∑ t : Fin 80, cur3 (n0 := 80) (n1 := 2) (n2 := 128) (W (Proc.devRef .tc main_v60_1)) t 1 j) nEdgesE
            - Ideal.div (zeroE + ∑ t : Fin 80, cur3 (n0 := 80) (n1 := 2) (n2 := 128) (W (Proc.devRef .tc main_v60_1)) t 0 j) nEdgesE
              * Ideal.div (zeroE + ∑ t : Fin 80, cur3 (n0 := 80) (n1 := 2) (n2 := 128) (W (Proc.devRef .tc main_v60_1)) t 0 j) nEdgesE)
          zeroE + epsE) := by
  show StableHlo.after (hostOps3 (F := Ideal)) W (Proc.devRef .tc main_v78) (ValueIdx.ix2 0 j) = _
  after_results_simp
  refine (ValueIdx.shapeCast_a_1a_apply _ _ 0 j).trans ?_
  refine (rstd_vec_apply _ _ _ _ _ j).trans ?_
  refine congrArg₂ (fun q m => Ideal.rsqrt (max (q - m * m) zeroE + epsE)) ?_ ?_
  · exact row_div_apply (W (Proc.devRef .tc main_v60_1)) _ _ _ (by decide) _ 1 _ _ _ 1 rfl j
  · exact row_div_apply (W (Proc.devRef .tc main_v60_1)) _ _ _ (by decide) _ 0 _ _ _ 0 rfl j

theorem host3_stats (W : Valuation τ sig (Elt Ideal)) (y : Fin 400000 → Fin 128 → EReal)
    (h0 : ∀ t j, cur3 (n0 := 80) (n1 := 2) (n2 := 128) (W (Proc.devRef .tc main_v60_1)) t 0 j = tileSum hE y t j)
    (h1 : ∀ t j, cur3 (n0 := 80) (n1 := 2) (n2 := 128) (W (Proc.devRef .tc main_v60_1)) t 1 j = tileSumSq hE y t j) :
    cur2 (n0 := 1) (n1 := 128) (StableHlo.after (hostOps3 (F := Ideal)) W (Proc.devRef .tc main_v77)) 0 = meanK hE nEdgesE y
    ∧ cur2 (n0 := 1) (n1 := 128) (StableHlo.after (hostOps3 (F := Ideal)) W (Proc.devRef .tc main_v78)) 0 = rstdK hE nEdgesE y := by
  have e0 : ∀ j, (∑ t : Fin 80, cur3 (n0 := 80) (n1 := 2) (n2 := 128) (W (Proc.devRef .tc main_v60_1)) t 0 j) = ∑ t : Fin 80, tileSum hE y t j :=
    fun j => Finset.sum_congr rfl fun t _ => h0 t j
  have e1 : ∀ j, (∑ t : Fin 80, cur3 (n0 := 80) (n1 := 2) (n2 := 128) (W (Proc.devRef .tc main_v60_1)) t 1 j) = ∑ t : Fin 80, tileSumSq hE y t j :=
    fun j => Finset.sum_congr rfl fun t _ => h1 t j
  refine ⟨funext fun j => ?_, funext fun j => ?_⟩
  · rw [host3_mean_apply, e0]; rfl
  · rw [host3_rstd_apply, e0, e1]; rfl

theorem host3_g (W : Valuation τ sig (Elt Ideal)) :
    cur2 (n0 := 1) (n1 := 128) (StableHlo.after (hostOps3 (F := Ideal)) W (Proc.devRef .tc main_v79)) 0 = cur1 (n := 128) (W (Proc.devRef .tc main_arg16)) := by
  funext j
  show StableHlo.after (hostOps3 (F := Ideal)) W (Proc.devRef .tc main_v79) (ValueIdx.ix2 0 j) = _
  after_results_simp
  exact ValueIdx.shapeCast_a_1a_apply _ _ 0 j

theorem host3_b (W : Valuation τ sig (Elt Ideal)) :
    cur2 (n0 := 1) (n1 := 128) (StableHlo.after (hostOps3 (F := Ideal)) W (Proc.devRef .tc main_v80)) 0 = cur1 (n := 128) (W (Proc.devRef .tc main_arg17)) := by
  funext j
  show StableHlo.after (hostOps3 (F := Ideal)) W (Proc.devRef .tc main_v80) (ValueIdx.ix2 0 j) = _
  after_results_simp
  exact ValueIdx.shapeCast_a_1a_apply _ _ 0 j

/-- Stretch 5: the mean's one-row matrix at `(0, j)` is the sum over the tiles of row 0 of the statistics, from zero,
    over the row count. -/
theorem host5_mean_apply (W : Valuation τ sig (Elt Ideal)) (j : Fin 256) :
    cur2 (n0 := 1) (n1 := 256) (StableHlo.after (hostOps5 (F := Ideal)) W (Proc.devRef .tc main_v111)) 0 j
      = Ideal.div (zeroE + ∑ t : Fin 10, cur3 (n0 := 10) (n1 := 2) (n2 := 256) (W (Proc.devRef .tc main_v94_1)) t 0 j) nNodesE := by
  show StableHlo.after (hostOps5 (F := Ideal)) W (Proc.devRef .tc main_v111) (ValueIdx.ix2 0 j) = _
  after_results_simp
  refine (ValueIdx.shapeCast_a_1a_apply _ _ 0 j).trans ?_
  exact row_div_apply (W (Proc.devRef .tc main_v94_1)) _ _ _ (by decide) _ 0 _ _ _ 0 rfl j

/-- Stretch 5: the reciprocal deviation's one-row matrix at `(0, j)`, from rows 1 and 0 of the statistics. -/
theorem host5_rstd_apply (W : Valuation τ sig (Elt Ideal)) (j : Fin 256) :
    cur2 (n0 := 1) (n1 := 256) (StableHlo.after (hostOps5 (F := Ideal)) W (Proc.devRef .tc main_v112)) 0 j
      = Ideal.rsqrt (max
          (Ideal.div (zeroE + ∑ t : Fin 10, cur3 (n0 := 10) (n1 := 2) (n2 := 256) (W (Proc.devRef .tc main_v94_1)) t 1 j) nNodesE
            - Ideal.div (zeroE + ∑ t : Fin 10, cur3 (n0 := 10) (n1 := 2) (n2 := 256) (W (Proc.devRef .tc main_v94_1)) t 0 j) nNodesE
              * Ideal.div (zeroE + ∑ t : Fin 10, cur3 (n0 := 10) (n1 := 2) (n2 := 256) (W (Proc.devRef .tc main_v94_1)) t 0 j) nNodesE)
          zeroE + epsE) := by
  show StableHlo.after (hostOps5 (F := Ideal)) W (Proc.devRef .tc main_v112) (ValueIdx.ix2 0 j) = _
  after_results_simp
  refine (ValueIdx.shapeCast_a_1a_apply _ _ 0 j).trans ?_
  refine (rstd_vec_apply _ _ _ _ _ j).trans ?_
  refine congrArg₂ (fun q m => Ideal.rsqrt (max (q - m * m) zeroE + epsE)) ?_ ?_
  · exact row_div_apply (W (Proc.devRef .tc main_v94_1)) _ _ _ (by decide) _ 1 _ _ _ 1 rfl j
  · exact row_div_apply (W (Proc.devRef .tc main_v94_1)) _ _ _ (by decide) _ 0 _ _ _ 0 rfl j

theorem host5_stats (W : Valuation τ sig (Elt Ideal)) (y : Fin 50000 → Fin 256 → EReal)
    (h0 : ∀ t j, cur3 (n0 := 10) (n1 := 2) (n2 := 256) (W (Proc.devRef .tc main_v94_1)) t 0 j = tileSum hN y t j)
    (h1 : ∀ t j, cur3 (n0 := 10) (n1 := 2) (n2 := 256) (W (Proc.devRef .tc main_v94_1)) t 1 j = tileSumSq hN y t j) :
    cur2 (n0 := 1) (n1 := 256) (StableHlo.after (hostOps5 (F := Ideal)) W (Proc.devRef .tc main_v111)) 0 = meanK hN nNodesE y
    ∧ cur2 (n0 := 1) (n1 := 256) (StableHlo.after (hostOps5 (F := Ideal)) W (Proc.devRef .tc main_v112)) 0 = rstdK hN nNodesE y := by
  have e0 : ∀ j, (∑ t : Fin 10, cur3 (n0 := 10) (n1 := 2) (n2 := 256) (W (Proc.devRef .tc main_v94_1)) t 0 j) = ∑ t : Fin 10, tileSum hN y t j :=
    fun j => Finset.sum_congr rfl fun t _ => h0 t j
  have e1 : ∀ j, (∑ t : Fin 10, cur3 (n0 := 10) (n1 := 2) (n2 := 256) (W (Proc.devRef .tc main_v94_1)) t 1 j) = ∑ t : Fin 10, tileSumSq hN y t j :=
    fun j => Finset.sum_congr rfl fun t _ => h1 t j
  refine ⟨funext fun j => ?_, funext fun j => ?_⟩
  · rw [host5_mean_apply, e0]; rfl
  · rw [host5_rstd_apply, e0, e1]; rfl

theorem host5_g (W : Valuation τ sig (Elt Ideal)) :
    cur2 (n0 := 1) (n1 := 256) (StableHlo.after (hostOps5 (F := Ideal)) W (Proc.devRef .tc main_v113)) 0 = cur1 (n := 256) (W (Proc.devRef .tc main_arg7)) := by
  funext j
  show StableHlo.after (hostOps5 (F := Ideal)) W (Proc.devRef .tc main_v113) (ValueIdx.ix2 0 j) = _
  after_results_simp
  exact ValueIdx.shapeCast_a_1a_apply _ _ 0 j

theorem host5_b (W : Valuation τ sig (Elt Ideal)) :
    cur2 (n0 := 1) (n1 := 256) (StableHlo.after (hostOps5 (F := Ideal)) W (Proc.devRef .tc main_v114)) 0 = cur1 (n := 256) (W (Proc.devRef .tc main_arg8)) := by
  funext j
  show StableHlo.after (hostOps5 (F := Ideal)) W (Proc.devRef .tc main_v114) (ValueIdx.ix2 0 j) = _
  after_results_simp
  exact ValueIdx.shapeCast_a_1a_apply _ _ 0 j

/-- Stretch 6: the mean's one-row matrix at `(0, j)` is the sum over the tiles of row 0 of the statistics, from zero,
    over the row count. -/
theorem host6_mean_apply (W : Valuation τ sig (Elt Ideal)) (j : Fin 128) :
    cur2 (n0 := 1) (n1 := 128) (StableHlo.after (hostOps6 (F := Ideal)) W (Proc.devRef .tc main_v132)) 0 j
      = Ideal.div (zeroE + ∑ t : Fin 10, cur3 (n0 := 10) (n1 := 2) (n2 := 128) (W (Proc.devRef .tc main_v115_1)) t 0 j) nNodesE := by
  show StableHlo.after (hostOps6 (F := Ideal)) W (Proc.devRef .tc main_v132) (ValueIdx.ix2 0 j) = _
  after_results_simp
  refine (ValueIdx.shapeCast_a_1a_apply _ _ 0 j).trans ?_
  exact row_div_apply (W (Proc.devRef .tc main_v115_1)) _ _ _ (by decide) _ 0 _ _ _ 0 rfl j

/-- Stretch 6: the reciprocal deviation's one-row matrix at `(0, j)`, from rows 1 and 0 of the statistics. -/
theorem host6_rstd_apply (W : Valuation τ sig (Elt Ideal)) (j : Fin 128) :
    cur2 (n0 := 1) (n1 := 128) (StableHlo.after (hostOps6 (F := Ideal)) W (Proc.devRef .tc main_v133)) 0 j
      = Ideal.rsqrt (max
          (Ideal.div (zeroE + ∑ t : Fin 10, cur3 (n0 := 10) (n1 := 2) (n2 := 128) (W (Proc.devRef .tc main_v115_1)) t 1 j) nNodesE
            - Ideal.div (zeroE + ∑ t : Fin 10, cur3 (n0 := 10) (n1 := 2) (n2 := 128) (W (Proc.devRef .tc main_v115_1)) t 0 j) nNodesE
              * Ideal.div (zeroE + ∑ t : Fin 10, cur3 (n0 := 10) (n1 := 2) (n2 := 128) (W (Proc.devRef .tc main_v115_1)) t 0 j) nNodesE)
          zeroE + epsE) := by
  show StableHlo.after (hostOps6 (F := Ideal)) W (Proc.devRef .tc main_v133) (ValueIdx.ix2 0 j) = _
  after_results_simp
  refine (ValueIdx.shapeCast_a_1a_apply _ _ 0 j).trans ?_
  refine (rstd_vec_apply _ _ _ _ _ j).trans ?_
  refine congrArg₂ (fun q m => Ideal.rsqrt (max (q - m * m) zeroE + epsE)) ?_ ?_
  · exact row_div_apply (W (Proc.devRef .tc main_v115_1)) _ _ _ (by decide) _ 1 _ _ _ 1 rfl j
  · exact row_div_apply (W (Proc.devRef .tc main_v115_1)) _ _ _ (by decide) _ 0 _ _ _ 0 rfl j

theorem host6_stats (W : Valuation τ sig (Elt Ideal)) (y : Fin 50000 → Fin 128 → EReal)
    (h0 : ∀ t j, cur3 (n0 := 10) (n1 := 2) (n2 := 128) (W (Proc.devRef .tc main_v115_1)) t 0 j = tileSum hN y t j)
    (h1 : ∀ t j, cur3 (n0 := 10) (n1 := 2) (n2 := 128) (W (Proc.devRef .tc main_v115_1)) t 1 j = tileSumSq hN y t j) :
    cur2 (n0 := 1) (n1 := 128) (StableHlo.after (hostOps6 (F := Ideal)) W (Proc.devRef .tc main_v132)) 0 = meanK hN nNodesE y
    ∧ cur2 (n0 := 1) (n1 := 128) (StableHlo.after (hostOps6 (F := Ideal)) W (Proc.devRef .tc main_v133)) 0 = rstdK hN nNodesE y := by
  have e0 : ∀ j, (∑ t : Fin 10, cur3 (n0 := 10) (n1 := 2) (n2 := 128) (W (Proc.devRef .tc main_v115_1)) t 0 j) = ∑ t : Fin 10, tileSum hN y t j :=
    fun j => Finset.sum_congr rfl fun t _ => h0 t j
  have e1 : ∀ j, (∑ t : Fin 10, cur3 (n0 := 10) (n1 := 2) (n2 := 128) (W (Proc.devRef .tc main_v115_1)) t 1 j) = ∑ t : Fin 10, tileSumSq hN y t j :=
    fun j => Finset.sum_congr rfl fun t _ => h1 t j
  refine ⟨funext fun j => ?_, funext fun j => ?_⟩
  · rw [host6_mean_apply, e0]; rfl
  · rw [host6_rstd_apply, e0, e1]; rfl

theorem host6_g (W : Valuation τ sig (Elt Ideal)) :
    cur2 (n0 := 1) (n1 := 128) (StableHlo.after (hostOps6 (F := Ideal)) W (Proc.devRef .tc main_v134)) 0 = cur1 (n := 128) (W (Proc.devRef .tc main_arg10)) := by
  funext j
  show StableHlo.after (hostOps6 (F := Ideal)) W (Proc.devRef .tc main_v134) (ValueIdx.ix2 0 j) = _
  after_results_simp
  exact ValueIdx.shapeCast_a_1a_apply _ _ 0 j

theorem host6_b (W : Valuation τ sig (Elt Ideal)) :
    cur2 (n0 := 1) (n1 := 128) (StableHlo.after (hostOps6 (F := Ideal)) W (Proc.devRef .tc main_v135)) 0 = cur1 (n := 128) (W (Proc.devRef .tc main_arg11)) := by
  funext j
  show StableHlo.after (hostOps6 (F := Ideal)) W (Proc.devRef .tc main_v135) (ValueIdx.ix2 0 j) = _
  after_results_simp
  exact ValueIdx.shapeCast_a_1a_apply _ _ 0 j

end Cert.KernelIdeal.KHostStats

end
-- ==== Proof.KRegFusedA.lean ====
/- What the first call leaves in its first two outputs: the sum of the two half products (aggregated node rows times the upper half of the weight matrix, edge rows times the lower half), and per row tile the column sums of that matrix and of its squares. -/
import proofs.«412927_j30382598652491_3_alg».proof.Proof.Gen.KernelIdeal.Frame
import proofs.«412927_j30382598652491_3_alg».proof.Proof.BNSpec
import Idealize.ShloMosaic.PureOps.Ideal.Laws
import Idealize.ShloMosaic.Lib.ValueIdx
import Idealize.ShloMosaic.Lib.Pipeline.Value

set_option maxRecDepth 16384

noncomputable section

namespace Cert.KernelIdeal.KRegFused

open Idealize.ShloMosaic Idealize.ShloMosaic.TcCoe Cert.KernelIdeal Cert.KernelIdeal.Gen Cert.BNSpec
open Idealize.ShloMosaic.Pipeline (Dat Cfg Window)
open scoped BigOperators

/-! ## The product of a row block with a square weight matrix, read at a row and a column -/

private theorem A_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem A_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem A_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem A_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into the zero matrix, at row `p` and column `q`: the sum over the shared axis. -/
theorem A_matmul_apply (x : FVec Ideal S5000x128 .f32) (w : FVec Ideal S128x128 .f32) (p : Fin 5000) (q : Fin 128) :
    matmul dot_S5000x128_S128x128_S5000x128_1_0_0_1_n_n (some .fp32) x w (constant (F := Ideal) S5000x128 .f32 0x00000000#32) (ValueIdx.ix2 p q)
      = ∑ k : Fin 128, x (ValueIdx.ix2 p k) * w (ValueIdx.ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact A_lhs_0 _ _
    | ⟨1, _⟩ => exact (A_lhs_1 _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (A_rhs_0 _ _).trans hk
    | ⟨1, _⟩ => exact A_rhs_1 _ _)
  rw [el, er]

/-- The sum of the two half products, at a row and a column. -/
theorem A_pay3_apply (x0 x1 : Vec Ideal S5000x128 .f32) (w1 w2 : Vec Ideal S128x128 .f32) (p : Fin 5000) (q : Fin 128) :
    k0_pay3 (F := Ideal) x0 x1 w1 w2 (ValueIdx.ix2 p q)
      = (∑ k : Fin 128, x0 (ValueIdx.ix2 p k) * w1 (ValueIdx.ix2 k q)) + ∑ k : Fin 128, x1 (ValueIdx.ix2 p k) * w2 (ValueIdx.ix2 k q) := by
  unfold k0_pay3 k0_pay2
  simp only [shapeCast_self]
  rw [ValueIdx.addf_apply, A_matmul_apply, A_matmul_apply]

/-! ## The column sums of a row block and of its squares, read at a column -/

/-- A column's sum over the 5000 rows of a block. -/
private theorem A_colsum_apply (y : FVec Ideal S5000x128 .f32) (hacc : (0x00000000#32 : BitVec 32) = 0x00000000#32) (j : Fin 128) :
    multiReduction (F := Ideal) .add [0] S128 y 0x00000000#32 reduces_S5000x128_S128 (.inl rfl) hacc (ValueIdx.ix1 j)
      = ∑ r : Fin 5000, y (ValueIdx.ix2 r j) := by
  refine (Ideal.multiReduction_add_single y 0x00000000#32 reduces_S5000x128_S128 (.inl rfl) hacc (ValueIdx.ix1 j)).trans ?_
  refine Finset.sum_congr rfl fun r _ => congrArg y (funext fun a => Fin.ext ?_)
  match a with
  | ⟨0, _⟩ => rfl
  | ⟨1, _⟩ => rfl

/-- A vector of 128 entries viewed as one row, read at that row's column `j`. -/
private theorem A_row_apply (v : FVec Ideal S128 .f32) (j : Fin 128) :
    shapeCast S1x128 v shapeCasts_S128_S1x128 (ValueIdx.ix2 (0 : Fin 1) j) = v (ValueIdx.ix1 j) := by
  refine (shapeCast_addUnit_apply _ v _ _).trans (congrArg v (funext fun a => ?_))
  match a with
  | ⟨0, _⟩ => rfl

/-- Two rows stacked and viewed as one 1×2×128 block: the upper row. -/
private theorem A_stack_apply0 (u v : FVec Ideal S1x128 .f32) (j : Fin 128) :
    shapeCast S1x2x128 (concatenate S2x128 0 [⟨S1x128, u⟩, ⟨S1x128, v⟩] concatenates_S1x128_S1x128_S2x128_d0) shapeCasts_S2x128_S1x2x128
      (ValueIdx.ix3 (0 : Fin 1) (0 : Fin 2) j) = u (ValueIdx.ix2 (0 : Fin 1) j) := by
  refine (shapeCast_addUnit_apply _ _ _ _).trans ?_
  refine concatenate_pair_apply_left (0 : Fin S2x128.rank) u v concatenates_S1x128_S1x128_S2x128_d0 _ rfl (ValueIdx.ix2 (0 : Fin 1) j) fun b => ?_
  match b with
  | ⟨0, _⟩ => rfl
  | ⟨1, _⟩ => rfl

/-- … and the lower row. -/
private theorem A_stack_apply1 (u v : FVec Ideal S1x128 .f32) (j : Fin 128) :
    shapeCast S1x2x128 (concatenate S2x128 0 [⟨S1x128, u⟩, ⟨S1x128, v⟩] concatenates_S1x128_S1x128_S2x128_d0) shapeCasts_S2x128_S1x2x128
      (ValueIdx.ix3 (0 : Fin 1) (1 : Fin 2) j) = v (ValueIdx.ix2 (0 : Fin 1) j) := by
  refine (shapeCast_addUnit_apply _ _ _ _).trans ?_
  refine concatenate_pair_apply_right (0 : Fin S2x128.rank) u v concatenates_S1x128_S1x128_S2x128_d0 _ rfl rfl (ValueIdx.ix2 (0 : Fin 1) j) (fun b hb => ?_) rfl
  match b with
  | ⟨0, _⟩ => exact absurd rfl hb
  | ⟨1, _⟩ => rfl

/-- The statistics block of a row tile: row 0 the column sums of the tile's product matrix, row 1 those of its squares. -/
theorem A_pay5_apply (x0 x1 : Vec Ideal S5000x128 .f32) (w1 w2 : Vec Ideal S128x128 .f32) (j : Fin 128) :
    k0_pay5 (F := Ideal) x0 x1 w1 w2 (ValueIdx.ix3 (0 : Fin 1) (0 : Fin 2) j)
        = ∑ r : Fin 5000, k0_pay3 (F := Ideal) x0 x1 w1 w2 (ValueIdx.ix2 r j)
    ∧ k0_pay5 (F := Ideal) x0 x1 w1 w2 (ValueIdx.ix3 (0 : Fin 1) (1 : Fin 2) j)
        = ∑ r : Fin 5000, k0_pay3 (F := Ideal) x0 x1 w1 w2 (ValueIdx.ix2 r j) * k0_pay3 (F := Ideal) x0 x1 w1 w2 (ValueIdx.ix2 r j) := by
  unfold k0_pay5
  generalize k0_pay3 (F := Ideal) x0 x1 w1 w2 = y
  constructor
  · refine (A_stack_apply0 _ _ j).trans ((A_row_apply _ j).trans (A_colsum_apply y rfl j))
  · refine (A_stack_apply1 _ _ j).trans ((A_row_apply _ j).trans ((A_colsum_apply _ rfl j).trans ?_))
    rfl

/-! ## From a tile to the whole matrix -/

variable (V : (c : Dev nD) → (b : Ref sig .tc) → Buf (Elt Ideal) ((c : Thread nD τ).loc b))

/-- The first matrix call 0 computes, of the region's entry contents. -/
abbrev yA0 (c : Dev nD) : Fin 400000 → Fin 128 → EReal := fun i j =>
  mm (cur2 (n0 := 400000) (n1 := 128) (V c (Pipeline.arrRef spec0 0))) (cur2 (n0 := 128) (n1 := 128) (V c (Pipeline.arrRef spec0 2))) i j
  + mm (cur2 (n0 := 400000) (n1 := 128) (V c (Pipeline.arrRef spec0 1))) (cur2 (n0 := 128) (n1 := 128) (V c (Pipeline.arrRef spec0 3))) i j

private theorem A_hz2 : (![0, 0] : Fin 2 → Nat) = fun _ => 0 := funext fun a => by fin_cases a <;> rfl
private theorem A_hz3 : (![0, 0, 0] : Fin 3 → Nat) = fun _ => 0 := funext fun a => by fin_cases a <;> rfl

/-- The index maps, decided over the 80 points: the two row-tiled inputs and the two outputs sit at the point's own tile,
    the weight matrices at their one block. -/
private theorem A_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_6.index t (0 : Fin 2) = t.val ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- A tile's entry of the summed products is the whole matrix's entry at the tile's row, when the tile's operands are
    the rows of the whole operands there. -/
private theorem A_tile_val (A0 A1 : S400000x128.Idx → EReal) (W1 W2 : S128x128.Idx → EReal)
    (x0 x1 : Vec Ideal S5000x128 .f32) (w1 w2 : Vec Ideal S128x128 .f32) (R : Fin 400000) (p : Fin 5000) (q : Fin 128)
    (h0 : ∀ k : Fin 128, x0 (ValueIdx.ix2 p k) = A0 (ValueIdx.ix2 R k)) (h1 : ∀ k : Fin 128, x1 (ValueIdx.ix2 p k) = A1 (ValueIdx.ix2 R k))
    (h2 : ∀ k : Fin 128, w1 (ValueIdx.ix2 k q) = W1 (ValueIdx.ix2 k q)) (h3 : ∀ k : Fin 128, w2 (ValueIdx.ix2 k q) = W2 (ValueIdx.ix2 k q)) :
    k0_pay3 (F := Ideal) x0 x1 w1 w2 (ValueIdx.ix2 p q)
      = mm (cur2 (n0 := 400000) (n1 := 128) A0) (cur2 (n0 := 128) (n1 := 128) W1) R q + mm (cur2 (n0 := 400000) (n1 := 128) A1) (cur2 (n0 := 128) (n1 := 128) W2) R q := by
  rw [A_pay3_apply]
  unfold mm
  simp only [h0, h1, h2, h3]

/-- At point `t` the body's summed products, at row `p` and column `q` of the tile, are the whole matrix's entry at row
    `5000 t + p`: the row-tiled operands' blocks are rows `5000 t …` of their arrays, the weights' blocks the weights. -/
private theorem A_tile_entry (c : Dev nD) (t : Fin cfg0.N) (p : Fin 5000) (q : Fin 128) (hR : t.val * 5000 + p.val < 400000) :
    k0_pay3 (F := Ideal) (iblk0 V c 0 t) (iblk0 V c 1 t) (iblk0 V c 2 t) (iblk0 V c 3 t) (ValueIdx.ix2 p q)
      = yA0 V c ⟨t.val * 5000 + p.val, hR⟩ q := by
  obtain ⟨e00, e01, e10, e11, e20, e21, e30, e31, -, -, -, -, -⟩ := A_idx_facts t
  have hq : q.val < 128 := q.isLt
  refine A_tile_val (V c (Pipeline.arrRef spec0 0)) (V c (Pipeline.arrRef spec0 1)) (V c (Pipeline.arrRef spec0 2)) (V c (Pipeline.arrRef spec0 3))
      (iblk0 V c 0 t) (iblk0 V c 1 t) (iblk0 V c 2 t) (iblk0 V c 3 t) ⟨t.val * 5000 + p.val, hR⟩ p q
      (fun k => ?_) (fun k => ?_) (fun k => ?_) (fun k => ?_)
  · show V c (Pipeline.arrRef spec0 0) (((cfg0.win 0).blk t).view.emb (ValueIdx.ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c (Pipeline.arrRef spec0 1) (((cfg0.win 1).blk t).view.emb (ValueIdx.ix2 p k)) = _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  · show V c (Pipeline.arrRef spec0 2) (((cfg0.win 2).blk t).view.emb (ValueIdx.ix2 k q)) = _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · show V c (Pipeline.arrRef spec0 3) (((cfg0.win 3).blk t).view.emb (ValueIdx.ix2 k q)) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega

/-! ## Window 6: the matrix itself -/

/-- What point `t` writes back to window 6 is tile `t` of the matrix (the change of float format is the identity on the
    extended reals). -/
private theorem A_flushed6_eq (c : Dev nD) (t : Fin cfg0.N) :
    (dat0 (F := Ideal) V c).flushed 6 t = ((cfg0.win 6).blk t).view.read (Elt Ideal) (unc2 (yA0 V c)) := by
  show (cfg0.win 6).cut (grid0.coords t) ((dat0 (F := Ideal) V c).after 6 t) = _
  rw [after0_6]
  unfold out0_6
  rw [View.canon_unit_zero A_hz2]
  simp only [View.ld_unit_zero (S := S5000x128) A_hz2, View.ld_unit_zero (S := S128x128) A_hz2]
  obtain ⟨-, -, -, -, -, -, -, -, e60, e61, -, -, -⟩ := A_idx_facts t
  have hN : t.val < 80 := lt_of_lt_of_eq t.isLt N_0
  funext j
  have hj0 : (j 0).val < 5000 := (j 0).isLt
  have hj1 : (j 1).val < 128 := (j 1).isLt
  show k0_pay3 (F := Ideal) (iblk0 V c 0 t) (iblk0 V c 1 t) (iblk0 V c 2 t) (iblk0 V c 3 t) j = unc2 (yA0 V c) (((cfg0.win 6).blk t).view.emb j)
  have hR : t.val * 5000 + (j 0).val < 400000 := by omega
  refine ((congrArg (k0_pay3 (F := Ideal) (iblk0 V c 0 t) (iblk0 V c 1 t) (iblk0 V c 2 t) (iblk0 V c 3 t)) (ValueIdx.eq_ix2 j)).trans
    (A_tile_entry V c t (j 0) (j 1) hR)).trans ?_
  show yA0 V c ⟨t.val * 5000 + (j 0).val, hR⟩ (j 1) = yA0 V c ((((cfg0.win 6).blk t).view.emb j) 0) ((((cfg0.win 6).blk t).view.emb j) 1)
  have r0 : (⟨t.val * 5000 + (j 0).val, hR⟩ : Fin 400000) = (((cfg0.win 6).blk t).view.emb j) 0 :=
    Fin.ext (by show t.val * 5000 + (j 0).val = win0_6.index t (0 : Fin 2) * 5000 + 1 * (j 0).val; omega)
  have r1 : (j 1 : Fin 128) = (((cfg0.win 6).blk t).view.emb j) 1 :=
    Fin.ext (by show (j 1).val = win0_6.index t (1 : Fin 2) * 128 + 1 * (j 1).val; omega)
  rw [r0, r1]

/-- An index of the matrix is in point `t`'s block iff each coordinate is in the block's range on its axis. -/
private theorem A_mem_blk6 (t : Fin cfg0.N) (i : S400000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v18_0).slice (win0_6.rect t)).set ↔ _
  rw [View.set_slice_whole, Rect.mem_set_unit]
  exact Iff.rfl

/-- Row `r` is in the block of point `r / 5000`. -/
private theorem A_cover6 (i : S400000x128.Idx) :
    ∃ t : Fin cfg0.N, (cfg0.win 6).flush t = true ∧ i ∈ ((cfg0.win 6).blk t).view.set := by
  have hi0 : (i 0).val < 400000 := (i 0).isLt
  have hi1 : (i 1).val < 128 := (i 1).isLt
  have ht : (i 0).val / 5000 < cfg0.N := lt_of_lt_of_eq (by omega) N_0.symm
  obtain ⟨-, -, -, -, -, -, -, -, e60, e61, -, -, -⟩ := A_idx_facts ⟨(i 0).val / 5000, ht⟩
  have e60' : win0_6.index ⟨(i 0).val / 5000, ht⟩ (0 : Fin 2) = (i 0).val / 5000 := e60
  refine ⟨⟨(i 0).val / 5000, ht⟩, flush0_6 _, ?_⟩
  rw [A_mem_blk6]
  intro a
  match a with
  | ⟨0, _⟩ => show win0_6.index ⟨(i 0).val / 5000, ht⟩ (0 : Fin 2) * 5000 ≤ (i 0).val ∧ (i 0).val < win0_6.index ⟨(i 0).val / 5000, ht⟩ (0 : Fin 2) * 5000 + 5000; omega
  | ⟨1, _⟩ => show win0_6.index ⟨(i 0).val / 5000, ht⟩ (1 : Fin 2) * 128 ≤ (i 1).val ∧ (i 1).val < win0_6.index ⟨(i 0).val / 5000, ht⟩ (1 : Fin 2) * 128 + 128; omega

theorem reg0_yA (c : Dev nD) :
    cur2 (n0 := 400000) (n1 := 128) ((dat0 (F := Ideal) V c).arrAt 6 cfg0.N) = yA0 V c := by
  have h := (dat0 (F := Ideal) V c).arrAt_eq_of_cover 6 (unc2 (yA0 V c)) (fun t _ => A_flushed6_eq V c t) A_cover6
  rw [h]
  rfl

/-! ## Window 7: per tile, the column sums and the column sums of squares -/

/-- A function of three coordinates as an array. -/
private def A_unc3 (z : Fin 80 → Fin 2 → Fin 128 → EReal) : S80x2x128.Idx → EReal := fun i => z (i 0) (i 1) (i 2)

/-- The statistics: for tile `t`, row 0 holds the column sums of the tile of the matrix, row 1 those of its squares. -/
private def A_stat (c : Dev nD) : Fin 80 → Fin 2 → Fin 128 → EReal := fun t h j =>
  if h.val = 0 then tileSum hE (yA0 V c) t j else tileSumSq hE (yA0 V c) t j

/-- What point `t` writes back to window 7 is block `t` of the statistics. -/
private theorem A_flushed7_eq (c : Dev nD) (t : Fin cfg0.N) :
    (dat0 (F := Ideal) V c).flushed 7 t = ((cfg0.win 7).blk t).view.read (Elt Ideal) (A_unc3 (A_stat V c)) := by
  show (cfg0.win 7).cut (grid0.coords t) ((dat0 (F := Ideal) V c).after 7 t) = _
  rw [after0_7]
  unfold out0_7
  rw [View.canon_unit_zero A_hz3]
  simp only [View.ld_unit_zero (S := S5000x128) A_hz2, View.ld_unit_zero (S := S128x128) A_hz2]
  obtain ⟨-, -, -, -, -, -, -, -, -, -, e70, e71, e72⟩ := A_idx_facts t
  have hN : t.val < 80 := lt_of_lt_of_eq t.isLt N_0
  funext j
  have hj0 : (j 0).val < 1 := (j 0).isLt
  have hj1 : (j 1).val < 2 := (j 1).isLt
  have hj2 : (j 2).val < 128 := (j 2).isLt
  show k0_pay5 (F := Ideal) (iblk0 V c 0 t) (iblk0 V c 1 t) (iblk0 V c 2 t) (iblk0 V c 3 t) j
    = A_stat V c ((((cfg0.win 7).blk t).view.emb j) 0) ((((cfg0.win 7).blk t).view.emb j) 1) ((((cfg0.win 7).blk t).view.emb j) 2)
  obtain ⟨s0, s1⟩ := A_pay5_apply (iblk0 V c 0 t) (iblk0 V c 1 t) (iblk0 V c 2 t) (iblk0 V c 3 t) (j 2)
  have r0 : (⟨t.val, hN⟩ : Fin 80) = (((cfg0.win 7).blk t).view.emb j) 0 :=
    Fin.ext (by show t.val = win0_7.index t (0 : Fin 3) * 1 + 1 * (j 0).val; omega)
  have r2 : (j 2 : Fin 128) = (((cfg0.win 7).blk t).view.emb j) 2 :=
    Fin.ext (by show (j 2).val = win0_7.index t (2 : Fin 3) * 128 + 1 * (j 2).val; omega)
  have r1 : ((((cfg0.win 7).blk t).view.emb j) 1).val = (j 1).val := by
    show win0_7.index t (1 : Fin 3) * 2 + 1 * (j 1).val = (j 1).val; omega
  rw [← r0, ← r2]
  unfold A_stat
  by_cases h1 : (j 1).val = 0
  · rw [if_pos (r1.trans h1)]
    have hj : j = ValueIdx.ix3 (0 : Fin 1) (0 : Fin 2) (j 2) := funext fun a => Fin.ext (by
      match a with
      | ⟨0, _⟩ => show (j 0).val = 0; omega
      | ⟨1, _⟩ => exact h1
      | ⟨2, _⟩ => rfl)
    refine ((congrArg (k0_pay5 (F := Ideal) (iblk0 V c 0 t) (iblk0 V c 1 t) (iblk0 V c 2 t) (iblk0 V c 3 t)) hj).trans s0).trans ?_
    unfold tileSum
    refine Finset.sum_congr rfl fun r _ => ?_
    have hr : r.val < 5000 := r.isLt
    exact A_tile_entry V c t r (j 2) (by omega)
  · rw [if_neg (fun h => h1 (r1.symm.trans h))]
    have hj : j = ValueIdx.ix3 (0 : Fin 1) (1 : Fin 2) (j 2) := funext fun a => Fin.ext (by
      match a with
      | ⟨0, _⟩ => show (j 0).val = 0; omega
      | ⟨1, _⟩ => show (j 1).val = 1; omega
      | ⟨2, _⟩ => rfl)
    refine ((congrArg (k0_pay5 (F := Ideal) (iblk0 V c 0 t) (iblk0 V c 1 t) (iblk0 V c 2 t) (iblk0 V c 3 t)) hj).trans s1).trans ?_
    unfold tileSumSq
    refine Finset.sum_congr rfl fun r _ => ?_
    have hr : r.val < 5000 := r.isLt
    rw [A_tile_entry V c t r (j 2) (by omega)]
    rfl

/-- An index of the statistics array is in point `t`'s block iff each coordinate is in the block's range on its axis. -/
private theorem A_mem_blk7 (t : Fin cfg0.N) (i : S80x2x128.Idx) :
    i ∈ ((cfg0.win 7).blk t).view.set ↔ ∀ a : Fin 3, win0_7.index t a * S1x2x128.size a ≤ (i a).val ∧ (i a).val < win0_7.index t a * S1x2x128.size a + S1x2x128.size a := by
  show i ∈ ((View.whole main_v18_1).slice (win0_7.rect t)).set ↔ _
  rw [View.set_slice_whole, Rect.mem_set_unit]
  exact Iff.rfl

/-- Tile `t`'s two rows are the block of point `t`. -/
private theorem A_cover7 (i : S80x2x128.Idx) :
    ∃ t : Fin cfg0.N, (cfg0.win 7).flush t = true ∧ i ∈ ((cfg0.win 7).blk t).view.set := by
  have hi0 : (i 0).val < 80 := (i 0).isLt
  have hi1 : (i 1).val < 2 := (i 1).isLt
  have hi2 : (i 2).val < 128 := (i 2).isLt
  have ht : (i 0).val < cfg0.N := lt_of_lt_of_eq hi0 N_0.symm
  obtain ⟨-, -, -, -, -, -, -, -, -, -, e70, e71, e72⟩ := A_idx_facts ⟨(i 0).val, ht⟩
  have e70' : win0_7.index ⟨(i 0).val, ht⟩ (0 : Fin 3) = (i 0).val := e70
  refine ⟨⟨(i 0).val, ht⟩, flush0_7 _, ?_⟩
  rw [A_mem_blk7]
  intro a
  match a with
  | ⟨0, _⟩ => show win0_7.index ⟨(i 0).val, ht⟩ (0 : Fin 3) * 1 ≤ (i 0).val ∧ (i 0).val < win0_7.index ⟨(i 0).val, ht⟩ (0 : Fin 3) * 1 + 1; omega
  | ⟨1, _⟩ => show win0_7.index ⟨(i 0).val, ht⟩ (1 : Fin 3) * 2 ≤ (i 1).val ∧ (i 1).val < win0_7.index ⟨(i 0).val, ht⟩ (1 : Fin 3) * 2 + 2; omega
  | ⟨2, _⟩ => show win0_7.index ⟨(i 0).val, ht⟩ (2 : Fin 3) * 128 ≤ (i 2).val ∧ (i 2).val < win0_7.index ⟨(i 0).val, ht⟩ (2 : Fin 3) * 128 + 128; omega

theorem reg0_statsA (c : Dev nD) (t : Fin 80) (j : Fin 128) :
    cur3 (n0 := 80) (n1 := 2) (n2 := 128) ((dat0 (F := Ideal) V c).arrAt 7 cfg0.N) t 0 j = tileSum hE (yA0 V c) t j
    ∧ cur3 (n0 := 80) (n1 := 2) (n2 := 128) ((dat0 (F := Ideal) V c).arrAt 7 cfg0.N) t 1 j = tileSumSq hE (yA0 V c) t j := by
  have h := (dat0 (F := Ideal) V c).arrAt_eq_of_cover 7 (A_unc3 (A_stat V c)) (fun t _ => A_flushed7_eq V c t) A_cover7
  rw [h]
  constructor
  · show A_stat V c t 0 j = _
    unfold A_stat
    exact if_pos rfl
  · show A_stat V c t 1 j = _
    unfold A_stat
    exact if_neg (by decide)

end Cert.KernelIdeal.KRegFused

end
-- ==== Proof.KRegFusedL.lean ====
/- What the first call leaves in its last two outputs: the product of (scale times the edge rows plus the aggregated node rows) with the second weight matrix, and per row tile the column sums of that product and of its squares. -/
import proofs.«412927_j30382598652491_3_alg».proof.Proof.Gen.KernelIdeal.Frame
import proofs.«412927_j30382598652491_3_alg».proof.Proof.BNSpec
import Idealize.ShloMosaic.Lib.ValueIdx
import Idealize.ShloMosaic.Lib.Pipeline.Value
import Idealize.ShloMosaic.PureOps.Ideal.Laws

set_option maxRecDepth 16384

noncomputable section

namespace Cert.KernelIdeal.KRegFused

open Idealize.ShloMosaic Idealize.ShloMosaic.TcCoe Cert.KernelIdeal Cert.KernelIdeal.Gen Cert.BNSpec
open Idealize.ShloMosaic.Pipeline (Dat Cfg Window)
open scoped BigOperators

/-! ## The product read at a row and a column

The contraction runs over the 128 columns of the left factor and the 128 rows of the right one: the left factor is
read at (row, k) and the right one at (k, column). -/

private theorem L_lhs_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
private theorem L_lhs_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
private theorem L_rhs_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
private theorem L_rhs_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- A product into the zero matrix, at row `p` and column `q`: the sum over `k` of left (p, k) times right (k, q). -/
private theorem L_mm_apply (a : FVec Ideal S5000x128 .f32) (w : FVec Ideal S128x256 .f32) (p : Fin 5000) (q : Fin 256) :
    matmul dot_S5000x128_S128x256_S5000x256_1_0_0_1_n_n (some .fp32) a w (constant (F := Ideal) S5000x256 .f32 0x00000000#32) (ValueIdx.ix2 p q)
      = ∑ k : Fin 128, a (ValueIdx.ix2 p k) * w (ValueIdx.ix2 k q) := by
  simp only [matmul]
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ValueIdx.ix2 p q) ((ValueIdx.contrEquiv1 dot_S5000x128_S128x256_S5000x256_1_0_0_1_n_n 128 rfl rfl).symm k) = ValueIdx.ix2 p k := funext fun a => Fin.ext (by
    match a with
    | ⟨0, _⟩ => exact L_lhs_0 _ _
    | ⟨1, _⟩ => exact (L_lhs_1 _ _).trans hk)
  have er : dot_S5000x128_S128x256_S5000x256_1_0_0_1_n_n.rhsIdx (ValueIdx.ix2 p q) ((ValueIdx.contrEquiv1 dot_S5000x128_S128x256_S5000x256_1_0_0_1_n_n 128 rfl rfl).symm k) = ValueIdx.ix2 k q := funext fun a => Fin.ext (by
    match a with
    | ⟨0, _⟩ => exact (L_rhs_0 _ _).trans hk
    | ⟨1, _⟩ => exact L_rhs_1 _ _)
  rw [el, er]

/-- The one entry of the [1,1] block. -/
private theorem L_scalar (x4 : Vec Ideal S1x1 .f32) :
    extractAt ![0, 0] (shapeCast S1x1 x4 shapeCasts_S1x1_S1x1) inpos_S1x1_p0_0 = x4 (ValueIdx.ix2 (0 : Fin 1) (0 : Fin 1)) := by
  rw [shapeCast_self]
  exact congrArg x4 (funext fun a => Fin.ext (by match a with | ⟨0, _⟩ => rfl | ⟨1, _⟩ => rfl))

/-- The body's product at row `p` and column `q` of the tile: the sum over `k` of (scale times the edge block plus the
    aggregated block) at (p, k) times the weights at (k, q). -/
private theorem L_pay6_apply (x0 x1 : Vec Ideal S5000x128 .f32) (x4 : Vec Ideal S1x1 .f32) (x5 : Vec Ideal S128x256 .f32) (p : Fin 5000) (q : Fin 256) :
    k0_pay6 (F := Ideal) x0 x1 x4 x5 (ValueIdx.ix2 p q)
      = ∑ k : Fin 128, (x4 (ValueIdx.ix2 (0 : Fin 1) (0 : Fin 1)) * x1 (ValueIdx.ix2 p k) + x0 (ValueIdx.ix2 p k)) * x5 (ValueIdx.ix2 k q) := by
  unfold k0_pay6 k0_pay2
  refine (L_mm_apply _ _ p q).trans ?_
  refine Finset.sum_congr rfl fun k _ => ?_
  rw [ValueIdx.addf_apply, ValueIdx.mulf_apply, ValueIdx.broadcast_apply, L_scalar, shapeCast_self]

/-- The stored block is that product (the change of float format does nothing to an ideal value). -/
private theorem L_pay7_apply (x0 x1 : Vec Ideal S5000x128 .f32) (x4 : Vec Ideal S1x1 .f32) (x5 : Vec Ideal S128x256 .f32) (p : Fin 5000) (q : Fin 256) :
    k0_pay7 (F := Ideal) x0 x1 x4 x5 (ValueIdx.ix2 p q)
      = ∑ k : Fin 128, (x4 (ValueIdx.ix2 (0 : Fin 1) (0 : Fin 1)) * x1 (ValueIdx.ix2 p k) + x0 (ValueIdx.ix2 p k)) * x5 (ValueIdx.ix2 k q) := by
  unfold k0_pay7
  exact L_pay6_apply x0 x1 x4 x5 p q

variable (V : (c : Dev nD) → (b : Ref sig .tc) → Buf (Elt Ideal) ((c : Thread nD τ).loc b))

/-- The second matrix call 0 computes, of the region's entry contents. -/
abbrev yL0 (c : Dev nD) : Fin 400000 → Fin 256 → EReal :=
  mm (scaleAdd (cur2 (n0 := 1) (n1 := 1) (V c (Pipeline.arrRef spec0 4)) 0 0) (cur2 (n0 := 400000) (n1 := 128) (V c (Pipeline.arrRef spec0 1)))
        (cur2 (n0 := 400000) (n1 := 128) (V c (Pipeline.arrRef spec0 0))))
     (cur2 (n0 := 128) (n1 := 256) (V c (Pipeline.arrRef spec0 5)))

/-! ## From a tile's blocks to the arrays

At tile `t` the two row-tiled inputs and the two outputs sit at block `t` along the rows; the scalar and the weights are
whole. A block's coordinate is the block index times the block's extent plus the coordinate inside the block. -/

private theorem L_hz2 : (![0, 0] : Fin 2 → Nat) = fun _ => 0 := funext fun a => by fin_cases a <;> rfl
private theorem L_hz3 : (![0, 0, 0] : Fin 3 → Nat) = fun _ => 0 := funext fun a => by fin_cases a <;> rfl

private theorem L_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_8.index t (0 : Fin 2) = t.val ∧ win0_8.index t (1 : Fin 2) = 0
    ∧ win0_9.index t (0 : Fin 3) = t.val ∧ win0_9.index t (1 : Fin 3) = 0 ∧ win0_9.index t (2 : Fin 3) = 0 :=
  (by decide +kernel : ∀ t : Fin grid0.N, _)

/-- Row `p` of tile `t`'s aggregated block is row `t * 5000 + p` of the aggregated array. -/
private theorem L_blk_lift (c : Dev nD) (t : Fin cfg0.N) (p : Fin 5000) (k : Fin 128) (R : Fin 400000) (hR : R.val = t.val * 5000 + p.val) :
    (iblk0 (F := Ideal) V c 0 t : Vec Ideal S5000x128 .f32) (ValueIdx.ix2 p k)
      = cur2 (n0 := 400000) (n1 := 128) (V c (Pipeline.arrRef spec0 0)) R k := by
  obtain ⟨e0, e1, -⟩ := L_idx t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = R.val; omega
  | ⟨1, _⟩ => show win0_0.index t (1 : Fin 2) * 128 + 1 * k.val = k.val; omega

/-- The same for the edge block. -/
private theorem L_blk_edge (c : Dev nD) (t : Fin cfg0.N) (p : Fin 5000) (k : Fin 128) (R : Fin 400000) (hR : R.val = t.val * 5000 + p.val) :
    (iblk0 (F := Ideal) V c 1 t : Vec Ideal S5000x128 .f32) (ValueIdx.ix2 p k)
      = cur2 (n0 := 400000) (n1 := 128) (V c (Pipeline.arrRef spec0 1)) R k := by
  obtain ⟨-, -, e0, e1, -⟩ := L_idx t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 5000 + 1 * p.val = R.val; omega
  | ⟨1, _⟩ => show win0_1.index t (1 : Fin 2) * 128 + 1 * k.val = k.val; omega

/-- The scalar's block is the scalar's array. -/
private theorem L_blk_scale (c : Dev nD) (t : Fin cfg0.N) :
    (iblk0 (F := Ideal) V c 4 t : Vec Ideal S1x1 .f32) (ValueIdx.ix2 (0 : Fin 1) (0 : Fin 1))
      = cur2 (n0 := 1) (n1 := 1) (V c (Pipeline.arrRef spec0 4)) 0 0 := by
  obtain ⟨-, -, -, -, e0, e1, -⟩ := L_idx t
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 1 + 1 * 0 = 0; omega
  | ⟨1, _⟩ => show win0_4.index t (1 : Fin 2) * 1 + 1 * 0 = 0; omega

/-- The weights' block is the weights' array. -/
private theorem L_blk_w (c : Dev nD) (t : Fin cfg0.N) (k : Fin 128) (q : Fin 256) :
    (iblk0 (F := Ideal) V c 5 t : Vec Ideal S128x256 .f32) (ValueIdx.ix2 k q)
      = cur2 (n0 := 128) (n1 := 256) (V c (Pipeline.arrRef spec0 5)) k q := by
  obtain ⟨-, -, -, -, -, -, e0, e1, -⟩ := L_idx t
  unfold iblk0
  rw [View.read_apply]
  show V c (Pipeline.arrRef spec0 5) _ = V c (Pipeline.arrRef spec0 5) _
  congr 1
  funext a
  apply Fin.ext
  match a with
  | ⟨0, _⟩ => show win0_5.index t (0 : Fin 2) * 128 + 1 * k.val = k.val; omega
  | ⟨1, _⟩ => show win0_5.index t (1 : Fin 2) * 256 + 1 * q.val = q.val; omega

/-- Tile `t`'s product at row `p`, column `q` is the whole product at row `t * 5000 + p`, column `q`. -/
private theorem L_pay6_blk (c : Dev nD) (t : Fin cfg0.N) (p : Fin 5000) (q : Fin 256) (R : Fin 400000) (hR : R.val = t.val * 5000 + p.val) :
    k0_pay6 (F := Ideal) (iblk0 (F := Ideal) V c 0 t) (iblk0 (F := Ideal) V c 1 t) (iblk0 (F := Ideal) V c 4 t) (iblk0 (F := Ideal) V c 5 t) (ValueIdx.ix2 p q)
      = yL0 V c R q := by
  refine (L_pay6_apply (iblk0 (F := Ideal) V c 0 t) (iblk0 (F := Ideal) V c 1 t) (iblk0 (F := Ideal) V c 4 t) (iblk0 (F := Ideal) V c 5 t) p q).trans ?_
  unfold yL0 mm scaleAdd
  refine Finset.sum_congr rfl fun k _ => ?_
  rw [L_blk_lift V c t p k R hR, L_blk_edge V c t p k R hR, L_blk_scale V c t, L_blk_w V c t k q]

/-! ## The first of the two outputs: the product itself -/

private theorem L_pay7_blk (c : Dev nD) (t : Fin cfg0.N) (j : S5000x256.Idx) (i : S400000x256.Idx)
    (h0 : (i 0).val = t.val * 5000 + (j 0).val) (h1 : (i 1).val = (j 1).val) :
    k0_pay7 (F := Ideal) (iblk0 (F := Ideal) V c 0 t) (iblk0 (F := Ideal) V c 1 t) (iblk0 (F := Ideal) V c 4 t) (iblk0 (F := Ideal) V c 5 t) j
      = unc2 (yL0 V c) i := by
  obtain ⟨p, q, rfl⟩ : ∃ (p : Fin 5000) (q : Fin 256), j = ValueIdx.ix2 p q := ⟨j 0, j 1, ValueIdx.eq_ix2 j⟩
  obtain ⟨R, Q, rfl⟩ : ∃ (R : Fin 400000) (Q : Fin 256), i = ValueIdx.ix2 R Q := ⟨i 0, i 1, ValueIdx.eq_ix2 i⟩
  obtain rfl : Q = q := Fin.ext h1
  unfold k0_pay7
  exact L_pay6_blk V c t p Q R h0

/-- What tile `t` writes back to the product's array is block `t` of the whole product. -/
private theorem L_flushed8 (c : Dev nD) (t : Fin cfg0.N) :
    (dat0 (F := Ideal) V c).flushed 8 t = ((cfg0.win 8).blk t).view.read (Elt Ideal) (unc2 (yL0 V c)) := by
  show (cfg0.win 8).cut (grid0.coords t) ((dat0 (F := Ideal) V c).after 8 t) = _
  rw [after0_8]
  unfold out0_8
  rw [View.canon_unit_zero L_hz2]
  simp only [View.ld_unit_zero (S := S5000x128) L_hz2, View.ld_unit_zero (S := S1x1) L_hz2, View.ld_unit_zero (S := S128x256) L_hz2]
  obtain ⟨-, -, -, -, -, -, -, -, e0, e1, -⟩ := L_idx t
  funext j
  show k0_pay7 (F := Ideal) (iblk0 (F := Ideal) V c 0 t) (iblk0 (F := Ideal) V c 1 t) (iblk0 (F := Ideal) V c 4 t) (iblk0 (F := Ideal) V c 5 t) j
      = unc2 (yL0 V c) (((cfg0.win 8).blk t).view.emb j)
  refine L_pay7_blk V c t j (((cfg0.win 8).blk t).view.emb j) ?_ ?_
  · show win0_8.index t (0 : Fin 2) * 5000 + 1 * (j 0).val = t.val * 5000 + (j 0).val; omega
  · show win0_8.index t (1 : Fin 2) * 256 + 1 * (j 1).val = (j 1).val; omega

/-- Row `r` of the product's array lies in the block of tile `r / 5000`. -/
private theorem L_cover8 (i : S400000x256.Idx) :
    ∃ t : Fin cfg0.N, (cfg0.win 8).flush t = true ∧ i ∈ ((cfg0.win 8).blk t).view.set := by
  have hi0 : (i 0).val < 400000 := (i 0).isLt
  have hi1 : (i 1).val < 256 := (i 1).isLt
  have hN : cfg0.N = 80 := N_0
  let t : Fin cfg0.N := ⟨(i 0).val / 5000, by rw [hN]; omega⟩
  obtain ⟨-, -, -, -, -, -, -, -, e0, e1, -⟩ := L_idx t
  have et : t.val = (i 0).val / 5000 := rfl
  refine ⟨t, flush0_8 t, ?_⟩
  show i ∈ ((View.whole main_v18_2).slice (win0_8.rect t)).set
  rw [View.set_slice_whole, Rect.mem_set_unit]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 256 ≤ (i 1).val ∧ (i 1).val < win0_8.index t (1 : Fin 2) * 256 + 256; omega

private theorem L_final8 (c : Dev nD) : (dat0 (F := Ideal) V c).arrAt 8 cfg0.N = unc2 (yL0 V c) :=
  (dat0 (F := Ideal) V c).arrAt_eq_of_cover 8 (unc2 (yL0 V c)) (fun t _ => L_flushed8 V c t) L_cover8

/-! ## The second of the two outputs: per tile, each column's sum and its sum of squares

The body sums each column of the tile's product over the tile's 5000 rows, does the same with the squares, and
stores the two rows of 256 sums one above the other as a [1, 2, 256] block; tile `t` writes it to block `t` of the
[80, 2, 256] array. -/

/-- A column of a tile summed over the tile's rows. -/
private theorem L_colsum (src : FVec Ideal S5000x256 .f32) (q : Fin 256) :
    multiReduction (F := Ideal) .add [0] S256 src 0x00000000#32 reduces_S5000x256_S256 (.inl rfl) rfl (ValueIdx.ix1 q)
      = ∑ p : Fin 5000, src (ValueIdx.ix2 p q) := by
  refine (Ideal.multiReduction_add_single src 0x00000000#32 reduces_S5000x256_S256 (.inl rfl) rfl (ValueIdx.ix1 q)).trans ?_
  exact Finset.sum_congr rfl fun p _ => congrArg src (funext fun a => Fin.ext (by match a with | ⟨0, _⟩ => rfl | ⟨1, _⟩ => rfl))

/-- The upper row of the stored block is the row of sums it is handed. -/
private theorem L_pay1_row0 (v27 : FVec Ideal S5000x256 .f32) (v30 : FVec Ideal S256 .f32) (q : Fin 256) :
    k0_pay1 (F := Ideal) v27 v30 (ValueIdx.ix3 (0 : Fin 1) (0 : Fin 2) q) = v30 (ValueIdx.ix1 q) := by
  unfold k0_pay1
  refine (shapeCast_apply _ _ (ValueIdx.ix3 (0 : Fin 1) (0 : Fin 2) q) (ValueIdx.ix2 (0 : Fin 2) q) ?_).trans ?_
  · rw [Shape.rowMajor_val_two, Shape.rowMajor_val_three]; rfl
  refine (concatenate_pair_apply_left (t := S2x256) (s₁ := S1x256) (s₂ := S1x256) (0 : Fin S2x256.rank) _ _ _ (ValueIdx.ix2 (0 : Fin 2) q) rfl (ValueIdx.ix2 (0 : Fin 1) q) ?_).trans ?_
  · intro b; match b with | ⟨0, _⟩ => rfl | ⟨1, _⟩ => rfl
  refine shapeCast_apply _ _ (ValueIdx.ix2 (0 : Fin 1) q) (ValueIdx.ix1 q) ?_
  rw [Shape.rowMajor_val_one, Shape.rowMajor_val_two]; show q.val = 0 * 256 + q.val; omega

/-- The lower row is each column's sum of squares. -/
private theorem L_pay1_row1 (v27 : FVec Ideal S5000x256 .f32) (v30 : FVec Ideal S256 .f32) (q : Fin 256) :
    k0_pay1 (F := Ideal) v27 v30 (ValueIdx.ix3 (0 : Fin 1) (1 : Fin 2) q)
      = ∑ p : Fin 5000, v27 (ValueIdx.ix2 p q) * v27 (ValueIdx.ix2 p q) := by
  unfold k0_pay1
  refine (shapeCast_apply _ _ (ValueIdx.ix3 (0 : Fin 1) (1 : Fin 2) q) (ValueIdx.ix2 (1 : Fin 2) q) ?_).trans ?_
  · rw [Shape.rowMajor_val_two, Shape.rowMajor_val_three]; rfl
  refine (concatenate_pair_apply_right (t := S2x256) (s₁ := S1x256) (s₂ := S1x256) (0 : Fin S2x256.rank) _ _ _ (ValueIdx.ix2 (1 : Fin 2) q) rfl rfl (ValueIdx.ix2 (0 : Fin 1) q) ?_ ?_).trans ?_
  · intro b hb; match b with | ⟨0, _⟩ => exact absurd rfl hb | ⟨1, _⟩ => rfl
  · rfl
  refine (shapeCast_apply _ _ (ValueIdx.ix2 (0 : Fin 1) q) (ValueIdx.ix1 q) ?_).trans ?_
  · rw [Shape.rowMajor_val_one, Shape.rowMajor_val_two]; show q.val = 0 * 256 + q.val; omega
  exact L_colsum (mulf v27 v27) q

/-- The statistics as one array: in tile `t`, row 0 holds each column's sum over the tile, row 1 its sum of squares. -/
private def L_stats (y : Fin 400000 → Fin 256 → EReal) : (⟨3, ![80, 2, 256]⟩ : Shape).Idx → EReal :=
  fun i => if (i 1).val = 0 then tileSum hE y (i 0) (i 2) else tileSumSq hE y (i 0) (i 2)

/-- Tile `t`'s stored block, entry by entry, is tile `t`'s part of that array: the rows of the tile are rows
    `t * 5000 + p` of the whole product. -/
private theorem L_pay1_blk (c : Dev nD) (t : Fin cfg0.N) (j : S1x2x256.Idx) (i : S80x2x256.Idx)
    (h0 : (i 0).val = t.val) (h1 : (i 1).val = (j 1).val) (h2 : (i 2).val = (j 2).val) :
    k0_pay1 (F := Ideal)
        (k0_pay6 (F := Ideal) (iblk0 (F := Ideal) V c 0 t) (iblk0 (F := Ideal) V c 1 t) (iblk0 (F := Ideal) V c 4 t) (iblk0 (F := Ideal) V c 5 t))
        (k0_pay8 (F := Ideal) (iblk0 (F := Ideal) V c 0 t) (iblk0 (F := Ideal) V c 1 t) (iblk0 (F := Ideal) V c 4 t) (iblk0 (F := Ideal) V c 5 t)) j
      = L_stats (yL0 V c) i := by
  obtain ⟨a, r, q, rfl⟩ : ∃ (a : Fin 1) (r : Fin 2) (q : Fin 256), j = ValueIdx.ix3 a r q := ⟨j 0, j 1, j 2, ValueIdx.eq_ix3 j⟩
  obtain ⟨T, r', Q, rfl⟩ : ∃ (T : Fin 80) (r' : Fin 2) (Q : Fin 256), i = ValueIdx.ix3 T r' Q := ⟨i 0, i 1, i 2, ValueIdx.eq_ix3 i⟩
  obtain rfl : r' = r := Fin.ext h1
  obtain rfl : Q = q := Fin.ext h2
  obtain rfl : a = 0 := Subsingleton.elim _ _
  have hT : T.val = t.val := h0
  have hrow : ∀ p : Fin 5000, (rowOf hE T p).val = t.val * 5000 + p.val := fun p => by
    show T.val * 5000 + p.val = t.val * 5000 + p.val
    rw [hT]
  match r' with
  | ⟨0, _⟩ =>
    refine (L_pay1_row0 _ _ Q).trans ?_
    unfold k0_pay8
    refine (L_colsum _ Q).trans ?_
    refine Eq.trans ?_ (if_pos rfl).symm
    unfold tileSum
    exact Finset.sum_congr rfl fun p _ => L_pay6_blk V c t p Q (rowOf hE T p) (hrow p)
  | ⟨1, _⟩ =>
    refine (L_pay1_row1 _ _ Q).trans ?_
    refine Eq.trans ?_ (if_neg (show ¬ (1 : ℕ) = 0 from Nat.one_ne_zero)).symm
    unfold tileSumSq
    exact Finset.sum_congr rfl fun p _ => by rw [L_pay6_blk V c t p Q (rowOf hE T p) (hrow p)]

/-- What tile `t` writes back to the statistics' array is block `t` of it. -/
private theorem L_flushed9 (c : Dev nD) (t : Fin cfg0.N) :
    (dat0 (F := Ideal) V c).flushed 9 t = ((cfg0.win 9).blk t).view.read (Elt Ideal) (L_stats (yL0 V c)) := by
  show (cfg0.win 9).cut (grid0.coords t) ((dat0 (F := Ideal) V c).after 9 t) = _
  rw [after0_9]
  unfold out0_9
  rw [View.canon_unit_zero L_hz3]
  simp only [View.ld_unit_zero (S := S5000x128) L_hz2, View.ld_unit_zero (S := S1x1) L_hz2, View.ld_unit_zero (S := S128x256) L_hz2]
  obtain ⟨-, -, -, -, -, -, -, -, -, -, e0, e1, e2⟩ := L_idx t
  funext j
  show k0_pay1 (F := Ideal)
        (k0_pay6 (F := Ideal) (iblk0 (F := Ideal) V c 0 t) (iblk0 (F := Ideal) V c 1 t) (iblk0 (F := Ideal) V c 4 t) (iblk0 (F := Ideal) V c 5 t))
        (k0_pay8 (F := Ideal) (iblk0 (F := Ideal) V c 0 t) (iblk0 (F := Ideal) V c 1 t) (iblk0 (F := Ideal) V c 4 t) (iblk0 (F := Ideal) V c 5 t)) j
      = L_stats (yL0 V c) (((cfg0.win 9).blk t).view.emb j)
  have hj0 : (j 0).val < 1 := (j 0).isLt
  refine L_pay1_blk V c t j (((cfg0.win 9).blk t).view.emb j) ?_ ?_ ?_
  · show win0_9.index t (0 : Fin 3) * 1 + 1 * (j 0).val = t.val; omega
  · show win0_9.index t (1 : Fin 3) * 2 + 1 * (j 1).val = (j 1).val; omega
  · show win0_9.index t (2 : Fin 3) * 256 + 1 * (j 2).val = (j 2).val; omega

/-- Tile `t` of the statistics' array lies in the block of point `t`. -/
private theorem L_cover9 (i : S80x2x256.Idx) :
    ∃ t : Fin cfg0.N, (cfg0.win 9).flush t = true ∧ i ∈ ((cfg0.win 9).blk t).view.set := by
  have hi0 : (i 0).val < 80 := (i 0).isLt
  have hi1 : (i 1).val < 2 := (i 1).isLt
  have hi2 : (i 2).val < 256 := (i 2).isLt
  have hN : cfg0.N = 80 := N_0
  let t : Fin cfg0.N := ⟨(i 0).val, by rw [hN]; omega⟩
  obtain ⟨-, -, -, -, -, -, -, -, -, -, e0, e1, e2⟩ := L_idx t
  have et : t.val = (i 0).val := rfl
  refine ⟨t, flush0_9 t, ?_⟩
  show i ∈ ((View.whole main_v18_3).slice (win0_9.rect t)).set
  rw [View.set_slice_whole, Rect.mem_set_unit]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 2 ≤ (i 1).val ∧ (i 1).val < win0_9.index t (1 : Fin 3) * 2 + 2; omega
  | ⟨2, _⟩ => show win0_9.index t (2 : Fin 3) * 256 ≤ (i 2).val ∧ (i 2).val < win0_9.index t (2 : Fin 3) * 256 + 256; omega

private theorem L_final9 (c : Dev nD) : (dat0 (F := Ideal) V c).arrAt 9 cfg0.N = L_stats (yL0 V c) :=
  (dat0 (F := Ideal) V c).arrAt_eq_of_cover 9 (L_stats (yL0 V c)) (fun t _ => L_flushed9 V c t) L_cover9

/-! ## The two outputs, read by coordinates -/

theorem reg0_yL (c : Dev nD) :
    cur2 (n0 := 400000) (n1 := 256) ((dat0 (F := Ideal) V c).arrAt 8 cfg0.N) = yL0 V c := by
  rw [L_final8 V c]
  rfl

theorem reg0_statsL (c : Dev nD) (t : Fin 80) (j : Fin 256) :
    cur3 (n0 := 80) (n1 := 2) (n2 := 256) ((dat0 (F := Ideal) V c).arrAt 9 cfg0.N) t 0 j = tileSum hE (yL0 V c) t j
    ∧ cur3 (n0 := 80) (n1 := 2) (n2 := 256) ((dat0 (F := Ideal) V c).arrAt 9 cfg0.N) t 1 j = tileSumSq hE (yL0 V c) t j := by
  rw [L_final9 V c]
  exact ⟨if_pos rfl, if_neg (show ¬ (1 : ℕ) = 0 from Nat.one_ne_zero)⟩

end Cert.KernelIdeal.KRegFused

end
-- ==== Proof.KRegAffRelu.lean ====
/- What the three normalise-and-clip calls leave in their output arrays: each entry is the input's entry minus its column's mean, times the column's reciprocal deviation, times the gain, plus the offset, clipped at zero.

   Each call cuts the rows into blocks of 10000 (40 blocks of the 400000 edge rows, 5 of the 50000 node rows). At block t
   the body reads rows 10000 t … 10000 t + 9999 of the input and the four one-row arrays (mean, reciprocal deviation,
   gain, offset), widens the input's entries (the identity on the extended reals), spreads each one-row array over the
   block's rows, and computes entry by entry ((y - mean) * rstd) * gain + offset, clipped below at zero. Row p of block t
   is row 10000 t + p of the whole arrays and column q is column q, so each stored block is the restriction of ONE
   whole-array function; the blocks cover the array (row r lies in block r / 10000), hence the array ends holding that
   function, which read by coordinates is the specification's normalise-and-clip. -/
import proofs.«412927_j30382598652491_3_alg».proof.Proof.Gen.KernelIdeal.Frame
import proofs.«412927_j30382598652491_3_alg».proof.Proof.BNSpec
import Idealize.ShloMosaic.Lib.ValueIdx
import Idealize.ShloMosaic.Lib.ValueLayout
import Idealize.ShloMosaic.Lib.Pipeline.Value

set_option maxRecDepth 16384

noncomputable section

namespace Cert.KernelIdeal.KRegAffRelu

open Idealize.ShloMosaic Idealize.ShloMosaic.TcCoe Cert.KernelIdeal Cert.KernelIdeal.Gen Cert.BNSpec
open Idealize.ShloMosaic.Pipeline (Dat Cfg Window)
open scoped BigOperators

/-! ## The body's arithmetic at one entry -/

/-- One entry of what the body computes from its loaded blocks: the input's entry minus the column's mean, times
    the column's reciprocal deviation, times the gain, plus the offset, clipped at zero. -/
theorem pay_apply (x0 : Vec Ideal S10000x128 .bf16) (x1 x2 x3 x4 : Vec Ideal S1x128 .f32) (p : Fin 10000) (q : Fin 128) :
    k1_pay1 (F := Ideal) x0 x1 x2 x3 x4 (ValueIdx.ix2 p q)
      = max ((x0 (ValueIdx.ix2 p q) - x1 (ValueIdx.ix2 (0 : Fin 1) q)) * x2 (ValueIdx.ix2 (0 : Fin 1) q) * x3 (ValueIdx.ix2 (0 : Fin 1) q)
              + x4 (ValueIdx.ix2 (0 : Fin 1) q)) zeroE := by
  unfold k1_pay1
  simp only [shapeCast_self]
  show max ((((x0 (ValueIdx.ix2 p q) - broadcastTo S10000x128 x1 _ (ValueIdx.ix2 p q)) * broadcastTo S10000x128 x2 _ (ValueIdx.ix2 p q))
      * broadcastTo S10000x128 x3 _ (ValueIdx.ix2 p q)) + broadcastTo S10000x128 x4 _ (ValueIdx.ix2 p q)) (Ideal.ofBits .f32 0x00000000#32) = _
  rw [ValueIdx.broadcastTo_1b_ab_apply x1, ValueIdx.broadcastTo_1b_ab_apply x2, ValueIdx.broadcastTo_1b_ab_apply x3, ValueIdx.broadcastTo_1b_ab_apply x4]

/-- The three calls' bodies compute the same arithmetic. -/
theorem k3_pay1_eq (x0 : Vec Ideal S10000x128 .bf16) (x1 x2 x3 x4 : Vec Ideal S1x128 .f32) :
    k3_pay1 (F := Ideal) x0 x1 x2 x3 x4 = k1_pay1 (F := Ideal) x0 x1 x2 x3 x4 := rfl
theorem k6_pay1_eq (x0 : Vec Ideal S10000x128 .bf16) (x1 x2 x3 x4 : Vec Ideal S1x128 .f32) :
    k6_pay1 (F := Ideal) x0 x1 x2 x3 x4 = k1_pay1 (F := Ideal) x0 x1 x2 x3 x4 := rfl

/-! ## The whole-array function -/

theorem hz : (![0, 0] : Fin 2 → Nat) = fun _ => 0 := funext fun a => by fin_cases a <;> rfl

/-- The whole output array as one function of the input arrays: entry `(i, j)` from the input's entry `(i, j)`
    and the four rows' entries `j`. -/
def outArr {R : ℕ} (Y : (⟨2, ![R, 128]⟩ : Shape).Idx → EReal) (M S G B : (⟨2, ![1, 128]⟩ : Shape).Idx → EReal) :
    (⟨2, ![R, 128]⟩ : Shape).Idx → EReal :=
  unc2 (affRelu (cur2 (n0 := 1) (n1 := 128) M 0) (cur2 (n0 := 1) (n1 := 128) S 0) (cur2 (n0 := 1) (n1 := 128) G 0)
    (cur2 (n0 := 1) (n1 := 128) B 0) (cur2 (n0 := R) (n1 := 128) Y))

/-- That function at an index whose column is `q`. -/
theorem outArr_at {R : ℕ} (Y : (⟨2, ![R, 128]⟩ : Shape).Idx → EReal) (M S G B : (⟨2, ![1, 128]⟩ : Shape).Idx → EReal)
    (i : (⟨2, ![R, 128]⟩ : Shape).Idx) (q : Fin 128) (hq : (i 1).val = q.val) :
    outArr Y M S G B i
      = max ((Y i - M (ValueIdx.ix2 (0 : Fin 1) q)) * S (ValueIdx.ix2 (0 : Fin 1) q) * G (ValueIdx.ix2 (0 : Fin 1) q)
              + B (ValueIdx.ix2 (0 : Fin 1) q)) zeroE := by
  obtain ⟨a, b, rfl⟩ : ∃ (a : Fin R) (b : Fin 128), i = ValueIdx.ix2 a b := ⟨i 0, i 1, ValueIdx.eq_ix2 i⟩
  obtain rfl : b = q := Fin.ext hq
  rfl

/-- Read by coordinates it is the specification's normalise-and-clip. -/
theorem cur2_outArr {R : ℕ} (Y : (⟨2, ![R, 128]⟩ : Shape).Idx → EReal) (M S G B : (⟨2, ![1, 128]⟩ : Shape).Idx → EReal) :
    cur2 (n0 := R) (n1 := 128) (outArr Y M S G B)
      = affRelu (cur2 (n0 := 1) (n1 := 128) M 0) (cur2 (n0 := 1) (n1 := 128) S 0) (cur2 (n0 := 1) (n1 := 128) G 0)
          (cur2 (n0 := 1) (n1 := 128) B 0) (cur2 (n0 := R) (n1 := 128) Y) := rfl

/-- One entry of the body's result is the whole-array function at the entry's place in the array, once each loaded
    block's entry is the corresponding array's entry. -/
theorem pay_eq_outArr {R : ℕ} (x0 : Vec Ideal S10000x128 .bf16) (x1 x2 x3 x4 : Vec Ideal S1x128 .f32)
    (Y : (⟨2, ![R, 128]⟩ : Shape).Idx → EReal) (M S G B : (⟨2, ![1, 128]⟩ : Shape).Idx → EReal)
    (i : (⟨2, ![R, 128]⟩ : Shape).Idx) (p : Fin 10000) (q : Fin 128) (hq : (i 1).val = q.val)
    (h0 : x0 (ValueIdx.ix2 p q) = Y i) (h1 : x1 (ValueIdx.ix2 (0 : Fin 1) q) = M (ValueIdx.ix2 (0 : Fin 1) q))
    (h2 : x2 (ValueIdx.ix2 (0 : Fin 1) q) = S (ValueIdx.ix2 (0 : Fin 1) q)) (h3 : x3 (ValueIdx.ix2 (0 : Fin 1) q) = G (ValueIdx.ix2 (0 : Fin 1) q))
    (h4 : x4 (ValueIdx.ix2 (0 : Fin 1) q) = B (ValueIdx.ix2 (0 : Fin 1) q)) :
    k1_pay1 (F := Ideal) x0 x1 x2 x3 x4 (ValueIdx.ix2 p q) = outArr Y M S G B i := by
  rw [pay_apply, outArr_at Y M S G B i q hq, h0, h1, h2, h3, h4]

variable (V : (c : Dev nD) → (b : Ref sig .tc) → Buf (Elt Ideal) ((c : Thread nD τ).loc b))

/-! ## Call 1: 40 blocks of 10000 rows -/

/-- The windows' block indices, decided over the grid: the input and the output move down one row block per point; the
    four rows stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A row block of the input, read where it lies in the array. -/
theorem blk1_in (c : Dev nD) (t : Fin cfg1.N) (y : S10000x128.Idx) (i : S400000x128.Idx)
    (h0 : (i 0).val = t.val * 10000 + (y 0).val) (h1 : (i 1).val = (y 1).val) :
    (iblk1 (F := Ideal) V c 0 t : Vec Ideal S10000x128 .bf16) y = (V c (Pipeline.arrRef spec1 0) : S400000x128.Idx → EReal) i := by
  have e0 : win1_0.index t (0 : Fin 2) = t.val := (idx_facts1 t).1
  have e1 : win1_0.index t (1 : Fin 2) = 0 := (idx_facts1 t).2.1
  unfold iblk1
  rw [View.read_apply]
  show (V c (Pipeline.arrRef spec1 0) : S400000x128.Idx → EReal) _ = _
  refine congrArg _ ?_
  funext a
  apply Fin.ext
  match a with
  | ⟨0, _⟩ => show win1_0.index t (0 : Fin 2) * 10000 + 1 * (y 0).val = (i 0).val; rw [e0, h0]; omega
  | ⟨1, _⟩ => show win1_0.index t (1 : Fin 2) * 128 + 1 * (y 1).val = (i 1).val; rw [e1, h1]; omega

/-- The means's block is its one row, at every point. -/
theorem blk1_mean (c : Dev nD) (t : Fin cfg1.N) (y : S1x128.Idx) :
    (iblk1 (F := Ideal) V c 1 t : Vec Ideal S1x128 .f32) y = (V c (Pipeline.arrRef spec1 1) : S1x128.Idx → EReal) y := by
  have e0 : win1_1.index t (0 : Fin 2) = 0 := (idx_facts1 t).2.2.1
  have e1 : win1_1.index t (1 : Fin 2) = 0 := (idx_facts1 t).2.2.2.1
  unfold iblk1
  rw [View.read_apply]
  show (V c (Pipeline.arrRef spec1 1) : S1x128.Idx → EReal) _ = _
  refine congrArg _ ?_
  funext a
  apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The reciprocal deviations's block is its one row, at every point. -/
theorem blk1_rstd (c : Dev nD) (t : Fin cfg1.N) (y : S1x128.Idx) :
    (iblk1 (F := Ideal) V c 2 t : Vec Ideal S1x128 .f32) y = (V c (Pipeline.arrRef spec1 2) : S1x128.Idx → EReal) y := by
  have e0 : win1_2.index t (0 : Fin 2) = 0 := (idx_facts1 t).2.2.2.2.1
  have e1 : win1_2.index t (1 : Fin 2) = 0 := (idx_facts1 t).2.2.2.2.2.1
  unfold iblk1
  rw [View.read_apply]
  show (V c (Pipeline.arrRef spec1 2) : S1x128.Idx → EReal) _ = _
  refine congrArg _ ?_
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The gains's block is its one row, at every point. -/
theorem blk1_gain (c : Dev nD) (t : Fin cfg1.N) (y : S1x128.Idx) :
    (iblk1 (F := Ideal) V c 3 t : Vec Ideal S1x128 .f32) y = (V c (Pipeline.arrRef spec1 3) : S1x128.Idx → EReal) y := by
  have e0 : win1_3.index t (0 : Fin 2) = 0 := (idx_facts1 t).2.2.2.2.2.2.1
  have e1 : win1_3.index t (1 : Fin 2) = 0 := (idx_facts1 t).2.2.2.2.2.2.2.1
  unfold iblk1
  rw [View.read_apply]
  show (V c (Pipeline.arrRef spec1 3) : S1x128.Idx → EReal) _ = _
  refine congrArg _ ?_
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The offsets's block is its one row, at every point. -/
theorem blk1_offset (c : Dev nD) (t : Fin cfg1.N) (y : S1x128.Idx) :
    (iblk1 (F := Ideal) V c 4 t : Vec Ideal S1x128 .f32) y = (V c (Pipeline.arrRef spec1 4) : S1x128.Idx → EReal) y := by
  have e0 : win1_4.index t (0 : Fin 2) = 0 := (idx_facts1 t).2.2.2.2.2.2.2.2.1
  have e1 : win1_4.index t (1 : Fin 2) = 0 := (idx_facts1 t).2.2.2.2.2.2.2.2.2.1
  unfold iblk1
  rw [View.read_apply]
  show (V c (Pipeline.arrRef spec1 4) : S1x128.Idx → EReal) _ = _
  refine congrArg _ ?_
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- At point `t` the body's result at row `p`, column `q` of its block is the whole-array function at the place of
    that entry in the array. -/
theorem point1 (c : Dev nD) (t : Fin cfg1.N) (p : Fin 10000) (q : Fin 128) :
    k1_pay1 (F := Ideal) (iblk1 V c 0 t) (iblk1 V c 1 t) (iblk1 V c 2 t) (iblk1 V c 3 t) (iblk1 V c 4 t) (ValueIdx.ix2 p q)
      = outArr (R := 400000) (V c (Pipeline.arrRef spec1 0)) (V c (Pipeline.arrRef spec1 1)) (V c (Pipeline.arrRef spec1 2))
          (V c (Pipeline.arrRef spec1 3)) (V c (Pipeline.arrRef spec1 4)) (((cfg1.win 5).blk t).view.emb (ValueIdx.ix2 p q)) := by
  have e0 : win1_5.index t (0 : Fin 2) = t.val := (idx_facts1 t).2.2.2.2.2.2.2.2.2.2.1
  have e1 : win1_5.index t (1 : Fin 2) = 0 := (idx_facts1 t).2.2.2.2.2.2.2.2.2.2.2
  have hrow : ((((cfg1.win 5).blk t).view.emb (ValueIdx.ix2 p q)) 0).val = t.val * 10000 + p.val := by
    show win1_5.index t (0 : Fin 2) * 10000 + 1 * p.val = _; rw [e0]; omega
  have hcol : ((((cfg1.win 5).blk t).view.emb (ValueIdx.ix2 p q)) 1).val = q.val := by
    show win1_5.index t (1 : Fin 2) * 128 + 1 * q.val = _; rw [e1]; omega
  exact pay_eq_outArr (R := 400000) (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2))
    (V c (Pipeline.arrRef spec1 3)) (V c (Pipeline.arrRef spec1 4)) (((cfg1.win 5).blk t).view.emb (ValueIdx.ix2 p q)) p q hcol
    (blk1_in V c t (ValueIdx.ix2 p q) (((cfg1.win 5).blk t).view.emb (ValueIdx.ix2 p q)) hrow hcol)
    (blk1_mean V c t (ValueIdx.ix2 (0 : Fin 1) q)) (blk1_rstd V c t (ValueIdx.ix2 (0 : Fin 1) q))
    (blk1_gain V c t (ValueIdx.ix2 (0 : Fin 1) q)) (blk1_offset V c t (ValueIdx.ix2 (0 : Fin 1) q))

/-- What point `t` writes back is block `t` of the whole-array function: rows `10000 t … 10000 t + 9999`. -/
theorem flushed1_eq (c : Dev nD) (t : Fin cfg1.N) :
    (dat1 (F := Ideal) V c).flushed 5 t = ((cfg1.win 5).blk t).view.read (Elt Ideal)
      (outArr (R := 400000) (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S10000x128) hz, View.ld_unit_zero (S := S1x128) hz]
  funext j
  obtain ⟨p, q, rfl⟩ : ∃ (p : Fin 10000) (q : Fin 128), j = ValueIdx.ix2 p q := ⟨j 0, j 1, ValueIdx.eq_ix2 j⟩
  exact point1 V c t p q

/-- An index of the output array is in point `t`'s block iff each coordinate is in the block's range on its axis. -/
theorem mem_blk1 (t : Fin cfg1.N) (i : S400000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v39).slice (win1_5.rect t)).set ↔ _
  rw [View.set_slice_whole, Rect.mem_set_unit]
  exact Iff.rfl

/-- Every index of the output array is in some point's block: row `r` is in block `r / 10000`. -/
theorem cover1 (i : S400000x128.Idx) :
    ∃ t : Fin cfg1.N, (cfg1.win 5).flush t = true ∧ i ∈ ((cfg1.win 5).blk t).view.set := by
  have hN : cfg1.N = 40 := N_1
  have hi0 : (i 0).val < 400000 := (i 0).isLt
  have hi1 : (i 1).val < 128 := (i 1).isLt
  let t : Fin cfg1.N := ⟨(i 0).val / 10000, by rw [hN]; omega⟩
  have ht : t.val = (i 0).val / 10000 := rfl
  have e0 : win1_5.index t (0 : Fin 2) = t.val := (idx_facts1 t).2.2.2.2.2.2.2.2.2.2.1
  have e1 : win1_5.index t (1 : Fin 2) = 0 := (idx_facts1 t).2.2.2.2.2.2.2.2.2.2.2
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; rw [e0, ht]; omega
  | ⟨1, _⟩ => show win1_5.index t (1 : Fin 2) * 128 ≤ (i 1).val ∧ (i 1).val < win1_5.index t (1 : Fin 2) * 128 + 128; rw [e1]; omega

/-- The output array after the call is the whole-array function of the entry contents. -/
theorem final1 (c : Dev nD) :
    (dat1 (F := Ideal) V c).arrAt 5 cfg1.N
      = outArr (R := 400000) (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => flushed1_eq V c t) cover1

theorem reg1_out (c : Dev nD) :
    cur2 (n0 := 400000) (n1 := 128) ((dat1 (F := Ideal) V c).arrAt 5 cfg1.N)
      = affRelu (cur2 (n0 := 1) (n1 := 128) (V c (Pipeline.arrRef spec1 1)) 0) (cur2 (n0 := 1) (n1 := 128) (V c (Pipeline.arrRef spec1 2)) 0)
          (cur2 (n0 := 1) (n1 := 128) (V c (Pipeline.arrRef spec1 3)) 0) (cur2 (n0 := 1) (n1 := 128) (V c (Pipeline.arrRef spec1 4)) 0)
          (cur2 (n0 := 400000) (n1 := 128) (V c (Pipeline.arrRef spec1 0))) := by
  rw [final1]
  rfl

/-! ## Call 3: 40 blocks of 10000 rows -/

/-- The windows' block indices, decided over the grid: the input and the output move down one row block per point; the
    four rows stay. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- A row block of the input, read where it lies in the array. -/
theorem blk3_in (c : Dev nD) (t : Fin cfg3.N) (y : S10000x128.Idx) (i : S400000x128.Idx)
    (h0 : (i 0).val = t.val * 10000 + (y 0).val) (h1 : (i 1).val = (y 1).val) :
    (iblk3 (F := Ideal) V c 0 t : Vec Ideal S10000x128 .bf16) y = (V c (Pipeline.arrRef spec3 0) : S400000x128.Idx → EReal) i := by
  have e0 : win3_0.index t (0 : Fin 2) = t.val := (idx_facts3 t).1
  have e1 : win3_0.index t (1 : Fin 2) = 0 := (idx_facts3 t).2.1
  unfold iblk3
  rw [View.read_apply]
  show (V c (Pipeline.arrRef spec3 0) : S400000x128.Idx → EReal) _ = _
  refine congrArg _ ?_
  funext a
  apply Fin.ext
  match a with
  | ⟨0, _⟩ => show win3_0.index t (0 : Fin 2) * 10000 + 1 * (y 0).val = (i 0).val; rw [e0, h0]; omega
  | ⟨1, _⟩ => show win3_0.index t (1 : Fin 2) * 128 + 1 * (y 1).val = (i 1).val; rw [e1, h1]; omega

/-- The means's block is its one row, at every point. -/
theorem blk3_mean (c : Dev nD) (t : Fin cfg3.N) (y : S1x128.Idx) :
    (iblk3 (F := Ideal) V c 1 t : Vec Ideal S1x128 .f32) y = (V c (Pipeline.arrRef spec3 1) : S1x128.Idx → EReal) y := by
  have e0 : win3_1.index t (0 : Fin 2) = 0 := (idx_facts3 t).2.2.1
  have e1 : win3_1.index t (1 : Fin 2) = 0 := (idx_facts3 t).2.2.2.1
  unfold iblk3
  rw [View.read_apply]
  show (V c (Pipeline.arrRef spec3 1) : S1x128.Idx → EReal) _ = _
  refine congrArg _ ?_
  funext a
  apply Fin.ext
  match a with
  | ⟨0, _⟩ => show win3_1.index t (0 : Fin 2) * 1 + 1 * (y 0).val = (y 0).val; rw [e0]; omega
  | ⟨1, _⟩ => show win3_1.index t (1 : Fin 2) * 128 + 1 * (y 1).val = (y 1).val; rw [e1]; omega

/-- The reciprocal deviations's block is its one row, at every point. -/
theorem blk3_rstd (c : Dev nD) (t : Fin cfg3.N) (y : S1x128.Idx) :
    (iblk3 (F := Ideal) V c 2 t : Vec Ideal S1x128 .f32) y = (V c (Pipeline.arrRef spec3 2) : S1x128.Idx → EReal) y := by
  have e0 : win3_2.index t (0 : Fin 2) = 0 := (idx_facts3 t).2.2.2.2.1
  have e1 : win3_2.index t (1 : Fin 2) = 0 := (idx_facts3 t).2.2.2.2.2.1
  unfold iblk3
  rw [View.read_apply]
  show (V c (Pipeline.arrRef spec3 2) : S1x128.Idx → EReal) _ = _
  refine congrArg _ ?_
  funext a
  apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- The gains's block is its one row, at every point. -/
theorem blk3_gain (c : Dev nD) (t : Fin cfg3.N) (y : S1x128.Idx) :
    (iblk3 (F := Ideal) V c 3 t : Vec Ideal S1x128 .f32) y = (V c (Pipeline.arrRef spec3 3) : S1x128.Idx → EReal) y := by
  have e0 : win3_3.index t (0 : Fin 2) = 0 := (idx_facts3 t).2.2.2.2.2.2.1
  have e1 : win3_3.index t (1 : Fin 2) = 0 := (idx_facts3 t).2.2.2.2.2.2.2.1
  unfold iblk3
  rw [View.read_apply]
  show (V c (Pipeline.arrRef spec3 3) : S1x128.Idx → EReal) _ = _
  refine congrArg _ ?_
  funext a
  apply Fin.ext
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

/-- The offsets's block is its one row, at every point. -/
theorem blk3_offset (c : Dev nD) (t : Fin cfg3.N) (y : S1x128.Idx) :
    (iblk3 (F := Ideal) V c 4 t : Vec Ideal S1x128 .f32) y = (V c (Pipeline.arrRef spec3 4) : S1x128.Idx → EReal) y := by
  have e0 : win3_4.index t (0 : Fin 2) = 0 := (idx_facts3 t).2.2.2.2.2.2.2.2.1
  have e1 : win3_4.index t (1 : Fin 2) = 0 := (idx_facts3 t).2.2.2.2.2.2.2.2.2.1
  unfold iblk3
  rw [View.read_apply]
  show (V c (Pipeline.arrRef spec3 4) : S1x128.Idx → EReal) _ = _
  refine congrArg _ ?_
  funext a
  apply Fin.ext
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- At point `t` the body's result at row `p`, column `q` of its block is the whole-array function at the place of
    that entry in the array. -/
theorem point3 (c : Dev nD) (t : Fin cfg3.N) (p : Fin 10000) (q : Fin 128) :
    k3_pay1 (F := Ideal) (iblk3 V c 0 t) (iblk3 V c 1 t) (iblk3 V c 2 t) (iblk3 V c 3 t) (iblk3 V c 4 t) (ValueIdx.ix2 p q)
      = outArr (R := 400000) (V c (Pipeline.arrRef spec3 0)) (V c (Pipeline.arrRef spec3 1)) (V c (Pipeline.arrRef spec3 2))
          (V c (Pipeline.arrRef spec3 3)) (V c (Pipeline.arrRef spec3 4)) (((cfg3.win 5).blk t).view.emb (ValueIdx.ix2 p q)) := by
  have e0 : win3_5.index t (0 : Fin 2) = t.val := (idx_facts3 t).2.2.2.2.2.2.2.2.2.2.1
  have e1 : win3_5.index t (1 : Fin 2) = 0 := (idx_facts3 t).2.2.2.2.2.2.2.2.2.2.2
  have hrow : ((((cfg3.win 5).blk t).view.emb (ValueIdx.ix2 p q)) 0).val = t.val * 10000 + p.val := by
    show win3_5.index t (0 : Fin 2) * 10000 + 1 * p.val = _; rw [e0]; omega
  have hcol : ((((cfg3.win 5).blk t).view.emb (ValueIdx.ix2 p q)) 1).val = q.val := by
    show win3_5.index t (1 : Fin 2) * 128 + 1 * q.val = _; rw [e1]; omega
  refine (congrFun (k3_pay1_eq (iblk3 V c 0 t) (iblk3 V c 1 t) (iblk3 V c 2 t) (iblk3 V c 3 t) (iblk3 V c 4 t)) (ValueIdx.ix2 p q)).trans ?_
  exact pay_eq_outArr (R := 400000) (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2))
    (V c (Pipeline.arrRef spec3 3)) (V c (Pipeline.arrRef spec3 4)) (((cfg3.win 5).blk t).view.emb (ValueIdx.ix2 p q)) p q hcol
    (blk3_in V c t (ValueIdx.ix2 p q) (((cfg3.win 5).blk t).view.emb (ValueIdx.ix2 p q)) hrow hcol)
    (blk3_mean V c t (ValueIdx.ix2 (0 : Fin 1) q)) (blk3_rstd V c t (ValueIdx.ix2 (0 : Fin 1) q))
    (blk3_gain V c t (ValueIdx.ix2 (0 : Fin 1) q)) (blk3_offset V c t (ValueIdx.ix2 (0 : Fin 1) q))

/-- What point `t` writes back is block `t` of the whole-array function: rows `10000 t … 10000 t + 9999`. -/
theorem flushed3_eq (c : Dev nD) (t : Fin cfg3.N) :
    (dat3 (F := Ideal) V c).flushed 5 t = ((cfg3.win 5).blk t).view.read (Elt Ideal)
      (outArr (R := 400000) (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S10000x128) hz, View.ld_unit_zero (S := S1x128) hz]
  funext j
  obtain ⟨p, q, rfl⟩ : ∃ (p : Fin 10000) (q : Fin 128), j = ValueIdx.ix2 p q := ⟨j 0, j 1, ValueIdx.eq_ix2 j⟩
  exact point3 V c t p q

/-- An index of the output array is in point `t`'s block iff each coordinate is in the block's range on its axis. -/
theorem mem_blk3 (t : Fin cfg3.N) (i : S400000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole main_v81).slice (win3_5.rect t)).set ↔ _
  rw [View.set_slice_whole, Rect.mem_set_unit]
  exact Iff.rfl

/-- Every index of the output array is in some point's block: row `r` is in block `r / 10000`. -/
theorem cover3 (i : S400000x128.Idx) :
    ∃ t : Fin cfg3.N, (cfg3.win 5).flush t = true ∧ i ∈ ((cfg3.win 5).blk t).view.set := by
  have hN : cfg3.N = 40 := N_3
  have hi0 : (i 0).val < 400000 := (i 0).isLt
  have hi1 : (i 1).val < 128 := (i 1).isLt
  let t : Fin cfg3.N := ⟨(i 0).val / 10000, by rw [hN]; omega⟩
  have ht : t.val = (i 0).val / 10000 := rfl
  have e0 : win3_5.index t (0 : Fin 2) = t.val := (idx_facts3 t).2.2.2.2.2.2.2.2.2.2.1
  have e1 : win3_5.index t (1 : Fin 2) = 0 := (idx_facts3 t).2.2.2.2.2.2.2.2.2.2.2
  refine ⟨t, flush3_5 t, ?_⟩
  rw [mem_blk3]
  intro a
  match a with
  | ⟨0, _⟩ => show win3_5.index t (0 : Fin 2) * 10000 ≤ (i 0).val ∧ (i 0).val < win3_5.index t (0 : Fin 2) * 10000 + 10000; rw [e0, ht]; omega
  | ⟨1, _⟩ => show win3_5.index t (1 : Fin 2) * 128 ≤ (i 1).val ∧ (i 1).val < win3_5.index t (1 : Fin 2) * 128 + 128; rw [e1]; omega

/-- The output array after the call is the whole-array function of the entry contents. -/
theorem final3 (c : Dev nD) :
    (dat3 (F := Ideal) V c).arrAt 5 cfg3.N
      = outArr (R := 400000) (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 _ (fun t _ => flushed3_eq V c t) cover3

theorem reg3_out (c : Dev nD) :
    cur2 (n0 := 400000) (n1 := 128) ((dat3 (F := Ideal) V c).arrAt 5 cfg3.N)
      = affRelu (cur2 (n0 := 1) (n1 := 128) (V c (Pipeline.arrRef spec3 1)) 0) (cur2 (n0 := 1) (n1 := 128) (V c (Pipeline.arrRef spec3 2)) 0)
          (cur2 (n0 := 1) (n1 := 128) (V c (Pipeline.arrRef spec3 3)) 0) (cur2 (n0 := 1) (n1 := 128) (V c (Pipeline.arrRef spec3 4)) 0)
          (cur2 (n0 := 400000) (n1 := 128) (V c (Pipeline.arrRef spec3 0))) := by
  rw [final3]
  rfl

/-! ## Call 6: 5 blocks of 10000 rows -/

/-- The windows' block indices, decided over the grid: the input and the output move down one row block per point; the
    four rows stay. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- A row block of the input, read where it lies in the array. -/
theorem blk6_in (c : Dev nD) (t : Fin cfg6.N) (y : S10000x128.Idx) (i : S50000x128.Idx)
    (h0 : (i 0).val = t.val * 10000 + (y 0).val) (h1 : (i 1).val = (y 1).val) :
    (iblk6 (F := Ideal) V c 0 t : Vec Ideal S10000x128 .bf16) y = (V c (Pipeline.arrRef spec6 0) : S50000x128.Idx → EReal) i := by
  have e0 : win6_0.index t (0 : Fin 2) = t.val := (idx_facts6 t).1
  have e1 : win6_0.index t (1 : Fin 2) = 0 := (idx_facts6 t).2.1
  unfold iblk6
  rw [View.read_apply]
  show (V c (Pipeline.arrRef spec6 0) : S50000x128.Idx → EReal) _ = _
  refine congrArg _ ?_
  funext a
  apply Fin.ext
  match a with
  | ⟨0, _⟩ => show win6_0.index t (0 : Fin 2) * 10000 + 1 * (y 0).val = (i 0).val; rw [e0, h0]; omega
  | ⟨1, _⟩ => show win6_0.index t (1 : Fin 2) * 128 + 1 * (y 1).val = (i 1).val; rw [e1, h1]; omega

/-- The means's block is its one row, at every point. -/
theorem blk6_mean (c : Dev nD) (t : Fin cfg6.N) (y : S1x128.Idx) :
    (iblk6 (F := Ideal) V c 1 t : Vec Ideal S1x128 .f32) y = (V c (Pipeline.arrRef spec6 1) : S1x128.Idx → EReal) y := by
  have e0 : win6_1.index t (0 : Fin 2) = 0 := (idx_facts6 t).2.2.1
  have e1 : win6_1.index t (1 : Fin 2) = 0 := (idx_facts6 t).2.2.2.1
  unfold iblk6
  rw [View.read_apply]
  show (V c (Pipeline.arrRef spec6 1) : S1x128.Idx → EReal) _ = _
  refine congrArg _ ?_
  funext a
  apply Fin.ext
  match a with
  | ⟨0, _⟩ => show win6_1.index t (0 : Fin 2) * 1 + 1 * (y 0).val = (y 0).val; rw [e0]; omega
  | ⟨1, _⟩ => show win6_1.index t (1 : Fin 2) * 128 + 1 * (y 1).val = (y 1).val; rw [e1]; omega

/-- The reciprocal deviations's block is its one row, at every point. -/
theorem blk6_rstd (c : Dev nD) (t : Fin cfg6.N) (y : S1x128.Idx) :
    (iblk6 (F := Ideal) V c 2 t : Vec Ideal S1x128 .f32) y = (V c (Pipeline.arrRef spec6 2) : S1x128.Idx → EReal) y := by
  have e0 : win6_2.index t (0 : Fin 2) = 0 := (idx_facts6 t).2.2.2.2.1
  have e1 : win6_2.index t (1 : Fin 2) = 0 := (idx_facts6 t).2.2.2.2.2.1
  unfold iblk6
  rw [View.read_apply]
  show (V c (Pipeline.arrRef spec6 2) : S1x128.Idx → EReal) _ = _
  refine congrArg _ ?_
  funext a
  apply Fin.ext
  match a with
  | ⟨0, _⟩ => show win6_2.index t (0 : Fin 2) * 1 + 1 * (y 0).val = (y 0).val; rw [e0]; omega
  | ⟨1, _⟩ => show win6_2.index t (1 : Fin 2) * 128 + 1 * (y 1).val = (y 1).val; rw [e1]; omega

/-- The gains's block is its one row, at every point. -/
theorem blk6_gain (c : Dev nD) (t : Fin cfg6.N) (y : S1x128.Idx) :
    (iblk6 (F := Ideal) V c 3 t : Vec Ideal S1x128 .f32) y = (V c (Pipeline.arrRef spec6 3) : S1x128.Idx → EReal) y := by
  have e0 : win6_3.index t (0 : Fin 2) = 0 := (idx_facts6 t).2.2.2.2.2.2.1
  have e1 : win6_3.index t (1 : Fin 2) = 0 := (idx_facts6 t).2.2.2.2.2.2.2.1
  unfold iblk6
  rw [View.read_apply]
  show (V c (Pipeline.arrRef spec6 3) : S1x128.Idx → EReal) _ = _
  refine congrArg _ ?_
  funext a
  apply Fin.ext
  match a with
  | ⟨0, _⟩ => show win6_3.index t (0 : Fin 2) * 1 + 1 * (y 0).val = (y 0).val; rw [e0]; omega
  | ⟨1, _⟩ => show win6_3.index t (1 : Fin 2) * 128 + 1 * (y 1).val = (y 1).val; rw [e1]; omega

/-- The offsets's block is its one row, at every point. -/
theorem blk6_offset (c : Dev nD) (t : Fin cfg6.N) (y : S1x128.Idx) :
    (iblk6 (F := Ideal) V c 4 t : Vec Ideal S1x128 .f32) y = (V c (Pipeline.arrRef spec6 4) : S1x128.Idx → EReal) y := by
  have e0 : win6_4.index t (0 : Fin 2) = 0 := (idx_facts6 t).2.2.2.2.2.2.2.2.1
  have e1 : win6_4.index t (1 : Fin 2) = 0 := (idx_facts6 t).2.2.2.2.2.2.2.2.2.1
  unfold iblk6
  rw [View.read_apply]
  show (V c (Pipeline.arrRef spec6 4) : S1x128.Idx → EReal) _ = _
  refine congrArg _ ?_
  funext a
  apply Fin.ext
  match a with
  | ⟨0, _⟩ => show win6_4.index t (0 : Fin 2) * 1 + 1 * (y 0).val = (y 0).val; rw [e0]; omega
  | ⟨1, _⟩ => show win6_4.index t (1 : Fin 2) * 128 + 1 * (y 1).val = (y 1).val; rw [e1]; omega

/-- At point `t` the body's result at row `p`, column `q` of its block is the whole-array function at the place of
    that entry in the array. -/
theorem point6 (c : Dev nD) (t : Fin cfg6.N) (p : Fin 10000) (q : Fin 128) :
    k6_pay1 (F := Ideal) (iblk6 V c 0 t) (iblk6 V c 1 t) (iblk6 V c 2 t) (iblk6 V c 3 t) (iblk6 V c 4 t) (ValueIdx.ix2 p q)
      = outArr (R := 50000) (V c (Pipeline.arrRef spec6 0)) (V c (Pipeline.arrRef spec6 1)) (V c (Pipeline.arrRef spec6 2))
          (V c (Pipeline.arrRef spec6 3)) (V c (Pipeline.arrRef spec6 4)) (((cfg6.win 5).blk t).view.emb (ValueIdx.ix2 p q)) := by
  have e0 : win6_5.index t (0 : Fin 2) = t.val := (idx_facts6 t).2.2.2.2.2.2.2.2.2.2.1
  have e1 : win6_5.index t (1 : Fin 2) = 0 := (idx_facts6 t).2.2.2.2.2.2.2.2.2.2.2
  have hrow : ((((cfg6.win 5).blk t).view.emb (ValueIdx.ix2 p q)) 0).val = t.val * 10000 + p.val := by
    show win6_5.index t (0 : Fin 2) * 10000 + 1 * p.val = _; rw [e0]; omega
  have hcol : ((((cfg6.win 5).blk t).view.emb (ValueIdx.ix2 p q)) 1).val = q.val := by
    show win6_5.index t (1 : Fin 2) * 128 + 1 * q.val = _; rw [e1]; omega
  refine (congrFun (k6_pay1_eq (iblk6 V c 0 t) (iblk6 V c 1 t) (iblk6 V c 2 t) (iblk6 V c 3 t) (iblk6 V c 4 t)) (ValueIdx.ix2 p q)).trans ?_
  exact pay_eq_outArr (R := 50000) (iblk6 V c 0 t) (iblk6 V c 1 t) (iblk6 V c 2 t) (iblk6 V c 3 t) (iblk6 V c 4 t)
    (V c (Pipeline.arrRef spec6 0)) (V c (Pipeline.arrRef spec6 1)) (V c (Pipeline.arrRef spec6 2))
    (V c (Pipeline.arrRef spec6 3)) (V c (Pipeline.arrRef spec6 4)) (((cfg6.win 5).blk t).view.emb (ValueIdx.ix2 p q)) p q hcol
    (blk6_in V c t (ValueIdx.ix2 p q) (((cfg6.win 5).blk t).view.emb (ValueIdx.ix2 p q)) hrow hcol)
    (blk6_mean V c t (ValueIdx.ix2 (0 : Fin 1) q)) (blk6_rstd V c t (ValueIdx.ix2 (0 : Fin 1) q))
    (blk6_gain V c t (ValueIdx.ix2 (0 : Fin 1) q)) (blk6_offset V c t (ValueIdx.ix2 (0 : Fin 1) q))

/-- What point `t` writes back is block `t` of the whole-array function: rows `10000 t … 10000 t + 9999`. -/
theorem flushed6_eq (c : Dev nD) (t : Fin cfg6.N) :
    (dat6 (F := Ideal) V c).flushed 5 t = ((cfg6.win 5).blk t).view.read (Elt Ideal)
      (outArr (R := 50000) (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  unfold out6_5
  rw [View.canon_unit_zero hz]
  simp only [View.ld_unit_zero (S := S10000x128) hz, View.ld_unit_zero (S := S1x128) hz]
  funext j
  obtain ⟨p, q, rfl⟩ : ∃ (p : Fin 10000) (q : Fin 128), j = ValueIdx.ix2 p q := ⟨j 0, j 1, ValueIdx.eq_ix2 j⟩
  exact point6 V c t p q

/-- An index of the output array is in point `t`'s block iff each coordinate is in the block's range on its axis. -/
theorem mem_blk6 (t : Fin cfg6.N) (i : S50000x128.Idx) :
    i ∈ ((cfg6.win 5).blk t).view.set ↔ ∀ a : Fin 2, win6_5.index t a * S10000x128.size a ≤ (i a).val ∧ (i a).val < win6_5.index t a * S10000x128.size a + S10000x128.size a := by
  show i ∈ ((View.whole main_v136).slice (win6_5.rect t)).set ↔ _
  rw [View.set_slice_whole, Rect.mem_set_unit]
  exact Iff.rfl

/-- Every index of the output array is in some point's block: row `r` is in block `r / 10000`. -/
theorem cover6 (i : S50000x128.Idx) :
    ∃ t : Fin cfg6.N, (cfg6.win 5).flush t = true ∧ i ∈ ((cfg6.win 5).blk t).view.set := by
  have hN : cfg6.N = 5 := N_6
  have hi0 : (i 0).val < 50000 := (i 0).isLt
  have hi1 : (i 1).val < 128 := (i 1).isLt
  let t : Fin cfg6.N := ⟨(i 0).val / 10000, by rw [hN]; omega⟩
  have ht : t.val = (i 0).val / 10000 := rfl
  have e0 : win6_5.index t (0 : Fin 2) = t.val := (idx_facts6 t).2.2.2.2.2.2.2.2.2.2.1
  have e1 : win6_5.index t (1 : Fin 2) = 0 := (idx_facts6 t).2.2.2.2.2.2.2.2.2.2.2
  refine ⟨t, flush6_5 t, ?_⟩
  rw [mem_blk6]
  intro a
  match a with
  | ⟨0, _⟩ => show win6_5.index t (0 : Fin 2) * 10000 ≤ (i 0).val ∧ (i 0).val < win6_5.index t (0 : Fin 2) * 10000 + 10000; rw [e0, ht]; omega
  | ⟨1, _⟩ => show win6_5.index t (1 : Fin 2) * 128 ≤ (i 1).val ∧ (i 1).val < win6_5.index t (1 : Fin 2) * 128 + 128; rw [e1]; omega

/-- The output array after the call is the whole-array function of the entry contents. -/
theorem final6 (c : Dev nD) :
    (dat6 (F := Ideal) V c).arrAt 5 cfg6.N
      = outArr (R := 50000) (V c (Pipeline.arrRef spec6 0)) (V c (Pipeline.arrRef spec6 1)) (V c (Pipeline.arrRef spec6 2))
          (V c (Pipeline.arrRef spec6 3)) (V c (Pipeline.arrRef spec6 4)) :=
  (dat6 (F := Ideal) V c).arrAt_eq_of_cover 5 _ (fun t _ => flushed6_eq V c t) cover6

theorem reg6_out (c : Dev nD) :
    cur2 (n0 := 50000) (n1 := 128) ((dat6 (F := Ideal) V c).arrAt 5 cfg6.N)
      = affRelu (cur2 (n0 := 1) (n1 := 128) (V c (Pipeline.arrRef spec6 1)) 0) (cur2 (n0 := 1) (n1 := 128) (V c (Pipeline.arrRef spec6 2)) 0)
          (cur2 (n0 := 1) (n1 := 128) (V c (Pipeline.arrRef spec6 3)) 0) (cur2 (n0 := 1) (n1 := 128) (V c (Pipeline.arrRef spec6 4)) 0)
          (cur2 (n0 := 50000) (n1 := 128) (V c (Pipeline.arrRef spec6 0))) := by
  rw [final6]
  rfl

end Cert.KernelIdeal.KRegAffRelu

end
-- ==== Proof.KRegAffMM.lean ====
/- What the two normalise-clip-and-multiply calls leave: the product of the normalised, clipped input with the weight matrix, and per row tile the column sums of that product and of its squares. -/
import proofs.«412927_j30382598652491_3_alg».proof.Proof.Gen.KernelIdeal.Frame
import proofs.«412927_j30382598652491_3_alg».proof.Proof.BNSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KRegAffMM

open Idealize.ShloMosaic Idealize.ShloMosaic.TcCoe Cert.KernelIdeal Cert.KernelIdeal.Gen Cert.BNSpec
open Idealize.ShloMosaic.Pipeline (Dat Cfg Window)
open Idealize.ShloMosaic.ValueIdx
open scoped BigOperators

/-! ## One tile's arithmetic, entry by entry -/

/-- One tile's rows after normalising, scaling, shifting and clipping at zero: entry `(p, k)` from the tile's entry
    `(p, k)` and the four per-column rows at column `k`. -/
def actT (x0 : Vec Ideal S5000x256 .bf16) (x1 x2 x3 x4 : Vec Ideal S1x256 .f32) (p : Fin 5000) (k : Fin 256) : EReal :=
  max ((x0 (ix2 p k) - x1 (ix2 (0 : Fin 1) k)) * x2 (ix2 (0 : Fin 1) k) * x3 (ix2 (0 : Fin 1) k) + x4 (ix2 (0 : Fin 1) k)) zeroE

/-- A one-row block spread over the tile's rows reads the row. -/
theorem rowSpread_apply {α : Type} (v : S1x256.Idx → α) (p : Fin 5000) (k : Fin 256) :
    broadcastTo S5000x256 v broadcasts_S1x256_S5000x256 (ix2 p k) = v (ix2 (0 : Fin 1) k) :=
  broadcastTo_1b_ab_apply v broadcasts_S1x256_S5000x256 p k

/-! The product's two operand indices at output entry `i` and contraction position `q`, axis by axis. -/

theorem mmLhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem mmLhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem mmRhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem mmRhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A tile product into the zero block, entry `(p, q)`: the sum over the 256 columns of the left entry `(p, k)` times
    the right entry `(k, q)`. -/
theorem tileMM_apply (a : FVec Ideal S5000x256 .f32) (w : FVec Ideal S256x128 .f32) (p : Fin 5000) (q : Fin 128) :
    matmul dot_S5000x256_S256x128_S5000x128_1_0_0_1_n_n (some .fp32) a w (constant (F := Ideal) S5000x128 .f32 0x00000000#32) (ix2 p q)
      = ∑ k : Fin 256, a (ix2 p k) * w (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact mmLhs_0 _ _
    | ⟨1, _⟩ => exact (mmLhs_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (mmRhs_0 _ _).trans hk
    | ⟨1, _⟩ => exact mmRhs_1 _ _)
  rw [el, er]

/-- The tile's product at entry `(p, q)`: the clipped rows times the weight matrix. -/
theorem k2_pay1_apply (x0 : Vec Ideal S5000x256 .bf16) (x1 x2 x3 x4 : Vec Ideal S1x256 .f32) (x5 : Vec Ideal S256x128 .f32)
    (p : Fin 5000) (q : Fin 128) :
    k2_pay1 (F := Ideal) x0 x1 x2 x3 x4 x5 (ix2 p q) = ∑ k : Fin 256, actT x0 x1 x2 x3 x4 p k * x5 (ix2 k q) := by
  unfold k2_pay1
  refine (tileMM_apply _ x5 p q).trans ?_
  refine Finset.sum_congr rfl fun k _ => ?_
  refine congrArg (· * x5 (ix2 k q)) ?_
  simp only [maximumf_apply, addf_apply, mulf_apply, subf_apply, extf_apply, broadcast_apply, rowSpread_apply, shapeCast_self]
  rfl

/-! ## One tile's statistics block, entry by entry -/

/-- The statistics block of a tile's product `y`: its column sums in row 0, the column sums of its squares in row 1. -/
def statsBlk (y : FVec Ideal S5000x128 .f32) : FVec Ideal S1x2x128 .f32 :=
  shapeCast S1x2x128
    (concatenate S2x128 0
      [⟨S1x128, shapeCast S1x128 (multiReduction (F := Ideal) .add [0] S128 y 0x00000000#32 reduces_S5000x128_S128 (.inl rfl) rfl) shapeCasts_S128_S1x128⟩,
       ⟨S1x128, shapeCast S1x128 (multiReduction (F := Ideal) .add [0] S128 (mulf y y) 0x00000000#32 reduces_S5000x128_S128 (.inl rfl) rfl) shapeCasts_S128_S1x128⟩]
      concatenates_S1x128_S1x128_S2x128_d0)
    shapeCasts_S2x128_S1x2x128

/-- A sum down the tile's 5000 rows, at column `q`. -/
theorem colSum_apply (y : FVec Ideal S5000x128 .f32) (hacc : (0x00000000#32 : BitVec 32) = FKind.add.neutral .f32 (.inl rfl)) (q : Fin 128) :
    multiReduction (F := Ideal) .add [0] S128 y 0x00000000#32 reduces_S5000x128_S128 (.inl rfl) hacc (ix1 q)
      = ∑ p : Fin 5000, y (ix2 p q) := by
  refine (Ideal.multiReduction_add_single y 0x00000000#32 reduces_S5000x128_S128 (.inl rfl) hacc (ix1 q)).trans ?_
  refine Finset.sum_congr rfl fun p _ => congrArg y ?_
  funext a
  match a with
  | ⟨0, _⟩ => rfl
  | ⟨1, _⟩ => rfl

/-- Row 0 of the statistics block: the column sums. -/
theorem statsBlk_row0 (y : FVec Ideal S5000x128 .f32) (u : Fin 1) (q : Fin 128) :
    statsBlk y (ix3 u (0 : Fin 2) q) = ∑ p : Fin 5000, y (ix2 p q) := by
  unfold statsBlk
  rw [shapeCast_ab_1ab_apply]
  refine (concatenate_pair_apply_left (t := S2x128) (s₁ := S1x128) (s₂ := S1x128) (0 : Fin 2) _ _ concatenates_S1x128_S1x128_S2x128_d0 (ix2 (0 : Fin 2) q) rfl (ix2 (0 : Fin 1) q)
    (fun b => by match b with | ⟨0, _⟩ => rfl | ⟨1, _⟩ => rfl)).trans ?_
  rw [shapeCast_a_1a_apply]
  exact colSum_apply y rfl q

/-- Row 1 of the statistics block: the column sums of the squares. -/
theorem statsBlk_row1 (y : FVec Ideal S5000x128 .f32) (u : Fin 1) (q : Fin 128) :
    statsBlk y (ix3 u (1 : Fin 2) q) = ∑ p : Fin 5000, y (ix2 p q) * y (ix2 p q) := by
  unfold statsBlk
  rw [shapeCast_ab_1ab_apply]
  refine (concatenate_pair_apply_right (t := S2x128) (s₁ := S1x128) (s₂ := S1x128) (0 : Fin 2) _ _ concatenates_S1x128_S1x128_S2x128_d0 (ix2 (1 : Fin 2) q) rfl rfl (ix2 (0 : Fin 1) q)
    (fun b hb => by
      match b with
      | ⟨0, _⟩ => exact absurd rfl hb
      | ⟨1, _⟩ => rfl) rfl).trans ?_
  rw [shapeCast_a_1a_apply]
  exact colSum_apply (mulf y y) rfl q

theorem k2_pay3_eq (x0 : Vec Ideal S5000x256 .bf16) (x1 x2 x3 x4 : Vec Ideal S1x256 .f32) (x5 : Vec Ideal S256x128 .f32) :
    k2_pay3 (F := Ideal) x0 x1 x2 x3 x4 x5 = statsBlk (k2_pay1 (F := Ideal) x0 x1 x2 x3 x4 x5) := rfl

theorem k5_pay1_eq (x0 : Vec Ideal S5000x256 .bf16) (x1 x2 x3 x4 : Vec Ideal S1x256 .f32) (x5 : Vec Ideal S256x128 .f32) :
    k5_pay1 (F := Ideal) x0 x1 x2 x3 x4 x5 = k2_pay1 (F := Ideal) x0 x1 x2 x3 x4 x5 := rfl

theorem k5_pay3_eq (x0 : Vec Ideal S5000x256 .bf16) (x1 x2 x3 x4 : Vec Ideal S1x256 .f32) (x5 : Vec Ideal S256x128 .f32) :
    k5_pay3 (F := Ideal) x0 x1 x2 x3 x4 x5 = statsBlk (k2_pay1 (F := Ideal) x0 x1 x2 x3 x4 x5) := rfl

/-! ## From a tile to the whole array: the arithmetic -/

/-- A tile's product from the whole arrays: when the tile's input block is rows `t * 5000 …` of `X` and the other
    blocks are the whole of the small arrays, entry `(p, q)` of the tile's product is entry `(t * 5000 + p, q)` of the
    whole product. -/
theorem tile_pay1 {R T : ℕ} (h : T * 5000 = R) (X : (⟨2, ![R, 256]⟩ : Shape).Idx → EReal)
    (M S G B : S1x256.Idx → EReal) (Wt : S256x128.Idx → EReal)
    (x0 : Vec Ideal S5000x256 .bf16) (x1 x2 x3 x4 : Vec Ideal S1x256 .f32) (x5 : Vec Ideal S256x128 .f32) (t : Fin T)
    (h0 : ∀ p k, x0 (ix2 p k) = X (ix2 (rowOf h t p) k)) (h1 : x1 = M) (h2 : x2 = S) (h3 : x3 = G) (h4 : x4 = B) (h5 : x5 = Wt)
    (p : Fin 5000) (q : Fin 128) :
    k2_pay1 (F := Ideal) x0 x1 x2 x3 x4 x5 (ix2 p q)
      = mm (affRelu (cur2 (n0 := 1) (n1 := 256) M 0) (cur2 (n0 := 1) (n1 := 256) S 0) (cur2 (n0 := 1) (n1 := 256) G 0) (cur2 (n0 := 1) (n1 := 256) B 0) (cur2 (n0 := R) (n1 := 256) X))
          (cur2 (n0 := 256) (n1 := 128) Wt) (rowOf h t p) q := by
  rw [k2_pay1_apply]
  subst h1 h2 h3 h4 h5
  unfold mm affRelu actT
  refine Finset.sum_congr rfl fun k _ => ?_
  rw [h0 p k]

/-- The statistics array of a product `y` cut into tiles of 5000 rows: per tile, row 0 the column sums, row 1 the column
    sums of the squares. -/
def statsArr {R T : ℕ} (h : T * 5000 = R) (y : Fin R → Fin 128 → EReal) : (⟨3, ![T, 2, 128]⟩ : Shape).Idx → EReal :=
  fun i => if (i 1).val = 0 then tileSum h y (i 0) (i 2) else tileSumSq h y (i 0) (i 2)

/-- A tile's statistics block from the whole product. -/
theorem tile_stats {R T : ℕ} (h : T * 5000 = R) (y : Fin R → Fin 128 → EReal) (yt : FVec Ideal S5000x128 .f32) (t : Fin T)
    (hy : ∀ p q, yt (ix2 p q) = y (rowOf h t p) q) (u : Fin 1) (r : Fin 2) (q : Fin 128) :
    statsBlk yt (ix3 u r q) = statsArr h y (ix3 t r q) := by
  unfold statsArr
  match r with
  | ⟨0, _⟩ =>
    show statsBlk yt (ix3 u (0 : Fin 2) q) = if (0 : ℕ) = 0 then tileSum h y t q else tileSumSq h y t q
    rw [if_pos rfl]
    refine (statsBlk_row0 yt u q).trans ?_
    unfold tileSum
    exact Finset.sum_congr rfl fun p _ => hy p q
  | ⟨1, _⟩ =>
    show statsBlk yt (ix3 u (1 : Fin 2) q) = if (1 : ℕ) = 0 then tileSum h y t q else tileSumSq h y t q
    rw [if_neg Nat.one_ne_zero]
    refine (statsBlk_row1 yt u q).trans ?_
    unfold tileSumSq
    exact Finset.sum_congr rfl fun p _ => by rw [hy p q]

theorem hz2 : (![0, 0] : Fin 2 → Nat) = fun _ => 0 := funext fun a => by fin_cases a <;> rfl
theorem hz3 : (![0, 0, 0] : Fin 3 → Nat) = fun _ => 0 := funext fun a => by fin_cases a <;> rfl

variable (V : (c : Dev nD) → (b : Ref sig .tc) → Buf (Elt Ideal) ((c : Thread nD τ).loc b))

/-- The product call 2 computes, of the region's entry contents. -/
abbrev y2 (c : Dev nD) : Fin 400000 → Fin 128 → EReal :=
  mm (affRelu (cur2 (n0 := 1) (n1 := 256) (V c (Pipeline.arrRef spec2 1)) 0) (cur2 (n0 := 1) (n1 := 256) (V c (Pipeline.arrRef spec2 2)) 0)
        (cur2 (n0 := 1) (n1 := 256) (V c (Pipeline.arrRef spec2 3)) 0) (cur2 (n0 := 1) (n1 := 256) (V c (Pipeline.arrRef spec2 4)) 0)
        (cur2 (n0 := 400000) (n1 := 256) (V c (Pipeline.arrRef spec2 0))))
     (cur2 (n0 := 256) (n1 := 128) (V c (Pipeline.arrRef spec2 5)))

/-! ## Call 2: from the tiles to the arrays -/

/-- The index maps over the 80 grid points: the row-tiled windows sit at block row `t`, the others at block 0. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 3) = t.val ∧ win2_7.index t (1 : Fin 3) = 0 ∧ win2_7.index t (2 : Fin 3) = 0 :=
  (by decide +kernel : ∀ t : Fin grid2.N, _)

/-- The input tile at point `t` is rows `t * 5000 …` of the input array. -/
theorem blk2_0 (c : Dev nD) (t : Fin cfg2.N) (t' : Fin 80) (ht : t'.val = t.val) (p : Fin 5000) (k : Fin 256) :
    (iblk2 (F := Ideal) V c 0 t : Vec Ideal S5000x256 .bf16) (ix2 p k)
      = (V c (Pipeline.arrRef spec2 0) : S400000x256.Idx → EReal) (ix2 (rowOf hE t' p) k) := by
  obtain ⟨e0, e1, -⟩ := idx2 t
  show (V c (Pipeline.arrRef spec2 0) : S400000x256.Idx → EReal) (((cfg2.win 0).blk t).view.emb (ix2 p k)) = _
  refine congrArg _ (funext fun a => Fin.ext ?_)
  match a with
  | ⟨0, _⟩ => show win2_0.index t (0 : Fin 2) * 5000 + 1 * p.val = t'.val * 5000 + p.val; omega
  | ⟨1, _⟩ => show win2_0.index t (1 : Fin 2) * 256 + 1 * k.val = k.val; omega

/-- The one-row windows' blocks are their whole arrays. -/
theorem blk2_1 (c : Dev nD) (t : Fin cfg2.N) :
    (iblk2 (F := Ideal) V c 1 t : Vec Ideal S1x256 .f32) = (V c (Pipeline.arrRef spec2 1) : S1x256.Idx → EReal) := by
  obtain ⟨-, -, e0, e1, -⟩ := idx2 t
  funext y
  show (V c (Pipeline.arrRef spec2 1) : S1x256.Idx → EReal) (((cfg2.win 1).blk t).view.emb y) = _
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 256 + 1 * (y 1).val = (y 1).val; omega
theorem blk2_2 (c : Dev nD) (t : Fin cfg2.N) :
    (iblk2 (F := Ideal) V c 2 t : Vec Ideal S1x256 .f32) = (V c (Pipeline.arrRef spec2 2) : S1x256.Idx → EReal) := by
  obtain ⟨-, -, -, -, e0, e1, -⟩ := idx2 t
  funext y
  show (V c (Pipeline.arrRef spec2 2) : S1x256.Idx → EReal) (((cfg2.win 2).blk t).view.emb y) = _
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega
theorem blk2_3 (c : Dev nD) (t : Fin cfg2.N) :
    (iblk2 (F := Ideal) V c 3 t : Vec Ideal S1x256 .f32) = (V c (Pipeline.arrRef spec2 3) : S1x256.Idx → EReal) := by
  obtain ⟨-, -, -, -, -, -, e0, e1, -⟩ := idx2 t
  funext y
  show (V c (Pipeline.arrRef spec2 3) : S1x256.Idx → EReal) (((cfg2.win 3).blk t).view.emb y) = _
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 256 + 1 * (y 1).val = (y 1).val; omega
theorem blk2_4 (c : Dev nD) (t : Fin cfg2.N) :
    (iblk2 (F := Ideal) V c 4 t : Vec Ideal S1x256 .f32) = (V c (Pipeline.arrRef spec2 4) : S1x256.Idx → EReal) := by
  obtain ⟨-, -, -, -, -, -, -, -, e0, e1, -⟩ := idx2 t
  funext y
  show (V c (Pipeline.arrRef spec2 4) : S1x256.Idx → EReal) (((cfg2.win 4).blk t).view.emb y) = _
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 256 + 1 * (y 1).val = (y 1).val; omega
/-- The weight window's block is the whole weight matrix. -/
theorem blk2_5 (c : Dev nD) (t : Fin cfg2.N) :
    (iblk2 (F := Ideal) V c 5 t : Vec Ideal S256x128 .f32) = (V c (Pipeline.arrRef spec2 5) : S256x128.Idx → EReal) := by
  obtain ⟨-, -, -, -, -, -, -, -, -, -, e0, e1, -⟩ := idx2 t
  funext y
  show (V c (Pipeline.arrRef spec2 5) : S256x128.Idx → EReal) (((cfg2.win 5).blk t).view.emb y) = _
  refine congrArg _ (funext fun a => Fin.ext ?_)
  match a with
  | ⟨0, _⟩ => show win2_5.index t (0 : Fin 2) * 256 + 1 * (y 0).val = (y 0).val; omega
  | ⟨1, _⟩ => show win2_5.index t (1 : Fin 2) * 128 + 1 * (y 1).val = (y 1).val; omega

/-- The tile's product at point `t` is rows `t * 5000 …` of the whole product. -/
theorem tile2_y (c : Dev nD) (t : Fin cfg2.N) (t' : Fin 80) (ht : t'.val = t.val) (p : Fin 5000) (q : Fin 128) :
    k2_pay1 (F := Ideal) (iblk2 V c 0 t) (iblk2 V c 1 t) (iblk2 V c 2 t) (iblk2 V c 3 t) (iblk2 V c 4 t) (iblk2 V c 5 t) (ix2 p q)
      = y2 V c (rowOf hE t' p) q :=
  tile_pay1 hE (V c (Pipeline.arrRef spec2 0)) (V c (Pipeline.arrRef spec2 1)) (V c (Pipeline.arrRef spec2 2)) (V c (Pipeline.arrRef spec2 3))
    (V c (Pipeline.arrRef spec2 4)) (V c (Pipeline.arrRef spec2 5))
    (iblk2 V c 0 t) (iblk2 V c 1 t) (iblk2 V c 2 t) (iblk2 V c 3 t) (iblk2 V c 4 t) (iblk2 V c 5 t) t'
    (fun p k => blk2_0 V c t t' ht p k) (blk2_1 V c t) (blk2_2 V c t) (blk2_3 V c t) (blk2_4 V c t) (blk2_5 V c t) p q

/-- What point `t` writes back to the product array: rows `t * 5000 …` of the whole product. -/
theorem flushed2_6 (c : Dev nD) (t : Fin cfg2.N) :
    (dat2 (F := Ideal) V c).flushed 6 t = ((cfg2.win 6).blk t).view.read (Elt Ideal) (unc2 (y2 V c)) := by
  have htN : t.val < 80 := Nat.lt_of_lt_of_eq t.isLt N_2
  obtain ⟨-, -, -, -, -, -, -, -, -, -, -, -, e0, e1, -⟩ := idx2 t
  show (cfg2.win 6).cut (grid2.coords t) ((dat2 (F := Ideal) V c).after 6 t) = _
  rw [after2_6]
  unfold out2_6
  rw [View.canon_unit_zero hz2]
  simp only [View.ld_unit_zero (S := S5000x256) hz2, View.ld_unit_zero (S := S1x256) hz2, View.ld_unit_zero (S := S256x128) hz2]
  funext j
  have hj0 : (j 0).val < 5000 := (j 0).isLt
  have hj1 : (j 1).val < 128 := (j 1).isLt
  show k2_pay1 (F := Ideal) (iblk2 V c 0 t) (iblk2 V c 1 t) (iblk2 V c 2 t) (iblk2 V c 3 t) (iblk2 V c 4 t) (iblk2 V c 5 t) ((cfg2.win 6).xinj (grid2.coords t) j)
     = y2 V c ((((cfg2.win 6).blk t).view.emb j) 0) ((((cfg2.win 6).blk t).view.emb j) 1)
  have ej : (cfg2.win 6).xinj (grid2.coords t) j = ix2 (⟨(j 0).val, hj0⟩ : Fin 5000) (⟨(j 1).val, hj1⟩ : Fin 128) :=
    funext fun a => match a with | ⟨0, _⟩ => rfl | ⟨1, _⟩ => rfl
  have e0' : (rowOf hE (⟨t.val, htN⟩ : Fin 80) (⟨(j 0).val, hj0⟩ : Fin 5000) : Fin 400000) = (((cfg2.win 6).blk t).view.emb j) 0 := Fin.ext (by
    show t.val * 5000 + (j 0).val = win2_6.index t (0 : Fin 2) * 5000 + 1 * (j 0).val; omega)
  have e1' : (⟨(j 1).val, hj1⟩ : Fin 128) = (((cfg2.win 6).blk t).view.emb j) 1 := Fin.ext (by
    show (j 1).val = win2_6.index t (1 : Fin 2) * 128 + 1 * (j 1).val; omega)
  exact (congrArg _ ej).trans ((tile2_y V c t ⟨t.val, htN⟩ rfl _ _).trans (congrArg₂ (y2 V c) e0' e1'))

/-- What point `t` writes back to the statistics array: tile `t`'s two rows of sums. -/
theorem flushed2_7 (c : Dev nD) (t : Fin cfg2.N) :
    (dat2 (F := Ideal) V c).flushed 7 t = ((cfg2.win 7).blk t).view.read (Elt Ideal) (statsArr hE (y2 V c)) := by
  have htN : t.val < 80 := Nat.lt_of_lt_of_eq t.isLt N_2
  obtain ⟨-, -, -, -, -, -, -, -, -, -, -, -, -, -, e0, e1, e2⟩ := idx2 t
  show (cfg2.win 7).cut (grid2.coords t) ((dat2 (F := Ideal) V c).after 7 t) = _
  rw [after2_7]
  unfold out2_7
  rw [View.canon_unit_zero hz3]
  simp only [View.ld_unit_zero (S := S5000x256) hz2, View.ld_unit_zero (S := S1x256) hz2, View.ld_unit_zero (S := S256x128) hz2]
  funext j
  have hj0 : (j 0).val < 1 := (j 0).isLt
  have hj1 : (j 1).val < 2 := (j 1).isLt
  have hj2 : (j 2).val < 128 := (j 2).isLt
  show statsBlk (k2_pay1 (F := Ideal) (iblk2 V c 0 t) (iblk2 V c 1 t) (iblk2 V c 2 t) (iblk2 V c 3 t) (iblk2 V c 4 t) (iblk2 V c 5 t)) ((cfg2.win 7).xinj (grid2.coords t) j)
     = statsArr hE (y2 V c) (((cfg2.win 7).blk t).view.emb j)
  have ej : (cfg2.win 7).xinj (grid2.coords t) j = ix3 (⟨(j 0).val, hj0⟩ : Fin 1) (⟨(j 1).val, hj1⟩ : Fin 2) (⟨(j 2).val, hj2⟩ : Fin 128) :=
    funext fun a => match a with | ⟨0, _⟩ => rfl | ⟨1, _⟩ => rfl | ⟨2, _⟩ => rfl
  have ee : (ix3 (⟨t.val, htN⟩ : Fin 80) (⟨(j 1).val, hj1⟩ : Fin 2) (⟨(j 2).val, hj2⟩ : Fin 128) : S80x2x128.Idx) = ((cfg2.win 7).blk t).view.emb j :=
    funext fun a => Fin.ext (by
      match a with
      | ⟨0, _⟩ => show t.val = win2_7.index t (0 : Fin 3) * 1 + 1 * (j 0).val; omega
      | ⟨1, _⟩ => show (j 1).val = win2_7.index t (1 : Fin 3) * 2 + 1 * (j 1).val; omega
      | ⟨2, _⟩ => show (j 2).val = win2_7.index t (2 : Fin 3) * 128 + 1 * (j 2).val; omega)
  exact (congrArg _ ej).trans ((tile_stats hE (y2 V c) _ (⟨t.val, htN⟩ : Fin 80) (fun p q => tile2_y V c t ⟨t.val, htN⟩ rfl p q) _ _ _).trans
    (congrArg (statsArr hE (y2 V c)) ee))

/-- An entry of the product array is in point `t`'s block iff each coordinate is in the block's range. -/
theorem mem_blk2_6 (t : Fin cfg2.N) (i : S400000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v60_0).slice (win2_6.rect t)).set ↔ _
  rw [View.set_slice_whole, Rect.mem_set_unit]
  exact Iff.rfl

theorem mem_blk2_7 (t : Fin cfg2.N) (i : S80x2x128.Idx) :
    i ∈ ((cfg2.win 7).blk t).view.set ↔ ∀ a : Fin 3, win2_7.index t a * S1x2x128.size a ≤ (i a).val ∧ (i a).val < win2_7.index t a * S1x2x128.size a + S1x2x128.size a := by
  show i ∈ ((View.whole main_v60_1).slice (win2_7.rect t)).set ↔ _
  rw [View.set_slice_whole, Rect.mem_set_unit]
  exact Iff.rfl

/-- The product array after the run: the whole product (row `r` is covered by point `r / 5000`). -/
theorem final2_6 (c : Dev nD) : (dat2 (F := Ideal) V c).arrAt 6 cfg2.N = unc2 (y2 V c) :=
  (dat2 (F := Ideal) V c).arrAt_eq_of_cover 6 (unc2 (y2 V c)) (fun t _ => flushed2_6 V c t) fun i => by
    have hi0 : (i 0).val < 400000 := (i 0).isLt
    have hi1 : (i 1).val < 128 := (i 1).isLt
    have hlt : (i 0).val / 5000 < cfg2.N := by rw [show cfg2.N = 80 from N_2]; omega
    obtain ⟨-, -, -, -, -, -, -, -, -, -, -, -, e0, e1, -⟩ := idx2 ⟨(i 0).val / 5000, hlt⟩
    refine ⟨⟨(i 0).val / 5000, hlt⟩, flush2_6 _, ?_⟩
    rw [mem_blk2_6]
    intro a
    match a with
    | ⟨0, _⟩ =>
      show win2_6.index ⟨(i 0).val / 5000, hlt⟩ (0 : Fin 2) * 5000 ≤ (i 0).val ∧ (i 0).val < win2_6.index ⟨(i 0).val / 5000, hlt⟩ (0 : Fin 2) * 5000 + 5000
      rw [e0]; show (i 0).val / 5000 * 5000 ≤ (i 0).val ∧ (i 0).val < (i 0).val / 5000 * 5000 + 5000; omega
    | ⟨1, _⟩ =>
      show win2_6.index ⟨(i 0).val / 5000, hlt⟩ (1 : Fin 2) * 128 ≤ (i 1).val ∧ (i 1).val < win2_6.index ⟨(i 0).val / 5000, hlt⟩ (1 : Fin 2) * 128 + 128
      rw [e1]; omega

/-- The statistics array after the run: every tile's two rows of sums (tile `t` is covered by point `t`). -/
theorem final2_7 (c : Dev nD) : (dat2 (F := Ideal) V c).arrAt 7 cfg2.N = statsArr hE (y2 V c) :=
  (dat2 (F := Ideal) V c).arrAt_eq_of_cover 7 (statsArr hE (y2 V c)) (fun t _ => flushed2_7 V c t) fun i => by
    have hi0 : (i 0).val < 80 := (i 0).isLt
    have hi1 : (i 1).val < 2 := (i 1).isLt
    have hi2 : (i 2).val < 128 := (i 2).isLt
    have hlt : (i 0).val < cfg2.N := by rw [show cfg2.N = 80 from N_2]; omega
    obtain ⟨-, -, -, -, -, -, -, -, -, -, -, -, -, -, e0, e1, e2⟩ := idx2 ⟨(i 0).val, hlt⟩
    refine ⟨⟨(i 0).val, hlt⟩, flush2_7 _, ?_⟩
    rw [mem_blk2_7]
    intro a
    match a with
    | ⟨0, _⟩ =>
      show win2_7.index ⟨(i 0).val, hlt⟩ (0 : Fin 3) * 1 ≤ (i 0).val ∧ (i 0).val < win2_7.index ⟨(i 0).val, hlt⟩ (0 : Fin 3) * 1 + 1
      rw [e0]; show (i 0).val * 1 ≤ (i 0).val ∧ (i 0).val < (i 0).val * 1 + 1; omega
    | ⟨1, _⟩ =>
      show win2_7.index ⟨(i 0).val, hlt⟩ (1 : Fin 3) * 2 ≤ (i 1).val ∧ (i 1).val < win2_7.index ⟨(i 0).val, hlt⟩ (1 : Fin 3) * 2 + 2
      rw [e1]; omega
    | ⟨2, _⟩ =>
      show win2_7.index ⟨(i 0).val, hlt⟩ (2 : Fin 3) * 128 ≤ (i 2).val ∧ (i 2).val < win2_7.index ⟨(i 0).val, hlt⟩ (2 : Fin 3) * 128 + 128
      rw [e2]; omega

theorem reg2_y (c : Dev nD) :
    cur2 (n0 := 400000) (n1 := 128) ((dat2 (F := Ideal) V c).arrAt 6 cfg2.N) = y2 V c := by
  rw [final2_6]
  rfl

theorem reg2_stats (c : Dev nD) (t : Fin 80) (j : Fin 128) :
    cur3 (n0 := 80) (n1 := 2) (n2 := 128) ((dat2 (F := Ideal) V c).arrAt 7 cfg2.N) t 0 j = tileSum hE (y2 V c) t j
    ∧ cur3 (n0 := 80) (n1 := 2) (n2 := 128) ((dat2 (F := Ideal) V c).arrAt 7 cfg2.N) t 1 j = tileSumSq hE (y2 V c) t j := by
  rw [final2_7]
  exact ⟨if_pos rfl, if_neg Nat.one_ne_zero⟩

/-- The product call 5 computes, of the region's entry contents. -/
abbrev y5 (c : Dev nD) : Fin 50000 → Fin 128 → EReal :=
  mm (affRelu (cur2 (n0 := 1) (n1 := 256) (V c (Pipeline.arrRef spec5 1)) 0) (cur2 (n0 := 1) (n1 := 256) (V c (Pipeline.arrRef spec5 2)) 0)
        (cur2 (n0 := 1) (n1 := 256) (V c (Pipeline.arrRef spec5 3)) 0) (cur2 (n0 := 1) (n1 := 256) (V c (Pipeline.arrRef spec5 4)) 0)
        (cur2 (n0 := 50000) (n1 := 256) (V c (Pipeline.arrRef spec5 0))))
     (cur2 (n0 := 256) (n1 := 128) (V c (Pipeline.arrRef spec5 5)))

/-! ## Call 5: from the tiles to the arrays -/

/-- The index maps over the 10 grid points: the row-tiled windows sit at block row `t`, the others at block 0. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0
    ∧ win5_7.index t (0 : Fin 3) = t.val ∧ win5_7.index t (1 : Fin 3) = 0 ∧ win5_7.index t (2 : Fin 3) = 0 :=
  (by decide +kernel : ∀ t : Fin grid5.N, _)

/-- The input tile at point `t` is rows `t * 5000 …` of the input array. -/
theorem blk5_0 (c : Dev nD) (t : Fin cfg5.N) (t' : Fin 10) (ht : t'.val = t.val) (p : Fin 5000) (k : Fin 256) :
    (iblk5 (F := Ideal) V c 0 t : Vec Ideal S5000x256 .bf16) (ix2 p k)
      = (V c (Pipeline.arrRef spec5 0) : S50000x256.Idx → EReal) (ix2 (rowOf hN t' p) k) := by
  obtain ⟨e0, e1, -⟩ := idx5 t
  show (V c (Pipeline.arrRef spec5 0) : S50000x256.Idx → EReal) (((cfg5.win 0).blk t).view.emb (ix2 p k)) = _
  refine congrArg _ (funext fun a => Fin.ext ?_)
  match a with
  | ⟨0, _⟩ => show win5_0.index t (0 : Fin 2) * 5000 + 1 * p.val = t'.val * 5000 + p.val; omega
  | ⟨1, _⟩ => show win5_0.index t (1 : Fin 2) * 256 + 1 * k.val = k.val; omega

/-- The one-row windows' blocks are their whole arrays. -/
theorem blk5_1 (c : Dev nD) (t : Fin cfg5.N) :
    (iblk5 (F := Ideal) V c 1 t : Vec Ideal S1x256 .f32) = (V c (Pipeline.arrRef spec5 1) : S1x256.Idx → EReal) := by
  obtain ⟨-, -, e0, e1, -⟩ := idx5 t
  funext y
  show (V c (Pipeline.arrRef spec5 1) : S1x256.Idx → EReal) (((cfg5.win 1).blk t).view.emb y) = _
  refine congrArg _ (funext fun a => Fin.ext ?_)
  match a with
  | ⟨0, _⟩ => show win5_1.index t (0 : Fin 2) * 1 + 1 * (y 0).val = (y 0).val; omega
  | ⟨1, _⟩ => show win5_1.index t (1 : Fin 2) * 256 + 1 * (y 1).val = (y 1).val; omega
theorem blk5_2 (c : Dev nD) (t : Fin cfg5.N) :
    (iblk5 (F := Ideal) V c 2 t : Vec Ideal S1x256 .f32) = (V c (Pipeline.arrRef spec5 2) : S1x256.Idx → EReal) := by
  obtain ⟨-, -, -, -, e0, e1, -⟩ := idx5 t
  funext y
  show (V c (Pipeline.arrRef spec5 2) : S1x256.Idx → EReal) (((cfg5.win 2).blk t).view.emb y) = _
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 256 + 1 * (y 1).val = (y 1).val; omega
theorem blk5_3 (c : Dev nD) (t : Fin cfg5.N) :
    (iblk5 (F := Ideal) V c 3 t : Vec Ideal S1x256 .f32) = (V c (Pipeline.arrRef spec5 3) : S1x256.Idx → EReal) := by
  obtain ⟨-, -, -, -, -, -, e0, e1, -⟩ := idx5 t
  funext y
  show (V c (Pipeline.arrRef spec5 3) : S1x256.Idx → EReal) (((cfg5.win 3).blk t).view.emb y) = _
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 256 + 1 * (y 1).val = (y 1).val; omega
theorem blk5_4 (c : Dev nD) (t : Fin cfg5.N) :
    (iblk5 (F := Ideal) V c 4 t : Vec Ideal S1x256 .f32) = (V c (Pipeline.arrRef spec5 4) : S1x256.Idx → EReal) := by
  obtain ⟨-, -, -, -, -, -, -, -, e0, e1, -⟩ := idx5 t
  funext y
  show (V c (Pipeline.arrRef spec5 4) : S1x256.Idx → EReal) (((cfg5.win 4).blk t).view.emb y) = _
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 256 + 1 * (y 1).val = (y 1).val; omega
/-- The weight window's block is the whole weight matrix. -/
theorem blk5_5 (c : Dev nD) (t : Fin cfg5.N) :
    (iblk5 (F := Ideal) V c 5 t : Vec Ideal S256x128 .f32) = (V c (Pipeline.arrRef spec5 5) : S256x128.Idx → EReal) := by
  obtain ⟨-, -, -, -, -, -, -, -, -, -, e0, e1, -⟩ := idx5 t
  funext y
  show (V c (Pipeline.arrRef spec5 5) : S256x128.Idx → EReal) (((cfg5.win 5).blk t).view.emb y) = _
  refine congrArg _ (funext fun a => Fin.ext ?_)
  match a with
  | ⟨0, _⟩ => show win5_5.index t (0 : Fin 2) * 256 + 1 * (y 0).val = (y 0).val; omega
  | ⟨1, _⟩ => show win5_5.index t (1 : Fin 2) * 128 + 1 * (y 1).val = (y 1).val; omega

/-- The tile's product at point `t` is rows `t * 5000 …` of the whole product. -/
theorem tile5_y (c : Dev nD) (t : Fin cfg5.N) (t' : Fin 10) (ht : t'.val = t.val) (p : Fin 5000) (q : Fin 128) :
    k2_pay1 (F := Ideal) (iblk5 V c 0 t) (iblk5 V c 1 t) (iblk5 V c 2 t) (iblk5 V c 3 t) (iblk5 V c 4 t) (iblk5 V c 5 t) (ix2 p q)
      = y5 V c (rowOf hN t' p) q :=
  tile_pay1 hN (V c (Pipeline.arrRef spec5 0)) (V c (Pipeline.arrRef spec5 1)) (V c (Pipeline.arrRef spec5 2)) (V c (Pipeline.arrRef spec5 3))
    (V c (Pipeline.arrRef spec5 4)) (V c (Pipeline.arrRef spec5 5))
    (iblk5 V c 0 t) (iblk5 V c 1 t) (iblk5 V c 2 t) (iblk5 V c 3 t) (iblk5 V c 4 t) (iblk5 V c 5 t) t'
    (fun p k => blk5_0 V c t t' ht p k) (blk5_1 V c t) (blk5_2 V c t) (blk5_3 V c t) (blk5_4 V c t) (blk5_5 V c t) p q

/-- What point `t` writes back to the product array: rows `t * 5000 …` of the whole product. -/
theorem flushed5_6 (c : Dev nD) (t : Fin cfg5.N) :
    (dat5 (F := Ideal) V c).flushed 6 t = ((cfg5.win 6).blk t).view.read (Elt Ideal) (unc2 (y5 V c)) := by
  have htN : t.val < 10 := Nat.lt_of_lt_of_eq t.isLt N_5
  obtain ⟨-, -, -, -, -, -, -, -, -, -, -, -, e0, e1, -⟩ := idx5 t
  show (cfg5.win 6).cut (grid5.coords t) ((dat5 (F := Ideal) V c).after 6 t) = _
  rw [after5_6]
  unfold out5_6
  rw [View.canon_unit_zero hz2]
  simp only [View.ld_unit_zero (S := S5000x256) hz2, View.ld_unit_zero (S := S1x256) hz2, View.ld_unit_zero (S := S256x128) hz2]
  funext j
  have hj0 : (j 0).val < 5000 := (j 0).isLt
  have hj1 : (j 1).val < 128 := (j 1).isLt
  show k2_pay1 (F := Ideal) (iblk5 V c 0 t) (iblk5 V c 1 t) (iblk5 V c 2 t) (iblk5 V c 3 t) (iblk5 V c 4 t) (iblk5 V c 5 t) ((cfg5.win 6).xinj (grid5.coords t) j)
     = y5 V c ((((cfg5.win 6).blk t).view.emb j) 0) ((((cfg5.win 6).blk t).view.emb j) 1)
  have ej : (cfg5.win 6).xinj (grid5.coords t) j = ix2 (⟨(j 0).val, hj0⟩ : Fin 5000) (⟨(j 1).val, hj1⟩ : Fin 128) :=
    funext fun a => match a with | ⟨0, _⟩ => rfl | ⟨1, _⟩ => rfl
  have e0' : (rowOf hN (⟨t.val, htN⟩ : Fin 10) (⟨(j 0).val, hj0⟩ : Fin 5000) : Fin 50000) = (((cfg5.win 6).blk t).view.emb j) 0 := Fin.ext (by
    show t.val * 5000 + (j 0).val = win5_6.index t (0 : Fin 2) * 5000 + 1 * (j 0).val; omega)
  have e1' : (⟨(j 1).val, hj1⟩ : Fin 128) = (((cfg5.win 6).blk t).view.emb j) 1 := Fin.ext (by
    show (j 1).val = win5_6.index t (1 : Fin 2) * 128 + 1 * (j 1).val; omega)
  exact (congrArg _ ej).trans ((tile5_y V c t ⟨t.val, htN⟩ rfl _ _).trans (congrArg₂ (y5 V c) e0' e1'))

/-- What point `t` writes back to the statistics array: tile `t`'s two rows of sums. -/
theorem flushed5_7 (c : Dev nD) (t : Fin cfg5.N) :
    (dat5 (F := Ideal) V c).flushed 7 t = ((cfg5.win 7).blk t).view.read (Elt Ideal) (statsArr hN (y5 V c)) := by
  have htN : t.val < 10 := Nat.lt_of_lt_of_eq t.isLt N_5
  obtain ⟨-, -, -, -, -, -, -, -, -, -, -, -, -, -, e0, e1, e2⟩ := idx5 t
  show (cfg5.win 7).cut (grid5.coords t) ((dat5 (F := Ideal) V c).after 7 t) = _
  rw [after5_7]
  unfold out5_7
  rw [View.canon_unit_zero hz3]
  simp only [View.ld_unit_zero (S := S5000x256) hz2, View.ld_unit_zero (S := S1x256) hz2, View.ld_unit_zero (S := S256x128) hz2]
  funext j
  have hj0 : (j 0).val < 1 := (j 0).isLt
  have hj1 : (j 1).val < 2 := (j 1).isLt
  have hj2 : (j 2).val < 128 := (j 2).isLt
  show statsBlk (k2_pay1 (F := Ideal) (iblk5 V c 0 t) (iblk5 V c 1 t) (iblk5 V c 2 t) (iblk5 V c 3 t) (iblk5 V c 4 t) (iblk5 V c 5 t)) ((cfg5.win 7).xinj (grid5.coords t) j)
     = statsArr hN (y5 V c) (((cfg5.win 7).blk t).view.emb j)
  have ej : (cfg5.win 7).xinj (grid5.coords t) j = ix3 (⟨(j 0).val, hj0⟩ : Fin 1) (⟨(j 1).val, hj1⟩ : Fin 2) (⟨(j 2).val, hj2⟩ : Fin 128) :=
    funext fun a => match a with | ⟨0, _⟩ => rfl | ⟨1, _⟩ => rfl | ⟨2, _⟩ => rfl
  have ee : (ix3 (⟨t.val, htN⟩ : Fin 10) (⟨(j 1).val, hj1⟩ : Fin 2) (⟨(j 2).val, hj2⟩ : Fin 128) : S10x2x128.Idx) = ((cfg5.win 7).blk t).view.emb j :=
    funext fun a => Fin.ext (by
      match a with
      | ⟨0, _⟩ => show t.val = win5_7.index t (0 : Fin 3) * 1 + 1 * (j 0).val; omega
      | ⟨1, _⟩ => show (j 1).val = win5_7.index t (1 : Fin 3) * 2 + 1 * (j 1).val; omega
      | ⟨2, _⟩ => show (j 2).val = win5_7.index t (2 : Fin 3) * 128 + 1 * (j 2).val; omega)
  exact (congrArg _ ej).trans ((tile_stats hN (y5 V c) _ (⟨t.val, htN⟩ : Fin 10) (fun p q => tile5_y V c t ⟨t.val, htN⟩ rfl p q) _ _ _).trans
    (congrArg (statsArr hN (y5 V c)) ee))

/-- An entry of the product array is in point `t`'s block iff each coordinate is in the block's range. -/
theorem mem_blk5_6 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v115_0).slice (win5_6.rect t)).set ↔ _
  rw [View.set_slice_whole, Rect.mem_set_unit]
  exact Iff.rfl

theorem mem_blk5_7 (t : Fin cfg5.N) (i : S10x2x128.Idx) :
    i ∈ ((cfg5.win 7).blk t).view.set ↔ ∀ a : Fin 3, win5_7.index t a * S1x2x128.size a ≤ (i a).val ∧ (i a).val < win5_7.index t a * S1x2x128.size a + S1x2x128.size a := by
  show i ∈ ((View.whole main_v115_1).slice (win5_7.rect t)).set ↔ _
  rw [View.set_slice_whole, Rect.mem_set_unit]
  exact Iff.rfl

/-- The product array after the run: the whole product (row `r` is covered by point `r / 5000`). -/
theorem final5_6 (c : Dev nD) : (dat5 (F := Ideal) V c).arrAt 6 cfg5.N = unc2 (y5 V c) :=
  (dat5 (F := Ideal) V c).arrAt_eq_of_cover 6 (unc2 (y5 V c)) (fun t _ => flushed5_6 V c t) fun i => by
    have hi0 : (i 0).val < 50000 := (i 0).isLt
    have hi1 : (i 1).val < 128 := (i 1).isLt
    have hlt : (i 0).val / 5000 < cfg5.N := by rw [show cfg5.N = 10 from N_5]; omega
    obtain ⟨-, -, -, -, -, -, -, -, -, -, -, -, e0, e1, -⟩ := idx5 ⟨(i 0).val / 5000, hlt⟩
    refine ⟨⟨(i 0).val / 5000, hlt⟩, flush5_6 _, ?_⟩
    rw [mem_blk5_6]
    intro a
    match a with
    | ⟨0, _⟩ =>
      show win5_6.index ⟨(i 0).val / 5000, hlt⟩ (0 : Fin 2) * 5000 ≤ (i 0).val ∧ (i 0).val < win5_6.index ⟨(i 0).val / 5000, hlt⟩ (0 : Fin 2) * 5000 + 5000
      rw [e0]; show (i 0).val / 5000 * 5000 ≤ (i 0).val ∧ (i 0).val < (i 0).val / 5000 * 5000 + 5000; omega
    | ⟨1, _⟩ =>
      show win5_6.index ⟨(i 0).val / 5000, hlt⟩ (1 : Fin 2) * 128 ≤ (i 1).val ∧ (i 1).val < win5_6.index ⟨(i 0).val / 5000, hlt⟩ (1 : Fin 2) * 128 + 128
      rw [e1]; omega

/-- The statistics array after the run: every tile's two rows of sums (tile `t` is covered by point `t`). -/
theorem final5_7 (c : Dev nD) : (dat5 (F := Ideal) V c).arrAt 7 cfg5.N = statsArr hN (y5 V c) :=
  (dat5 (F := Ideal) V c).arrAt_eq_of_cover 7 (statsArr hN (y5 V c)) (fun t _ => flushed5_7 V c t) fun i => by
    have hi0 : (i 0).val < 10 := (i 0).isLt
    have hi1 : (i 1).val < 2 := (i 1).isLt
    have hi2 : (i 2).val < 128 := (i 2).isLt
    have hlt : (i 0).val < cfg5.N := by rw [show cfg5.N = 10 from N_5]; omega
    obtain ⟨-, -, -, -, -, -, -, -, -, -, -, -, -, -, e0, e1, e2⟩ := idx5 ⟨(i 0).val, hlt⟩
    refine ⟨⟨(i 0).val, hlt⟩, flush5_7 _, ?_⟩
    rw [mem_blk5_7]
    intro a
    match a with
    | ⟨0, _⟩ =>
      show win5_7.index ⟨(i 0).val, hlt⟩ (0 : Fin 3) * 1 ≤ (i 0).val ∧ (i 0).val < win5_7.index ⟨(i 0).val, hlt⟩ (0 : Fin 3) * 1 + 1
      rw [e0]; show (i 0).val * 1 ≤ (i 0).val ∧ (i 0).val < (i 0).val * 1 + 1; omega
    | ⟨1, _⟩ =>
      show win5_7.index ⟨(i 0).val, hlt⟩ (1 : Fin 3) * 2 ≤ (i 1).val ∧ (i 1).val < win5_7.index ⟨(i 0).val, hlt⟩ (1 : Fin 3) * 2 + 2
      rw [e1]; omega
    | ⟨2, _⟩ =>
      show win5_7.index ⟨(i 0).val, hlt⟩ (2 : Fin 3) * 128 ≤ (i 2).val ∧ (i 2).val < win5_7.index ⟨(i 0).val, hlt⟩ (2 : Fin 3) * 128 + 128
      rw [e2]; omega

theorem reg5_y (c : Dev nD) :
    cur2 (n0 := 50000) (n1 := 128) ((dat5 (F := Ideal) V c).arrAt 6 cfg5.N) = y5 V c := by
  rw [final5_6]
  rfl

theorem reg5_stats (c : Dev nD) (t : Fin 10) (j : Fin 128) :
    cur3 (n0 := 10) (n1 := 2) (n2 := 128) ((dat5 (F := Ideal) V c).arrAt 7 cfg5.N) t 0 j = tileSum hN (y5 V c) t j
    ∧ cur3 (n0 := 10) (n1 := 2) (n2 := 128) ((dat5 (F := Ideal) V c).arrAt 7 cfg5.N) t 1 j = tileSumSq hN (y5 V c) t j := by
  rw [final5_7]
  exact ⟨if_pos rfl, if_neg Nat.one_ne_zero⟩

end Cert.KernelIdeal.KRegAffMM

end
-- ==== Proof.KRegCombine.lean ====
/- What the scale-add-and-multiply call leaves: the product of (scale times the first matrix plus the second) with the weight matrix, and per row tile the column sums of that product and of its squares.

   The 50000 rows are cut into 10 tiles of 5000. At tile t the body reads rows 5000 t … 5000 t + 4999 of the two
   matrices, the one-entry scale and the whole weight matrix; it forms scale * x1 + x2 entry by entry, multiplies by the
   weights (a sum over the 128 contraction positions, accumulated from zero), stores that product as the tile's rows of
   the output (the change of number format is the identity on the extended reals), and stores a [1, 2, 256] block whose
   row 0 holds, per column, the sum of the product over the tile's 5000 rows and whose row 1 the sum of its squares.
   Row p of tile t is row 5000 t + p of the whole matrices, so each stored tile is the restriction of ONE whole-array
   function; the tiles cover the arrays (row r lies in tile r / 5000), hence the arrays end holding those functions. -/
import proofs.«412927_j30382598652491_3_alg».proof.Proof.Gen.KernelIdeal.Frame
import proofs.«412927_j30382598652491_3_alg».proof.Proof.BNSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KRegCombine

open Idealize.ShloMosaic Idealize.ShloMosaic.TcCoe Cert.KernelIdeal Cert.KernelIdeal.Gen Cert.BNSpec
open Idealize.ShloMosaic.Pipeline (Dat Cfg Window)
open Idealize.ShloMosaic.ValueIdx
open scoped BigOperators

/-! ## The product's index maps: row and contraction position on the left, contraction position and column on the right -/

theorem dotL0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem dotL1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem dotR0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem dotR1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- A block product at a row and a column: the sum over the 128 contraction positions. -/
theorem blockProd_apply (a : FVec Ideal S5000x128 .f32) (b : FVec Ideal S128x256 .f32) (p : Fin 5000) (q : Fin 256) :
    matmul dot_S5000x128_S128x256_S5000x256_1_0_0_1_n_n (some .fp32) a b (constant (F := Ideal) S5000x256 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ix2 p q) ((ValueIdx.contrEquiv1 dot_S5000x128_S128x256_S5000x256_1_0_0_1_n_n 128 rfl rfl).symm k) = ix2 p k := funext fun a => Fin.ext (by
    match a with
    | ⟨0, _⟩ => exact dotL0 _ _
    | ⟨1, _⟩ => exact (dotL1 _ _).trans hk)
  have er : dot_S5000x128_S128x256_S5000x256_1_0_0_1_n_n.rhsIdx (ix2 p q) ((ValueIdx.contrEquiv1 dot_S5000x128_S128x256_S5000x256_1_0_0_1_n_n 128 rfl rfl).symm k) = ix2 k q := funext fun a => Fin.ext (by
    match a with
    | ⟨0, _⟩ => exact (dotR0 _ _).trans hk
    | ⟨1, _⟩ => exact dotR1 _ _)
  rw [el, er]

/-- The body's product at a row and a column of the block: the scale is the one entry of its block. -/
theorem pay1_apply (v0 : Vec Ideal S1x1 .f32) (v3 v6 : Vec Ideal S5000x128 .f32) (v9 : Vec Ideal S128x256 .f32)
    (p : Fin 5000) (q : Fin 256) :
    k4_pay1 (F := Ideal) v0 v3 v6 v9 (ix2 p q)
      = ∑ k : Fin 128, (v0 (ix2 0 0) * v3 (ix2 p k) + v6 (ix2 p k)) * v9 (ix2 k q) := by
  unfold k4_pay1
  rw [blockProd_apply]
  refine Finset.sum_congr rfl fun k _ => ?_
  rw [addf_apply, mulf_apply, broadcast_apply, shapeCast_self, shapeCast_self]
  refine congrArg (fun z => (z * v3 (ix2 p k) + v6 (ix2 p k)) * v9 (ix2 k q)) ?_
  unfold extractAt
  refine congrArg v0 ?_
  funext a; match a with | ⟨0, _⟩ => rfl | ⟨1, _⟩ => rfl

/-- A column sum of a block. -/
theorem colSum_apply (src : FVec Ideal S5000x256 .f32) (q : Fin 256) :
    multiReduction .add [0] S256 src 0x00000000#32 reduces_S5000x256_S256 (.inl rfl) rfl (ix1 q) = ∑ r : Fin 5000, src (ix2 r q) := by
  refine (Ideal.multiReduction_add_single src 0x00000000#32 reduces_S5000x256_S256 (.inl rfl) rfl (ix1 q)).trans ?_
  refine Finset.sum_congr rfl fun r _ => congrArg src ?_
  funext a; match a with | ⟨0, _⟩ => rfl | ⟨1, _⟩ => rfl

/-- What the body stores into the product's block: the product itself (the change of format is the identity on values). -/
theorem pay2_apply (v0 : Vec Ideal S1x1 .f32) (v3 v6 : Vec Ideal S5000x128 .f32) (v9 : Vec Ideal S128x256 .f32)
    (p : Fin 5000) (q : Fin 256) :
    k4_pay2 (F := Ideal) v0 v3 v6 v9 (ix2 p q)
      = ∑ k : Fin 128, (v0 (ix2 0 0) * v3 (ix2 p k) + v6 (ix2 p k)) * v9 (ix2 k q) := by
  unfold k4_pay2
  rw [truncf_apply]
  exact pay1_apply v0 v3 v6 v9 p q

/-- Row 0 of the statistics block: the column sums of the block's product. -/
theorem pay3_apply0 (v0 : Vec Ideal S1x1 .f32) (v3 v6 : Vec Ideal S5000x128 .f32) (v9 : Vec Ideal S128x256 .f32)
    (u : Fin 1) (q : Fin 256) :
    k4_pay3 (F := Ideal) v0 v3 v6 v9 (ix3 u (0 : Fin 2) q)
      = ∑ r : Fin 5000, k4_pay1 (F := Ideal) v0 v3 v6 v9 (ix2 r q) := by
  unfold k4_pay3
  rw [shapeCast_ab_1ab_apply]
  rw [concatenate_pair_apply_left (0 : Fin S2x256.rank) _ _ concatenates_S1x256_S1x256_S2x256_d0 (ix2 (0 : Fin 2) q) rfl (ix2 (0 : Fin 1) q)
    (fun b => by match b with | ⟨0, _⟩ => rfl | ⟨1, _⟩ => rfl)]
  rw [shapeCast_a_1a_apply, colSum_apply]

/-- Row 1 of the statistics block: the column sums of the squares of the block's product. -/
theorem pay3_apply1 (v0 : Vec Ideal S1x1 .f32) (v3 v6 : Vec Ideal S5000x128 .f32) (v9 : Vec Ideal S128x256 .f32)
    (u : Fin 1) (q : Fin 256) :
    k4_pay3 (F := Ideal) v0 v3 v6 v9 (ix3 u (1 : Fin 2) q)
      = ∑ r : Fin 5000, k4_pay1 (F := Ideal) v0 v3 v6 v9 (ix2 r q) * k4_pay1 (F := Ideal) v0 v3 v6 v9 (ix2 r q) := by
  unfold k4_pay3
  rw [shapeCast_ab_1ab_apply]
  rw [concatenate_pair_apply_right (0 : Fin S2x256.rank) _ _ concatenates_S1x256_S1x256_S2x256_d0 (ix2 (1 : Fin 2) q) rfl rfl (ix2 (0 : Fin 1) q)
    (fun b hb => by match b with | ⟨0, _⟩ => exact absurd rfl hb | ⟨1, _⟩ => rfl) rfl]
  rw [shapeCast_a_1a_apply, colSum_apply]
  rfl

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices over the grid: the two matrices and the two outputs move down one row tile per point; the scale
    and the weights stay. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 3) = t.val ∧ win4_5.index t (1 : Fin 3) = 0 ∧ win4_5.index t (2 : Fin 3) = 0 :=
  (by decide +kernel : ∀ t : Fin grid4.N, _)

/-- A row tile of the first matrix, read where it lies in the matrix. -/
theorem blk0_apply (c : Dev nD) (t : Fin cfg4.N) (y : S5000x128.Idx) (i : S50000x128.Idx)
    (h0 : (i 0).val = t.val * 5000 + (y 0).val) (h1 : (i 1).val = (y 1).val) :
    (iblk4 (F := Ideal) V c 0 t : Vec Ideal S5000x128 .f32) y = (V c (Pipeline.arrRef spec4 0) : S50000x128.Idx → EReal) i := by
  obtain ⟨e0, e1, -⟩ := idx_facts4 t
  unfold iblk4
  rw [View.read_apply]
  show (V c (Pipeline.arrRef spec4 0) : S50000x128.Idx → EReal) _ = _
  refine congrArg _ ?_
  funext a
  apply Fin.ext
  match a with
  | ⟨0, _⟩ => show win4_0.index t (0 : Fin 2) * 5000 + 1 * (y 0).val = (i 0).val; rw [e0, h0]; omega
  | ⟨1, _⟩ => show win4_0.index t (1 : Fin 2) * 128 + 1 * (y 1).val = (i 1).val; rw [e1, h1]; omega

/-- A row tile of the second matrix, read where it lies in the matrix. -/
theorem blk1_apply (c : Dev nD) (t : Fin cfg4.N) (y : S5000x128.Idx) (i : S50000x128.Idx)
    (h0 : (i 0).val = t.val * 5000 + (y 0).val) (h1 : (i 1).val = (y 1).val) :
    (iblk4 (F := Ideal) V c 1 t : Vec Ideal S5000x128 .f32) y = (V c (Pipeline.arrRef spec4 1) : S50000x128.Idx → EReal) i := by
  obtain ⟨-, -, e0, e1, -⟩ := idx_facts4 t
  unfold iblk4
  rw [View.read_apply]
  show (V c (Pipeline.arrRef spec4 1) : S50000x128.Idx → EReal) _ = _
  refine congrArg _ ?_
  funext a
  apply Fin.ext
  match a with
  | ⟨0, _⟩ => show win4_1.index t (0 : Fin 2) * 5000 + 1 * (y 0).val = (i 0).val; rw [e0, h0]; omega
  | ⟨1, _⟩ => show win4_1.index t (1 : Fin 2) * 128 + 1 * (y 1).val = (i 1).val; rw [e1, h1]; omega

/-- The scale's block is the scale's array. -/
theorem blk2_apply (c : Dev nD) (t : Fin cfg4.N) (y : S1x1.Idx) :
    (iblk4 (F := Ideal) V c 2 t : Vec Ideal S1x1 .f32) y = (V c (Pipeline.arrRef spec4 2) : S1x1.Idx → EReal) y := by
  obtain ⟨-, -, -, -, e0, e1, -⟩ := idx_facts4 t
  unfold iblk4
  rw [View.read_apply]
  show (V c (Pipeline.arrRef spec4 2) : S1x1.Idx → EReal) _ = _
  refine congrArg _ ?_
  funext a
  apply Fin.ext
  match a with
  | ⟨0, _⟩ => show win4_2.index t (0 : Fin 2) * 1 + 1 * (y 0).val = (y 0).val; rw [e0]; omega
  | ⟨1, _⟩ => show win4_2.index t (1 : Fin 2) * 1 + 1 * (y 1).val = (y 1).val; rw [e1]; omega

/-- The weights' block is the weight matrix. -/
theorem blk3_apply (c : Dev nD) (t : Fin cfg4.N) (y : S128x256.Idx) :
    (iblk4 (F := Ideal) V c 3 t : Vec Ideal S128x256 .f32) y = (V c (Pipeline.arrRef spec4 3) : S128x256.Idx → EReal) y := by
  obtain ⟨-, -, -, -, -, -, e0, e1, -⟩ := idx_facts4 t
  unfold iblk4
  rw [View.read_apply]
  show (V c (Pipeline.arrRef spec4 3) : S128x256.Idx → EReal) _ = _
  refine congrArg _ ?_
  funext a
  apply Fin.ext
  match a with
  | ⟨0, _⟩ => show win4_3.index t (0 : Fin 2) * 128 + 1 * (y 0).val = (y 0).val; rw [e0]; omega
  | ⟨1, _⟩ => show win4_3.index t (1 : Fin 2) * 256 + 1 * (y 1).val = (y 1).val; rw [e1]; omega

/-- The product call 4 computes, of the region's entry contents. -/
abbrev y4 (c : Dev nD) : Fin 50000 → Fin 256 → EReal :=
  mm (scaleAdd (cur2 (n0 := 1) (n1 := 1) (V c (Pipeline.arrRef spec4 2)) 0 0) (cur2 (n0 := 50000) (n1 := 128) (V c (Pipeline.arrRef spec4 0)))
        (cur2 (n0 := 50000) (n1 := 128) (V c (Pipeline.arrRef spec4 1))))
     (cur2 (n0 := 128) (n1 := 256) (V c (Pipeline.arrRef spec4 3)))

/-- At point `t` the body's product at row `p` of its block is the whole product at row `5000 t + p`. -/
theorem prod_row (c : Dev nD) (t : Fin cfg4.N) (p : Fin 5000) (q : Fin 256) (i : Fin 50000) (hi : i.val = t.val * 5000 + p.val) :
    k4_pay1 (F := Ideal) (iblk4 V c 2 t) (iblk4 V c 0 t) (iblk4 V c 1 t) (iblk4 V c 3 t) (ix2 p q) = y4 V c i q := by
  refine (pay1_apply (iblk4 V c 2 t) (iblk4 V c 0 t) (iblk4 V c 1 t) (iblk4 V c 3 t) p q).trans ?_
  refine Finset.sum_congr rfl fun k _ => ?_
  rw [blk0_apply V c t (ix2 p k) (ix2 i k) hi rfl, blk1_apply V c t (ix2 p k) (ix2 i k) hi rfl, blk2_apply V c t (ix2 0 0), blk3_apply V c t (ix2 k q)]
  rfl

/-- WHAT POINT `t` WRITES BACK into the product's array is row tile `t` of the whole product. -/
theorem flushed_y (c : Dev nD) (t : Fin cfg4.N) :
    (dat4 (F := Ideal) V c).flushed 4 t = ((cfg4.win 4).blk t).view.read (Elt Ideal) (unc2 (y4 V c)) := by
  obtain ⟨-, -, -, -, -, -, -, -, e0, e1, -⟩ := idx_facts4 t
  show (cfg4.win 4).cut (grid4.coords t) ((dat4 V c).after 4 t) = _
  rw [after4_4]
  unfold out4_4
  rw [View.canon_unit_zero hz2]
  simp only [View.ld_unit_zero (S := S1x1) hz2, View.ld_unit_zero (S := S5000x128) hz2, View.ld_unit_zero (S := S128x256) hz2]
  have key : ∀ (p : Fin 5000) (q : Fin 256),
      k4_pay2 (F := Ideal) (iblk4 V c 2 t) (iblk4 V c 0 t) (iblk4 V c 1 t) (iblk4 V c 3 t) (ix2 p q)
        = unc2 (y4 V c) (((cfg4.win 4).blk t).view.emb (ix2 p q)) := fun p q => by
    have hrow : ((((cfg4.win 4).blk t).view.emb (ix2 p q)) 0).val = t.val * 5000 + p.val := by
      show win4_4.index t (0 : Fin 2) * 5000 + 1 * p.val = _; rw [e0]; omega
    have hcol : ((((cfg4.win 4).blk t).view.emb (ix2 p q)) 1).val = q.val := by
      show win4_4.index t (1 : Fin 2) * 256 + 1 * q.val = _; rw [e1]; omega
    unfold k4_pay2
    rw [truncf_apply]
    refine (prod_row V c t p q ((((cfg4.win 4).blk t).view.emb (ix2 p q)) 0) hrow).trans ?_
    show y4 V c _ q = y4 V c _ ((((cfg4.win 4).blk t).view.emb (ix2 p q)) 1)
    exact congrArg (y4 V c _) (Fin.ext hcol.symm)
  funext j
  obtain ⟨p, q, rfl⟩ : ∃ (p : Fin 5000) (q : Fin 256), j = ix2 p q := ⟨j 0, j 1, eq_ix2 j⟩
  exact key p q

/-- An index of the product's array is in point `t`'s block iff each coordinate is in the block's range on its axis. -/
theorem mem_blk_y (t : Fin cfg4.N) (i : S50000x256.Idx) :
    i ∈ ((cfg4.win 4).blk t).view.set ↔ ∀ a : Fin 2, win4_4.index t a * S5000x256.size a ≤ (i a).val ∧ (i a).val < win4_4.index t a * S5000x256.size a + S5000x256.size a := by
  show i ∈ ((View.whole main_v94_0).slice (win4_4.rect t)).set ↔ _
  rw [View.set_slice_whole, Rect.mem_set_unit]
  exact Iff.rfl

/-- Every row of the product's array lies in the tile of the point numbered by its row divided by 5000. -/
theorem cover_y (i : S50000x256.Idx) :
    ∃ t : Fin cfg4.N, (cfg4.win 4).flush t = true ∧ i ∈ ((cfg4.win 4).blk t).view.set := by
  have hi0 : (i 0).val < 50000 := (i 0).isLt
  have hi1 : (i 1).val < 256 := (i 1).isLt
  have hN : cfg4.N = 10 := N_4
  let t : Fin cfg4.N := ⟨(i 0).val / 5000, by rw [hN]; omega⟩
  obtain ⟨-, -, -, -, -, -, -, -, e0, e1, -⟩ := idx_facts4 t
  refine ⟨t, flush4_4 t, ?_⟩
  rw [mem_blk_y]
  intro a
  have ht : t.val = (i 0).val / 5000 := rfl
  match a with
  | ⟨0, _⟩ => show win4_4.index t (0 : Fin 2) * 5000 ≤ (i 0).val ∧ (i 0).val < win4_4.index t (0 : Fin 2) * 5000 + 5000; rw [e0, ht]; omega
  | ⟨1, _⟩ => show win4_4.index t (1 : Fin 2) * 256 ≤ (i 1).val ∧ (i 1).val < win4_4.index t (1 : Fin 2) * 256 + 256; rw [e1]; omega

/-- THE PRODUCT'S ARRAY after the run is the whole product. -/
theorem final_y (c : Dev nD) : (dat4 (F := Ideal) V c).arrAt 4 cfg4.N = unc2 (y4 V c) :=
  (dat4 (F := Ideal) V c).arrAt_eq_of_cover 4 (unc2 (y4 V c)) (fun t _ => flushed_y V c t) cover_y

theorem reg4_y (c : Dev nD) :
    cur2 (n0 := 50000) (n1 := 256) ((dat4 (F := Ideal) V c).arrAt 4 cfg4.N) = y4 V c := by
  rw [final_y]
  rfl

/-! ## The statistics -/

/-- The statistics' array: per row tile, in row 0 the column sums of the product over the tile's rows, in row 1 those of
    its squares. -/
def stats4 (c : Dev nD) : S10x2x256.Idx → EReal := fun i =>
  if (i 1).val = 0 then tileSum hN (y4 V c) (i 0) (i 2) else tileSumSq hN (y4 V c) (i 0) (i 2)

/-- Row 0 of point `t`'s statistics block is tile `t`'s column sums of the whole product. -/
theorem stats_point0 (c : Dev nD) (t : Fin cfg4.N) (u : Fin 1) (q : Fin 256) (i : S10x2x256.Idx)
    (h0 : (i 0).val = t.val) (h1 : (i 1).val = 0) (h2 : (i 2).val = q.val) :
    k4_pay3 (F := Ideal) (iblk4 V c 2 t) (iblk4 V c 0 t) (iblk4 V c 1 t) (iblk4 V c 3 t) (ix3 u (0 : Fin 2) q) = stats4 V c i := by
  unfold stats4
  rw [if_pos h1]
  refine (pay3_apply0 (iblk4 V c 2 t) (iblk4 V c 0 t) (iblk4 V c 1 t) (iblk4 V c 3 t) u q).trans ?_
  unfold tileSum
  refine Finset.sum_congr rfl fun p _ => ?_
  refine (prod_row V c t p q (rowOf hN (i 0) p) (by show (i 0).val * 5000 + p.val = _; rw [h0])).trans ?_
  exact congrArg (y4 V c _) (Fin.ext h2.symm)

/-- Row 1 of point `t`'s statistics block is tile `t`'s column sums of the squares of the whole product. -/
theorem stats_point1 (c : Dev nD) (t : Fin cfg4.N) (u : Fin 1) (q : Fin 256) (i : S10x2x256.Idx)
    (h0 : (i 0).val = t.val) (h1 : (i 1).val = 1) (h2 : (i 2).val = q.val) :
    k4_pay3 (F := Ideal) (iblk4 V c 2 t) (iblk4 V c 0 t) (iblk4 V c 1 t) (iblk4 V c 3 t) (ix3 u (1 : Fin 2) q) = stats4 V c i := by
  unfold stats4
  rw [if_neg (by rw [h1]; exact Nat.one_ne_zero)]
  refine (pay3_apply1 (iblk4 V c 2 t) (iblk4 V c 0 t) (iblk4 V c 1 t) (iblk4 V c 3 t) u q).trans ?_
  unfold tileSumSq
  refine Finset.sum_congr rfl fun p _ => ?_
  have e : k4_pay1 (F := Ideal) (iblk4 V c 2 t) (iblk4 V c 0 t) (iblk4 V c 1 t) (iblk4 V c 3 t) (ix2 p q) = y4 V c (rowOf hN (i 0) p) (i 2) :=
    (prod_row V c t p q (rowOf hN (i 0) p) (by show (i 0).val * 5000 + p.val = _; rw [h0])).trans
      (congrArg (y4 V c _) (Fin.ext h2.symm))
  rw [e]

/-- WHAT POINT `t` WRITES BACK into the statistics' array is block `t` of the statistics. -/
theorem flushed_stats (c : Dev nD) (t : Fin cfg4.N) :
    (dat4 (F := Ideal) V c).flushed 5 t = ((cfg4.win 5).blk t).view.read (Elt Ideal) (stats4 V c) := by
  obtain ⟨-, -, -, -, -, -, -, -, -, -, e0, e1, e2⟩ := idx_facts4 t
  show (cfg4.win 5).cut (grid4.coords t) ((dat4 V c).after 5 t) = _
  rw [after4_5]
  unfold out4_5
  rw [View.canon_unit_zero hz3]
  simp only [View.ld_unit_zero (S := S1x1) hz2, View.ld_unit_zero (S := S5000x128) hz2, View.ld_unit_zero (S := S128x256) hz2]
  have key : ∀ (u : Fin 1) (r : Fin 2) (q : Fin 256),
      k4_pay3 (F := Ideal) (iblk4 V c 2 t) (iblk4 V c 0 t) (iblk4 V c 1 t) (iblk4 V c 3 t) (ix3 u r q)
        = stats4 V c (((cfg4.win 5).blk t).view.emb (ix3 u r q)) := fun u r q => by
    have hu : u.val = 0 := by omega
    have h0 : ((((cfg4.win 5).blk t).view.emb (ix3 u r q)) 0).val = t.val := by
      show win4_5.index t (0 : Fin 3) * 1 + 1 * u.val = _; rw [e0]; omega
    have h1 : ((((cfg4.win 5).blk t).view.emb (ix3 u r q)) 1).val = r.val := by
      show win4_5.index t (1 : Fin 3) * 2 + 1 * r.val = _; rw [e1]; omega
    have h2 : ((((cfg4.win 5).blk t).view.emb (ix3 u r q)) 2).val = q.val := by
      show win4_5.index t (2 : Fin 3) * 256 + 1 * q.val = _; rw [e2]; omega
    match r, h1 with
    | ⟨0, _⟩, h1 => exact stats_point0 V c t u q _ h0 h1 h2
    | ⟨1, _⟩, h1 => exact stats_point1 V c t u q _ h0 h1 h2
  funext j
  obtain ⟨u, r, q, rfl⟩ : ∃ (u : Fin 1) (r : Fin 2) (q : Fin 256), j = ix3 u r q := ⟨j 0, j 1, j 2, eq_ix3 j⟩
  exact key u r q

/-- An index of the statistics' array is in point `t`'s block iff each coordinate is in the block's range on its axis. -/
theorem mem_blk_stats (t : Fin cfg4.N) (i : S10x2x256.Idx) :
    i ∈ ((cfg4.win 5).blk t).view.set ↔ ∀ a : Fin 3, win4_5.index t a * S1x2x256.size a ≤ (i a).val ∧ (i a).val < win4_5.index t a * S1x2x256.size a + S1x2x256.size a := by
  show i ∈ ((View.whole main_v94_1).slice (win4_5.rect t)).set ↔ _
  rw [View.set_slice_whole, Rect.mem_set_unit]
  exact Iff.rfl

/-- Tile `t`'s statistics lie in point `t`'s block. -/
theorem cover_stats (i : S10x2x256.Idx) :
    ∃ t : Fin cfg4.N, (cfg4.win 5).flush t = true ∧ i ∈ ((cfg4.win 5).blk t).view.set := by
  have hi0 : (i 0).val < 10 := (i 0).isLt
  have hi1 : (i 1).val < 2 := (i 1).isLt
  have hi2 : (i 2).val < 256 := (i 2).isLt
  have hN : cfg4.N = 10 := N_4
  let t : Fin cfg4.N := ⟨(i 0).val, by rw [hN]; omega⟩
  obtain ⟨-, -, -, -, -, -, -, -, -, -, e0, e1, e2⟩ := idx_facts4 t
  refine ⟨t, flush4_5 t, ?_⟩
  rw [mem_blk_stats]
  intro a
  have ht : t.val = (i 0).val := rfl
  match a with
  | ⟨0, _⟩ => show win4_5.index t (0 : Fin 3) * 1 ≤ (i 0).val ∧ (i 0).val < win4_5.index t (0 : Fin 3) * 1 + 1; rw [e0, ht]; omega
  | ⟨1, _⟩ => show win4_5.index t (1 : Fin 3) * 2 ≤ (i 1).val ∧ (i 1).val < win4_5.index t (1 : Fin 3) * 2 + 2; rw [e1]; omega
  | ⟨2, _⟩ => show win4_5.index t (2 : Fin 3) * 256 ≤ (i 2).val ∧ (i 2).val < win4_5.index t (2 : Fin 3) * 256 + 256; rw [e2]; omega

/-- THE STATISTICS' ARRAY after the run. -/
theorem final_stats (c : Dev nD) : (dat4 (F := Ideal) V c).arrAt 5 cfg4.N = stats4 V c :=
  (dat4 (F := Ideal) V c).arrAt_eq_of_cover 5 (stats4 V c) (fun t _ => flushed_stats V c t) cover_stats

theorem reg4_stats (c : Dev nD) (t : Fin 10) (j : Fin 256) :
    cur3 (n0 := 10) (n1 := 2) (n2 := 256) ((dat4 (F := Ideal) V c).arrAt 5 cfg4.N) t 0 j = tileSum hN (y4 V c) t j
    ∧ cur3 (n0 := 10) (n1 := 2) (n2 := 256) ((dat4 (F := Ideal) V c).arrAt 5 cfg4.N) t 1 j = tileSumSq hN (y4 V c) t j := by
  rw [final_stats]
  unfold stats4
  exact ⟨if_pos rfl, if_neg Nat.one_ne_zero⟩

end Cert.KernelIdeal.KRegCombine

end
-- ==== Proof.KChainEdge.lean ====
/- The edge branch of the run read back: from the launch memory through the first host stretch (the aggregation of node rows onto edges, the two halves of the first weight matrix, one plus the second scalar), the first call, and the three normalisations that follow it, to the edge output; the edge output then passes unchanged through the rest of the run. -/
import proofs.«412927_j30382598652491_3_alg».proof.Proof.Gen.KernelIdeal.Frame
import proofs.«412927_j30382598652491_3_alg».proof.Proof.BNSpec
import proofs.«412927_j30382598652491_3_alg».proof.Proof.KInputs
import proofs.«412927_j30382598652491_3_alg».proof.Proof.KHostAgg
import proofs.«412927_j30382598652491_3_alg».proof.Proof.KHostStats
import proofs.«412927_j30382598652491_3_alg».proof.Proof.KRegFusedA
import proofs.«412927_j30382598652491_3_alg».proof.Proof.KRegFusedL
import proofs.«412927_j30382598652491_3_alg».proof.Proof.KRegAffRelu
import proofs.«412927_j30382598652491_3_alg».proof.Proof.KRegAffMM
import proofs.«412927_j30382598652491_3_alg».proof.Proof.KRegCombine

set_option maxRecDepth 16384

noncomputable section

namespace Cert.KernelIdeal.KChain

open Idealize.ShloMosaic Idealize.ShloMosaic.TcCoe Cert.KernelIdeal Cert.KernelIdeal.Gen Cert.BNSpec
open Idealize.ShloMosaic.Pipeline (Dat Cfg Window)
open scoped BigOperators

variable (m : (ℓ : Loc nD τ sig) → Buf (Elt Ideal) ℓ) (ρ : Dev nD → PrngReg) (c : Dev nD)

/-- None of a host stretch's operations writes the buffer at hand (so the buffer keeps its contents through the stretch). -/
local macro "e_keep " ops:ident : term =>
  `(List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

/-! ## After the first host stretch -/

/-- The first host stretch leaves the two rows of the incidence indices in their buffers. -/
theorem v1_W1 : W1 (F := Ideal) m ρ c (Proc.devRef .tc main_v1) = KHostAgg.idxRow0 (KVal.idxOf m c) :=
  KHostAgg.host0_v1 (W0 m ρ c)
theorem v3_W1 : W1 (F := Ideal) m ρ c (Proc.devRef .tc main_v3) = KHostAgg.idxRow1 (KVal.idxOf m c) :=
  KHostAgg.host0_v3 (W0 m ρ c)

/-- The node rows aggregated onto the edges. -/
theorem e_lift_W1 :
    cur2 (n0 := 400000) (n1 := 128) (W1 (F := Ideal) m ρ c (Proc.devRef .tc main_v13))
      = KHostAgg.agg1 (KVal.idxOf m c) (KVal.inputsOf m c).node := by
  have h := KHostAgg.host0_lift (W0 (F := Ideal) m ρ c)
  have h' : W1 (F := Ideal) m ρ c (Proc.devRef .tc main_v13)
      = KHostAgg.agg1Arr (unc2 (KVal.inputsOf m c).node) (KHostAgg.idxRow0 (KVal.idxOf m c)) (KHostAgg.idxRow1 (KVal.idxOf m c)) := by
    refine h.trans ?_
    show KHostAgg.agg1Arr (m ((c.tc : Thread nD τ).loc main_arg0)) _ _ = KHostAgg.agg1Arr (unc2 (cur2 (n0 := 50000) (n1 := 128) (m ((c.tc : Thread nD τ).loc main_arg0)))) _ _
    rw [unc2_cur2]
  rw [h']; rfl

/-- The upper and the lower half of the first weight matrix. -/
theorem e_wa1_W1 :
    cur2 (n0 := 128) (n1 := 128) (W1 (F := Ideal) m ρ c (Proc.devRef .tc main_v14))
      = topRows (K1 := 128) (K2 := 128) (KVal.inputsOf m c).Wa :=
  KHostAgg.host0_wa1 (W0 m ρ c)
theorem e_wa2_W1 :
    cur2 (n0 := 128) (n1 := 128) (W1 (F := Ideal) m ρ c (Proc.devRef .tc main_v15))
      = botRows (K1 := 128) (K2 := 128) (KVal.inputsOf m c).Wa :=
  KHostAgg.host0_wa2 (W0 m ρ c)

/-- One plus the second scalar. -/
theorem e_scale_W1 :
    cur2 (n0 := 1) (n1 := 1) (W1 (F := Ideal) m ρ c (Proc.devRef .tc main_v17)) 0 0
      = oneE + (KVal.inputsOf m c).eps2 :=
  KHostAgg.host0_scale (W0 m ρ c)

/-- The edge rows and the second weight matrix are as launched. -/
theorem e_arg1_W1 : W1 (F := Ideal) m ρ c (Proc.devRef .tc main_arg1) = m ((c : Thread nD τ).loc main_arg1) :=
  StableHlo.after_of_forall_not_mem (b := Proc.devRef .tc main_arg1) _ _ (e_keep hostOps0)
theorem e_arg12_W1 : W1 (F := Ideal) m ρ c (Proc.devRef .tc main_arg12) = m ((c : Thread nD τ).loc main_arg12) :=
  StableHlo.after_of_forall_not_mem (b := Proc.devRef .tc main_arg12) _ _ (e_keep hostOps0)

/-! ## After the first call -/

/-- The first call's first product, of the contents the first host stretch leaves, is the pipeline's. -/
theorem e_yA0_eq : KRegFused.yA0 (V1 (F := Ideal) m ρ) c = K.yA (KHostAgg.agg1 (KVal.idxOf m c)) (KVal.inputsOf m c) := by
  funext i j
  show mm (cur2 (n0 := 400000) (n1 := 128) (W1 (F := Ideal) m ρ c (Proc.devRef .tc main_v13))) (cur2 (n0 := 128) (n1 := 128) (W1 (F := Ideal) m ρ c (Proc.devRef .tc main_v14))) i j
      + mm (cur2 (n0 := 400000) (n1 := 128) (W1 (F := Ideal) m ρ c (Proc.devRef .tc main_arg1))) (cur2 (n0 := 128) (n1 := 128) (W1 (F := Ideal) m ρ c (Proc.devRef .tc main_v15))) i j = _
  rw [e_lift_W1, e_wa1_W1, e_wa2_W1, e_arg1_W1]; rfl

theorem e_yA_W2 :
    cur2 (n0 := 400000) (n1 := 128) (W2 (F := Ideal) m ρ c (Proc.devRef .tc main_v18_0)) = K.yA (KHostAgg.agg1 (KVal.idxOf m c)) (KVal.inputsOf m c) := by
  have h : W2 (F := Ideal) m ρ c (Proc.devRef .tc main_v18_0) = (dat0 (F := Ideal) (V1 m ρ) c).arrAt 6 cfg0.N := W2_arr m ρ c 6
  rw [h]
  exact (KRegFused.reg0_yA (V1 m ρ) c).trans (e_yA0_eq m ρ c)

/-- Per row tile, the column sums of the first product and of its squares. -/
theorem e_statsA_W2 (t : Fin 80) (j : Fin 128) :
    cur3 (n0 := 80) (n1 := 2) (n2 := 128) (W2 (F := Ideal) m ρ c (Proc.devRef .tc main_v18_1)) t 0 j = tileSum hE (K.yA (KHostAgg.agg1 (KVal.idxOf m c)) (KVal.inputsOf m c)) t j
    ∧ cur3 (n0 := 80) (n1 := 2) (n2 := 128) (W2 (F := Ideal) m ρ c (Proc.devRef .tc main_v18_1)) t 1 j = tileSumSq hE (K.yA (KHostAgg.agg1 (KVal.idxOf m c)) (KVal.inputsOf m c)) t j := by
  have h : W2 (F := Ideal) m ρ c (Proc.devRef .tc main_v18_1) = (dat0 (F := Ideal) (V1 m ρ) c).arrAt 7 cfg0.N := W2_arr m ρ c 7
  rw [h, ← e_yA0_eq m ρ c]
  exact KRegFused.reg0_statsA (V1 m ρ) c t j

/-- The first call's second product is the pipeline's. -/
theorem e_yL0_eq : KRegFused.yL0 (V1 (F := Ideal) m ρ) c = K.yL1 (KHostAgg.agg1 (KVal.idxOf m c)) (KVal.inputsOf m c) := by
  show mm (scaleAdd (cur2 (n0 := 1) (n1 := 1) (W1 (F := Ideal) m ρ c (Proc.devRef .tc main_v17)) 0 0) (cur2 (n0 := 400000) (n1 := 128) (W1 (F := Ideal) m ρ c (Proc.devRef .tc main_arg1)))
        (cur2 (n0 := 400000) (n1 := 128) (W1 (F := Ideal) m ρ c (Proc.devRef .tc main_v13))))
      (cur2 (n0 := 128) (n1 := 256) (W1 (F := Ideal) m ρ c (Proc.devRef .tc main_arg12))) = _
  rw [e_scale_W1, e_arg1_W1, e_lift_W1, e_arg12_W1]; rfl

theorem e_yL_W2 :
    cur2 (n0 := 400000) (n1 := 256) (W2 (F := Ideal) m ρ c (Proc.devRef .tc main_v18_2)) = K.yL1 (KHostAgg.agg1 (KVal.idxOf m c)) (KVal.inputsOf m c) := by
  have h : W2 (F := Ideal) m ρ c (Proc.devRef .tc main_v18_2) = (dat0 (F := Ideal) (V1 m ρ) c).arrAt 8 cfg0.N := W2_arr m ρ c 8
  rw [h]
  exact (KRegFused.reg0_yL (V1 m ρ) c).trans (e_yL0_eq m ρ c)

theorem e_statsL_W2 (t : Fin 80) (j : Fin 256) :
    cur3 (n0 := 80) (n1 := 2) (n2 := 256) (W2 (F := Ideal) m ρ c (Proc.devRef .tc main_v18_3)) t 0 j = tileSum hE (K.yL1 (KHostAgg.agg1 (KVal.idxOf m c)) (KVal.inputsOf m c)) t j
    ∧ cur3 (n0 := 80) (n1 := 2) (n2 := 256) (W2 (F := Ideal) m ρ c (Proc.devRef .tc main_v18_3)) t 1 j = tileSumSq hE (K.yL1 (KHostAgg.agg1 (KVal.idxOf m c)) (KVal.inputsOf m c)) t j := by
  have h : W2 (F := Ideal) m ρ c (Proc.devRef .tc main_v18_3) = (dat0 (F := Ideal) (V1 m ρ) c).arrAt 9 cfg0.N := W2_arr m ρ c 9
  rw [h, ← e_yL0_eq m ρ c]
  exact KRegFused.reg0_statsL (V1 m ρ) c t j

/-! ## After the second host stretch, and the second call -/

/-- The first gain and offset vectors are as launched. -/
theorem e_arg4_W2 : W2 (F := Ideal) m ρ c (Proc.devRef .tc main_arg4) = m ((c : Thread nD τ).loc main_arg4) :=
  ((W2_of_ne m ρ c main_arg4 (by decide)).trans
    (StableHlo.after_of_forall_not_mem (b := Proc.devRef .tc main_arg4) _ _ (e_keep hostOps0)))
theorem e_arg5_W2 : W2 (F := Ideal) m ρ c (Proc.devRef .tc main_arg5) = m ((c : Thread nD τ).loc main_arg5) :=
  ((W2_of_ne m ρ c main_arg5 (by decide)).trans
    (StableHlo.after_of_forall_not_mem (b := Proc.devRef .tc main_arg5) _ _ (e_keep hostOps0)))
/-- The first product passes the second host stretch. -/
theorem e_v18_0_W3 : W3 (F := Ideal) m ρ c (Proc.devRef .tc main_v18_0) = W2 (F := Ideal) m ρ c (Proc.devRef .tc main_v18_0) :=
  (StableHlo.after_of_forall_not_mem (b := Proc.devRef .tc main_v18_0) _ _ (e_keep hostOps1))

/-- The first product's column means and reciprocal deviations. -/
theorem e_stats_W3 :
    cur2 (n0 := 1) (n1 := 128) (W3 (F := Ideal) m ρ c (Proc.devRef .tc main_v35)) 0 = meanK hE nEdgesE (K.yA (KHostAgg.agg1 (KVal.idxOf m c)) (KVal.inputsOf m c))
    ∧ cur2 (n0 := 1) (n1 := 128) (W3 (F := Ideal) m ρ c (Proc.devRef .tc main_v36)) 0 = rstdK hE nEdgesE (K.yA (KHostAgg.agg1 (KVal.idxOf m c)) (KVal.inputsOf m c)) :=
  KHostStats.host1_stats (W2 m ρ c) (K.yA (KHostAgg.agg1 (KVal.idxOf m c)) (KVal.inputsOf m c))
    (fun t j => (e_statsA_W2 m ρ c t j).1) (fun t j => (e_statsA_W2 m ρ c t j).2)

theorem e_g_W3 : cur2 (n0 := 1) (n1 := 128) (W3 (F := Ideal) m ρ c (Proc.devRef .tc main_v37)) 0 = (KVal.inputsOf m c).ga :=
  (KHostStats.host1_g (W2 m ρ c)).trans (congrArg (cur1 (n := 128)) (e_arg4_W2 m ρ c))
theorem e_b_W3 : cur2 (n0 := 1) (n1 := 128) (W3 (F := Ideal) m ρ c (Proc.devRef .tc main_v38)) 0 = (KVal.inputsOf m c).ba :=
  (KHostStats.host1_b (W2 m ρ c)).trans (congrArg (cur1 (n := 128)) (e_arg5_W2 m ρ c))

theorem e_yA_W3 :
    cur2 (n0 := 400000) (n1 := 128) (W3 (F := Ideal) m ρ c (Proc.devRef .tc main_v18_0)) = K.yA (KHostAgg.agg1 (KVal.idxOf m c)) (KVal.inputsOf m c) := by
  rw [e_v18_0_W3]; exact e_yA_W2 m ρ c

/-- After the second call the first normalisation's clipped result is in its buffer. -/
theorem lvlEdge_W4 :
    cur2 (n0 := 400000) (n1 := 128) (W4 (F := Ideal) m ρ c (Proc.devRef .tc main_v39))
      = K.lvlEdge (KHostAgg.agg1 (KVal.idxOf m c)) (KVal.inputsOf m c) := by
  have h : W4 (F := Ideal) m ρ c (Proc.devRef .tc main_v39) = (dat1 (F := Ideal) (V3 m ρ) c).arrAt 5 cfg1.N := W4_arr m ρ c 5
  rw [h]
  refine (KRegAffRelu.reg1_out (V3 m ρ) c).trans ?_
  show affRelu (cur2 (n0 := 1) (n1 := 128) (W3 (F := Ideal) m ρ c (Proc.devRef .tc main_v35)) 0) (cur2 (n0 := 1) (n1 := 128) (W3 (F := Ideal) m ρ c (Proc.devRef .tc main_v36)) 0)
      (cur2 (n0 := 1) (n1 := 128) (W3 (F := Ideal) m ρ c (Proc.devRef .tc main_v37)) 0) (cur2 (n0 := 1) (n1 := 128) (W3 (F := Ideal) m ρ c (Proc.devRef .tc main_v38)) 0)
      (cur2 (n0 := 400000) (n1 := 128) (W3 (F := Ideal) m ρ c (Proc.devRef .tc main_v18_0))) = _
  rw [(e_stats_W3 m ρ c).1, (e_stats_W3 m ρ c).2, e_g_W3, e_b_W3, e_yA_W3]; rfl

/-! ## After the third host stretch, and the third call -/

/-- The second product and its per-tile sums pass the second host stretch and the second call. -/
theorem e_v18_3_W4 : W4 (F := Ideal) m ρ c (Proc.devRef .tc main_v18_3) = W2 (F := Ideal) m ρ c (Proc.devRef .tc main_v18_3) :=
  ((W4_of_ne m ρ c main_v18_3 (by decide)).trans
    (StableHlo.after_of_forall_not_mem (b := Proc.devRef .tc main_v18_3) _ _ (e_keep hostOps1)))
theorem e_v18_2_W5 : W5 (F := Ideal) m ρ c (Proc.devRef .tc main_v18_2) = W2 (F := Ideal) m ρ c (Proc.devRef .tc main_v18_2) :=
  (((StableHlo.after_of_forall_not_mem (b := Proc.devRef .tc main_v18_2) _ _ (e_keep hostOps2)).trans
    (W4_of_ne m ρ c main_v18_2 (by decide))).trans
    (StableHlo.after_of_forall_not_mem (b := Proc.devRef .tc main_v18_2) _ _ (e_keep hostOps1)))
/-- The second gain and offset vectors and the third weight matrix are as launched. -/
theorem e_arg13_W4 : W4 (F := Ideal) m ρ c (Proc.devRef .tc main_arg13) = m ((c : Thread nD τ).loc main_arg13) :=
  ((((W4_of_ne m ρ c main_arg13 (by decide)).trans
    (StableHlo.after_of_forall_not_mem (b := Proc.devRef .tc main_arg13) _ _ (e_keep hostOps1))).trans
    (W2_of_ne m ρ c main_arg13 (by decide))).trans
    (StableHlo.after_of_forall_not_mem (b := Proc.devRef .tc main_arg13) _ _ (e_keep hostOps0)))
theorem e_arg14_W4 : W4 (F := Ideal) m ρ c (Proc.devRef .tc main_arg14) = m ((c : Thread nD τ).loc main_arg14) :=
  ((((W4_of_ne m ρ c main_arg14 (by decide)).trans
    (StableHlo.after_of_forall_not_mem (b := Proc.devRef .tc main_arg14) _ _ (e_keep hostOps1))).trans
    (W2_of_ne m ρ c main_arg14 (by decide))).trans
    (StableHlo.after_of_forall_not_mem (b := Proc.devRef .tc main_arg14) _ _ (e_keep hostOps0)))
theorem e_arg15_W5 : W5 (F := Ideal) m ρ c (Proc.devRef .tc main_arg15) = m ((c : Thread nD τ).loc main_arg15) :=
  (((((StableHlo.after_of_forall_not_mem (b := Proc.devRef .tc main_arg15) _ _ (e_keep hostOps2)).trans
    (W4_of_ne m ρ c main_arg15 (by decide))).trans
    (StableHlo.after_of_forall_not_mem (b := Proc.devRef .tc main_arg15) _ _ (e_keep hostOps1))).trans
    (W2_of_ne m ρ c main_arg15 (by decide))).trans
    (StableHlo.after_of_forall_not_mem (b := Proc.devRef .tc main_arg15) _ _ (e_keep hostOps0)))

/-- The second product's column means and reciprocal deviations. -/
theorem e_stats_W5 :
    cur2 (n0 := 1) (n1 := 256) (W5 (F := Ideal) m ρ c (Proc.devRef .tc main_v56)) 0 = meanK hE nEdgesE (K.yL1 (KHostAgg.agg1 (KVal.idxOf m c)) (KVal.inputsOf m c))
    ∧ cur2 (n0 := 1) (n1 := 256) (W5 (F := Ideal) m ρ c (Proc.devRef .tc main_v57)) 0 = rstdK hE nEdgesE (K.yL1 (KHostAgg.agg1 (KVal.idxOf m c)) (KVal.inputsOf m c)) :=
  KHostStats.host2_stats (W4 m ρ c) (K.yL1 (KHostAgg.agg1 (KVal.idxOf m c)) (KVal.inputsOf m c))
    (fun t j => by rw [e_v18_3_W4]; exact (e_statsL_W2 m ρ c t j).1)
    (fun t j => by rw [e_v18_3_W4]; exact (e_statsL_W2 m ρ c t j).2)

theorem e_g_W5 : cur2 (n0 := 1) (n1 := 256) (W5 (F := Ideal) m ρ c (Proc.devRef .tc main_v58)) 0 = (KVal.inputsOf m c).gl1 :=
  (KHostStats.host2_g (W4 m ρ c)).trans (congrArg (cur1 (n := 256)) (e_arg13_W4 m ρ c))
theorem e_b_W5 : cur2 (n0 := 1) (n1 := 256) (W5 (F := Ideal) m ρ c (Proc.devRef .tc main_v59)) 0 = (KVal.inputsOf m c).bl1 :=
  (KHostStats.host2_b (W4 m ρ c)).trans (congrArg (cur1 (n := 256)) (e_arg14_W4 m ρ c))

theorem e_yL_W5 :
    cur2 (n0 := 400000) (n1 := 256) (W5 (F := Ideal) m ρ c (Proc.devRef .tc main_v18_2)) = K.yL1 (KHostAgg.agg1 (KVal.idxOf m c)) (KVal.inputsOf m c) := by
  rw [e_v18_2_W5]; exact e_yL_W2 m ρ c

/-- The third call's product, of the contents the third host stretch leaves, is the pipeline's. -/
theorem e_y2_eq : KRegAffMM.y2 (V5 (F := Ideal) m ρ) c = K.yL2 (KHostAgg.agg1 (KVal.idxOf m c)) (KVal.inputsOf m c) := by
  show mm (affRelu (cur2 (n0 := 1) (n1 := 256) (W5 (F := Ideal) m ρ c (Proc.devRef .tc main_v56)) 0) (cur2 (n0 := 1) (n1 := 256) (W5 (F := Ideal) m ρ c (Proc.devRef .tc main_v57)) 0)
        (cur2 (n0 := 1) (n1 := 256) (W5 (F := Ideal) m ρ c (Proc.devRef .tc main_v58)) 0) (cur2 (n0 := 1) (n1 := 256) (W5 (F := Ideal) m ρ c (Proc.devRef .tc main_v59)) 0)
        (cur2 (n0 := 400000) (n1 := 256) (W5 (F := Ideal) m ρ c (Proc.devRef .tc main_v18_2))))
      (cur2 (n0 := 256) (n1 := 128) (W5 (F := Ideal) m ρ c (Proc.devRef .tc main_arg15))) = _
  rw [(e_stats_W5 m ρ c).1, (e_stats_W5 m ρ c).2, e_g_W5, e_b_W5, e_yL_W5, e_arg15_W5]; rfl

theorem e_yL2_W6 :
    cur2 (n0 := 400000) (n1 := 128) (W6 (F := Ideal) m ρ c (Proc.devRef .tc main_v60_0)) = K.yL2 (KHostAgg.agg1 (KVal.idxOf m c)) (KVal.inputsOf m c) := by
  have h : W6 (F := Ideal) m ρ c (Proc.devRef .tc main_v60_0) = (dat2 (F := Ideal) (V5 m ρ) c).arrAt 6 cfg2.N := W6_arr m ρ c 6
  rw [h]
  exact (KRegAffMM.reg2_y (V5 m ρ) c).trans (e_y2_eq m ρ c)

theorem e_stats2_W6 (t : Fin 80) (j : Fin 128) :
    cur3 (n0 := 80) (n1 := 2) (n2 := 128) (W6 (F := Ideal) m ρ c (Proc.devRef .tc main_v60_1)) t 0 j = tileSum hE (K.yL2 (KHostAgg.agg1 (KVal.idxOf m c)) (KVal.inputsOf m c)) t j
    ∧ cur3 (n0 := 80) (n1 := 2) (n2 := 128) (W6 (F := Ideal) m ρ c (Proc.devRef .tc main_v60_1)) t 1 j = tileSumSq hE (K.yL2 (KHostAgg.agg1 (KVal.idxOf m c)) (KVal.inputsOf m c)) t j := by
  have h : W6 (F := Ideal) m ρ c (Proc.devRef .tc main_v60_1) = (dat2 (F := Ideal) (V5 m ρ) c).arrAt 7 cfg2.N := W6_arr m ρ c 7
  rw [h, ← e_y2_eq m ρ c]
  exact KRegAffMM.reg2_stats (V5 m ρ) c t j

/-! ## After the fourth host stretch, and the fourth call -/

/-- The third gain and offset vectors are as launched. -/
theorem e_arg16_W6 : W6 (F := Ideal) m ρ c (Proc.devRef .tc main_arg16) = m ((c : Thread nD τ).loc main_arg16) :=
  ((((((W6_of_ne m ρ c main_arg16 (by decide)).trans
    (StableHlo.after_of_forall_not_mem (b := Proc.devRef .tc main_arg16) _ _ (e_keep hostOps2))).trans
    (W4_of_ne m ρ c main_arg16 (by decide))).trans
    (StableHlo.after_of_forall_not_mem (b := Proc.devRef .tc main_arg16) _ _ (e_keep hostOps1))).trans
    (W2_of_ne m ρ c main_arg16 (by decide))).trans
    (StableHlo.after_of_forall_not_mem (b := Proc.devRef .tc main_arg16) _ _ (e_keep hostOps0)))
theorem e_arg17_W6 : W6 (F := Ideal) m ρ c (Proc.devRef .tc main_arg17) = m ((c : Thread nD τ).loc main_arg17) :=
  ((((((W6_of_ne m ρ c main_arg17 (by decide)).trans
    (StableHlo.after_of_forall_not_mem (b := Proc.devRef .tc main_arg17) _ _ (e_keep hostOps2))).trans
    (W4_of_ne m ρ c main_arg17 (by decide))).trans
    (StableHlo.after_of_forall_not_mem (b := Proc.devRef .tc main_arg17) _ _ (e_keep hostOps1))).trans
    (W2_of_ne m ρ c main_arg17 (by decide))).trans
    (StableHlo.after_of_forall_not_mem (b := Proc.devRef .tc main_arg17) _ _ (e_keep hostOps0)))
/-- The third product passes the fourth host stretch. -/
theorem e_v60_0_W7 : W7 (F := Ideal) m ρ c (Proc.devRef .tc main_v60_0) = W6 (F := Ideal) m ρ c (Proc.devRef .tc main_v60_0) :=
  (StableHlo.after_of_forall_not_mem (b := Proc.devRef .tc main_v60_0) _ _ (e_keep hostOps3))

/-- The third product's column means and reciprocal deviations. -/
theorem e_stats_W7 :
    cur2 (n0 := 1) (n1 := 128) (W7 (F := Ideal) m ρ c (Proc.devRef .tc main_v77)) 0 = meanK hE nEdgesE (K.yL2 (KHostAgg.agg1 (KVal.idxOf m c)) (KVal.inputsOf m c))
    ∧ cur2 (n0 := 1) (n1 := 128) (W7 (F := Ideal) m ρ c (Proc.devRef .tc main_v78)) 0 = rstdK hE nEdgesE (K.yL2 (KHostAgg.agg1 (KVal.idxOf m c)) (KVal.inputsOf m c)) :=
  KHostStats.host3_stats (W6 m ρ c) (K.yL2 (KHostAgg.agg1 (KVal.idxOf m c)) (KVal.inputsOf m c))
    (fun t j => (e_stats2_W6 m ρ c t j).1) (fun t j => (e_stats2_W6 m ρ c t j).2)

theorem e_g_W7 : cur2 (n0 := 1) (n1 := 128) (W7 (F := Ideal) m ρ c (Proc.devRef .tc main_v79)) 0 = (KVal.inputsOf m c).gl2 :=
  (KHostStats.host3_g (W6 m ρ c)).trans (congrArg (cur1 (n := 128)) (e_arg16_W6 m ρ c))
theorem e_b_W7 : cur2 (n0 := 1) (n1 := 128) (W7 (F := Ideal) m ρ c (Proc.devRef .tc main_v80)) 0 = (KVal.inputsOf m c).bl2 :=
  (KHostStats.host3_b (W6 m ρ c)).trans (congrArg (cur1 (n := 128)) (e_arg17_W6 m ρ c))

theorem e_yL2_W7 :
    cur2 (n0 := 400000) (n1 := 128) (W7 (F := Ideal) m ρ c (Proc.devRef .tc main_v60_0)) = K.yL2 (KHostAgg.agg1 (KVal.idxOf m c)) (KVal.inputsOf m c) := by
  rw [e_v60_0_W7]; exact e_yL2_W6 m ρ c

/-- After the fourth call the edge output is in its buffer. -/
theorem e_edgeOut_W8 :
    cur2 (n0 := 400000) (n1 := 128) (W8 (F := Ideal) m ρ c (Proc.devRef .tc main_v81)) = K.edgeOut (KHostAgg.agg1 (KVal.idxOf m c)) (KVal.inputsOf m c) := by
  have h : W8 (F := Ideal) m ρ c (Proc.devRef .tc main_v81) = (dat3 (F := Ideal) (V7 m ρ) c).arrAt 5 cfg3.N := W8_arr m ρ c 5
  rw [h]
  refine (KRegAffRelu.reg3_out (V7 m ρ) c).trans ?_
  show affRelu (cur2 (n0 := 1) (n1 := 128) (W7 (F := Ideal) m ρ c (Proc.devRef .tc main_v77)) 0) (cur2 (n0 := 1) (n1 := 128) (W7 (F := Ideal) m ρ c (Proc.devRef .tc main_v78)) 0)
      (cur2 (n0 := 1) (n1 := 128) (W7 (F := Ideal) m ρ c (Proc.devRef .tc main_v79)) 0) (cur2 (n0 := 1) (n1 := 128) (W7 (F := Ideal) m ρ c (Proc.devRef .tc main_v80)) 0)
      (cur2 (n0 := 400000) (n1 := 128) (W7 (F := Ideal) m ρ c (Proc.devRef .tc main_v60_0))) = _
  rw [(e_stats_W7 m ρ c).1, (e_stats_W7 m ρ c).2, e_g_W7, e_b_W7, e_yL2_W7]; rfl

/-! ## The rest of the run -/

/-- Nothing after the fourth call writes the edge output's buffer. -/
theorem e_v81_W14 : W14 (F := Ideal) m ρ c (Proc.devRef .tc main_v81) = W8 (F := Ideal) m ρ c (Proc.devRef .tc main_v81) :=
  ((((((W14_of_ne m ρ c main_v81 (by decide)).trans
    (StableHlo.after_of_forall_not_mem (b := Proc.devRef .tc main_v81) _ _ (e_keep hostOps6))).trans
    (W12_of_ne m ρ c main_v81 (by decide))).trans
    (StableHlo.after_of_forall_not_mem (b := Proc.devRef .tc main_v81) _ _ (e_keep hostOps5))).trans
    (W10_of_ne m ρ c main_v81 (by decide))).trans
    (StableHlo.after_of_forall_not_mem (b := Proc.devRef .tc main_v81) _ _ (e_keep hostOps4)))

/-- The edge output at the end of the run. -/
theorem edgeOut_W14 :
    cur2 (n0 := 400000) (n1 := 128) (W14 (F := Ideal) m ρ c (Proc.devRef .tc main_v81))
      = K.edgeOut (KHostAgg.agg1 (KVal.idxOf m c)) (KVal.inputsOf m c) := by
  rw [e_v81_W14]; exact e_edgeOut_W8 m ρ c

end Cert.KernelIdeal.KChain

end
-- ==== Proof.KChainNode.lean ====
/- The node branch of the run read back: given what the edge branch leaves (the clipped first normalisation after the second call, the two rows of incidence indices after the first host stretch), through the fifth host stretch (the aggregation of edge rows onto nodes, one plus the first scalar), the fifth call and the two normalisations that follow it, to the node output. -/
import proofs.«412927_j30382598652491_3_alg».proof.Proof.Gen.KernelIdeal.Frame
import proofs.«412927_j30382598652491_3_alg».proof.Proof.BNSpec
import proofs.«412927_j30382598652491_3_alg».proof.Proof.KInputs
import proofs.«412927_j30382598652491_3_alg».proof.Proof.KHostAgg
import proofs.«412927_j30382598652491_3_alg».proof.Proof.KHostStats
import proofs.«412927_j30382598652491_3_alg».proof.Proof.KRegFusedA
import proofs.«412927_j30382598652491_3_alg».proof.Proof.KRegFusedL
import proofs.«412927_j30382598652491_3_alg».proof.Proof.KRegAffRelu
import proofs.«412927_j30382598652491_3_alg».proof.Proof.KRegAffMM
import proofs.«412927_j30382598652491_3_alg».proof.Proof.KRegCombine

set_option maxRecDepth 16384

noncomputable section

namespace Cert.KernelIdeal.KChain

open Idealize.ShloMosaic Idealize.ShloMosaic.TcCoe Cert.KernelIdeal Cert.KernelIdeal.Gen Cert.BNSpec
open Idealize.ShloMosaic.Pipeline (Dat Cfg Window)
open scoped BigOperators

variable (m : (ℓ : Loc nD τ sig) → Buf (Elt Ideal) ℓ) (ρ : Dev nD → PrngReg) (c : Dev nD)

/-- A host stretch leaves every buffer it does not write as it was. -/
local macro "host_pass " ops:ident b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The arguments the node branch reads are still as launched where it reads them -/

theorem n_arg18_W8 : W8 m ρ c (Proc.devRef .tc main_arg18) = m ((c : Thread nD τ).loc main_arg18) :=
  (calc W14 m ρ c (Proc.devRef .tc main_arg18)
    _ = W13 m ρ c (Proc.devRef .tc main_arg18) := W14_of_ne m ρ c main_arg18 (by decide)
    _ = W12 m ρ c (Proc.devRef .tc main_arg18) := by host_pass hostOps6 main_arg18
    _ = W11 m ρ c (Proc.devRef .tc main_arg18) := W12_of_ne m ρ c main_arg18 (by decide)
    _ = W10 m ρ c (Proc.devRef .tc main_arg18) := by host_pass hostOps5 main_arg18
    _ = W9 m ρ c (Proc.devRef .tc main_arg18) := W10_of_ne m ρ c main_arg18 (by decide)
    _ = W8 m ρ c (Proc.devRef .tc main_arg18) := by host_pass hostOps4 main_arg18).symm.trans (W14_main_arg18 m ρ c)
theorem n_arg0_W9 : W9 m ρ c (Proc.devRef .tc main_arg0) = m ((c : Thread nD τ).loc main_arg0) :=
  (calc W14 m ρ c (Proc.devRef .tc main_arg0)
    _ = W13 m ρ c (Proc.devRef .tc main_arg0) := W14_of_ne m ρ c main_arg0 (by decide)
    _ = W12 m ρ c (Proc.devRef .tc main_arg0) := by host_pass hostOps6 main_arg0
    _ = W11 m ρ c (Proc.devRef .tc main_arg0) := W12_of_ne m ρ c main_arg0 (by decide)
    _ = W10 m ρ c (Proc.devRef .tc main_arg0) := by host_pass hostOps5 main_arg0
    _ = W9 m ρ c (Proc.devRef .tc main_arg0) := (W10_arr m ρ c 0).trans (((dat4 (V9 m ρ) c).arrAt_in 0 rfl _).trans (A_eq4 (V9 m ρ) c 0))).symm.trans (W14_main_arg0 m ρ c)
theorem n_arg6_W9 : W9 m ρ c (Proc.devRef .tc main_arg6) = m ((c : Thread nD τ).loc main_arg6) :=
  (calc W14 m ρ c (Proc.devRef .tc main_arg6)
    _ = W13 m ρ c (Proc.devRef .tc main_arg6) := W14_of_ne m ρ c main_arg6 (by decide)
    _ = W12 m ρ c (Proc.devRef .tc main_arg6) := by host_pass hostOps6 main_arg6
    _ = W11 m ρ c (Proc.devRef .tc main_arg6) := W12_of_ne m ρ c main_arg6 (by decide)
    _ = W10 m ρ c (Proc.devRef .tc main_arg6) := by host_pass hostOps5 main_arg6
    _ = W9 m ρ c (Proc.devRef .tc main_arg6) := (W10_arr m ρ c 3).trans (((dat4 (V9 m ρ) c).arrAt_in 3 rfl _).trans (A_eq4 (V9 m ρ) c 3))).symm.trans (W14_main_arg6 m ρ c)
theorem n_arg7_W10 : W10 m ρ c (Proc.devRef .tc main_arg7) = m ((c : Thread nD τ).loc main_arg7) :=
  (calc W14 m ρ c (Proc.devRef .tc main_arg7)
    _ = W13 m ρ c (Proc.devRef .tc main_arg7) := W14_of_ne m ρ c main_arg7 (by decide)
    _ = W12 m ρ c (Proc.devRef .tc main_arg7) := by host_pass hostOps6 main_arg7
    _ = W11 m ρ c (Proc.devRef .tc main_arg7) := W12_of_ne m ρ c main_arg7 (by decide)
    _ = W10 m ρ c (Proc.devRef .tc main_arg7) := by host_pass hostOps5 main_arg7).symm.trans (W14_main_arg7 m ρ c)
theorem n_arg8_W10 : W10 m ρ c (Proc.devRef .tc main_arg8) = m ((c : Thread nD τ).loc main_arg8) :=
  (calc W14 m ρ c (Proc.devRef .tc main_arg8)
    _ = W13 m ρ c (Proc.devRef .tc main_arg8) := W14_of_ne m ρ c main_arg8 (by decide)
    _ = W12 m ρ c (Proc.devRef .tc main_arg8) := by host_pass hostOps6 main_arg8
    _ = W11 m ρ c (Proc.devRef .tc main_arg8) := W12_of_ne m ρ c main_arg8 (by decide)
    _ = W10 m ρ c (Proc.devRef .tc main_arg8) := by host_pass hostOps5 main_arg8).symm.trans (W14_main_arg8 m ρ c)
theorem n_arg9_W11 : W11 m ρ c (Proc.devRef .tc main_arg9) = m ((c : Thread nD τ).loc main_arg9) :=
  (calc W14 m ρ c (Proc.devRef .tc main_arg9)
    _ = W13 m ρ c (Proc.devRef .tc main_arg9) := W14_of_ne m ρ c main_arg9 (by decide)
    _ = W12 m ρ c (Proc.devRef .tc main_arg9) := by host_pass hostOps6 main_arg9
    _ = W11 m ρ c (Proc.devRef .tc main_arg9) := (W12_arr m ρ c 5).trans (((dat5 (V11 m ρ) c).arrAt_in 5 rfl _).trans (A_eq5 (V11 m ρ) c 5))).symm.trans (W14_main_arg9 m ρ c)
theorem n_arg10_W12 : W12 m ρ c (Proc.devRef .tc main_arg10) = m ((c : Thread nD τ).loc main_arg10) :=
  (calc W14 m ρ c (Proc.devRef .tc main_arg10)
    _ = W13 m ρ c (Proc.devRef .tc main_arg10) := W14_of_ne m ρ c main_arg10 (by decide)
    _ = W12 m ρ c (Proc.devRef .tc main_arg10) := by host_pass hostOps6 main_arg10).symm.trans (W14_main_arg10 m ρ c)
theorem n_arg11_W12 : W12 m ρ c (Proc.devRef .tc main_arg11) = m ((c : Thread nD τ).loc main_arg11) :=
  (calc W14 m ρ c (Proc.devRef .tc main_arg11)
    _ = W13 m ρ c (Proc.devRef .tc main_arg11) := W14_of_ne m ρ c main_arg11 (by decide)
    _ = W12 m ρ c (Proc.devRef .tc main_arg11) := by host_pass hostOps6 main_arg11).symm.trans (W14_main_arg11 m ρ c)

/-! ## What the edge branch leaves is still there before the fifth host stretch -/

theorem n_v39_W8 : W8 m ρ c (Proc.devRef .tc main_v39) = W4 m ρ c (Proc.devRef .tc main_v39) :=
  calc W8 m ρ c (Proc.devRef .tc main_v39)
    _ = W7 m ρ c (Proc.devRef .tc main_v39) := W8_of_ne m ρ c main_v39 (by decide)
    _ = W6 m ρ c (Proc.devRef .tc main_v39) := by host_pass hostOps3 main_v39
    _ = W5 m ρ c (Proc.devRef .tc main_v39) := W6_of_ne m ρ c main_v39 (by decide)
    _ = W4 m ρ c (Proc.devRef .tc main_v39) := by host_pass hostOps2 main_v39

theorem n_v1_W8 : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by host_pass hostOps3 main_v1
    _ = W5 m ρ c (Proc.devRef .tc main_v1) := W6_of_ne m ρ c main_v1 (by decide)
    _ = W4 m ρ c (Proc.devRef .tc main_v1) := by host_pass hostOps2 main_v1
    _ = W3 m ρ c (Proc.devRef .tc main_v1) := W4_of_ne m ρ c main_v1 (by decide)
    _ = W2 m ρ c (Proc.devRef .tc main_v1) := by host_pass hostOps1 main_v1
    _ = W1 m ρ c (Proc.devRef .tc main_v1) := W2_of_ne m ρ c main_v1 (by decide)

theorem n_v3_W8 : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_pass hostOps3 main_v3
    _ = W5 m ρ c (Proc.devRef .tc main_v3) := W6_of_ne m ρ c main_v3 (by decide)
    _ = W4 m ρ c (Proc.devRef .tc main_v3) := by host_pass hostOps2 main_v3
    _ = W3 m ρ c (Proc.devRef .tc main_v3) := W4_of_ne m ρ c main_v3 (by decide)
    _ = W2 m ρ c (Proc.devRef .tc main_v3) := by host_pass hostOps1 main_v3
    _ = W1 m ρ c (Proc.devRef .tc main_v3) := W2_of_ne m ρ c main_v3 (by decide)

/-! ## The fifth host stretch: the edge rows summed onto the nodes, and one plus the first scalar -/

theorem n_v91_W9
    (hL : cur2 (n0 := 400000) (n1 := 128) (W4 m ρ c (Proc.devRef .tc main_v39)) = K.lvlEdge (KHostAgg.agg1 (KVal.idxOf m c)) (KVal.inputsOf m c))
    (h1 : W1 m ρ c (Proc.devRef .tc main_v1) = KHostAgg.idxRow0 (KVal.idxOf m c))
    (h3 : W1 m ρ c (Proc.devRef .tc main_v3) = KHostAgg.idxRow1 (KVal.idxOf m c)) :
    cur2 (n0 := 50000) (n1 := 128) (W9 m ρ c (Proc.devRef .tc main_v91)) = (KHostAgg.agg2 (KVal.idxOf m c)) (K.lvlEdge (KHostAgg.agg1 (KVal.idxOf m c)) (KVal.inputsOf m c)) := by
  have e : W9 m ρ c (Proc.devRef .tc main_v91)
      = KHostAgg.agg2Arr (W4 m ρ c (Proc.devRef .tc main_v39)) (KHostAgg.idxRow0 (KVal.idxOf m c)) (KHostAgg.idxRow1 (KVal.idxOf m c)) := by
    refine (KHostAgg.host4_agg (W8 m ρ c)).trans ?_
    rw [n_v39_W8 m ρ c, n_v1_W8 m ρ c, n_v3_W8 m ρ c, h1, h3]
  rw [e, ← hL]
  unfold KHostAgg.agg2
  rw [unc2_cur2]

theorem n_v93_W9 : cur2 (n0 := 1) (n1 := 1) (W9 m ρ c (Proc.devRef .tc main_v93)) 0 0 = oneE + (KVal.inputsOf m c).eps1 := by
  refine (KHostAgg.host4_scale (W8 m ρ c)).trans ?_
  rw [n_arg18_W8 m ρ c]; rfl

/-! ## The fifth call: the scaled node rows plus the summed edge rows, times the first weight -/

theorem n_y4
    (hL : cur2 (n0 := 400000) (n1 := 128) (W4 m ρ c (Proc.devRef .tc main_v39)) = K.lvlEdge (KHostAgg.agg1 (KVal.idxOf m c)) (KVal.inputsOf m c))
    (h1 : W1 m ρ c (Proc.devRef .tc main_v1) = KHostAgg.idxRow0 (KVal.idxOf m c))
    (h3 : W1 m ρ c (Proc.devRef .tc main_v3) = KHostAgg.idxRow1 (KVal.idxOf m c)) : KRegCombine.y4 (V9 m ρ) c = K.yB1 (KHostAgg.agg1 (KVal.idxOf m c)) (KHostAgg.agg2 (KVal.idxOf m c)) (KVal.inputsOf m c) := by
  have e0 : cur2 (n0 := 1) (n1 := 1) (V9 m ρ c (Pipeline.arrRef spec4 2)) 0 0 = oneE + (KVal.inputsOf m c).eps1 := n_v93_W9 m ρ c
  have e1 : cur2 (n0 := 50000) (n1 := 128) (V9 m ρ c (Pipeline.arrRef spec4 0)) = (KVal.inputsOf m c).node :=
    congrArg (cur2 (n0 := 50000) (n1 := 128)) (n_arg0_W9 m ρ c)
  have e2 : cur2 (n0 := 50000) (n1 := 128) (V9 m ρ c (Pipeline.arrRef spec4 1)) = (KHostAgg.agg2 (KVal.idxOf m c)) (K.lvlEdge (KHostAgg.agg1 (KVal.idxOf m c)) (KVal.inputsOf m c)) :=
    n_v91_W9 m ρ c hL h1 h3
  have e3 : cur2 (n0 := 128) (n1 := 256) (V9 m ρ c (Pipeline.arrRef spec4 3)) = (KVal.inputsOf m c).Wb1 :=
    congrArg (cur2 (n0 := 128) (n1 := 256)) (n_arg6_W9 m ρ c)
  unfold KRegCombine.y4 K.yB1
  rw [e0, e1, e2, e3]

theorem n_v94_0_W10
    (hL : cur2 (n0 := 400000) (n1 := 128) (W4 m ρ c (Proc.devRef .tc main_v39)) = K.lvlEdge (KHostAgg.agg1 (KVal.idxOf m c)) (KVal.inputsOf m c))
    (h1 : W1 m ρ c (Proc.devRef .tc main_v1) = KHostAgg.idxRow0 (KVal.idxOf m c))
    (h3 : W1 m ρ c (Proc.devRef .tc main_v3) = KHostAgg.idxRow1 (KVal.idxOf m c)) :
    cur2 (n0 := 50000) (n1 := 256) (W10 m ρ c (Proc.devRef .tc main_v94_0)) = K.yB1 (KHostAgg.agg1 (KVal.idxOf m c)) (KHostAgg.agg2 (KVal.idxOf m c)) (KVal.inputsOf m c) :=
  (congrArg (cur2 (n0 := 50000) (n1 := 256)) (W10_arr m ρ c 4)).trans ((KRegCombine.reg4_y (V9 m ρ) c).trans (n_y4 m ρ c hL h1 h3))

theorem n_v94_1_W10
    (hL : cur2 (n0 := 400000) (n1 := 128) (W4 m ρ c (Proc.devRef .tc main_v39)) = K.lvlEdge (KHostAgg.agg1 (KVal.idxOf m c)) (KVal.inputsOf m c))
    (h1 : W1 m ρ c (Proc.devRef .tc main_v1) = KHostAgg.idxRow0 (KVal.idxOf m c))
    (h3 : W1 m ρ c (Proc.devRef .tc main_v3) = KHostAgg.idxRow1 (KVal.idxOf m c)) (t : Fin 10) (j : Fin 256) :
    cur3 (n0 := 10) (n1 := 2) (n2 := 256) (W10 m ρ c (Proc.devRef .tc main_v94_1)) t 0 j = tileSum hN (K.yB1 (KHostAgg.agg1 (KVal.idxOf m c)) (KHostAgg.agg2 (KVal.idxOf m c)) (KVal.inputsOf m c)) t j
    ∧ cur3 (n0 := 10) (n1 := 2) (n2 := 256) (W10 m ρ c (Proc.devRef .tc main_v94_1)) t 1 j = tileSumSq hN (K.yB1 (KHostAgg.agg1 (KVal.idxOf m c)) (KHostAgg.agg2 (KVal.idxOf m c)) (KVal.inputsOf m c)) t j := by
  have e : W10 m ρ c (Proc.devRef .tc main_v94_1) = (dat4 (V9 m ρ) c).arrAt 5 cfg4.N := W10_arr m ρ c 5
  rw [e, ← n_y4 m ρ c hL h1 h3]
  exact KRegCombine.reg4_stats (V9 m ρ) c t j

/-! ## The sixth host stretch: the first node normalisation's statistics, gain and offset -/

theorem n_stats_W11
    (hL : cur2 (n0 := 400000) (n1 := 128) (W4 m ρ c (Proc.devRef .tc main_v39)) = K.lvlEdge (KHostAgg.agg1 (KVal.idxOf m c)) (KVal.inputsOf m c))
    (h1 : W1 m ρ c (Proc.devRef .tc main_v1) = KHostAgg.idxRow0 (KVal.idxOf m c))
    (h3 : W1 m ρ c (Proc.devRef .tc main_v3) = KHostAgg.idxRow1 (KVal.idxOf m c)) :
    cur2 (n0 := 1) (n1 := 256) (W11 m ρ c (Proc.devRef .tc main_v111)) 0 = meanK hN nNodesE (K.yB1 (KHostAgg.agg1 (KVal.idxOf m c)) (KHostAgg.agg2 (KVal.idxOf m c)) (KVal.inputsOf m c))
    ∧ cur2 (n0 := 1) (n1 := 256) (W11 m ρ c (Proc.devRef .tc main_v112)) 0 = rstdK hN nNodesE (K.yB1 (KHostAgg.agg1 (KVal.idxOf m c)) (KHostAgg.agg2 (KVal.idxOf m c)) (KVal.inputsOf m c)) :=
  KHostStats.host5_stats (W10 m ρ c) (K.yB1 (KHostAgg.agg1 (KVal.idxOf m c)) (KHostAgg.agg2 (KVal.idxOf m c)) (KVal.inputsOf m c))
    (fun t j => (n_v94_1_W10 m ρ c hL h1 h3 t j).1) (fun t j => (n_v94_1_W10 m ρ c hL h1 h3 t j).2)

theorem n_g_W11 : cur2 (n0 := 1) (n1 := 256) (W11 m ρ c (Proc.devRef .tc main_v113)) 0 = (KVal.inputsOf m c).gb1 :=
  (KHostStats.host5_g (W10 m ρ c)).trans (congrArg (cur1 (n := 256)) (n_arg7_W10 m ρ c))

theorem n_b_W11 : cur2 (n0 := 1) (n1 := 256) (W11 m ρ c (Proc.devRef .tc main_v114)) 0 = (KVal.inputsOf m c).bb1 :=
  (KHostStats.host5_b (W10 m ρ c)).trans (congrArg (cur1 (n := 256)) (n_arg8_W10 m ρ c))

theorem n_v94_0_W11 : W11 m ρ c (Proc.devRef .tc main_v94_0) = W10 m ρ c (Proc.devRef .tc main_v94_0) := by
  host_pass hostOps5 main_v94_0

/-! ## The sixth call: the first node normalisation, times the second weight -/

theorem n_y5
    (hL : cur2 (n0 := 400000) (n1 := 128) (W4 m ρ c (Proc.devRef .tc main_v39)) = K.lvlEdge (KHostAgg.agg1 (KVal.idxOf m c)) (KVal.inputsOf m c))
    (h1 : W1 m ρ c (Proc.devRef .tc main_v1) = KHostAgg.idxRow0 (KVal.idxOf m c))
    (h3 : W1 m ρ c (Proc.devRef .tc main_v3) = KHostAgg.idxRow1 (KVal.idxOf m c)) : KRegAffMM.y5 (V11 m ρ) c = K.yB2 (KHostAgg.agg1 (KVal.idxOf m c)) (KHostAgg.agg2 (KVal.idxOf m c)) (KVal.inputsOf m c) := by
  have e0 : cur2 (n0 := 50000) (n1 := 256) (V11 m ρ c (Pipeline.arrRef spec5 0)) = K.yB1 (KHostAgg.agg1 (KVal.idxOf m c)) (KHostAgg.agg2 (KVal.idxOf m c)) (KVal.inputsOf m c) :=
    (congrArg (cur2 (n0 := 50000) (n1 := 256)) (n_v94_0_W11 m ρ c)).trans (n_v94_0_W10 m ρ c hL h1 h3)
  have e1 : cur2 (n0 := 1) (n1 := 256) (V11 m ρ c (Pipeline.arrRef spec5 1)) 0 = meanK hN nNodesE (K.yB1 (KHostAgg.agg1 (KVal.idxOf m c)) (KHostAgg.agg2 (KVal.idxOf m c)) (KVal.inputsOf m c)) :=
    (n_stats_W11 m ρ c hL h1 h3).1
  have e2 : cur2 (n0 := 1) (n1 := 256) (V11 m ρ c (Pipeline.arrRef spec5 2)) 0 = rstdK hN nNodesE (K.yB1 (KHostAgg.agg1 (KVal.idxOf m c)) (KHostAgg.agg2 (KVal.idxOf m c)) (KVal.inputsOf m c)) :=
    (n_stats_W11 m ρ c hL h1 h3).2
  have e3 : cur2 (n0 := 1) (n1 := 256) (V11 m ρ c (Pipeline.arrRef spec5 3)) 0 = (KVal.inputsOf m c).gb1 := n_g_W11 m ρ c
  have e4 : cur2 (n0 := 1) (n1 := 256) (V11 m ρ c (Pipeline.arrRef spec5 4)) 0 = (KVal.inputsOf m c).bb1 := n_b_W11 m ρ c
  have e5 : cur2 (n0 := 256) (n1 := 128) (V11 m ρ c (Pipeline.arrRef spec5 5)) = (KVal.inputsOf m c).Wb2 :=
    congrArg (cur2 (n0 := 256) (n1 := 128)) (n_arg9_W11 m ρ c)
  unfold KRegAffMM.y5 K.yB2 bnK
  rw [e0, e1, e2, e3, e4, e5]

theorem n_v115_0_W12
    (hL : cur2 (n0 := 400000) (n1 := 128) (W4 m ρ c (Proc.devRef .tc main_v39)) = K.lvlEdge (KHostAgg.agg1 (KVal.idxOf m c)) (KVal.inputsOf m c))
    (h1 : W1 m ρ c (Proc.devRef .tc main_v1) = KHostAgg.idxRow0 (KVal.idxOf m c))
    (h3 : W1 m ρ c (Proc.devRef .tc main_v3) = KHostAgg.idxRow1 (KVal.idxOf m c)) :
    cur2 (n0 := 50000) (n1 := 128) (W12 m ρ c (Proc.devRef .tc main_v115_0)) = K.yB2 (KHostAgg.agg1 (KVal.idxOf m c)) (KHostAgg.agg2 (KVal.idxOf m c)) (KVal.inputsOf m c) :=
  (congrArg (cur2 (n0 := 50000) (n1 := 128)) (W12_arr m ρ c 6)).trans ((KRegAffMM.reg5_y (V11 m ρ) c).trans (n_y5 m ρ c hL h1 h3))

theorem n_v115_1_W12
    (hL : cur2 (n0 := 400000) (n1 := 128) (W4 m ρ c (Proc.devRef .tc main_v39)) = K.lvlEdge (KHostAgg.agg1 (KVal.idxOf m c)) (KVal.inputsOf m c))
    (h1 : W1 m ρ c (Proc.devRef .tc main_v1) = KHostAgg.idxRow0 (KVal.idxOf m c))
    (h3 : W1 m ρ c (Proc.devRef .tc main_v3) = KHostAgg.idxRow1 (KVal.idxOf m c)) (t : Fin 10) (j : Fin 128) :
    cur3 (n0 := 10) (n1 := 2) (n2 := 128) (W12 m ρ c (Proc.devRef .tc main_v115_1)) t 0 j = tileSum hN (K.yB2 (KHostAgg.agg1 (KVal.idxOf m c)) (KHostAgg.agg2 (KVal.idxOf m c)) (KVal.inputsOf m c)) t j
    ∧ cur3 (n0 := 10) (n1 := 2) (n2 := 128) (W12 m ρ c (Proc.devRef .tc main_v115_1)) t 1 j = tileSumSq hN (K.yB2 (KHostAgg.agg1 (KVal.idxOf m c)) (KHostAgg.agg2 (KVal.idxOf m c)) (KVal.inputsOf m c)) t j := by
  have e : W12 m ρ c (Proc.devRef .tc main_v115_1) = (dat5 (V11 m ρ) c).arrAt 7 cfg5.N := W12_arr m ρ c 7
  rw [e, ← n_y5 m ρ c hL h1 h3]
  exact KRegAffMM.reg5_stats (V11 m ρ) c t j

/-! ## The seventh host stretch: the second node normalisation's statistics, gain and offset -/

theorem n_stats_W13
    (hL : cur2 (n0 := 400000) (n1 := 128) (W4 m ρ c (Proc.devRef .tc main_v39)) = K.lvlEdge (KHostAgg.agg1 (KVal.idxOf m c)) (KVal.inputsOf m c))
    (h1 : W1 m ρ c (Proc.devRef .tc main_v1) = KHostAgg.idxRow0 (KVal.idxOf m c))
    (h3 : W1 m ρ c (Proc.devRef .tc main_v3) = KHostAgg.idxRow1 (KVal.idxOf m c)) :
    cur2 (n0 := 1) (n1 := 128) (W13 m ρ c (Proc.devRef .tc main_v132)) 0 = meanK hN nNodesE (K.yB2 (KHostAgg.agg1 (KVal.idxOf m c)) (KHostAgg.agg2 (KVal.idxOf m c)) (KVal.inputsOf m c))
    ∧ cur2 (n0 := 1) (n1 := 128) (W13 m ρ c (Proc.devRef .tc main_v133)) 0 = rstdK hN nNodesE (K.yB2 (KHostAgg.agg1 (KVal.idxOf m c)) (KHostAgg.agg2 (KVal.idxOf m c)) (KVal.inputsOf m c)) :=
  KHostStats.host6_stats (W12 m ρ c) (K.yB2 (KHostAgg.agg1 (KVal.idxOf m c)) (KHostAgg.agg2 (KVal.idxOf m c)) (KVal.inputsOf m c))
    (fun t j => (n_v115_1_W12 m ρ c hL h1 h3 t j).1) (fun t j => (n_v115_1_W12 m ρ c hL h1 h3 t j).2)

theorem n_g_W13 : cur2 (n0 := 1) (n1 := 128) (W13 m ρ c (Proc.devRef .tc main_v134)) 0 = (KVal.inputsOf m c).gb2 :=
  (KHostStats.host6_g (W12 m ρ c)).trans (congrArg (cur1 (n := 128)) (n_arg10_W12 m ρ c))

theorem n_b_W13 : cur2 (n0 := 1) (n1 := 128) (W13 m ρ c (Proc.devRef .tc main_v135)) 0 = (KVal.inputsOf m c).bb2 :=
  (KHostStats.host6_b (W12 m ρ c)).trans (congrArg (cur1 (n := 128)) (n_arg11_W12 m ρ c))

theorem n_v115_0_W13 : W13 m ρ c (Proc.devRef .tc main_v115_0) = W12 m ρ c (Proc.devRef .tc main_v115_0) := by
  host_pass hostOps6 main_v115_0

/-! ## The seventh call: the second node normalisation -/

/-- The node output at the end of the run, from the edge branch's three facts. -/
theorem nodeOut_W14
    (hL : cur2 (n0 := 400000) (n1 := 128) (W4 (F := Ideal) m ρ c (Proc.devRef .tc main_v39))
      = K.lvlEdge (KHostAgg.agg1 (KVal.idxOf m c)) (KVal.inputsOf m c))
    (h1 : W1 (F := Ideal) m ρ c (Proc.devRef .tc main_v1) = KHostAgg.idxRow0 (KVal.idxOf m c))
    (h3 : W1 (F := Ideal) m ρ c (Proc.devRef .tc main_v3) = KHostAgg.idxRow1 (KVal.idxOf m c)) :
    cur2 (n0 := 50000) (n1 := 128) (W14 (F := Ideal) m ρ c (Proc.devRef .tc main_v136))
      = K.nodeOut (KHostAgg.agg1 (KVal.idxOf m c)) (KHostAgg.agg2 (KVal.idxOf m c)) (KVal.inputsOf m c) := by
  have e0 : cur2 (n0 := 50000) (n1 := 128) (V13 m ρ c (Pipeline.arrRef spec6 0)) = K.yB2 (KHostAgg.agg1 (KVal.idxOf m c)) (KHostAgg.agg2 (KVal.idxOf m c)) (KVal.inputsOf m c) :=
    (congrArg (cur2 (n0 := 50000) (n1 := 128)) (n_v115_0_W13 m ρ c)).trans (n_v115_0_W12 m ρ c hL h1 h3)
  have e1 : cur2 (n0 := 1) (n1 := 128) (V13 m ρ c (Pipeline.arrRef spec6 1)) 0 = meanK hN nNodesE (K.yB2 (KHostAgg.agg1 (KVal.idxOf m c)) (KHostAgg.agg2 (KVal.idxOf m c)) (KVal.inputsOf m c)) :=
    (n_stats_W13 m ρ c hL h1 h3).1
  have e2 : cur2 (n0 := 1) (n1 := 128) (V13 m ρ c (Pipeline.arrRef spec6 2)) 0 = rstdK hN nNodesE (K.yB2 (KHostAgg.agg1 (KVal.idxOf m c)) (KHostAgg.agg2 (KVal.idxOf m c)) (KVal.inputsOf m c)) :=
    (n_stats_W13 m ρ c hL h1 h3).2
  have e3 : cur2 (n0 := 1) (n1 := 128) (V13 m ρ c (Pipeline.arrRef spec6 3)) 0 = (KVal.inputsOf m c).gb2 := n_g_W13 m ρ c
  have e4 : cur2 (n0 := 1) (n1 := 128) (V13 m ρ c (Pipeline.arrRef spec6 4)) 0 = (KVal.inputsOf m c).bb2 := n_b_W13 m ρ c
  refine (congrArg (cur2 (n0 := 50000) (n1 := 128)) (W14_arr m ρ c 5)).trans ((KRegAffRelu.reg6_out (V13 m ρ) c).trans ?_)
  unfold K.nodeOut bnK
  rw [e0, e1, e2, e3, e4]

end Cert.KernelIdeal.KChain

end
-- ==== Proof.KChain.lean ====
/- The idealized kernel's two results at the end of its run are the tile-by-tile pipeline of its arguments: the edge branch and the node branch of the run read back, put together. -/
import proofs.«412927_j30382598652491_3_alg».proof.Proof.KChainEdge
import proofs.«412927_j30382598652491_3_alg».proof.Proof.KChainNode

set_option maxRecDepth 16384

noncomputable section

namespace Cert.KernelIdeal.KChain

open Idealize.ShloMosaic Idealize.ShloMosaic.TcCoe Cert.KernelIdeal Cert.KernelIdeal.Gen Cert.BNSpec
open Idealize.ShloMosaic.Pipeline (Dat Cfg Window)
open scoped BigOperators

theorem kernel_value (m : (ℓ : Loc nD τ sig) → Buf (Elt Ideal) ℓ) (ρ : Dev nD → PrngReg) (c : Dev nD) :
    cur2 (n0 := 50000) (n1 := 128) (W14 (F := Ideal) m ρ c (Proc.devRef .tc main_v136))
        = K.nodeOut (KHostAgg.agg1 (KVal.idxOf m c)) (KHostAgg.agg2 (KVal.idxOf m c)) (KVal.inputsOf m c)
    ∧ cur2 (n0 := 400000) (n1 := 128) (W14 (F := Ideal) m ρ c (Proc.devRef .tc main_v81))
        = K.edgeOut (KHostAgg.agg1 (KVal.idxOf m c)) (KVal.inputsOf m c) :=
  ⟨nodeOut_W14 m ρ c (lvlEdge_W4 m ρ c) (v1_W1 m ρ c) (v3_W1 m ρ c), edgeOut_W14 m ρ c⟩

end Cert.KernelIdeal.KChain

end
-- ==== Proof.PreReal.lean ====
/- Finite inputs are real numbers: the precondition says of every float argument that each entry's absolute
   value is below +infinity, and an extended real with that property is a real number. -/
import proofs.«412927_j30382598652491_3_alg».proof.Proof.KInputs
import proofs.«412927_j30382598652491_3_alg».proof.Proof.BNMath
import proofs.«412927_j30382598652491_3_alg».proof.Defs
import proofs.«412927_j30382598652491_3_alg».proof.Proof.Gen.Pre_finite_inputs
import Idealize.ShloMosaic.Lib.ReduceAll

set_option maxRecDepth 16384

noncomputable section

namespace Cert.KernelIdeal.PreReal

open Idealize.ShloMosaic Idealize.ShloMosaic.TcCoe Cert.KernelIdeal Cert.BNSpec Cert.ERealBN

/-- An extended real whose absolute value is below plus infinity is a real number: at either infinity the
    absolute value is plus infinity, which is not below itself. -/
theorem isReal_of_abs_lt_top (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The shape with no axes has one index. -/
local instance : Subsingleton Cert.Pre_finite_inputs.S_.Idx := ⟨fun a b => funext fun d => d.elim0⟩

open Cert.Pre_finite_inputs in
/-- An array of any shape, every entry of which has absolute value below plus infinity (the conjunction over
    all entries is true), has real entries. The bound is one number spread over the array's shape. -/
theorem entry_real_bcast {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
      (cmpf .olt (Host.absf x) (broadcastInDim s ![] hb (constant S_ .f32 0x7F800000#32))) init hr hu j = 1#1)
    (i : s.Idx) : IsReal (x i) :=
  isReal_of_abs_lt_top (x i) (Host.reduce_andi_all _ init hr hu j e i)

open Cert.Pre_finite_inputs in
/-- The same for a single number, compared with the bound directly. -/
theorem entry_real_scalar {axes : List (Fin S_.rank)} (x : FVec Ideal S_ .f32)
    (hr : S_.ReducesTo axes S_) (hu : 0 < S_.numel) (init : IVec S_ 1) (j : S_.Idx)
    (e : Host.reduce IntOp.andi (cmpf .olt (Host.absf x) (constant S_ .f32 0x7F800000#32)) init hr hu j = 1#1)
    (i : S_.Idx) : IsReal (x i) :=
  isReal_of_abs_lt_top (x i) (Host.reduce_andi_all _ init hr hu j e i)

/-- A conjunction of two truth values, entry by entry, is true exactly when both are. -/
theorem andi_at {s : Shape} (x y : IVec s 1) (i : s.Idx) : andi x y i = 1#1 ↔ x i = 1#1 ∧ y i = 1#1 :=
  IntOp.andi_eq_one

theorem realInputs_of_pre (m : (ℓ : Loc nD τ sig) → Buf (Elt Ideal) ℓ) (hpre : Cert.Pre_KernelIdeal m) (c : Dev nD) :
    Cert.BNMath.RealInputs (KVal.inputsOf m c) := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  simp only [andi_at] at h
  obtain ⟨⟨⟨⟨⟨⟨⟨⟨⟨⟨⟨⟨⟨⟨⟨⟨⟨⟨h0, h1⟩, h3⟩, h4⟩, h5⟩, h6⟩, h7⟩, h8⟩, h9⟩, h10⟩, h11⟩, h12⟩, h13⟩, h14⟩, h15⟩,
    h16⟩, h17⟩, h18⟩, h19⟩ := h
  exact
    { node := fun i j => entry_real_bcast _ _ _ _ _ _ h0 (ValueIdx.ix2 i j)
      edge := fun i j => entry_real_bcast _ _ _ _ _ _ h1 (ValueIdx.ix2 i j)
      Wa := fun i j => entry_real_bcast _ _ _ _ _ _ h3 (ValueIdx.ix2 i j)
      ga := fun j => entry_real_bcast _ _ _ _ _ _ h4 (ValueIdx.ix1 j)
      ba := fun j => entry_real_bcast _ _ _ _ _ _ h5 (ValueIdx.ix1 j)
      Wb1 := fun i j => entry_real_bcast _ _ _ _ _ _ h6 (ValueIdx.ix2 i j)
      gb1 := fun j => entry_real_bcast _ _ _ _ _ _ h7 (ValueIdx.ix1 j)
      bb1 := fun j => entry_real_bcast _ _ _ _ _ _ h8 (ValueIdx.ix1 j)
      Wb2 := fun i j => entry_real_bcast _ _ _ _ _ _ h9 (ValueIdx.ix2 i j)
      gb2 := fun j => entry_real_bcast _ _ _ _ _ _ h10 (ValueIdx.ix1 j)
      bb2 := fun j => entry_real_bcast _ _ _ _ _ _ h11 (ValueIdx.ix1 j)
      Wl1 := fun i j => entry_real_bcast _ _ _ _ _ _ h12 (ValueIdx.ix2 i j)
      gl1 := fun j => entry_real_bcast _ _ _ _ _ _ h13 (ValueIdx.ix1 j)
      bl1 := fun j => entry_real_bcast _ _ _ _ _ _ h14 (ValueIdx.ix1 j)
      Wl2 := fun i j => entry_real_bcast _ _ _ _ _ _ h15 (ValueIdx.ix2 i j)
      gl2 := fun j => entry_real_bcast _ _ _ _ _ _ h16 (ValueIdx.ix1 j)
      bl2 := fun j => entry_real_bcast _ _ _ _ _ _ h17 (ValueIdx.ix1 j)
      eps1 := entry_real_scalar _ _ _ _ _ h18 ValueIdx.ix0
      eps2 := entry_real_scalar _ _ _ _ _ h19 ValueIdx.ix0 }

end Cert.KernelIdeal.PreReal

end
-- ==== Proof.RefMM.lean ====
/- The reference's five matrix products read by coordinates: the first over the aggregated node rows and the edge rows side by side, two over a scaled matrix plus another, two over a normalised and clipped matrix. -/
import proofs.«412927_j30382598652491_3_alg».proof.Proof.RefGen
import proofs.«412927_j30382598652491_3_alg».proof.Proof.BNSpec
import Idealize.ShloMosaic.Lib.Pipeline.Value
import Idealize.ShloMosaic.Lib.ValueIdx
import Idealize.ShloMosaic.PureOps.Ideal.Laws

set_option maxRecDepth 16384

noncomputable section

namespace Cert.ReferenceIdeal.RVal

open Idealize.ShloMosaic Idealize.ShloMosaic.TcCoe Cert.ReferenceIdeal Cert.ReferenceIdeal.Gen Cert.ReferenceIdeal.Read Cert.BNSpec
open scoped BigOperators

variable (x0 : (⟨S50000x128, .f32⟩ : BufTy).Contents (Elt Ideal)) (x1 : (⟨S400000x128, .f32⟩ : BufTy).Contents (Elt Ideal)) (x2 : (⟨S2x800000, .i32⟩ : BufTy).Contents (Elt Ideal))
  (x3 : (⟨S256x128, .f32⟩ : BufTy).Contents (Elt Ideal)) (x4 x5 : (⟨S128, .f32⟩ : BufTy).Contents (Elt Ideal)) (x6 : (⟨S128x256, .f32⟩ : BufTy).Contents (Elt Ideal)) (x7 x8 : (⟨S256, .f32⟩ : BufTy).Contents (Elt Ideal))
  (x9 : (⟨S256x128, .f32⟩ : BufTy).Contents (Elt Ideal)) (x10 x11 : (⟨S128, .f32⟩ : BufTy).Contents (Elt Ideal)) (x12 : (⟨S128x256, .f32⟩ : BufTy).Contents (Elt Ideal)) (x13 x14 : (⟨S256, .f32⟩ : BufTy).Contents (Elt Ideal))
  (x15 : (⟨S256x128, .f32⟩ : BufTy).Contents (Elt Ideal)) (x16 x17 : (⟨S128, .f32⟩ : BufTy).Contents (Elt Ideal)) (x18 x19 : (⟨S_, .f32⟩ : BufTy).Contents (Elt Ideal))

/-! ## Where each product reads its two factors

A product's entry at row `i`, column `j` reads the left factor at row `i`, column `k` and the right factor at row `k`,
column `j`, for every `k` of the contracted axis. -/

private theorem lA (i : Fin 400000) (j : Fin 128) (k : Fin 256) : lidx_main_v15 (ValueIdx.ix2 i j) k = ValueIdx.ix2 i k :=
  funext fun a => Fin.ext (by match a with | ⟨0, _⟩ => rfl | ⟨1, _⟩ => rfl)
private theorem rA (i : Fin 400000) (j : Fin 128) (k : Fin 256) : ridx_main_v15 (ValueIdx.ix2 i j) k = ValueIdx.ix2 k j :=
  funext fun a => Fin.ext (by match a with | ⟨0, _⟩ => rfl | ⟨1, _⟩ => rfl)
private theorem lL1 (i : Fin 400000) (j : Fin 256) (k : Fin 128) : lidx_main_v114 (ValueIdx.ix2 i j) k = ValueIdx.ix2 i k :=
  funext fun a => Fin.ext (by match a with | ⟨0, _⟩ => rfl | ⟨1, _⟩ => rfl)
private theorem rL1 (i : Fin 400000) (j : Fin 256) (k : Fin 128) : ridx_main_v114 (ValueIdx.ix2 i j) k = ValueIdx.ix2 k j :=
  funext fun a => Fin.ext (by match a with | ⟨0, _⟩ => rfl | ⟨1, _⟩ => rfl)
private theorem lL2 (i : Fin 400000) (j : Fin 128) (k : Fin 256) : lidx_main_v141 (ValueIdx.ix2 i j) k = ValueIdx.ix2 i k :=
  funext fun a => Fin.ext (by match a with | ⟨0, _⟩ => rfl | ⟨1, _⟩ => rfl)
private theorem rL2 (i : Fin 400000) (j : Fin 128) (k : Fin 256) : ridx_main_v141 (ValueIdx.ix2 i j) k = ValueIdx.ix2 k j :=
  funext fun a => Fin.ext (by match a with | ⟨0, _⟩ => rfl | ⟨1, _⟩ => rfl)
private theorem lB1 (i : Fin 50000) (j : Fin 256) (k : Fin 128) : lidx_main_v56 (ValueIdx.ix2 i j) k = ValueIdx.ix2 i k :=
  funext fun a => Fin.ext (by match a with | ⟨0, _⟩ => rfl | ⟨1, _⟩ => rfl)
private theorem rB1 (i : Fin 50000) (j : Fin 256) (k : Fin 128) : ridx_main_v56 (ValueIdx.ix2 i j) k = ValueIdx.ix2 k j :=
  funext fun a => Fin.ext (by match a with | ⟨0, _⟩ => rfl | ⟨1, _⟩ => rfl)
private theorem lB2 (i : Fin 50000) (j : Fin 128) (k : Fin 256) : lidx_main_v83 (ValueIdx.ix2 i j) k = ValueIdx.ix2 i k :=
  funext fun a => Fin.ext (by match a with | ⟨0, _⟩ => rfl | ⟨1, _⟩ => rfl)
private theorem rB2 (i : Fin 50000) (j : Fin 128) (k : Fin 256) : ridx_main_v83 (ValueIdx.ix2 i j) k = ValueIdx.ix2 k j :=
  funext fun a => Fin.ext (by match a with | ⟨0, _⟩ => rfl | ⟨1, _⟩ => rfl)

/-! ## The two matrices side by side

Column `k` of the joined matrix is column `k` of the first piece when `k` is below the first piece's width, and column
`k - 128` of the second piece otherwise. -/

theorem joined_at (i : Fin 400000) (k : Fin 256) :
    val_main_v14 (F := Ideal) x0 x1 x2 (ValueIdx.ix2 i k)
      = hcat (cur2 (n0 := 400000) (n1 := 128) (val_main_v13 (F := Ideal) x0 x2)) (cur2 (n0 := 400000) (n1 := 128) x1) i k := by
  unfold val_main_v14
  by_cases h : k.val < 128
  · refine Eq.trans ?_ (dif_pos h).symm
    exact concatenate_pair_apply_left (t := S400000x256) (s₁ := S400000x128) (s₂ := S400000x128) 1
      (val_main_v13 (F := Ideal) x0 x2) x1 concatenates_S400000x128_S400000x128_S400000x256_d1 (ValueIdx.ix2 i k) rfl
      (ValueIdx.ix2 i ⟨k.val, h⟩) (fun b => by match b with | ⟨0, _⟩ => rfl | ⟨1, _⟩ => rfl)
  · refine Eq.trans ?_ (dif_neg h).symm
    exact concatenate_pair_apply_right (t := S400000x256) (s₁ := S400000x128) (s₂ := S400000x128) 1
      (val_main_v13 (F := Ideal) x0 x2) x1 concatenates_S400000x128_S400000x128_S400000x256_d1 (ValueIdx.ix2 i k) rfl rfl
      (ValueIdx.ix2 i ⟨k.val - 128, by have := k.isLt; omega⟩)
      (fun b hb => by
        match b, hb with
        | ⟨0, _⟩, _ => rfl
        | ⟨1, _⟩, hb => exact absurd rfl hb)
      (by show (k.val - 128) + 128 = k.val; omega)

/-! ## The five products -/

theorem ref_yA :
    cur2 (n0 := 400000) (n1 := 128) (val_main_v15 (F := Ideal) x0 x1 x2 x3)
      = mm (hcat (cur2 (n0 := 400000) (n1 := 128) (val_main_v13 (F := Ideal) x0 x2)) (cur2 (n0 := 400000) (n1 := 128) x1)) (cur2 (n0 := 128 + 128) (n1 := 128) x3) := by
  funext i j
  refine (val_main_v15_apply x0 x1 x2 x3 (ValueIdx.ix2 i j)).trans (Finset.sum_congr rfl fun k _ => ?_)
  rw [lA i j k, rA i j k, joined_at x0 x1 x2 i k]

theorem ref_yL1 :
    cur2 (n0 := 400000) (n1 := 256) (val_main_v114 (F := Ideal) x0 x1 x2 x12 x19)
      = mm (scaleAdd (oneE + cur0 x19) (cur2 (n0 := 400000) (n1 := 128) x1) (cur2 (n0 := 400000) (n1 := 128) (val_main_v13 (F := Ideal) x0 x2))) (cur2 (n0 := 128) (n1 := 256) x12) := by
  funext i j
  refine (val_main_v114_apply x0 x1 x2 x12 x19 (ValueIdx.ix2 i j)).trans (Finset.sum_congr rfl fun k _ => ?_)
  rw [lL1 i j k, rL1 i j k, val_main_v113_apply, val_main_v112_apply, val_main_v111_apply, val_main_v110_apply, val_main_cst_20_apply]
  simp only [Ideal.addf_def, Ideal.mulf_def, Ideal.ofBits_def]
  rfl

theorem ref_yL2 :
    cur2 (n0 := 400000) (n1 := 128) (val_main_v141 (F := Ideal) x0 x1 x2 x12 x13 x14 x15 x19)
      = mm (cur2 (n0 := 400000) (n1 := 256) (val_main_v140 (F := Ideal) x0 x1 x2 x12 x13 x14 x19)) (cur2 (n0 := 256) (n1 := 128) x15) := by
  funext i j
  refine (val_main_v141_apply x0 x1 x2 x12 x13 x14 x15 x19 (ValueIdx.ix2 i j)).trans (Finset.sum_congr rfl fun k _ => ?_)
  rw [lL2 i j k, rL2 i j k]

theorem ref_yB1 :
    cur2 (n0 := 50000) (n1 := 256) (val_main_v56 (F := Ideal) x0 x1 x2 x3 x4 x5 x6 x18)
      = mm (scaleAdd (oneE + cur0 x18) (cur2 (n0 := 50000) (n1 := 128) x0) (cur2 (n0 := 50000) (n1 := 128) (val_main_v51 (F := Ideal) x0 x1 x2 x3 x4 x5))) (cur2 (n0 := 128) (n1 := 256) x6) := by
  funext i j
  refine (val_main_v56_apply x0 x1 x2 x3 x4 x5 x6 x18 (ValueIdx.ix2 i j)).trans (Finset.sum_congr rfl fun k _ => ?_)
  rw [lB1 i j k, rB1 i j k, val_main_v55_apply, val_main_v54_apply, val_main_v53_apply, val_main_v52_apply, val_main_cst_9_apply]
  simp only [Ideal.addf_def, Ideal.mulf_def, Ideal.ofBits_def]
  rfl

theorem ref_yB2 :
    cur2 (n0 := 50000) (n1 := 128) (val_main_v83 (F := Ideal) x0 x1 x2 x3 x4 x5 x6 x7 x8 x9 x18)
      = mm (cur2 (n0 := 50000) (n1 := 256) (val_main_v82 (F := Ideal) x0 x1 x2 x3 x4 x5 x6 x7 x8 x18)) (cur2 (n0 := 256) (n1 := 128) x9) := by
  funext i j
  refine (val_main_v83_apply x0 x1 x2 x3 x4 x5 x6 x7 x8 x9 x18 (ValueIdx.ix2 i j)).trans (Finset.sum_congr rfl fun k _ => ?_)
  rw [lB2 i j k, rB2 i j k]

end Cert.ReferenceIdeal.RVal

end
-- ==== Proof.RefBNEdge.lean ====
/- The reference's three normalisations over the 400000 edge rows, read by coordinates: each is the whole-column batch normalisation, gain, offset and clipping of the matrix it is applied to.

   Each block has the same three steps. The column means: the sum of a column from zero, divided by the
   number of rows. The reciprocal standard deviations: the sum from zero of the squared deviations from that
   mean, divided by the number of rows, plus the small constant, under the reciprocal square root. The matrix:
   an entry minus its column's mean, times the column's reciprocal standard deviation, times the gain, plus
   the offset, and the larger of that and zero. A per-column array enters the matrix through two broadcasts
   (a row vector, then every row), so an entry of the broadcast at row i, column j is the array's entry at j. -/
import proofs.«412927_j30382598652491_3_alg».proof.Proof.RefGen
import proofs.«412927_j30382598652491_3_alg».proof.Proof.BNSpec
import Idealize.ShloMosaic.Lib.ValueIdx
import Idealize.ShloMosaic.PureOps.Ideal.Laws

set_option maxRecDepth 16384

noncomputable section

namespace Cert.ReferenceIdeal.RVal

open Idealize.ShloMosaic Idealize.ShloMosaic.TcCoe Cert.ReferenceIdeal Cert.ReferenceIdeal.Gen Cert.ReferenceIdeal.Read Cert.BNSpec
open scoped BigOperators

variable (x0 : (⟨S50000x128, .f32⟩ : BufTy).Contents (Elt Ideal)) (x1 : (⟨S400000x128, .f32⟩ : BufTy).Contents (Elt Ideal)) (x2 : (⟨S2x800000, .i32⟩ : BufTy).Contents (Elt Ideal))
  (x3 : (⟨S256x128, .f32⟩ : BufTy).Contents (Elt Ideal)) (x4 x5 : (⟨S128, .f32⟩ : BufTy).Contents (Elt Ideal)) (x6 : (⟨S128x256, .f32⟩ : BufTy).Contents (Elt Ideal)) (x7 x8 : (⟨S256, .f32⟩ : BufTy).Contents (Elt Ideal))
  (x9 : (⟨S256x128, .f32⟩ : BufTy).Contents (Elt Ideal)) (x10 x11 : (⟨S128, .f32⟩ : BufTy).Contents (Elt Ideal)) (x12 : (⟨S128x256, .f32⟩ : BufTy).Contents (Elt Ideal)) (x13 x14 : (⟨S256, .f32⟩ : BufTy).Contents (Elt Ideal))
  (x15 : (⟨S256x128, .f32⟩ : BufTy).Contents (Elt Ideal)) (x16 x17 : (⟨S128, .f32⟩ : BufTy).Contents (Elt Ideal)) (x18 x19 : (⟨S_, .f32⟩ : BufTy).Contents (Elt Ideal))

/-! ## The first normalisation: 128 columns, gain `x4`, offset `x5` -/

/-- The rows a column sum runs over: the summation index is the row, the array's index the column. -/
private theorem colA_sum (j : Fin 128) (k : Fin 400000) : idx_main_v16 (ValueIdx.ix1 j) k = ValueIdx.ix2 k j :=
  funext fun a => Fin.ext (by match a with | ⟨0, _⟩ => rfl | ⟨1, _⟩ => rfl)
private theorem colA_sumSq (j : Fin 128) (k : Fin 400000) : idx_main_v23 (ValueIdx.ix1 j) k = ValueIdx.ix2 k j :=
  funext fun a => Fin.ext (by match a with | ⟨0, _⟩ => rfl | ⟨1, _⟩ => rfl)
/-- A per-column array broadcast to a row vector and then to every row is read at the column. -/
private theorem colA_meanDev (i : Fin 400000) (j : Fin 128) : idx_main_v19 (idx_main_v20 (ValueIdx.ix2 i j)) = ValueIdx.ix1 j :=
  funext fun a => Fin.ext (by match a with | ⟨0, _⟩ => rfl)
private theorem colA_mean (i : Fin 400000) (j : Fin 128) : idx_main_v26 (idx_main_v27 (ValueIdx.ix2 i j)) = ValueIdx.ix1 j :=
  funext fun a => Fin.ext (by match a with | ⟨0, _⟩ => rfl)
private theorem colA_rstd (i : Fin 400000) (j : Fin 128) : idx_main_v32 (idx_main_v33 (ValueIdx.ix2 i j)) = ValueIdx.ix1 j :=
  funext fun a => Fin.ext (by match a with | ⟨0, _⟩ => rfl)
private theorem colA_gain (i : Fin 400000) (j : Fin 128) : idx_main_v35 (idx_main_v36 (ValueIdx.ix2 i j)) = ValueIdx.ix1 j :=
  funext fun a => Fin.ext (by match a with | ⟨0, _⟩ => rfl)
private theorem colA_offset (i : Fin 400000) (j : Fin 128) : idx_main_v38 (idx_main_v39 (ValueIdx.ix2 i j)) = ValueIdx.ix1 j :=
  funext fun a => Fin.ext (by match a with | ⟨0, _⟩ => rfl)

/-- The array of column means, at a column. -/
theorem ref_meanA_apply (j : Fin 128) :
    val_main_v18 (F := Ideal) x0 x1 x2 x3 (ValueIdx.ix1 j)
      = meanR nEdgesE (cur2 (n0 := 400000) (n1 := 128) (val_main_v15 (F := Ideal) x0 x1 x2 x3)) j := by
  rw [val_main_v18_apply, val_main_v16_apply, val_main_v17_apply, val_main_cst_1_apply, val_main_cst_2_apply]
  simp only [Ideal.hostDivf_def, Ideal.ofBits_def]
  unfold meanR
  refine congrArg (fun s => Ideal.div (zeroE + s) nEdgesE) (Finset.sum_congr rfl fun k _ => ?_)
  rw [colA_sum j k]

/-- The array of reciprocal standard deviations, at a column. -/
theorem ref_rstdA_apply (j : Fin 128) :
    val_main_v31 (F := Ideal) x0 x1 x2 x3 (ValueIdx.ix1 j)
      = rstdR nEdgesE (cur2 (n0 := 400000) (n1 := 128) (val_main_v15 (F := Ideal) x0 x1 x2 x3)) j := by
  rw [val_main_v31_apply, val_main_v30_apply, val_main_v29_apply, val_main_v25_apply, val_main_v24_apply, val_main_v23_apply,
    val_main_cst_3_apply, val_main_cst_4_apply, val_main_cst_5_apply]
  simp only [Ideal.hostUnary_rsqrt_def, Ideal.addf_def, Ideal.hostDivf_def, Ideal.ofBits_def]
  unfold rstdR
  refine congrArg (fun s => Ideal.rsqrt (Ideal.div (zeroE + s) nEdgesE + epsE)) (Finset.sum_congr rfl fun k _ => ?_)
  rw [colA_sumSq j k, val_main_v22_apply, val_main_v21_apply, val_main_v20_apply, val_main_v19_apply, colA_meanDev k j,
    ref_meanA_apply x0 x1 x2 x3 j]
  generalize val_main_v15 (F := Ideal) x0 x1 x2 x3 = y
  rfl

theorem ref_bnA :
    cur2 (n0 := 400000) (n1 := 128) (val_main_v41 (F := Ideal) x0 x1 x2 x3 x4 x5)
      = bnR nEdgesE (cur1 (n := 128) x4) (cur1 (n := 128) x5) (cur2 (n0 := 400000) (n1 := 128) (val_main_v15 (F := Ideal) x0 x1 x2 x3)) := by
  funext i j
  show val_main_v41 (F := Ideal) x0 x1 x2 x3 x4 x5 (ValueIdx.ix2 i j) = _
  rw [val_main_v41_apply, val_main_call0_v0_apply, val_main_call0_cst_apply, val_main_v40_apply, val_main_v39_apply, val_main_v38_apply,
    val_main_v37_apply, val_main_v36_apply, val_main_v35_apply, val_main_v34_apply, val_main_v33_apply, val_main_v32_apply,
    val_main_v28_apply, val_main_v27_apply, val_main_v26_apply,
    colA_offset i j, colA_gain i j, colA_rstd i j, colA_mean i j,
    ref_rstdA_apply x0 x1 x2 x3 j, ref_meanA_apply x0 x1 x2 x3 j]
  generalize val_main_v15 (F := Ideal) x0 x1 x2 x3 = y
  rfl

/-! ## The second normalisation: 256 columns, gain `x13`, offset `x14` -/

/-- The rows a column sum runs over: the summation index is the row, the array's index the column. -/
private theorem colL1_sum (j : Fin 256) (k : Fin 400000) : idx_main_v115 (ValueIdx.ix1 j) k = ValueIdx.ix2 k j :=
  funext fun a => Fin.ext (by match a with | ⟨0, _⟩ => rfl | ⟨1, _⟩ => rfl)
private theorem colL1_sumSq (j : Fin 256) (k : Fin 400000) : idx_main_v122 (ValueIdx.ix1 j) k = ValueIdx.ix2 k j :=
  funext fun a => Fin.ext (by match a with | ⟨0, _⟩ => rfl | ⟨1, _⟩ => rfl)
/-- A per-column array broadcast to a row vector and then to every row is read at the column. -/
private theorem colL1_meanDev (i : Fin 400000) (j : Fin 256) : idx_main_v118 (idx_main_v119 (ValueIdx.ix2 i j)) = ValueIdx.ix1 j :=
  funext fun a => Fin.ext (by match a with | ⟨0, _⟩ => rfl)
private theorem colL1_mean (i : Fin 400000) (j : Fin 256) : idx_main_v125 (idx_main_v126 (ValueIdx.ix2 i j)) = ValueIdx.ix1 j :=
  funext fun a => Fin.ext (by match a with | ⟨0, _⟩ => rfl)
private theorem colL1_rstd (i : Fin 400000) (j : Fin 256) : idx_main_v131 (idx_main_v132 (ValueIdx.ix2 i j)) = ValueIdx.ix1 j :=
  funext fun a => Fin.ext (by match a with | ⟨0, _⟩ => rfl)
private theorem colL1_gain (i : Fin 400000) (j : Fin 256) : idx_main_v134 (idx_main_v135 (ValueIdx.ix2 i j)) = ValueIdx.ix1 j :=
  funext fun a => Fin.ext (by match a with | ⟨0, _⟩ => rfl)
private theorem colL1_offset (i : Fin 400000) (j : Fin 256) : idx_main_v137 (idx_main_v138 (ValueIdx.ix2 i j)) = ValueIdx.ix1 j :=
  funext fun a => Fin.ext (by match a with | ⟨0, _⟩ => rfl)

/-- The array of column means, at a column. -/
theorem ref_meanL1_apply (j : Fin 256) :
    val_main_v117 (F := Ideal) x0 x1 x2 x12 x19 (ValueIdx.ix1 j)
      = meanR nEdgesE (cur2 (n0 := 400000) (n1 := 256) (val_main_v114 (F := Ideal) x0 x1 x2 x12 x19)) j := by
  rw [val_main_v117_apply, val_main_v115_apply, val_main_v116_apply, val_main_cst_21_apply, val_main_cst_22_apply]
  simp only [Ideal.hostDivf_def, Ideal.ofBits_def]
  unfold meanR
  refine congrArg (fun s => Ideal.div (zeroE + s) nEdgesE) (Finset.sum_congr rfl fun k _ => ?_)
  rw [colL1_sum j k]

/-- The array of reciprocal standard deviations, at a column. -/
theorem ref_rstdL1_apply (j : Fin 256) :
    val_main_v130 (F := Ideal) x0 x1 x2 x12 x19 (ValueIdx.ix1 j)
      = rstdR nEdgesE (cur2 (n0 := 400000) (n1 := 256) (val_main_v114 (F := Ideal) x0 x1 x2 x12 x19)) j := by
  rw [val_main_v130_apply, val_main_v129_apply, val_main_v128_apply, val_main_v124_apply, val_main_v123_apply, val_main_v122_apply,
    val_main_cst_23_apply, val_main_cst_24_apply, val_main_cst_25_apply]
  simp only [Ideal.hostUnary_rsqrt_def, Ideal.addf_def, Ideal.hostDivf_def, Ideal.ofBits_def]
  unfold rstdR
  refine congrArg (fun s => Ideal.rsqrt (Ideal.div (zeroE + s) nEdgesE + epsE)) (Finset.sum_congr rfl fun k _ => ?_)
  rw [colL1_sumSq j k, val_main_v121_apply, val_main_v120_apply, val_main_v119_apply, val_main_v118_apply, colL1_meanDev k j,
    ref_meanL1_apply x0 x1 x2 x12 x19 j]
  generalize val_main_v114 (F := Ideal) x0 x1 x2 x12 x19 = y
  rfl

theorem ref_bnL1 :
    cur2 (n0 := 400000) (n1 := 256) (val_main_v140 (F := Ideal) x0 x1 x2 x12 x13 x14 x19)
      = bnR nEdgesE (cur1 (n := 256) x13) (cur1 (n := 256) x14) (cur2 (n0 := 400000) (n1 := 256) (val_main_v114 (F := Ideal) x0 x1 x2 x12 x19)) := by
  funext i j
  show val_main_v140 (F := Ideal) x0 x1 x2 x12 x13 x14 x19 (ValueIdx.ix2 i j) = _
  rw [val_main_v140_apply, val_main_call3_v0_apply, val_main_call3_cst_apply, val_main_v139_apply, val_main_v138_apply, val_main_v137_apply,
    val_main_v136_apply, val_main_v135_apply, val_main_v134_apply, val_main_v133_apply, val_main_v132_apply, val_main_v131_apply,
    val_main_v127_apply, val_main_v126_apply, val_main_v125_apply,
    colL1_offset i j, colL1_gain i j, colL1_rstd i j, colL1_mean i j,
    ref_rstdL1_apply x0 x1 x2 x12 x19 j, ref_meanL1_apply x0 x1 x2 x12 x19 j]
  generalize val_main_v114 (F := Ideal) x0 x1 x2 x12 x19 = y
  rfl

/-! ## The third normalisation: 128 columns, gain `x16`, offset `x17` -/

/-- The rows a column sum runs over: the summation index is the row, the array's index the column. -/
private theorem colL2_sum (j : Fin 128) (k : Fin 400000) : idx_main_v142 (ValueIdx.ix1 j) k = ValueIdx.ix2 k j :=
  funext fun a => Fin.ext (by match a with | ⟨0, _⟩ => rfl | ⟨1, _⟩ => rfl)
private theorem colL2_sumSq (j : Fin 128) (k : Fin 400000) : idx_main_v149 (ValueIdx.ix1 j) k = ValueIdx.ix2 k j :=
  funext fun a => Fin.ext (by match a with | ⟨0, _⟩ => rfl | ⟨1, _⟩ => rfl)
/-- A per-column array broadcast to a row vector and then to every row is read at the column. -/
private theorem colL2_meanDev (i : Fin 400000) (j : Fin 128) : idx_main_v145 (idx_main_v146 (ValueIdx.ix2 i j)) = ValueIdx.ix1 j :=
  funext fun a => Fin.ext (by match a with | ⟨0, _⟩ => rfl)
private theorem colL2_mean (i : Fin 400000) (j : Fin 128) : idx_main_v152 (idx_main_v153 (ValueIdx.ix2 i j)) = ValueIdx.ix1 j :=
  funext fun a => Fin.ext (by match a with | ⟨0, _⟩ => rfl)
private theorem colL2_rstd (i : Fin 400000) (j : Fin 128) : idx_main_v158 (idx_main_v159 (ValueIdx.ix2 i j)) = ValueIdx.ix1 j :=
  funext fun a => Fin.ext (by match a with | ⟨0, _⟩ => rfl)
private theorem colL2_gain (i : Fin 400000) (j : Fin 128) : idx_main_v161 (idx_main_v162 (ValueIdx.ix2 i j)) = ValueIdx.ix1 j :=
  funext fun a => Fin.ext (by match a with | ⟨0, _⟩ => rfl)
private theorem colL2_offset (i : Fin 400000) (j : Fin 128) : idx_main_v164 (idx_main_v165 (ValueIdx.ix2 i j)) = ValueIdx.ix1 j :=
  funext fun a => Fin.ext (by match a with | ⟨0, _⟩ => rfl)

/-- The array of column means, at a column. -/
theorem ref_meanL2_apply (j : Fin 128) :
    val_main_v144 (F := Ideal) x0 x1 x2 x12 x13 x14 x15 x19 (ValueIdx.ix1 j)
      = meanR nEdgesE (cur2 (n0 := 400000) (n1 := 128) (val_main_v141 (F := Ideal) x0 x1 x2 x12 x13 x14 x15 x19)) j := by
  rw [val_main_v144_apply, val_main_v142_apply, val_main_v143_apply, val_main_cst_26_apply, val_main_cst_27_apply]
  simp only [Ideal.hostDivf_def, Ideal.ofBits_def]
  unfold meanR
  refine congrArg (fun s => Ideal.div (zeroE + s) nEdgesE) (Finset.sum_congr rfl fun k _ => ?_)
  rw [colL2_sum j k]

/-- The array of reciprocal standard deviations, at a column. -/
theorem ref_rstdL2_apply (j : Fin 128) :
    val_main_v157 (F := Ideal) x0 x1 x2 x12 x13 x14 x15 x19 (ValueIdx.ix1 j)
      = rstdR nEdgesE (cur2 (n0 := 400000) (n1 := 128) (val_main_v141 (F := Ideal) x0 x1 x2 x12 x13 x14 x15 x19)) j := by
  rw [val_main_v157_apply, val_main_v156_apply, val_main_v155_apply, val_main_v151_apply, val_main_v150_apply, val_main_v149_apply,
    val_main_cst_28_apply, val_main_cst_29_apply, val_main_cst_30_apply]
  simp only [Ideal.hostUnary_rsqrt_def, Ideal.addf_def, Ideal.hostDivf_def, Ideal.ofBits_def]
  unfold rstdR
  refine congrArg (fun s => Ideal.rsqrt (Ideal.div (zeroE + s) nEdgesE + epsE)) (Finset.sum_congr rfl fun k _ => ?_)
  rw [colL2_sumSq j k, val_main_v148_apply, val_main_v147_apply, val_main_v146_apply, val_main_v145_apply, colL2_meanDev k j,
    ref_meanL2_apply x0 x1 x2 x12 x13 x14 x15 x19 j]
  generalize val_main_v141 (F := Ideal) x0 x1 x2 x12 x13 x14 x15 x19 = y
  rfl

theorem ref_bnL2 :
    cur2 (n0 := 400000) (n1 := 128) (val_main_v167 (F := Ideal) x0 x1 x2 x12 x13 x14 x15 x16 x17 x19)
      = bnR nEdgesE (cur1 (n := 128) x16) (cur1 (n := 128) x17) (cur2 (n0 := 400000) (n1 := 128) (val_main_v141 (F := Ideal) x0 x1 x2 x12 x13 x14 x15 x19)) := by
  funext i j
  show val_main_v167 (F := Ideal) x0 x1 x2 x12 x13 x14 x15 x16 x17 x19 (ValueIdx.ix2 i j) = _
  rw [val_main_v167_apply, val_main_call4_v0_apply, val_main_call4_cst_apply, val_main_v166_apply, val_main_v165_apply, val_main_v164_apply,
    val_main_v163_apply, val_main_v162_apply, val_main_v161_apply, val_main_v160_apply, val_main_v159_apply, val_main_v158_apply,
    val_main_v154_apply, val_main_v153_apply, val_main_v152_apply,
    colL2_offset i j, colL2_gain i j, colL2_rstd i j, colL2_mean i j,
    ref_rstdL2_apply x0 x1 x2 x12 x13 x14 x15 x19 j, ref_meanL2_apply x0 x1 x2 x12 x13 x14 x15 x19 j]
  generalize val_main_v141 (F := Ideal) x0 x1 x2 x12 x13 x14 x15 x19 = y
  rfl

end Cert.ReferenceIdeal.RVal

end
-- ==== Proof.RefBNNode.lean ====
/- The reference's two normalisations over the 50000 node rows, read by coordinates: each is the whole-column batch normalisation, gain, offset and clipping of the matrix it is applied to.

   Each block is read in the order the mathematics is built: the column means (a sum over the rows divided by the
   number of rows), the means spread back over the rows, the reciprocal standard deviations (the mean of the squared
   deviations plus the small constant, under the reciprocal square root), those spread over the rows, the gain and
   the offset spread over the rows, and last the entry of the normalised, scaled, shifted and clipped matrix. -/
import proofs.«412927_j30382598652491_3_alg».proof.Proof.RefGen
import proofs.«412927_j30382598652491_3_alg».proof.Proof.BNSpec
import Idealize.ShloMosaic.Lib.ValueIdx
import Idealize.ShloMosaic.PureOps.Ideal.Laws

set_option maxRecDepth 16384

noncomputable section

namespace Cert.ReferenceIdeal.RVal

open Idealize.ShloMosaic Idealize.ShloMosaic.TcCoe Cert.ReferenceIdeal Cert.ReferenceIdeal.Gen Cert.ReferenceIdeal.Read Cert.BNSpec
open scoped BigOperators

variable (x0 : (⟨S50000x128, .f32⟩ : BufTy).Contents (Elt Ideal)) (x1 : (⟨S400000x128, .f32⟩ : BufTy).Contents (Elt Ideal)) (x2 : (⟨S2x800000, .i32⟩ : BufTy).Contents (Elt Ideal))
  (x3 : (⟨S256x128, .f32⟩ : BufTy).Contents (Elt Ideal)) (x4 x5 : (⟨S128, .f32⟩ : BufTy).Contents (Elt Ideal)) (x6 : (⟨S128x256, .f32⟩ : BufTy).Contents (Elt Ideal)) (x7 x8 : (⟨S256, .f32⟩ : BufTy).Contents (Elt Ideal))
  (x9 : (⟨S256x128, .f32⟩ : BufTy).Contents (Elt Ideal)) (x10 x11 : (⟨S128, .f32⟩ : BufTy).Contents (Elt Ideal)) (x12 : (⟨S128x256, .f32⟩ : BufTy).Contents (Elt Ideal)) (x13 x14 : (⟨S256, .f32⟩ : BufTy).Contents (Elt Ideal))
  (x15 : (⟨S256x128, .f32⟩ : BufTy).Contents (Elt Ideal)) (x16 x17 : (⟨S128, .f32⟩ : BufTy).Contents (Elt Ideal)) (x18 x19 : (⟨S_, .f32⟩ : BufTy).Contents (Elt Ideal))

/-! ## The normalisation over 256 columns -/

/-- Row `k` of column `j`, as the two column sums index the matrix. -/
theorem b1_idx_sum (j : Fin 256) (k : Fin 50000) : idx_main_v57 (ValueIdx.ix1 j) k = ValueIdx.ix2 k j :=
  funext fun a => Fin.ext (by match a with | ⟨0, _⟩ => rfl | ⟨1, _⟩ => rfl)
theorem b1_idx_sumsq (j : Fin 256) (k : Fin 50000) : idx_main_v64 (ValueIdx.ix1 j) k = ValueIdx.ix2 k j :=
  funext fun a => Fin.ext (by match a with | ⟨0, _⟩ => rfl | ⟨1, _⟩ => rfl)
/-- A vector spread over the rows is read at the column. -/
theorem b1_idx_rows_a (i : Fin 50000) (j : Fin 256) : idx_main_v60 (idx_main_v61 (ValueIdx.ix2 i j)) = ValueIdx.ix1 j :=
  funext fun a => Fin.ext (by match a with | ⟨0, _⟩ => rfl)
theorem b1_idx_rows_b (i : Fin 50000) (j : Fin 256) : idx_main_v67 (idx_main_v68 (ValueIdx.ix2 i j)) = ValueIdx.ix1 j :=
  funext fun a => Fin.ext (by match a with | ⟨0, _⟩ => rfl)
theorem b1_idx_rows_c (i : Fin 50000) (j : Fin 256) : idx_main_v73 (idx_main_v74 (ValueIdx.ix2 i j)) = ValueIdx.ix1 j :=
  funext fun a => Fin.ext (by match a with | ⟨0, _⟩ => rfl)
theorem b1_idx_rows_g (i : Fin 50000) (j : Fin 256) : idx_main_v76 (idx_main_v77 (ValueIdx.ix2 i j)) = ValueIdx.ix1 j :=
  funext fun a => Fin.ext (by match a with | ⟨0, _⟩ => rfl)
theorem b1_idx_rows_o (i : Fin 50000) (j : Fin 256) : idx_main_v79 (idx_main_v80 (ValueIdx.ix2 i j)) = ValueIdx.ix1 j :=
  funext fun a => Fin.ext (by match a with | ⟨0, _⟩ => rfl)

/-- The column means. -/
theorem b1_mean (j : Fin 256) :
    val_main_v59 (F := Ideal) x0 x1 x2 x3 x4 x5 x6 x18 (ValueIdx.ix1 j) = meanR nNodesE (cur2 (n0 := 50000) (n1 := 256) (val_main_v56 (F := Ideal) x0 x1 x2 x3 x4 x5 x6 x18)) j := by
  rw [val_main_v59_apply, val_main_v57_apply, val_main_v58_apply, val_main_cst_11_apply, val_main_cst_10_apply]
  simp only [b1_idx_sum, Ideal.hostDivf_def, Ideal.ofBits_def]
  rfl

/-- The means spread over the rows, as the squared deviations read them. -/
theorem b1_mean_rows_a (i : Fin 50000) (j : Fin 256) :
    val_main_v61 (F := Ideal) x0 x1 x2 x3 x4 x5 x6 x18 (ValueIdx.ix2 i j) = meanR nNodesE (cur2 (n0 := 50000) (n1 := 256) (val_main_v56 (F := Ideal) x0 x1 x2 x3 x4 x5 x6 x18)) j := by
  rw [val_main_v61_apply, val_main_v60_apply, b1_idx_rows_a, b1_mean]

/-- The means spread over the rows, as the normalised matrix reads them. -/
theorem b1_mean_rows_b (i : Fin 50000) (j : Fin 256) :
    val_main_v68 (F := Ideal) x0 x1 x2 x3 x4 x5 x6 x18 (ValueIdx.ix2 i j) = meanR nNodesE (cur2 (n0 := 50000) (n1 := 256) (val_main_v56 (F := Ideal) x0 x1 x2 x3 x4 x5 x6 x18)) j := by
  rw [val_main_v68_apply, val_main_v67_apply, b1_idx_rows_b, b1_mean]

/-- The reciprocal standard deviations of the columns. -/
theorem b1_rstd (j : Fin 256) :
    val_main_v72 (F := Ideal) x0 x1 x2 x3 x4 x5 x6 x18 (ValueIdx.ix1 j) = rstdR nNodesE (cur2 (n0 := 50000) (n1 := 256) (val_main_v56 (F := Ideal) x0 x1 x2 x3 x4 x5 x6 x18)) j := by
  rw [val_main_v72_apply, val_main_v71_apply, val_main_v66_apply, val_main_v64_apply, val_main_v65_apply,
    val_main_v70_apply, val_main_cst_12_apply, val_main_cst_13_apply, val_main_cst_14_apply]
  simp only [b1_idx_sumsq, val_main_v63_apply, val_main_v62_apply, b1_mean_rows_a, Ideal.hostUnary_rsqrt_def,
    Ideal.hostDivf_def, Ideal.addf_def, Ideal.subf_def, Ideal.mulf_def, Ideal.ofBits_def]
  rfl

/-- The reciprocal standard deviations spread over the rows. -/
theorem b1_rstd_rows (i : Fin 50000) (j : Fin 256) :
    val_main_v74 (F := Ideal) x0 x1 x2 x3 x4 x5 x6 x18 (ValueIdx.ix2 i j) = rstdR nNodesE (cur2 (n0 := 50000) (n1 := 256) (val_main_v56 (F := Ideal) x0 x1 x2 x3 x4 x5 x6 x18)) j := by
  rw [val_main_v74_apply, val_main_v73_apply, b1_idx_rows_c, b1_rstd]

/-- The gain and the offset spread over the rows. -/
theorem b1_gain_rows (i : Fin 50000) (j : Fin 256) :
    val_main_v77 (F := Ideal) x7 (ValueIdx.ix2 i j) = x7 (ValueIdx.ix1 j) := by
  rw [val_main_v77_apply, val_main_v76_apply, b1_idx_rows_g]
theorem b1_offset_rows (i : Fin 50000) (j : Fin 256) :
    val_main_v80 (F := Ideal) x8 (ValueIdx.ix2 i j) = x8 (ValueIdx.ix1 j) := by
  rw [val_main_v80_apply, val_main_v79_apply, b1_idx_rows_o]

theorem ref_bnB1 :
    cur2 (n0 := 50000) (n1 := 256) (val_main_v82 (F := Ideal) x0 x1 x2 x3 x4 x5 x6 x7 x8 x18)
      = bnR nNodesE (cur1 (n := 256) x7) (cur1 (n := 256) x8) (cur2 (n0 := 50000) (n1 := 256) (val_main_v56 (F := Ideal) x0 x1 x2 x3 x4 x5 x6 x18)) := by
  funext i j
  show val_main_v82 (F := Ideal) x0 x1 x2 x3 x4 x5 x6 x7 x8 x18 (ValueIdx.ix2 i j) = _
  rw [val_main_v82_apply, val_main_v81_apply, val_main_v78_apply, val_main_v75_apply, val_main_v69_apply,
    b1_mean_rows_b, b1_rstd_rows, b1_gain_rows, b1_offset_rows, val_main_call1_v0_apply, val_main_call1_cst_apply]
  rfl

/-! ## The normalisation over 128 columns -/

/-- Row `k` of column `j`, as the two column sums index the matrix. -/
theorem b2_idx_sum (j : Fin 128) (k : Fin 50000) : idx_main_v84 (ValueIdx.ix1 j) k = ValueIdx.ix2 k j :=
  funext fun a => Fin.ext (by match a with | ⟨0, _⟩ => rfl | ⟨1, _⟩ => rfl)
theorem b2_idx_sumsq (j : Fin 128) (k : Fin 50000) : idx_main_v91 (ValueIdx.ix1 j) k = ValueIdx.ix2 k j :=
  funext fun a => Fin.ext (by match a with | ⟨0, _⟩ => rfl | ⟨1, _⟩ => rfl)
/-- A vector spread over the rows is read at the column. -/
theorem b2_idx_rows_a (i : Fin 50000) (j : Fin 128) : idx_main_v87 (idx_main_v88 (ValueIdx.ix2 i j)) = ValueIdx.ix1 j :=
  funext fun a => Fin.ext (by match a with | ⟨0, _⟩ => rfl)
theorem b2_idx_rows_b (i : Fin 50000) (j : Fin 128) : idx_main_v94 (idx_main_v95 (ValueIdx.ix2 i j)) = ValueIdx.ix1 j :=
  funext fun a => Fin.ext (by match a with | ⟨0, _⟩ => rfl)
theorem b2_idx_rows_c (i : Fin 50000) (j : Fin 128) : idx_main_v100 (idx_main_v101 (ValueIdx.ix2 i j)) = ValueIdx.ix1 j :=
  funext fun a => Fin.ext (by match a with | ⟨0, _⟩ => rfl)
theorem b2_idx_rows_g (i : Fin 50000) (j : Fin 128) : idx_main_v103 (idx_main_v104 (ValueIdx.ix2 i j)) = ValueIdx.ix1 j :=
  funext fun a => Fin.ext (by match a with | ⟨0, _⟩ => rfl)
theorem b2_idx_rows_o (i : Fin 50000) (j : Fin 128) : idx_main_v106 (idx_main_v107 (ValueIdx.ix2 i j)) = ValueIdx.ix1 j :=
  funext fun a => Fin.ext (by match a with | ⟨0, _⟩ => rfl)

/-- The column means. -/
theorem b2_mean (j : Fin 128) :
    val_main_v86 (F := Ideal) x0 x1 x2 x3 x4 x5 x6 x7 x8 x9 x18 (ValueIdx.ix1 j) = meanR nNodesE (cur2 (n0 := 50000) (n1 := 128) (val_main_v83 (F := Ideal) x0 x1 x2 x3 x4 x5 x6 x7 x8 x9 x18)) j := by
  rw [val_main_v86_apply, val_main_v84_apply, val_main_v85_apply, val_main_cst_16_apply, val_main_cst_15_apply]
  simp only [b2_idx_sum, Ideal.hostDivf_def, Ideal.ofBits_def]
  rfl

/-- The means spread over the rows, as the squared deviations read them. -/
theorem b2_mean_rows_a (i : Fin 50000) (j : Fin 128) :
    val_main_v88 (F := Ideal) x0 x1 x2 x3 x4 x5 x6 x7 x8 x9 x18 (ValueIdx.ix2 i j) = meanR nNodesE (cur2 (n0 := 50000) (n1 := 128) (val_main_v83 (F := Ideal) x0 x1 x2 x3 x4 x5 x6 x7 x8 x9 x18)) j := by
  rw [val_main_v88_apply, val_main_v87_apply, b2_idx_rows_a, b2_mean]

/-- The means spread over the rows, as the normalised matrix reads them. -/
theorem b2_mean_rows_b (i : Fin 50000) (j : Fin 128) :
    val_main_v95 (F := Ideal) x0 x1 x2 x3 x4 x5 x6 x7 x8 x9 x18 (ValueIdx.ix2 i j) = meanR nNodesE (cur2 (n0 := 50000) (n1 := 128) (val_main_v83 (F := Ideal) x0 x1 x2 x3 x4 x5 x6 x7 x8 x9 x18)) j := by
  rw [val_main_v95_apply, val_main_v94_apply, b2_idx_rows_b, b2_mean]

/-- The reciprocal standard deviations of the columns. -/
theorem b2_rstd (j : Fin 128) :
    val_main_v99 (F := Ideal) x0 x1 x2 x3 x4 x5 x6 x7 x8 x9 x18 (ValueIdx.ix1 j) = rstdR nNodesE (cur2 (n0 := 50000) (n1 := 128) (val_main_v83 (F := Ideal) x0 x1 x2 x3 x4 x5 x6 x7 x8 x9 x18)) j := by
  rw [val_main_v99_apply, val_main_v98_apply, val_main_v93_apply, val_main_v91_apply, val_main_v92_apply,
    val_main_v97_apply, val_main_cst_17_apply, val_main_cst_18_apply, val_main_cst_19_apply]
  simp only [b2_idx_sumsq, val_main_v90_apply, val_main_v89_apply, b2_mean_rows_a, Ideal.hostUnary_rsqrt_def,
    Ideal.hostDivf_def, Ideal.addf_def, Ideal.subf_def, Ideal.mulf_def, Ideal.ofBits_def]
  rfl

/-- The reciprocal standard deviations spread over the rows. -/
theorem b2_rstd_rows (i : Fin 50000) (j : Fin 128) :
    val_main_v101 (F := Ideal) x0 x1 x2 x3 x4 x5 x6 x7 x8 x9 x18 (ValueIdx.ix2 i j) = rstdR nNodesE (cur2 (n0 := 50000) (n1 := 128) (val_main_v83 (F := Ideal) x0 x1 x2 x3 x4 x5 x6 x7 x8 x9 x18)) j := by
  rw [val_main_v101_apply, val_main_v100_apply, b2_idx_rows_c, b2_rstd]

/-- The gain and the offset spread over the rows. -/
theorem b2_gain_rows (i : Fin 50000) (j : Fin 128) :
    val_main_v104 (F := Ideal) x10 (ValueIdx.ix2 i j) = x10 (ValueIdx.ix1 j) := by
  rw [val_main_v104_apply, val_main_v103_apply, b2_idx_rows_g]
theorem b2_offset_rows (i : Fin 50000) (j : Fin 128) :
    val_main_v107 (F := Ideal) x11 (ValueIdx.ix2 i j) = x11 (ValueIdx.ix1 j) := by
  rw [val_main_v107_apply, val_main_v106_apply, b2_idx_rows_o]

theorem ref_bnB2 :
    cur2 (n0 := 50000) (n1 := 128) (val_main_v109 (F := Ideal) x0 x1 x2 x3 x4 x5 x6 x7 x8 x9 x10 x11 x18)
      = bnR nNodesE (cur1 (n := 128) x10) (cur1 (n := 128) x11) (cur2 (n0 := 50000) (n1 := 128) (val_main_v83 (F := Ideal) x0 x1 x2 x3 x4 x5 x6 x7 x8 x9 x18)) := by
  funext i j
  show val_main_v109 (F := Ideal) x0 x1 x2 x3 x4 x5 x6 x7 x8 x9 x10 x11 x18 (ValueIdx.ix2 i j) = _
  rw [val_main_v109_apply, val_main_v108_apply, val_main_v105_apply, val_main_v102_apply, val_main_v96_apply,
    b2_mean_rows_b, b2_rstd_rows, b2_gain_rows, b2_offset_rows, val_main_call2_v0_apply, val_main_call2_cst_apply]
  rfl

end Cert.ReferenceIdeal.RVal

end
-- ==== Proof.RefAgg.lean ====
/- The reference's two aggregations are the kernel program's: the same gathers and the same accumulating scatters of the same index rows, applied to the reference's node rows and to its first normalised matrix. -/
import proofs.«412927_j30382598652491_3_alg».proof.Proof.RefGen
import proofs.«412927_j30382598652491_3_alg».proof.Proof.BNSpec
import proofs.«412927_j30382598652491_3_alg».proof.Proof.KHostAgg
import Idealize.ShloMosaic.Lib.ValueIdx

set_option maxRecDepth 16384

noncomputable section

namespace Cert.ReferenceIdeal.RVal

open Idealize.ShloMosaic Idealize.ShloMosaic.TcCoe Cert.ReferenceIdeal Cert.ReferenceIdeal.Gen Cert.ReferenceIdeal.Read Cert.BNSpec
open scoped BigOperators

variable (x0 : (⟨S50000x128, .f32⟩ : BufTy).Contents (Elt Ideal)) (x1 : (⟨S400000x128, .f32⟩ : BufTy).Contents (Elt Ideal)) (x2 : (⟨S2x800000, .i32⟩ : BufTy).Contents (Elt Ideal))
  (x3 : (⟨S256x128, .f32⟩ : BufTy).Contents (Elt Ideal)) (x4 x5 : (⟨S128, .f32⟩ : BufTy).Contents (Elt Ideal)) (x6 : (⟨S128x256, .f32⟩ : BufTy).Contents (Elt Ideal)) (x7 x8 : (⟨S256, .f32⟩ : BufTy).Contents (Elt Ideal))
  (x9 : (⟨S256x128, .f32⟩ : BufTy).Contents (Elt Ideal)) (x10 x11 : (⟨S128, .f32⟩ : BufTy).Contents (Elt Ideal)) (x12 : (⟨S128x256, .f32⟩ : BufTy).Contents (Elt Ideal)) (x13 x14 : (⟨S256, .f32⟩ : BufTy).Contents (Elt Ideal))
  (x15 : (⟨S256x128, .f32⟩ : BufTy).Contents (Elt Ideal)) (x16 x17 : (⟨S128, .f32⟩ : BufTy).Contents (Elt Ideal)) (x18 x19 : (⟨S_, .f32⟩ : BufTy).Contents (Elt Ideal))

/-- The first aggregation. The reference writes it as an accumulating scatter into an array of zeros, at the second
    index row (as a one-column matrix), of the node rows gathered at the first index row, a negative index having
    been wrapped once by the row count 50000 (compare with zero, add, select). The kernel program's term is the same
    composite of the same operations: the two index rows are the same reshaped slices of the incidence matrix, the
    zero array the same broadcast constant, and the dimension records of the gather and of the scatter carry the
    same lists in both programs (their well-formedness fields are proofs). Nothing is computed: both sides unfold
    to one and the same term. -/
theorem ref_agg1 :
    val_main_v13 (F := Ideal) x0 x2
      = Cert.KernelIdeal.KHostAgg.agg1Arr x0 (Cert.KernelIdeal.KHostAgg.idxRow0 x2) (Cert.KernelIdeal.KHostAgg.idxRow1 x2) := by
  unfold val_main_v13 val_main_v12 val_main_v11 val_main_v10 val_main_v9 val_main_v8 val_main_v7 val_main_v6
    val_main_v5 val_main_v4 val_main_v3 val_main_v2 val_main_v1 val_main_v0 val_main_cst val_main_c val_main_c_0
  unfold Cert.KernelIdeal.KHostAgg.agg1Arr Cert.KernelIdeal.KHostAgg.idxRow0 Cert.KernelIdeal.KHostAgg.idxRow1
  rfl

/-- The second aggregation, in the other direction: an accumulating scatter into zeros, at the first index row, of
    the rows of the first normalised matrix gathered at the second index row wrapped once by 400000. Again the
    kernel program's term is the same composite; the gathered matrix is kept as it stands on both sides. -/
theorem ref_agg2 :
    val_main_v51 (F := Ideal) x0 x1 x2 x3 x4 x5
      = Cert.KernelIdeal.KHostAgg.agg2Arr (val_main_v41 (F := Ideal) x0 x1 x2 x3 x4 x5) (Cert.KernelIdeal.KHostAgg.idxRow0 x2) (Cert.KernelIdeal.KHostAgg.idxRow1 x2) := by
  unfold val_main_v51 val_main_v50 val_main_v49 val_main_v48 val_main_v47 val_main_v46 val_main_v45 val_main_v44
    val_main_v43 val_main_v42 val_main_cst_8 val_main_c_6 val_main_c_7
  unfold Cert.KernelIdeal.KHostAgg.agg2Arr Cert.KernelIdeal.KHostAgg.idxRow0 Cert.KernelIdeal.KHostAgg.idxRow1
  generalize val_main_v41 (F := Ideal) x0 x1 x2 x3 x4 x5 = y
  unfold val_main_v3 val_main_v2 val_main_v1 val_main_v0
  rfl

end Cert.ReferenceIdeal.RVal

end
-- ==== Proof.RefChain.lean ====
/- The reference's two results are the whole-column pipeline of its arguments: its stages composed, the two aggregations being the ones the kernel program applies. -/
import proofs.«412927_j30382598652491_3_alg».proof.Proof.RefGen
import proofs.«412927_j30382598652491_3_alg».proof.Proof.BNSpec
import proofs.«412927_j30382598652491_3_alg».proof.Proof.KHostAgg
import proofs.«412927_j30382598652491_3_alg».proof.Proof.RefMM
import proofs.«412927_j30382598652491_3_alg».proof.Proof.RefBNEdge
import proofs.«412927_j30382598652491_3_alg».proof.Proof.RefBNNode
import proofs.«412927_j30382598652491_3_alg».proof.Proof.RefAgg

set_option maxRecDepth 16384

noncomputable section

namespace Cert.ReferenceIdeal.RVal

open Idealize.ShloMosaic Idealize.ShloMosaic.TcCoe Cert.ReferenceIdeal Cert.ReferenceIdeal.Gen Cert.ReferenceIdeal.Read Cert.BNSpec
open scoped BigOperators

variable (x0 : (⟨S50000x128, .f32⟩ : BufTy).Contents (Elt Ideal)) (x1 : (⟨S400000x128, .f32⟩ : BufTy).Contents (Elt Ideal)) (x2 : (⟨S2x800000, .i32⟩ : BufTy).Contents (Elt Ideal))
  (x3 : (⟨S256x128, .f32⟩ : BufTy).Contents (Elt Ideal)) (x4 x5 : (⟨S128, .f32⟩ : BufTy).Contents (Elt Ideal)) (x6 : (⟨S128x256, .f32⟩ : BufTy).Contents (Elt Ideal)) (x7 x8 : (⟨S256, .f32⟩ : BufTy).Contents (Elt Ideal))
  (x9 : (⟨S256x128, .f32⟩ : BufTy).Contents (Elt Ideal)) (x10 x11 : (⟨S128, .f32⟩ : BufTy).Contents (Elt Ideal)) (x12 : (⟨S128x256, .f32⟩ : BufTy).Contents (Elt Ideal)) (x13 x14 : (⟨S256, .f32⟩ : BufTy).Contents (Elt Ideal))
  (x15 : (⟨S256x128, .f32⟩ : BufTy).Contents (Elt Ideal)) (x16 x17 : (⟨S128, .f32⟩ : BufTy).Contents (Elt Ideal)) (x18 x19 : (⟨S_, .f32⟩ : BufTy).Contents (Elt Ideal))

/-- The reference's arguments, read by coordinates. -/
def inputsArr : Inputs where
  node := cur2 (n0 := 50000) (n1 := 128) x0
  edge := cur2 (n0 := 400000) (n1 := 128) x1
  Wa := cur2 (n0 := 256) (n1 := 128) x3
  ga := cur1 (n := 128) x4
  ba := cur1 (n := 128) x5
  Wb1 := cur2 (n0 := 128) (n1 := 256) x6
  gb1 := cur1 (n := 256) x7
  bb1 := cur1 (n := 256) x8
  Wb2 := cur2 (n0 := 256) (n1 := 128) x9
  gb2 := cur1 (n := 128) x10
  bb2 := cur1 (n := 128) x11
  Wl1 := cur2 (n0 := 128) (n1 := 256) x12
  gl1 := cur1 (n := 256) x13
  bl1 := cur1 (n := 256) x14
  Wl2 := cur2 (n0 := 256) (n1 := 128) x15
  gl2 := cur1 (n := 128) x16
  bl2 := cur1 (n := 128) x17
  eps1 := cur0 x18
  eps2 := cur0 x19

/-- The whole-column pipeline is its stages composed: matrices that satisfy the stage equations one after
    another are the pipeline's two results. -/
theorem chain_core (a1 : (Fin 50000 → Fin 128 → EReal) → (Fin 400000 → Fin 128 → EReal))
    (a2 : (Fin 400000 → Fin 128 → EReal) → (Fin 50000 → Fin 128 → EReal)) (X : Inputs)
    {w13 w15 w41 w141 w167 : Fin 400000 → Fin 128 → EReal} {w114 w140 : Fin 400000 → Fin 256 → EReal}
    {w51 w83 w109 : Fin 50000 → Fin 128 → EReal} {w56 w82 : Fin 50000 → Fin 256 → EReal}
    (h13 : w13 = a1 X.node)
    (h15 : w15 = mm (hcat w13 X.edge) X.Wa)
    (h41 : w41 = bnR nEdgesE X.ga X.ba w15)
    (h51 : w51 = a2 w41)
    (h56 : w56 = mm (scaleAdd (oneE + X.eps1) X.node w51) X.Wb1)
    (h82 : w82 = bnR nNodesE X.gb1 X.bb1 w56)
    (h83 : w83 = mm w82 X.Wb2)
    (h109 : w109 = bnR nNodesE X.gb2 X.bb2 w83)
    (h114 : w114 = mm (scaleAdd (oneE + X.eps2) X.edge w13) X.Wl1)
    (h140 : w140 = bnR nEdgesE X.gl1 X.bl1 w114)
    (h141 : w141 = mm w140 X.Wl2)
    (h167 : w167 = bnR nEdgesE X.gl2 X.bl2 w141) :
    w109 = R.nodeOut a1 a2 X ∧ w167 = R.edgeOut a1 X := by
  subst h13 h15 h41 h51 h56 h82 h83 h109 h114 h140 h141 h167
  exact ⟨rfl, rfl⟩

theorem ref_value :
    cur2 (n0 := 50000) (n1 := 128) (val_main_v109 (F := Ideal) x0 x1 x2 x3 x4 x5 x6 x7 x8 x9 x10 x11 x18)
        = R.nodeOut (Cert.KernelIdeal.KHostAgg.agg1 x2) (Cert.KernelIdeal.KHostAgg.agg2 x2)
            (inputsArr x0 x1 x3 x4 x5 x6 x7 x8 x9 x10 x11 x12 x13 x14 x15 x16 x17 x18 x19)
    ∧ cur2 (n0 := 400000) (n1 := 128) (val_main_v167 (F := Ideal) x0 x1 x2 x12 x13 x14 x15 x16 x17 x19)
        = R.edgeOut (Cert.KernelIdeal.KHostAgg.agg1 x2)
            (inputsArr x0 x1 x3 x4 x5 x6 x7 x8 x9 x10 x11 x12 x13 x14 x15 x16 x17 x18 x19) := by
  -- the first aggregation is applied to the node rows
  have e13 : cur2 (n0 := 400000) (n1 := 128) (val_main_v13 (F := Ideal) x0 x2)
      = Cert.KernelIdeal.KHostAgg.agg1 x2 (cur2 (n0 := 50000) (n1 := 128) x0) := by
    rw [ref_agg1]
    unfold Cert.KernelIdeal.KHostAgg.agg1
    rw [unc2_cur2]
  -- the second to the first normalised matrix
  have e51 : cur2 (n0 := 50000) (n1 := 128) (val_main_v51 (F := Ideal) x0 x1 x2 x3 x4 x5)
      = Cert.KernelIdeal.KHostAgg.agg2 x2
          (cur2 (n0 := 400000) (n1 := 128) (val_main_v41 (F := Ideal) x0 x1 x2 x3 x4 x5)) := by
    rw [ref_agg2]
    unfold Cert.KernelIdeal.KHostAgg.agg2
    rw [unc2_cur2]
  exact chain_core (Cert.KernelIdeal.KHostAgg.agg1 x2) (Cert.KernelIdeal.KHostAgg.agg2 x2)
    (inputsArr x0 x1 x3 x4 x5 x6 x7 x8 x9 x10 x11 x12 x13 x14 x15 x16 x17 x18 x19)
    e13 (ref_yA ..) (ref_bnA ..) e51 (ref_yB1 ..) (ref_bnB1 ..) (ref_yB2 ..) (ref_bnB2 ..)
    (ref_yL1 ..) (ref_bnL1 ..) (ref_yL2 ..) (ref_bnL2 ..)

end Cert.ReferenceIdeal.RVal

end
-- ==== Proof.lean ====
/- A message-passing layer between 50000 nodes and 400000 edges: node rows are summed onto edges along 800000
   incidences, five linear layers follow, each batch-normalised over its rows, scaled, shifted and clipped at
   zero, and the clipped edge rows are summed back onto the nodes in between. The kernel runs the linear layers
   as seven tiled calls: each call writes, beside its product, the sums of its columns and of their squares tile
   by tile, the host adds the tiles' sums, and the variance is taken as the mean of the squares minus the square
   of the mean, clipped at zero; the first product is taken over the two halves of its weight matrix. The
   reference sums whole columns, takes the variance as the mean of the squared deviations, and multiplies the
   two matrices side by side by the whole weight matrix.

   Over the extended reals the two agree when every input is a real number: a sum over tiles of sums over a
   tile's rows is the sum over all rows; the mean of the squares minus the square of the mean IS the mean of the
   squared deviations, which is nonnegative, so the clipping changes nothing; a product over two matrices side by
   side is the sum of the products over the halves; a change of float format is the identity; and every stage
   keeps real matrices real, the two aggregations (gathers and accumulating scatters of real rows) included.
   The precondition says every float input is finite, that is, real.

   The kernel's results are read off its run segment by segment (each call's output arrays as its value of the
   arrays it was entered with, each host stretch as its operations), the reference's off its run operation by
   operation, both down to one pipeline of the arguments read by coordinates. -/
import proofs.«412927_j30382598652491_3_alg».proof.Defs
import proofs.«412927_j30382598652491_3_alg».proof.Proof.Gen.Kernel
import proofs.«412927_j30382598652491_3_alg».proof.Proof.Gen.Kernel.Frame
import proofs.«412927_j30382598652491_3_alg».proof.Proof.Gen.KernelIdeal
import proofs.«412927_j30382598652491_3_alg».proof.Proof.Gen.KernelIdeal.Frame
import proofs.«412927_j30382598652491_3_alg».proof.Proof.Gen.ReferenceIdeal
import proofs.«412927_j30382598652491_3_alg».proof.Proof.Gen.Pre_finite_inputs
import proofs.«412927_j30382598652491_3_alg».proof.Proof.RefGen
import proofs.«412927_j30382598652491_3_alg».proof.Proof.BNSpec
import proofs.«412927_j30382598652491_3_alg».proof.Proof.BNMath
import proofs.«412927_j30382598652491_3_alg».proof.Proof.KInputs
import proofs.«412927_j30382598652491_3_alg».proof.Proof.KRun
import proofs.«412927_j30382598652491_3_alg».proof.Proof.KHostAgg
import proofs.«412927_j30382598652491_3_alg».proof.Proof.KChain
import proofs.«412927_j30382598652491_3_alg».proof.Proof.PreReal
import proofs.«412927_j30382598652491_3_alg».proof.Proof.RefChain
import Idealize.ShloMosaic.Adequacy
import Idealize.ShloMosaic.Init

set_option maxRecDepth 16384

noncomputable section

namespace Cert.Proof

open Idealize.ShloMosaic Idealize.ShloMosaic.TcCoe Idealize.SL.Sem Cert.BNSpec

/-- Arguments that agree give the same arguments read by coordinates. -/
theorem inputs_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.ReferenceIdeal.RVal.inputsArr
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))
        (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16))
        (m' ((c.tc : Thread Cert.ReferenceIdeal.nD Cert.ReferenceIdeal.τ).loc Cert.ReferenceIdeal.main_arg17))
        (m' ((c.tc : Thread Cert.ReferenceIdeal.nD Cert.ReferenceIdeal.τ).loc Cert.ReferenceIdeal.main_arg18))
        (m' ((c.tc : Thread Cert.ReferenceIdeal.nD Cert.ReferenceIdeal.τ).loc Cert.ReferenceIdeal.main_arg19))
      = Cert.KernelIdeal.KVal.inputsOf m c := by
  rw [h0, h1, h3, h4, h5, h6, h7, h8, h9, h10, h11, h12, h13, h14, h15, h16, h17, h18, h19]
  rfl

theorem frame_k : Cert.frame_Kernel := fun m ρ _ => Cert.Kernel.Gen.frame m ρ
theorem frame_ki : Cert.frame_KernelIdeal := fun m ρ _ => Cert.KernelIdeal.Gen.frame m ρ
/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the same node output and the same edge output: the kernel's run names its results
    as the contents its last segment leaves; the reference's results are the whole-column pipeline of its
    arguments, the kernel's the tile-by-tile pipeline of the same arguments, and on finite inputs the two
    pipelines agree. -/
theorem algebraic : Cert.algebraic_KernelIdeal_ReferenceIdeal := by
  intro m ρ m' ρ' hpre hagree
  refine ⟨fun c => Cert.KernelIdeal.Gen.W14 (F := Ideal) m ρ c (Proc.devRef .tc Cert.KernelIdeal.main_v136),
    fun c => Cert.KernelIdeal.Gen.W14 (F := Ideal) m ρ c (Proc.devRef .tc Cert.KernelIdeal.main_v81),
    Cert.KernelIdeal.Gen.run_values (F := Ideal) m ρ, ?_⟩
  refine (θ_run Cert.ReferenceIdeal.defs _ _).mono (fun r h c => ?_) (Cert.ReferenceIdeal.Value.run (F := Ideal) m' ρ')
  obtain ⟨hn, he, hargs⟩ := h c
  obtain ⟨a0, a1, a2, a3, a4, a5, a6, a7, a8, a9, a10, a11, a12, a13, a14, a15, a16, a17, a18, a19⟩ := hagree c
  have hin := inputs_agree m m' c a0 a1 a3 a4 a5 a6 a7 a8 a9 a10 a11 a12 a13 a14 a15 a16 a17 a18 a19
  have hreal := Cert.KernelIdeal.PreReal.realInputs_of_pre m hpre c
  have hk := Cert.KernelIdeal.KChain.kernel_value m ρ c
  have hr := Cert.ReferenceIdeal.RVal.ref_value
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    (m' ((c.tc : Thread Cert.ReferenceIdeal.nD Cert.ReferenceIdeal.τ).loc Cert.ReferenceIdeal.main_arg15))
    (m' ((c.tc : Thread Cert.ReferenceIdeal.nD Cert.ReferenceIdeal.τ).loc Cert.ReferenceIdeal.main_arg16))
    (m' ((c.tc : Thread Cert.ReferenceIdeal.nD Cert.ReferenceIdeal.τ).loc Cert.ReferenceIdeal.main_arg17))
    (m' ((c.tc : Thread Cert.ReferenceIdeal.nD Cert.ReferenceIdeal.τ).loc Cert.ReferenceIdeal.main_arg18))
    (m' ((c.tc : Thread Cert.ReferenceIdeal.nD Cert.ReferenceIdeal.τ).loc Cert.ReferenceIdeal.main_arg19))
  rw [hin, a2] at hr
  have hidx : Cert.KernelIdeal.KVal.idxOf m c = m ((c.tc : Thread Cert.KernelIdeal.nD Cert.KernelIdeal.τ).loc Cert.KernelIdeal.main_arg2) := rfl
  rw [hidx] at hk
  refine ⟨hn.trans ?_, he.trans ?_, hargs⟩
  · rw [Cert.ReferenceIdeal.Read.val_main_v109_eq, a2]
    refine cur2_inj (n0 := 50000) (n1 := 128) ?_
    exact hr.1.trans ((Cert.BNMath.nodeOut_eq _ _ (Cert.KernelIdeal.KHostAgg.agg1_real _) (Cert.KernelIdeal.KHostAgg.agg2_real _) _ hreal).symm.trans hk.1.symm)
  · rw [Cert.ReferenceIdeal.Read.val_main_v167_eq, a2]
    refine cur2_inj (n0 := 400000) (n1 := 128) ?_
    exact hr.2.trans ((Cert.BNMath.edgeOut_eq _ (Cert.KernelIdeal.KHostAgg.agg1_real _) _ hreal).symm.trans hk.2.symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
